-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  IdealRules.truncf_extf.Statement Cert.KernelIdeal.S400x25x25 .f32 .bf16
  ∧ IdealRules.truncf_extf.Statement Cert.KernelIdeal.S400x25x32 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x25x32 : Shape := ⟨3, ![10000, 25, 32]⟩
abbrev S160000x25x25 : Shape := ⟨3, ![160000, 25, 25]⟩
abbrev S160000x64 : Shape := ⟨2, ![160000, 64]⟩
abbrev S160000 : Shape := ⟨1, ![160000]⟩
abbrev S160x160 : Shape := ⟨2, ![160, 160]⟩
abbrev S128x128 : Shape := ⟨2, ![128, 128]⟩
abbrev S96x96 : Shape := ⟨2, ![96, 96]⟩
abbrev S64x64 : Shape := ⟨2, ![64, 64]⟩
abbrev S32x32 : Shape := ⟨2, ![32, 32]⟩
abbrev S64x160 : Shape := ⟨2, ![64, 160]⟩
abbrev S160 : Shape := ⟨1, ![160]⟩
abbrev S_ : Shape := ⟨0, ![]⟩

class Facts : Prop where
  bcast_S_S10000x25x32 : S_.BroadcastsInDim S10000x25x32 (![] : Fin 0 → Fin S10000x25x32.rank)
  reducesTo_S10000x25x32_S_d0_1_2 : S10000x25x32.ReducesTo [0, 1, 2] S_
  h_S_ : 0 < S_.numel
  bcast_S_S160000x25x25 : S_.BroadcastsInDim S160000x25x25 (![] : Fin 0 → Fin S160000x25x25.rank)
  reducesTo_S160000x25x25_S_d0_1_2 : S160000x25x25.ReducesTo [0, 1, 2] S_
  bcast_S_S160000x64 : S_.BroadcastsInDim S160000x64 (![] : Fin 0 → Fin S160000x64.rank)
  reducesTo_S160000x64_S_d0_1 : S160000x64.ReducesTo [0, 1] S_
  bcast_S_S160x160 : S_.BroadcastsInDim S160x160 (![] : Fin 0 → Fin S160x160.rank)
  reducesTo_S160x160_S_d0_1 : S160x160.ReducesTo [0, 1] S_
  bcast_S_S128x128 : S_.BroadcastsInDim S128x128 (![] : Fin 0 → Fin S128x128.rank)
  reducesTo_S128x128_S_d0_1 : S128x128.ReducesTo [0, 1] S_
  bcast_S_S96x96 : S_.BroadcastsInDim S96x96 (![] : Fin 0 → Fin S96x96.rank)
  reducesTo_S96x96_S_d0_1 : S96x96.ReducesTo [0, 1] S_
  bcast_S_S64x64 : S_.BroadcastsInDim S64x64 (![] : Fin 0 → Fin S64x64.rank)
  reducesTo_S64x64_S_d0_1 : S64x64.ReducesTo [0, 1] S_
  bcast_S_S32x32 : S_.BroadcastsInDim S32x32 (![] : Fin 0 → Fin S32x32.rank)
  reducesTo_S32x32_S_d0_1 : S32x32.ReducesTo [0, 1] S_
  bcast_S_S64x160 : S_.BroadcastsInDim S64x160 (![] : Fin 0 → Fin S64x160.rank)
  reducesTo_S64x160_S_d0_1 : S64x160.ReducesTo [0, 1] S_
  bcast_S_S160 : S_.BroadcastsInDim S160 (![] : Fin 0 → Fin S160.rank)
  reducesTo_S160_S_d0 : S160.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S32x32 .f32) (main_arg14 : FVec F S64x160 .f32) (main_arg15 : FVec F S160 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32x32 .f32 := Host.absf main_arg13
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S64x160 .f32 := Host.absf main_arg14
  let main_cst_22 : FVec F S_ .f32 := constant S_ .f32 0x7F800000#32
  let main_v60 : FVec F S64x160 .f32 := broadcastInDim S64x160 ![] bcast_S_S64x160 main_cst_22
  let main_v61 : IVec S64x160 1 := cmpf .olt main_v59 main_v60
  let main_c_23 : IVec S_ 1 := constantI S_ 1 1#1
  let main_v62 : IVec S_ 1 := (fun x v => Host.reduce IntOp.andi x v reducesTo_S64x160_S_d0_1 h_S_) main_v61 main_c_23
  let main_v63 : IVec S_ 1 := andi main_v58 main_v62
  let main_v64 : FVec F S160 .f32 := Host.absf main_arg15
  let main_cst_24 : FVec F S_ .f32 := constant S_ .f32 0x7F800000#32
  let main_v65 : FVec F S160 .f32 := broadcastInDim S160 ![] bcast_S_S160 main_cst_24
  let main_v66 : IVec S160 1 := cmpf .olt main_v64 main_v65
  let main_c_25 : IVec S_ 1 := constantI S_ 1 1#1
  let main_v67 : IVec S_ 1 := (fun x v => Host.reduce IntOp.andi x v reducesTo_S160_S_d0 h_S_) main_v66 main_c_25
  fn_part4 (F := F) main_v63 main_v67

def fn_part2 {F : FTy → Type} [FloatOps F] (main_arg9 : FVec F S96x96 .f32) (main_arg10 : FVec F S64x64 .f32) (main_arg11 : FVec F S64x64 .f32) (main_arg12 : FVec F S32x32 .f32) (main_arg13 : FVec F S32x32 .f32) (main_arg14 : FVec F S64x160 .f32) (main_arg15 : FVec F S160 .f32) (main_v33 : IVec S_ 1) : IVec S_ 1 :=
  let main_v34 : FVec F S96x96 .f32 := Host.absf main_arg9
  let main_cst_12 : FVec F S_ .f32 := constant S_ .f32 0x7F800000#32
  let main_v35 : FVec F S96x96 .f32 := broadcastInDim S96x96 ![] bcast_S_S96x96 main_cst_12
  let main_v36 : IVec S96x96 1 := cmpf .olt main_v34 main_v35
  let main_c_13 : IVec S_ 1 := constantI S_ 1 1#1
  let main_v37 : IVec S_ 1 := (fun x v => Host.reduce IntOp.andi x v reducesTo_S96x96_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S32x32 .f32 := Host.absf main_arg12
  let main_cst_18 : FVec F S_ .f32 := constant S_ .f32 0x7F800000#32
  let main_v50 : FVec F S32x32 .f32 := broadcastInDim S32x32 ![] bcast_S_S32x32 main_cst_18
  fn_part3 (F := F) main_arg13 main_arg14 main_arg15 main_v48 main_v49 main_v50

def fn_part1 {F : FTy → Type} [FloatOps F] (main_arg6 : FVec F S128x128 .f32) (main_arg7 : FVec F S128x128 .f32) (main_arg8 : FVec F S96x96 .f32) (main_arg9 : FVec F S96x96 .f32) (main_arg10 : FVec F S64x64 .f32) (main_arg11 : FVec F S64x64 .f32) (main_arg12 : FVec F S32x32 .f32) (main_arg13 : FVec F S32x32 .f32) (main_arg14 : FVec F S64x160 .f32) (main_arg15 : FVec F S160 .f32) (main_v13 : IVec S_ 1) (main_v16 : IVec S160x160 1) : IVec S_ 1 :=
  let main_c_5 : IVec S_ 1 := constantI S_ 1 1#1
  let main_v17 : IVec S_ 1 := (fun x v => Host.reduce IntOp.andi x v reducesTo_S160x160_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S96x96 .f32 := Host.absf main_arg8
  let main_cst_10 : FVec F S_ .f32 := constant S_ .f32 0x7F800000#32
  let main_v30 : FVec F S96x96 .f32 := broadcastInDim S96x96 ![] bcast_S_S96x96 main_cst_10
  let main_v31 : IVec S96x96 1 := cmpf .olt main_v29 main_v30
  let main_c_11 : IVec S_ 1 := constantI S_ 1 1#1
  let main_v32 : IVec S_ 1 := (fun x v => Host.reduce IntOp.andi x v reducesTo_S96x96_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S10000x25x32 .f32) (main_arg1 : FVec F S160000x25x25 .f32) (main_arg2 : FVec F S160000x64 .f32) (main_arg3 : IVec S160000 32) (main_arg4 : IVec S160000 32) (main_arg5 : FVec F S160x160 .f32) (main_arg6 : FVec F S128x128 .f32) (main_arg7 : FVec F S128x128 .f32) (main_arg8 : FVec F S96x96 .f32) (main_arg9 : FVec F S96x96 .f32) (main_arg10 : FVec F S64x64 .f32) (main_arg11 : FVec F S64x64 .f32) (main_arg12 : FVec F S32x32 .f32) (main_arg13 : FVec F S32x32 .f32) (main_arg14 : FVec F S64x160 .f32) (main_arg15 : FVec F S160 .f32) : IVec S_ 1 :=
  let main_v0 : FVec F S10000x25x32 .f32 := Host.absf main_arg0
  let main_cst : FVec F S_ .f32 := constant S_ .f32 0x7F800000#32
  let main_v1 : FVec F S10000x25x32 .f32 := broadcastInDim S10000x25x32 ![] bcast_S_S10000x25x32 main_cst
  let main_v2 : IVec S10000x25x32 1 := cmpf .olt main_v0 main_v1
  let main_c : IVec S_ 1 := constantI S_ 1 1#1
  let main_v3 : IVec S_ 1 := (fun x v => Host.reduce IntOp.andi x v reducesTo_S10000x25x32_S_d0_1_2 h_S_) main_v2 main_c
  let main_v4 : FVec F S160000x25x25 .f32 := Host.absf main_arg1
  let main_cst_0 : FVec F S_ .f32 := constant S_ .f32 0x7F800000#32
  let main_v5 : FVec F S160000x25x25 .f32 := broadcastInDim S160000x25x25 ![] bcast_S_S160000x25x25 main_cst_0
  let main_v6 : IVec S160000x25x25 1 := cmpf .olt main_v4 main_v5
  let main_c_1 : IVec S_ 1 := constantI S_ 1 1#1
  let main_v7 : IVec S_ 1 := (fun x v => Host.reduce IntOp.andi x v reducesTo_S160000x25x25_S_d0_1_2 h_S_) main_v6 main_c_1
  let main_v8 : IVec S_ 1 := andi main_v3 main_v7
  let main_v9 : FVec F S160000x64 .f32 := Host.absf main_arg2
  let main_cst_2 : FVec F S_ .f32 := constant S_ .f32 0x7F800000#32
  let main_v10 : FVec F S160000x64 .f32 := broadcastInDim S160000x64 ![] bcast_S_S160000x64 main_cst_2
  let main_v11 : IVec S160000x64 1 := cmpf .olt main_v9 main_v10
  let main_c_3 : IVec S_ 1 := constantI S_ 1 1#1
  let main_v12 : IVec S_ 1 := (fun x v => Host.reduce IntOp.andi x v reducesTo_S160000x64_S_d0_1 h_S_) main_v11 main_c_3
  let main_v13 : IVec S_ 1 := andi main_v8 main_v12
  let main_v14 : FVec F S160x160 .f32 := Host.absf main_arg5
  let main_cst_4 : FVec F S_ .f32 := constant S_ .f32 0x7F800000#32
  let main_v15 : FVec F S160x160 .f32 := broadcastInDim S160x160 ![] bcast_S_S160x160 main_cst_4
  let main_v16 : IVec S160x160 1 := cmpf .olt main_v14 main_v15
  fn_part1 (F := F) main_arg6 main_arg7 main_arg8 main_arg9 main_arg10 main_arg11 main_arg12 main_arg13 main_arg14 main_arg15 main_v13 main_v16
-- ==== Kernel.lean ====
abbrev S10000x25x32 : Shape := ⟨3, ![10000, 25, 32]⟩
abbrev S160000x25x25 : Shape := ⟨3, ![160000, 25, 25]⟩
abbrev S160000x64 : Shape := ⟨2, ![160000, 64]⟩
abbrev S160000 : Shape := ⟨1, ![160000]⟩
abbrev S160x160 : Shape := ⟨2, ![160, 160]⟩
abbrev S128x128 : Shape := ⟨2, ![128, 128]⟩
abbrev S96x96 : Shape := ⟨2, ![96, 96]⟩
abbrev S64x64 : Shape := ⟨2, ![64, 64]⟩
abbrev S32x32 : Shape := ⟨2, ![32, 32]⟩
abbrev S64x160 : Shape := ⟨2, ![64, 160]⟩
abbrev S160 : Shape := ⟨1, ![160]⟩
abbrev S_ : Shape := ⟨0, ![]⟩
abbrev S160000x1 : Shape := ⟨2, ![160000, 1]⟩
abbrev S160000x25x32 : Shape := ⟨3, ![160000, 25, 32]⟩
abbrev S160000x800 : Shape := ⟨2, ![160000, 800]⟩
abbrev S160000x625 : Shape := ⟨2, ![160000, 625]⟩
abbrev S128x256 : Shape := ⟨2, ![128, 256]⟩
abbrev S256x256 : Shape := ⟨2, ![256, 256]⟩
abbrev S96x192 : Shape := ⟨2, ![96, 192]⟩
abbrev S192x192 : Shape := ⟨2, ![192, 192]⟩
abbrev S64x128 : Shape := ⟨2, ![64, 128]⟩
abbrev S32x64 : Shape := ⟨2, ![32, 64]⟩
abbrev S800x800 : Shape := ⟨2, ![800, 800]⟩
abbrev S1 : Shape := ⟨1, ![1]⟩
abbrev S2 : Shape := ⟨1, ![2]⟩
abbrev S1x160 : Shape := ⟨2, ![1, 160]⟩
abbrev S400x800 : Shape := ⟨2, ![400, 800]⟩
abbrev S400x625 : Shape := ⟨2, ![400, 625]⟩
abbrev S400x64 : Shape := ⟨2, ![400, 64]⟩
abbrev S400x25x32 : Shape := ⟨3, ![400, 25, 32]⟩
abbrev S400x25x25 : Shape := ⟨3, ![400, 25, 25]⟩
abbrev S400x1x25 : Shape := ⟨3, ![400, 1, 25]⟩
abbrev S400x160 : Shape := ⟨2, ![400, 160]⟩
abbrev S400x5x32 : Shape := ⟨3, ![400, 5, 32]⟩
abbrev S400x4x32 : Shape := ⟨3, ![400, 4, 32]⟩
abbrev S400x3x32 : Shape := ⟨3, ![400, 3, 32]⟩
abbrev S400x2x32 : Shape := ⟨3, ![400, 2, 32]⟩
abbrev S400x1x32 : Shape := ⟨3, ![400, 1, 32]⟩

abbrev nBuf : Space → Nat
  | .hbm => 84
  | .vmem => 11
  | .smem => 0
  | _ => 0

abbrev bufTy : (tb : Table) → Fin (tcTables nBuf tb) → BufTy
  | .hbm, ⟨0, _⟩ => ⟨S10000x25x32, .f32⟩
  | .hbm, ⟨1, _⟩ => ⟨S160000x25x25, .f32⟩
  | .hbm, ⟨2, _⟩ => ⟨S160000x64, .f32⟩
  | .hbm, ⟨3, _⟩ => ⟨S160000, .i32⟩
  | .hbm, ⟨4, _⟩ => ⟨S160000, .i32⟩
  | .hbm, ⟨5, _⟩ => ⟨S160x160, .f32⟩
  | .hbm, ⟨6, _⟩ => ⟨S128x128, .f32⟩
  | .hbm, ⟨7, _⟩ => ⟨S128x128, .f32⟩
  | .hbm, ⟨8, _⟩ => ⟨S96x96, .f32⟩
  | .hbm, ⟨9, _⟩ => ⟨S96x96, .f32⟩
  | .hbm, ⟨10, _⟩ => ⟨S64x64, .f32⟩
  | .hbm, ⟨11, _⟩ => ⟨S64x64, .f32⟩
  | .hbm, ⟨12, _⟩ => ⟨S32x32, .f32⟩
  | .hbm, ⟨13, _⟩ => ⟨S32x32, .f32⟩
  | .hbm, ⟨14, _⟩ => ⟨S64x160, .f32⟩
  | .hbm, ⟨15, _⟩ => ⟨S160, .f32⟩
  | .hbm, ⟨16, _⟩ => ⟨S_, .i32⟩
  | .hbm, ⟨17, _⟩ => ⟨S160000, .i32⟩
  | .hbm, ⟨18, _⟩ => ⟨S160000, .i1⟩
  | .hbm, ⟨19, _⟩ => ⟨S_, .i32⟩
  | .hbm, ⟨20, _⟩ => ⟨S160000, .i32⟩
  | .hbm, ⟨21, _⟩ => ⟨S160000, .i32⟩
  | .hbm, ⟨22, _⟩ => ⟨S160000, .i32⟩
  | .hbm, ⟨23, _⟩ => ⟨S160000x1, .i32⟩
  | .hbm, ⟨24, _⟩ => ⟨S160000x25x32, .f32⟩
  | .hbm, ⟨25, _⟩ => ⟨S160000x800, .f32⟩
  | .hbm, ⟨26, _⟩ => ⟨S160000x625, .f32⟩
  | .hbm, ⟨27, _⟩ => ⟨S128x256, .f32⟩
  | .hbm, ⟨28, _⟩ => ⟨S128x128, .f32⟩
  | .hbm, ⟨29, _⟩ => ⟨S128x256, .f32⟩
  | .hbm, ⟨30, _⟩ => ⟨S256x256, .f32⟩
  | .hbm, ⟨31, _⟩ => ⟨S96x192, .f32⟩
  | .hbm, ⟨32, _⟩ => ⟨S96x96, .f32⟩
  | .hbm, ⟨33, _⟩ => ⟨S96x192, .f32⟩
  | .hbm, ⟨34, _⟩ => ⟨S192x192, .f32⟩
  | .hbm, ⟨35, _⟩ => ⟨S64x128, .f32⟩
  | .hbm, ⟨36, _⟩ => ⟨S64x64, .f32⟩
  | .hbm, ⟨37, _⟩ => ⟨S64x128, .f32⟩
  | .hbm, ⟨38, _⟩ => ⟨S128x128, .f32⟩
  | .hbm, ⟨39, _⟩ => ⟨S32x64, .f32⟩
  | .hbm, ⟨40, _⟩ => ⟨S32x32, .f32⟩
  | .hbm, ⟨41, _⟩ => ⟨S32x64, .f32⟩
  | .hbm, ⟨42, _⟩ => ⟨S64x64, .f32⟩
  | .hbm, ⟨43, _⟩ => ⟨S_, .f32⟩
  | .hbm, ⟨44, _⟩ => ⟨S800x800, .f32⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S2, .i32⟩
  | .hbm, ⟨50, _⟩ => ⟨S800x800, .f32⟩
  | .hbm, ⟨51, _⟩ => ⟨S_, .i32⟩
  | .hbm, ⟨52, _⟩ => ⟨S1, .i32⟩
  | .hbm, ⟨53, _⟩ => ⟨S_, .i32⟩
  | .hbm, ⟨54, _⟩ => ⟨S1, .i32⟩
  | .hbm, ⟨55, _⟩ => ⟨S2, .i32⟩
  | .hbm, ⟨56, _⟩ => ⟨S800x800, .f32⟩
  | .hbm, ⟨57, _⟩ => ⟨S_, .i32⟩
  | .hbm, ⟨58, _⟩ => ⟨S1, .i32⟩
  | .hbm, ⟨59, _⟩ => ⟨S_, .i32⟩
  | .hbm, ⟨60, _⟩ => ⟨S1, .i32⟩
  | .hbm, ⟨61, _⟩ => ⟨S2, .i32⟩
  | .hbm, ⟨62, _⟩ => ⟨S800x800, .f32⟩
  | .hbm, ⟨63, _⟩ => ⟨S_, .i32⟩
  | .hbm, ⟨64, _⟩ => ⟨S1, .i32⟩
  | .hbm, ⟨65, _⟩ => ⟨S_, .i32⟩
  | .hbm, ⟨66, _⟩ => ⟨S1, .i32⟩
  | .hbm, ⟨67, _⟩ => ⟨S2, .i32⟩
  | .hbm, ⟨68, _⟩ => ⟨S800x800, .f32⟩
  | .hbm, ⟨69, _⟩ => ⟨S_, .i32⟩
  | .hbm, ⟨70, _⟩ => ⟨S1, .i32⟩
  | .hbm, ⟨71, _⟩ => ⟨S_, .i32⟩
  | .hbm, ⟨72, _⟩ => ⟨S1, .i32⟩
  | .hbm, ⟨73, _⟩ => ⟨S2, .i32⟩
  | .hbm, ⟨74, _⟩ => ⟨S800x800, .f32⟩
  | .hbm, ⟨75, _⟩ => ⟨S800x800, .bf16⟩
  | .hbm, ⟨76, _⟩ => ⟨S64x160, .bf16⟩
  | .hbm, ⟨77, _⟩ => ⟨S1x160, .f32⟩
  | .hbm, ⟨78, _⟩ => ⟨S160000x800, .f32⟩
  | .hbm, ⟨79, _⟩ => ⟨S160000x25x32, .f32⟩
  | .hbm, ⟨80, _⟩ => ⟨S_, .f32⟩
  | .hbm, ⟨81, _⟩ => ⟨S10000x25x32, .f32⟩
  | .hbm, ⟨82, _⟩ => ⟨S160000x1, .i32⟩
  | .hbm, ⟨83, _⟩ => ⟨S10000x25x32, .f32⟩
  | .local _ .vmem, ⟨0, _⟩ => ⟨S400x800, .f32⟩
  | .local _ .vmem, ⟨1, _⟩ => ⟨S400x800, .f32⟩
  | .local _ .vmem, ⟨2, _⟩ => ⟨S400x625, .f32⟩
  | .local _ .vmem, ⟨3, _⟩ => ⟨S400x625, .f32⟩
  | .local _ .vmem, ⟨4, _⟩ => ⟨S400x64, .f32⟩
  | .local _ .vmem, ⟨5, _⟩ => ⟨S400x64, .f32⟩
  | .local _ .vmem, ⟨6, _⟩ => ⟨S800x800, .bf16⟩
  | .local _ .vmem, ⟨7, _⟩ => ⟨S64x160, .bf16⟩
  | .local _ .vmem, ⟨8, _⟩ => ⟨S1x160, .f32⟩
  | .local _ .vmem, ⟨9, _⟩ => ⟨S400x800, .f32⟩
  | .local _ .vmem, ⟨10, _⟩ => ⟨S400x800, .f32⟩
  | _, _ => ⟨S10000x25x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_c_1 : Ref sig .tc := ⟨.hbm, 45, rfl⟩
abbrev main_v26 : Ref sig .tc := ⟨.hbm, 46, rfl⟩
abbrev main_c_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_3 : Ref sig .tc := ⟨.hbm, 51, rfl⟩
abbrev main_v30 : Ref sig .tc := ⟨.hbm, 52, rfl⟩
abbrev main_c_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_5 : Ref sig .tc := ⟨.hbm, 57, rfl⟩
abbrev main_v34 : Ref sig .tc := ⟨.hbm, 58, rfl⟩
abbrev main_c_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_7 : Ref sig .tc := ⟨.hbm, 63, rfl⟩
abbrev main_v38 : Ref sig .tc := ⟨.hbm, 64, rfl⟩
abbrev main_c_8 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_9 : Ref sig .tc := ⟨.hbm, 69, rfl⟩
abbrev main_v42 : Ref sig .tc := ⟨.hbm, 70, rfl⟩
abbrev main_c_10 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x625 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S800x800 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x160 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x800 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  shapeCasts_S160000x25x32_S160000x800 : S160000x25x32.ShapeCasts S160000x800
  shapeCasts_S160000x25x25_S160000x625 : S160000x25x25.ShapeCasts S160000x625
  concatenates_S128x128_S128x128_S128x256_d1 : Shape.Concatenates [S128x128, S128x128] S128x256 1
  concatenates_S128x256_S128x256_S256x256_d0 : Shape.Concatenates [S128x256, S128x256] S256x256 0
  concatenates_S96x96_S96x96_S96x192_d1 : Shape.Concatenates [S96x96, S96x96] S96x192 1
  concatenates_S96x192_S96x192_S192x192_d0 : Shape.Concatenates [S96x192, S96x192] S192x192 0
  concatenates_S64x64_S64x64_S64x128_d1 : Shape.Concatenates [S64x64, S64x64] S64x128 1
  concatenates_S64x128_S64x128_S128x128_d0 : Shape.Concatenates [S64x128, S64x128] S128x128 0
  concatenates_S32x32_S32x32_S32x64_d1 : Shape.Concatenates [S32x32, S32x32] S32x64 1
  concatenates_S32x64_S32x64_S64x64_d0 : Shape.Concatenates [S32x64, S32x64] S64x64 0
  bcast_S_S800x800 : S_.BroadcastsInDim S800x800 (![] : Fin 0 → Fin S800x800.rank)
  bcast_S_S1 : S_.BroadcastsInDim S1 (![] : Fin 0 → Fin S1.rank)
  concatenates_S1_S1_S2_d0 : Shape.Concatenates [S1, S1] S2 0
  bitsLt_bf16_f32 : FTy.bits .bf16 < FTy.bits .f32
  shapeCasts_S160_S1x160 : S160.ShapeCasts S1x160
  inb_S400x800_S400x800_0_0 : ∀ a, (![0, 0] : Fin 2 → Nat) a + S400x800.size a ≤ S400x800.size a
  h_S400x800 : 0 < S400x800.numel
  shapeCasts_S400x800_S400x800 : S400x800.ShapeCasts S400x800
  shapeCasts_S400x800_S400x25x32 : S400x800.ShapeCasts S400x25x32
  inb_S400x625_S400x625_0_0 : ∀ a, (![0, 0] : Fin 2 → Nat) a + S400x625.size a ≤ S400x625.size a
  h_S400x625 : 0 < S400x625.numel
  shapeCasts_S400x625_S400x625 : S400x625.ShapeCasts S400x625
  shapeCasts_S400x625_S400x25x25 : S400x625.ShapeCasts S400x25x25
  slices_S400x25x25_o0_0_0_S400x1x25 : S400x25x25.Slices ![0, 0, 0] S400x1x25
  slices_S400x25x25_o0_2_0_S400x1x25 : S400x25x25.Slices ![0, 2, 0] S400x1x25
  slices_S400x25x25_o0_6_0_S400x1x25 : S400x25x25.Slices ![0, 6, 0] S400x1x25
  slices_S400x25x25_o0_12_0_S400x1x25 : S400x25x25.Slices ![0, 12, 0] S400x1x25
  slices_S400x25x25_o0_20_0_S400x1x25 : S400x25x25.Slices ![0, 20, 0] S400x1x25
  slices_S400x25x25_o0_3_0_S400x1x25 : S400x25x25.Slices ![0, 3, 0] S400x1x25
  slices_S400x25x25_o0_7_0_S400x1x25 : S400x25x25.Slices ![0, 7, 0] S400x1x25
  slices_S400x25x25_o0_13_0_S400x1x25 : S400x25x25.Slices ![0, 13, 0] S400x1x25
  slices_S400x25x25_o0_21_0_S400x1x25 : S400x25x25.Slices ![0, 21, 0] S400x1x25
  slices_S400x25x25_o0_1_0_S400x1x25 : S400x25x25.Slices ![0, 1, 0] S400x1x25
  slices_S400x25x25_o0_5_0_S400x1x25 : S400x25x25.Slices ![0, 5, 0] S400x1x25
  slices_S400x25x25_o0_11_0_S400x1x25 : S400x25x25.Slices ![0, 11, 0] S400x1x25
  slices_S400x25x25_o0_19_0_S400x1x25 : S400x25x25.Slices ![0, 19, 0] S400x1x25
  slices_S400x25x25_o0_8_0_S400x1x25 : S400x25x25.Slices ![0, 8, 0] S400x1x25
  slices_S400x25x25_o0_14_0_S400x1x25 : S400x25x25.Slices ![0, 14, 0] S400x1x25
  slices_S400x25x25_o0_22_0_S400x1x25 : S400x25x25.Slices ![0, 22, 0] S400x1x25
  slices_S400x25x25_o0_4_0_S400x1x25 : S400x25x25.Slices ![0, 4, 0] S400x1x25
  slices_S400x25x25_o0_10_0_S400x1x25 : S400x25x25.Slices ![0, 10, 0] S400x1x25
  slices_S400x25x25_o0_18_0_S400x1x25 : S400x25x25.Slices ![0, 18, 0] S400x1x25
  slices_S400x25x25_o0_15_0_S400x1x25 : S400x25x25.Slices ![0, 15, 0] S400x1x25
  slices_S400x25x25_o0_23_0_S400x1x25 : S400x25x25.Slices ![0, 23, 0] S400x1x25
  slices_S400x25x25_o0_9_0_S400x1x25 : S400x25x25.Slices ![0, 9, 0] S400x1x25
  slices_S400x25x25_o0_17_0_S400x1x25 : S400x25x25.Slices ![0, 17, 0] S400x1x25
  slices_S400x25x25_o0_24_0_S400x1x25 : S400x25x25.Slices ![0, 24, 0] S400x1x25
  slices_S400x25x25_o0_16_0_S400x1x25 : S400x25x25.Slices ![0, 16, 0] S400x1x25
  concatenates_S400x1x25_S400x1x25_S400x1x25_S400x1x25_S400x1x25_S400x1x25_S400x1x25_S400x1x25_S400x1x25_S400x1x25_S400x1x25_S400x1x25_S400x1x25_S400x1x25_S400x1x25_S400x1x25_S400x1x25_S400x1x25_S400x1x25_S400x1x25_S400x1x25_S400x1x25_S400x1x25_S400x1x25_S400x1x25_S400x25x25_d1 : Shape.Concatenates [S400x1x25, S400x1x25, S400x1x25, S400x1x25, S400x1x25, S400x1x25, S400x1x25, S400x1x25, S400x1x25, S400x1x25, S400x1x25, S400x1x25, S400x1x25, S400x1x25, S400x1x25, S400x1x25, S400x1x25, S400x1x25, S400x1x25, S400x1x25, S400x1x25, S400x1x25, S400x1x25, S400x1x25, S400x1x25] S400x25x25 1
  shapeCasts_S400x25x32_S400x800 : S400x25x32.ShapeCasts S400x800
  inb_S800x800_S800x800_0_0 : ∀ a, (![0, 0] : Fin 2 → Nat) a + S800x800.size a ≤ S800x800.size a
  h_S800x800 : 0 < S800x800.numel
  shapeCasts_S800x800_S800x800 : S800x800.ShapeCasts S800x800
  inb_S400x64_S400x64_0_0 : ∀ a, (![0, 0] : Fin 2 → Nat) a + S400x64.size a ≤ S400x64.size a
  h_S400x64 : 0 < S400x64.numel
  inb_S64x160_S64x160_0_0 : ∀ a, (![0, 0] : Fin 2 → Nat) a + S64x160.size a ≤ S64x160.size a
  h_S64x160 : 0 < S64x160.numel
  shapeCasts_S64x160_S64x160 : S64x160.ShapeCasts S64x160
  inb_S1x160_S1x160_0_0 : ∀ a, (![0, 0] : Fin 2 → Nat) a + S1x160.size a ≤ S1x160.size a
  h_S1x160 : 0 < S1x160.numel
  shapeCasts_S1x160_S1x160 : S1x160.ShapeCasts S1x160
  broadcasts_S1x160_S400x160 : S1x160.Broadcasts S400x160
  shapeCasts_S400x160_S400x5x32 : S400x160.ShapeCasts S400x5x32
  slices_S400x5x32_o0_1_0_S400x4x32 : S400x5x32.Slices ![0, 1, 0] S400x4x32
  slices_S400x5x32_o0_2_0_S400x3x32 : S400x5x32.Slices ![0, 2, 0] S400x3x32
  slices_S400x5x32_o0_3_0_S400x2x32 : S400x5x32.Slices ![0, 3, 0] S400x2x32
  slices_S400x5x32_o0_4_0_S400x1x32 : S400x5x32.Slices ![0, 4, 0] S400x1x32
  concatenates_S400x5x32_S400x4x32_S400x4x32_S400x3x32_S400x3x32_S400x2x32_S400x2x32_S400x1x32_S400x1x32_S400x25x32_d1 : Shape.Concatenates [S400x5x32, S400x4x32, S400x4x32, S400x3x32, S400x3x32, S400x2x32, S400x2x32, S400x1x32, S400x1x32] S400x25x32 1
  shapeCasts_S160000x800_S160000x25x32 : S160000x800.ShapeCasts S160000x25x32
  bcast_S_S10000x25x32 : S_.BroadcastsInDim S10000x25x32 (![] : Fin 0 → Fin S10000x25x32.rank)
  gather_S10000x25x32_S160000x1_S160000x25x32_12_0_n_n_0_1_12532_wf : GatherDims.WF S10000x25x32 S160000x1 S160000x25x32 [1, 2] [0] [] [0] [] 1 ![1, 25, 32]
  scatter_S800x800_S2_S160x160_01_n_01_0_wf : ScatterDims.WF S800x800 S2 S160x160 [0, 1] [] [0, 1] 0
  scatter_S800x800_S2_S256x256_01_n_01_0_wf : ScatterDims.WF S800x800 S2 S256x256 [0, 1] [] [0, 1] 0
  scatter_S800x800_S2_S192x192_01_n_01_0_wf : ScatterDims.WF S800x800 S2 S192x192 [0, 1] [] [0, 1] 0
  scatter_S800x800_S2_S128x128_01_n_01_0_wf : ScatterDims.WF S800x800 S2 S128x128 [0, 1] [] [0, 1] 0
  scatter_S800x800_S2_S64x64_01_n_01_0_wf : ScatterDims.WF S800x800 S2 S64x64 [0, 1] [] [0, 1] 0
  dot_S400x25x25_S400x25x32_S400x25x32_2_1_1_2_0_0_wf : DotDims.WF S400x25x25 S400x25x32 S400x25x32 [2] [1] [1] [2] [0] [0]
  dot_S400x800_S800x800_S400x800_1_0_0_1_n_n_wf : DotDims.WF S400x800 S800x800 S400x800 [1] [0] [0] [1] [] []
  dot_S400x64_S64x160_S400x160_1_0_0_1_n_n_wf : DotDims.WF S400x64 S64x160 S400x160 [1] [0] [0] [1] [] []
  dot_S400x25x25_S400x25x32_S400x25x32_1_1_2_2_0_0_wf : DotDims.WF S400x25x25 S400x25x32 S400x25x32 [1] [1] [2] [2] [0] [0]
  scatter_S10000x25x32_S160000x1_S160000x25x32_12_0_0_1_wf : ScatterDims.WF S10000x25x32 S160000x1 S160000x25x32 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x800.size a ≤ S160000x800.size a
  hwx0_0 : ∀ i : grid0.Coords, EltTy.bits .f32 = 32 ∨ (Rect.block (s := S160000x800) S400x800.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x625.size a ≤ S160000x625.size a
  hwx0_1 : ∀ i : grid0.Coords, EltTy.bits .f32 = 32 ∨ (Rect.block (s := S160000x625) S400x625.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x64.size a ≤ S160000x64.size a
  hwx0_2 : ∀ i : grid0.Coords, EltTy.bits .f32 = 32 ∨ (Rect.block (s := S160000x64) S400x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S800x800.size a ≤ S800x800.size a
  hwx0_3 : ∀ i : grid0.Coords, EltTy.bits .bf16 = 32 ∨ (Rect.block (s := S800x800) S800x800.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x160.size a ≤ S64x160.size a
  hwx0_4 : ∀ i : grid0.Coords, EltTy.bits .bf16 = 32 ∨ (Rect.block (s := S64x160) S64x160.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x160.size a ≤ S1x160.size a
  hwx0_5 : ∀ i : grid0.Coords, EltTy.bits .f32 = 32 ∨ (Rect.block (s := S1x160) S1x160.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x800.size a ≤ S160000x800.size a
  hwx0_6 : ∀ i : grid0.Coords, EltTy.bits .f32 = 32 ∨ (Rect.block (s := S160000x800) S400x800.size (cc0_transform_6 i) (hinb0_6 i)).WholeWords (EltTy.packing .f32)

variable [Facts₀]

def gather_S10000x25x32_S160000x1_S160000x25x32_12_0_n_n_0_1_12532 : GatherDims S10000x25x32 S160000x1 S160000x25x32 where
  offsetDims := [1, 2]
  collapsedSliceDims := [0]
  operandBatchingDims := []
  startIndicesBatchingDims := []
  startIndexMap := [0]
  indexVectorDim := 1
  sliceSizes := ![1, 25, 32]
  wf := gather_S10000x25x32_S160000x1_S160000x25x32_12_0_n_n_0_1_12532_wf
def scatter_S800x800_S2_S160x160_01_n_01_0 : ScatterDims S800x800 S2 S160x160 where
  updateWindowDims := [0, 1]
  insertedWindowDims := []
  scatterDimsToOperandDims := [0, 1]
  indexVectorDim := 0
  wf := scatter_S800x800_S2_S160x160_01_n_01_0_wf
def scatter_S800x800_S2_S256x256_01_n_01_0 : ScatterDims S800x800 S2 S256x256 where
  updateWindowDims := [0, 1]
  insertedWindowDims := []
  scatterDimsToOperandDims := [0, 1]
  indexVectorDim := 0
  wf := scatter_S800x800_S2_S256x256_01_n_01_0_wf
def scatter_S800x800_S2_S192x192_01_n_01_0 : ScatterDims S800x800 S2 S192x192 where
  updateWindowDims := [0, 1]
  insertedWindowDims := []
  scatterDimsToOperandDims := [0, 1]
  indexVectorDim := 0
  wf := scatter_S800x800_S2_S192x192_01_n_01_0_wf
def scatter_S800x800_S2_S128x128_01_n_01_0 : ScatterDims S800x800 S2 S128x128 where
  updateWindowDims := [0, 1]
  insertedWindowDims := []
  scatterDimsToOperandDims := [0, 1]
  indexVectorDim := 0
  wf := scatter_S800x800_S2_S128x128_01_n_01_0_wf
def scatter_S800x800_S2_S64x64_01_n_01_0 : ScatterDims S800x800 S2 S64x64 where
  updateWindowDims := [0, 1]
  insertedWindowDims := []
  scatterDimsToOperandDims := [0, 1]
  indexVectorDim := 0
  wf := scatter_S800x800_S2_S64x64_01_n_01_0_wf
def dot_S400x25x25_S400x25x32_S400x25x32_2_1_1_2_0_0 : DotDims S400x25x25 S400x25x32 S400x25x32 where
  lhsContracting := [2]
  rhsContracting := [1]
  lhsNonContracting := [1]
  rhsNonContracting := [2]
  lhsBatch := [0]
  rhsBatch := [0]
  wf := dot_S400x25x25_S400x25x32_S400x25x32_2_1_1_2_0_0_wf
def dot_S400x800_S800x800_S400x800_1_0_0_1_n_n : DotDims S400x800 S800x800 S400x800 where
  lhsContracting := [1]
  rhsContracting := [0]
  lhsNonContracting := [0]
  rhsNonContracting := [1]
  lhsBatch := []
  rhsBatch := []
  wf := dot_S400x800_S800x800_S400x800_1_0_0_1_n_n_wf
def dot_S400x64_S64x160_S400x160_1_0_0_1_n_n : DotDims S400x64 S64x160 S400x160 where
  lhsContracting := [1]
  rhsContracting := [0]
  lhsNonContracting := [0]
  rhsNonContracting := [1]
  lhsBatch := []
  rhsBatch := []
  wf := dot_S400x64_S64x160_S400x160_1_0_0_1_n_n_wf
def dot_S400x25x25_S400x25x32_S400x25x32_1_1_2_2_0_0 : DotDims S400x25x25 S400x25x32 S400x25x32 where
  lhsContracting := [1]
  rhsContracting := [1]
  lhsNonContracting := [2]
  rhsNonContracting := [2]
  lhsBatch := [0]
  rhsBatch := [0]
  wf := dot_S400x25x25_S400x25x32_S400x25x32_1_1_2_2_0_0_wf
def scatter_S10000x25x32_S160000x1_S160000x25x32_12_0_0_1 : ScatterDims S10000x25x32 S160000x1 S160000x25x32 where
  updateWindowDims := [1, 2]
  insertedWindowDims := [0]
  scatterDimsToOperandDims := [0]
  indexVectorDim := 1
  wf := scatter_S10000x25x32_S160000x1_S160000x25x32_12_0_0_1_wf

abbrev win0_0 : Pipeline.Window sig grid0 :=
  Pipeline.Window.ofSpec (Memref.whole main_v7) S400x800.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S400x625.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S400x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v46) S800x800.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v47) S64x160.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48) S1x160.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v49) S400x800.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x25x32 : Shape := ⟨3, ![10000, 25, 32]⟩
abbrev S160000x25x25 : Shape := ⟨3, ![160000, 25, 25]⟩
abbrev S160000x64 : Shape := ⟨2, ![160000, 64]⟩
abbrev S160000 : Shape := ⟨1, ![160000]⟩
abbrev S160x160 : Shape := ⟨2, ![160, 160]⟩
abbrev S128x128 : Shape := ⟨2, ![128, 128]⟩
abbrev S96x96 : Shape := ⟨2, ![96, 96]⟩
abbrev S64x64 : Shape := ⟨2, ![64, 64]⟩
abbrev S32x32 : Shape := ⟨2, ![32, 32]⟩
abbrev S64x160 : Shape := ⟨2, ![64, 160]⟩
abbrev S160 : Shape := ⟨1, ![160]⟩
abbrev S5 : Shape := ⟨1, ![5]⟩
abbrev S4 : Shape := ⟨1, ![4]⟩
abbrev S3 : Shape := ⟨1, ![3]⟩
abbrev S2 : Shape := ⟨1, ![2]⟩
abbrev S1 : Shape := ⟨1, ![1]⟩
abbrev S25 : Shape := ⟨1, ![25]⟩
abbrev S_ : Shape := ⟨0, ![]⟩
abbrev S160000x1 : Shape := ⟨2, ![160000, 1]⟩
abbrev S160000x25x32 : Shape := ⟨3, ![160000, 25, 32]⟩
abbrev S5x1 : Shape := ⟨2, ![5, 1]⟩
abbrev S160000x5x32 : Shape := ⟨3, ![160000, 5, 32]⟩
abbrev S160000x160 : Shape := ⟨2, ![160000, 160]⟩
abbrev S4x1 : Shape := ⟨2, ![4, 1]⟩
abbrev S160000x4x32 : Shape := ⟨3, ![160000, 4, 32]⟩
abbrev S160000x128 : Shape := ⟨2, ![160000, 128]⟩
abbrev S3x1 : Shape := ⟨2, ![3, 1]⟩
abbrev S160000x3x32 : Shape := ⟨3, ![160000, 3, 32]⟩
abbrev S160000x96 : Shape := ⟨2, ![160000, 96]⟩
abbrev S2x1 : Shape := ⟨2, ![2, 1]⟩
abbrev S160000x2x32 : Shape := ⟨3, ![160000, 2, 32]⟩
abbrev S1x1 : Shape := ⟨2, ![1, 1]⟩
abbrev S160000x1x32 : Shape := ⟨3, ![160000, 1, 32]⟩
abbrev S160000x32 : Shape := ⟨2, ![160000, 32]⟩
abbrev S1x160 : Shape := ⟨2, ![1, 160]⟩
abbrev S25x1 : Shape := ⟨2, ![25, 1]⟩

abbrev nBuf : Space → Nat
  | .hbm => 234
  | .vmem => 0
  | .smem => 0
  | _ => 0

abbrev hbmTy0_0 (i : Nat) : BufTy := match i % 128 with
  | 0 => ⟨S10000x25x32, .f32⟩
  | 1 => ⟨S160000x25x25, .f32⟩
  | 2 => ⟨S160000x64, .f32⟩
  | 3 => ⟨S160000, .i32⟩
  | 4 => ⟨S160000, .i32⟩
  | 5 => ⟨S160x160, .f32⟩
  | 6 => ⟨S128x128, .f32⟩
  | 7 => ⟨S128x128, .f32⟩
  | 8 => ⟨S96x96, .f32⟩
  | 9 => ⟨S96x96, .f32⟩
  | 10 => ⟨S64x64, .f32⟩
  | 11 => ⟨S64x64, .f32⟩
  | 12 => ⟨S32x32, .f32⟩
  | 13 => ⟨S32x32, .f32⟩
  | 14 => ⟨S64x160, .f32⟩
  | 15 => ⟨S160, .f32⟩
  | 16 => ⟨S5, .i32⟩
  | 17 => ⟨S5, .i1⟩
  | 18 => ⟨S5, .i1⟩
  | 19 => ⟨S4, .i32⟩
  | 20 => ⟨S4, .i1⟩
  | 21 => ⟨S4, .i32⟩
  | 22 => ⟨S4, .i1⟩
  | 23 => ⟨S4, .i1⟩
  | 24 => ⟨S4, .i1⟩
  | 25 => ⟨S3, .i32⟩
  | 26 => ⟨S3, .i1⟩
  | 27 => ⟨S3, .i32⟩
  | 28 => ⟨S3, .i1⟩
  | 29 => ⟨S3, .i1⟩
  | 30 => ⟨S3, .i1⟩
  | 31 => ⟨S2, .i32⟩
  | 32 => ⟨S2, .i1⟩
  | 33 => ⟨S2, .i32⟩
  | 34 => ⟨S2, .i1⟩
  | 35 => ⟨S2, .i1⟩
  | 36 => ⟨S2, .i1⟩
  | 37 => ⟨S1, .i32⟩
  | 38 => ⟨S1, .i1⟩
  | 39 => ⟨S1, .i32⟩
  | 40 => ⟨S1, .i1⟩
  | 41 => ⟨S1, .i1⟩
  | 42 => ⟨S1, .i1⟩
  | 43 => ⟨S25, .i32⟩
  | 44 => ⟨S25, .i1⟩
  | 45 => ⟨S_, .i32⟩
  | 46 => ⟨S160000, .i32⟩
  | 47 => ⟨S160000, .i1⟩
  | 48 => ⟨S_, .i32⟩
  | 49 => ⟨S160000, .i32⟩
  | 50 => ⟨S160000, .i32⟩
  | 51 => ⟨S160000, .i32⟩
  | 52 => ⟨S160000x1, .i32⟩
  | 53 => ⟨S160000x25x32, .f32⟩
  | 54 => ⟨S160000x25x32, .f32⟩
  | 55 => ⟨S_, .f32⟩
  | 56 => ⟨S160000x25x32, .f32⟩
  | 57 => ⟨S_, .i32⟩
  | 58 => ⟨S5, .i32⟩
  | 59 => ⟨S5, .i32⟩
  | 60 => ⟨S5, .i32⟩
  | 61 => ⟨S5x1, .i32⟩
  | 62 => ⟨S160000x5x32, .f32⟩
  | 63 => ⟨S160000x160, .f32⟩
  | 64 => ⟨S160000x160, .f32⟩
  | 65 => ⟨S160000x5x32, .f32⟩
  | 66 => ⟨S_, .i32⟩
  | 67 => ⟨S5, .i32⟩
  | 68 => ⟨S5, .i32⟩
  | 69 => ⟨S5, .i32⟩
  | 70 => ⟨S5x1, .i32⟩
  | 71 => ⟨S160000x25x32, .f32⟩
  | 72 => ⟨S_, .i32⟩
  | 73 => ⟨S4, .i32⟩
  | 74 => ⟨S4, .i32⟩
  | 75 => ⟨S4, .i32⟩
  | 76 => ⟨S4x1, .i32⟩
  | 77 => ⟨S160000x4x32, .f32⟩
  | 78 => ⟨S160000x128, .f32⟩
  | 79 => ⟨S_, .i32⟩
  | 80 => ⟨S4, .i32⟩
  | 81 => ⟨S4, .i32⟩
  | 82 => ⟨S4, .i32⟩
  | 83 => ⟨S4x1, .i32⟩
  | 84 => ⟨S160000x4x32, .f32⟩
  | 85 => ⟨S160000x128, .f32⟩
  | 86 => ⟨S160000x128, .f32⟩
  | 87 => ⟨S160000x128, .f32⟩
  | 88 => ⟨S160000x128, .f32⟩
  | 89 => ⟨S160000x128, .f32⟩
  | 90 => ⟨S160000x128, .f32⟩
  | 91 => ⟨S160000x128, .f32⟩
  | 92 => ⟨S160000x4x32, .f32⟩
  | 93 => ⟨S_, .i32⟩
  | 94 => ⟨S4, .i32⟩
  | 95 => ⟨S4, .i32⟩
  | 96 => ⟨S4, .i32⟩
  | 97 => ⟨S4x1, .i32⟩
  | 98 => ⟨S160000x25x32, .f32⟩
  | 99 => ⟨S160000x4x32, .f32⟩
  | 100 => ⟨S_, .i32⟩
  | 101 => ⟨S4, .i32⟩
  | 102 => ⟨S4, .i32⟩
  | 103 => ⟨S4, .i32⟩
  | 104 => ⟨S4x1, .i32⟩
  | 105 => ⟨S160000x25x32, .f32⟩
  | 106 => ⟨S_, .i32⟩
  | 107 => ⟨S3, .i32⟩
  | 108 => ⟨S3, .i32⟩
  | 109 => ⟨S3, .i32⟩
  | 110 => ⟨S3x1, .i32⟩
  | 111 => ⟨S160000x3x32, .f32⟩
  | 112 => ⟨S160000x96, .f32⟩
  | 113 => ⟨S_, .i32⟩
  | 114 => ⟨S3, .i32⟩
  | 115 => ⟨S3, .i32⟩
  | 116 => ⟨S3, .i32⟩
  | 117 => ⟨S3x1, .i32⟩
  | 118 => ⟨S160000x3x32, .f32⟩
  | 119 => ⟨S160000x96, .f32⟩
  | 120 => ⟨S160000x96, .f32⟩
  | 121 => ⟨S160000x96, .f32⟩
  | 122 => ⟨S160000x96, .f32⟩
  | 123 => ⟨S160000x96, .f32⟩
  | 124 => ⟨S160000x96, .f32⟩
  | 125 => ⟨S160000x96, .f32⟩
  | 126 => ⟨S160000x3x32, .f32⟩
  | 127 => ⟨S_, .i32⟩
  | _ => ⟨S10000x25x32, .f32⟩

abbrev hbmTy0_1 (i : Nat) : BufTy := match i % 128 with
  | 0 => ⟨S3, .i32⟩
  | 1 => ⟨S3, .i32⟩
  | 2 => ⟨S3, .i32⟩
  | 3 => ⟨S3x1, .i32⟩
  | 4 => ⟨S160000x25x32, .f32⟩
  | 5 => ⟨S160000x3x32, .f32⟩
  | 6 => ⟨S_, .i32⟩
  | 7 => ⟨S3, .i32⟩
  | 8 => ⟨S3, .i32⟩
  | 9 => ⟨S3, .i32⟩
  | 10 => ⟨S3x1, .i32⟩
  | 11 => ⟨S160000x25x32, .f32⟩
  | 12 => ⟨S_, .i32⟩
  | 13 => ⟨S2, .i32⟩
  | 14 => ⟨S2, .i32⟩
  | 15 => ⟨S2, .i32⟩
  | 16 => ⟨S2x1, .i32⟩
  | 17 => ⟨S160000x2x32, .f32⟩
  | 18 => ⟨S160000x64, .f32⟩
  | 19 => ⟨S_, .i32⟩
  | 20 => ⟨S2, .i32⟩
  | 21 => ⟨S2, .i32⟩
  | 22 => ⟨S2, .i32⟩
  | 23 => ⟨S2x1, .i32⟩
  | 24 => ⟨S160000x2x32, .f32⟩
  | 25 => ⟨S160000x64, .f32⟩
  | 26 => ⟨S160000x64, .f32⟩
  | 27 => ⟨S160000x64, .f32⟩
  | 28 => ⟨S160000x64, .f32⟩
  | 29 => ⟨S160000x64, .f32⟩
  | 30 => ⟨S160000x64, .f32⟩
  | 31 => ⟨S160000x64, .f32⟩
  | 32 => ⟨S160000x2x32, .f32⟩
  | 33 => ⟨S_, .i32⟩
  | 34 => ⟨S2, .i32⟩
  | 35 => ⟨S2, .i32⟩
  | 36 => ⟨S2, .i32⟩
  | 37 => ⟨S2x1, .i32⟩
  | 38 => ⟨S160000x25x32, .f32⟩
  | 39 => ⟨S160000x2x32, .f32⟩
  | 40 => ⟨S_, .i32⟩
  | 41 => ⟨S2, .i32⟩
  | 42 => ⟨S2, .i32⟩
  | 43 => ⟨S2, .i32⟩
  | 44 => ⟨S2x1, .i32⟩
  | 45 => ⟨S160000x25x32, .f32⟩
  | 46 => ⟨S_, .i32⟩
  | 47 => ⟨S1, .i32⟩
  | 48 => ⟨S1, .i32⟩
  | 49 => ⟨S1, .i32⟩
  | 50 => ⟨S1x1, .i32⟩
  | 51 => ⟨S160000x1x32, .f32⟩
  | 52 => ⟨S160000x32, .f32⟩
  | 53 => ⟨S_, .i32⟩
  | 54 => ⟨S1, .i32⟩
  | 55 => ⟨S1, .i32⟩
  | 56 => ⟨S1, .i32⟩
  | 57 => ⟨S1x1, .i32⟩
  | 58 => ⟨S160000x1x32, .f32⟩
  | 59 => ⟨S160000x32, .f32⟩
  | 60 => ⟨S160000x32, .f32⟩
  | 61 => ⟨S160000x32, .f32⟩
  | 62 => ⟨S160000x32, .f32⟩
  | 63 => ⟨S160000x32, .f32⟩
  | 64 => ⟨S160000x32, .f32⟩
  | 65 => ⟨S160000x32, .f32⟩
  | 66 => ⟨S160000x1x32, .f32⟩
  | 67 => ⟨S_, .i32⟩
  | 68 => ⟨S1, .i32⟩
  | 69 => ⟨S1, .i32⟩
  | 70 => ⟨S1, .i32⟩
  | 71 => ⟨S1x1, .i32⟩
  | 72 => ⟨S160000x25x32, .f32⟩
  | 73 => ⟨S160000x1x32, .f32⟩
  | 74 => ⟨S_, .i32⟩
  | 75 => ⟨S1, .i32⟩
  | 76 => ⟨S1, .i32⟩
  | 77 => ⟨S1, .i32⟩
  | 78 => ⟨S1x1, .i32⟩
  | 79 => ⟨S160000x25x32, .f32⟩
  | 80 => ⟨S160000x160, .f32⟩
  | 81 => ⟨S1x160, .f32⟩
  | 82 => ⟨S160000x160, .f32⟩
  | 83 => ⟨S160000x160, .f32⟩
  | 84 => ⟨S160000x160, .f32⟩
  | 85 => ⟨S160000x160, .f32⟩
  | 86 => ⟨S_, .f32⟩
  | 87 => ⟨S160000x160, .f32⟩
  | 88 => ⟨S160000x160, .f32⟩
  | 89 => ⟨S_, .f32⟩
  | 90 => ⟨S160000x160, .f32⟩
  | 91 => ⟨S160000x160, .f32⟩
  | 92 => ⟨S160000x160, .f32⟩
  | 93 => ⟨S160000x5x32, .f32⟩
  | 94 => ⟨S_, .i32⟩
  | 95 => ⟨S25, .i32⟩
  | 96 => ⟨S25, .i32⟩
  | 97 => ⟨S25, .i32⟩
  | 98 => ⟨S25x1, .i32⟩
  | 99 => ⟨S160000x25x32, .f32⟩
  | 100 => ⟨S160000x25x32, .f32⟩
  | 101 => ⟨S160000x25x32, .f32⟩
  | 102 => ⟨S_, .f32⟩
  | 103 => ⟨S10000x25x32, .f32⟩
  | 104 => ⟨S160000x1, .i32⟩
  | 105 => ⟨S10000x25x32, .f32⟩
  | _ => ⟨S10000x25x32, .f32⟩

abbrev hbmTy (i : Nat) : BufTy := match i / 128 with
  | 0 => hbmTy0_0 i
  | 1 => hbmTy0_1 i
  | _ => ⟨S10000x25x32, .f32⟩

abbrev bufTy : (tb : Table) → Fin (tcTables nBuf tb) → BufTy
  | .hbm, ⟨i, _⟩ => hbmTy i
  | _, _ => ⟨S10000x25x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_c_0 : Ref sig .tc := ⟨.hbm, 17, rfl⟩
abbrev main_c_1 : Ref sig .tc := ⟨.hbm, 18, rfl⟩
abbrev main_c_2 : Ref sig .tc := ⟨.hbm, 19, rfl⟩
abbrev main_c_3 : Ref sig .tc := ⟨.hbm, 20, rfl⟩
abbrev main_c_4 : Ref sig .tc := ⟨.hbm, 21, rfl⟩
abbrev main_c_5 : Ref sig .tc := ⟨.hbm, 22, rfl⟩
abbrev main_c_6 : Ref sig .tc := ⟨.hbm, 23, rfl⟩
abbrev main_c_7 : Ref sig .tc := ⟨.hbm, 24, rfl⟩
abbrev main_c_8 : Ref sig .tc := ⟨.hbm, 25, rfl⟩
abbrev main_c_9 : Ref sig .tc := ⟨.hbm, 26, rfl⟩
abbrev main_c_10 : Ref sig .tc := ⟨.hbm, 27, rfl⟩
abbrev main_c_11 : Ref sig .tc := ⟨.hbm, 28, rfl⟩
abbrev main_c_12 : Ref sig .tc := ⟨.hbm, 29, rfl⟩
abbrev main_c_13 : Ref sig .tc := ⟨.hbm, 30, rfl⟩
abbrev main_c_14 : Ref sig .tc := ⟨.hbm, 31, rfl⟩
abbrev main_c_15 : Ref sig .tc := ⟨.hbm, 32, rfl⟩
abbrev main_c_16 : Ref sig .tc := ⟨.hbm, 33, rfl⟩
abbrev main_c_17 : Ref sig .tc := ⟨.hbm, 34, rfl⟩
abbrev main_c_18 : Ref sig .tc := ⟨.hbm, 35, rfl⟩
abbrev main_c_19 : Ref sig .tc := ⟨.hbm, 36, rfl⟩
abbrev main_c_20 : Ref sig .tc := ⟨.hbm, 37, rfl⟩
abbrev main_c_21 : Ref sig .tc := ⟨.hbm, 38, rfl⟩
abbrev main_c_22 : Ref sig .tc := ⟨.hbm, 39, rfl⟩
abbrev main_c_23 : Ref sig .tc := ⟨.hbm, 40, rfl⟩
abbrev main_c_24 : Ref sig .tc := ⟨.hbm, 41, rfl⟩
abbrev main_c_25 : Ref sig .tc := ⟨.hbm, 42, rfl⟩
abbrev main_c_26 : Ref sig .tc := ⟨.hbm, 43, rfl⟩
abbrev main_c_27 : Ref sig .tc := ⟨.hbm, 44, rfl⟩
abbrev main_c_28 : Ref sig .tc := ⟨.hbm, 45, rfl⟩
abbrev main_v0 : Ref sig .tc := ⟨.hbm, 46, rfl⟩
abbrev main_v1 : Ref sig .tc := ⟨.hbm, 47, rfl⟩
abbrev main_c_29 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst : Ref sig .tc := ⟨.hbm, 55, rfl⟩
abbrev main_v8 : Ref sig .tc := ⟨.hbm, 56, rfl⟩
abbrev main_c_30 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_c_31 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_c_32 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_c_33 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_c_34 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_c_35 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_c_36 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_c_37 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_c_38 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_c_39 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_c_40 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_c_41 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_c_42 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_c_43 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_c_44 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_c_45 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_c_46 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_c_47 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_call0_v0 : Ref sig .tc := ⟨.hbm, 212, rfl⟩
abbrev main_call0_v1 : Ref sig .tc := ⟨.hbm, 213, rfl⟩
abbrev main_call0_cst : Ref sig .tc := ⟨.hbm, 214, rfl⟩
abbrev main_call0_v2 : Ref sig .tc := ⟨.hbm, 215, rfl⟩
abbrev main_call0_v3 : Ref sig .tc := ⟨.hbm, 216, rfl⟩
abbrev main_call0_cst_0 : Ref sig .tc := ⟨.hbm, 217, rfl⟩
abbrev main_call0_v4 : Ref sig .tc := ⟨.hbm, 218, rfl⟩
abbrev main_call0_v5 : Ref sig .tc := ⟨.hbm, 219, rfl⟩
abbrev main_v146 : Ref sig .tc := ⟨.hbm, 220, rfl⟩
abbrev main_v147 : Ref sig .tc := ⟨.hbm, 221, rfl⟩
abbrev main_c_48 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_cst_49 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S_S160000x25x32 : S_.BroadcastsInDim S160000x25x32 (![] : Fin 0 → Fin S160000x25x32.rank)
  bcast_S_S5 : S_.BroadcastsInDim S5 (![] : Fin 0 → Fin S5.rank)
  bcast_S5_S5x1_0 : S5.BroadcastsInDim S5x1 (![0] : Fin 1 → Fin S5x1.rank)
  shapeCasts_S160000x5x32_S160000x160 : S160000x5x32.ShapeCasts S160000x160
  shapeCasts_S160000x160_S160000x5x32 : S160000x160.ShapeCasts S160000x5x32
  bcast_S_S4 : S_.BroadcastsInDim S4 (![] : Fin 0 → Fin S4.rank)
  bcast_S4_S4x1_0 : S4.BroadcastsInDim S4x1 (![0] : Fin 1 → Fin S4x1.rank)
  shapeCasts_S160000x4x32_S160000x128 : S160000x4x32.ShapeCasts S160000x128
  shapeCasts_S160000x128_S160000x4x32 : S160000x128.ShapeCasts S160000x4x32
  bcast_S_S3 : S_.BroadcastsInDim S3 (![] : Fin 0 → Fin S3.rank)
  bcast_S3_S3x1_0 : S3.BroadcastsInDim S3x1 (![0] : Fin 1 → Fin S3x1.rank)
  shapeCasts_S160000x3x32_S160000x96 : S160000x3x32.ShapeCasts S160000x96
  shapeCasts_S160000x96_S160000x3x32 : S160000x96.ShapeCasts S160000x3x32
  bcast_S_S2 : S_.BroadcastsInDim S2 (![] : Fin 0 → Fin S2.rank)
  bcast_S2_S2x1_0 : S2.BroadcastsInDim S2x1 (![0] : Fin 1 → Fin S2x1.rank)
  shapeCasts_S160000x2x32_S160000x64 : S160000x2x32.ShapeCasts S160000x64
  shapeCasts_S160000x64_S160000x2x32 : S160000x64.ShapeCasts S160000x2x32
  bcast_S_S1 : S_.BroadcastsInDim S1 (![] : Fin 0 → Fin S1.rank)
  bcast_S1_S1x1_0 : S1.BroadcastsInDim S1x1 (![0] : Fin 1 → Fin S1x1.rank)
  shapeCasts_S160000x1x32_S160000x32 : S160000x1x32.ShapeCasts S160000x32
  shapeCasts_S160000x32_S160000x1x32 : S160000x32.ShapeCasts S160000x1x32
  bcast_S160_S1x160_1 : S160.BroadcastsInDim S1x160 (![1] : Fin 1 → Fin S1x160.rank)
  bcast_S1x160_S160000x160_0_1 : S1x160.BroadcastsInDim S160000x160 (![0, 1] : Fin 2 → Fin S160000x160.rank)
  bcast_S_S160000x160 : S_.BroadcastsInDim S160000x160 (![] : Fin 0 → Fin S160000x160.rank)
  bcast_S_S25 : S_.BroadcastsInDim S25 (![] : Fin 0 → Fin S25.rank)
  bcast_S25_S25x1_0 : S25.BroadcastsInDim S25x1 (![0] : Fin 1 → Fin S25x1.rank)
  bcast_S_S10000x25x32 : S_.BroadcastsInDim S10000x25x32 (![] : Fin 0 → Fin S10000x25x32.rank)
  gather_S10000x25x32_S160000x1_S160000x25x32_12_0_n_n_0_1_12532_wf : GatherDims.WF S10000x25x32 S160000x1 S160000x25x32 [1, 2] [0] [] [0] [] 1 ![1, 25, 32]
  dot_S160000x25x25_S160000x25x32_S160000x25x32_2_1_1_2_0_0_wf : DotDims.WF S160000x25x25 S160000x25x32 S160000x25x32 [2] [1] [1] [2] [0] [0]
  gather_S160000x25x32_S5x1_S160000x5x32_02_1_n_n_1_1_160000132_wf : GatherDims.WF S160000x25x32 S5x1 S160000x5x32 [0, 2] [1] [] [1] [] 1 ![160000, 1, 32]
  dot_S160000x160_S160x160_S160000x160_1_0_0_1_n_n_wf : DotDims.WF S160000x160 S160x160 S160000x160 [1] [0] [0] [1] [] []
  scatter_S160000x25x32_S5x1_S160000x5x32_02_1_1_1_wf : ScatterDims.WF S160000x25x32 S5x1 S160000x5x32 [0, 2] [1] [1] 1
  gather_S160000x25x32_S4x1_S160000x4x32_02_1_n_n_1_1_160000132_wf : GatherDims.WF S160000x25x32 S4x1 S160000x4x32 [0, 2] [1] [] [1] [] 1 ![160000, 1, 32]
  dot_S160000x128_S128x128_S160000x128_1_0_0_1_n_n_wf : DotDims.WF S160000x128 S128x128 S160000x128 [1] [0] [0] [1] [] []
  scatter_S160000x25x32_S4x1_S160000x4x32_02_1_1_1_wf : ScatterDims.WF S160000x25x32 S4x1 S160000x4x32 [0, 2] [1] [1] 1
  gather_S160000x25x32_S3x1_S160000x3x32_02_1_n_n_1_1_160000132_wf : GatherDims.WF S160000x25x32 S3x1 S160000x3x32 [0, 2] [1] [] [1] [] 1 ![160000, 1, 32]
  dot_S160000x96_S96x96_S160000x96_1_0_0_1_n_n_wf : DotDims.WF S160000x96 S96x96 S160000x96 [1] [0] [0] [1] [] []
  scatter_S160000x25x32_S3x1_S160000x3x32_02_1_1_1_wf : ScatterDims.WF S160000x25x32 S3x1 S160000x3x32 [0, 2] [1] [1] 1
  gather_S160000x25x32_S2x1_S160000x2x32_02_1_n_n_1_1_160000132_wf : GatherDims.WF S160000x25x32 S2x1 S160000x2x32 [0, 2] [1] [] [1] [] 1 ![160000, 1, 32]
  dot_S160000x64_S64x64_S160000x64_1_0_0_1_n_n_wf : DotDims.WF S160000x64 S64x64 S160000x64 [1] [0] [0] [1] [] []
  scatter_S160000x25x32_S2x1_S160000x2x32_02_1_1_1_wf : ScatterDims.WF S160000x25x32 S2x1 S160000x2x32 [0, 2] [1] [1] 1
  gather_S160000x25x32_S1x1_S160000x1x32_02_1_n_n_1_1_160000132_wf : GatherDims.WF S160000x25x32 S1x1 S160000x1x32 [0, 2] [1] [] [1] [] 1 ![160000, 1, 32]
  dot_S160000x32_S32x32_S160000x32_1_0_0_1_n_n_wf : DotDims.WF S160000x32 S32x32 S160000x32 [1] [0] [0] [1] [] []
  scatter_S160000x25x32_S1x1_S160000x1x32_02_1_1_1_wf : ScatterDims.WF S160000x25x32 S1x1 S160000x1x32 [0, 2] [1] [1] 1
  dot_S160000x64_S64x160_S160000x160_1_0_0_1_n_n_wf : DotDims.WF S160000x64 S64x160 S160000x160 [1] [0] [0] [1] [] []
  gather_S160000x5x32_S25x1_S160000x25x32_02_1_n_n_1_1_160000132_wf : GatherDims.WF S160000x5x32 S25x1 S160000x25x32 [0, 2] [1] [] [1] [] 1 ![160000, 1, 32]
  dot_S160000x25x25_S160000x25x32_S160000x25x32_1_1_2_2_0_0_wf : DotDims.WF S160000x25x25 S160000x25x32 S160000x25x32 [1] [1] [2] [2] [0] [0]
  scatter_S10000x25x32_S160000x1_S160000x25x32_12_0_0_1_wf : ScatterDims.WF S10000x25x32 S160000x1 S160000x25x32 [1, 2] [0] [0] 1

variable [Facts₀]

def gather_S10000x25x32_S160000x1_S160000x25x32_12_0_n_n_0_1_12532 : GatherDims S10000x25x32 S160000x1 S160000x25x32 where
  offsetDims := [1, 2]
  collapsedSliceDims := [0]
  operandBatchingDims := []
  startIndicesBatchingDims := []
  startIndexMap := [0]
  indexVectorDim := 1
  sliceSizes := ![1, 25, 32]
  wf := gather_S10000x25x32_S160000x1_S160000x25x32_12_0_n_n_0_1_12532_wf
def dot_S160000x25x25_S160000x25x32_S160000x25x32_2_1_1_2_0_0 : DotDims S160000x25x25 S160000x25x32 S160000x25x32 where
  lhsContracting := [2]
  rhsContracting := [1]
  lhsNonContracting := [1]
  rhsNonContracting := [2]
  lhsBatch := [0]
  rhsBatch := [0]
  wf := dot_S160000x25x25_S160000x25x32_S160000x25x32_2_1_1_2_0_0_wf
def gather_S160000x25x32_S5x1_S160000x5x32_02_1_n_n_1_1_160000132 : GatherDims S160000x25x32 S5x1 S160000x5x32 where
  offsetDims := [0, 2]
  collapsedSliceDims := [1]
  operandBatchingDims := []
  startIndicesBatchingDims := []
  startIndexMap := [1]
  indexVectorDim := 1
  sliceSizes := ![160000, 1, 32]
  wf := gather_S160000x25x32_S5x1_S160000x5x32_02_1_n_n_1_1_160000132_wf
def dot_S160000x160_S160x160_S160000x160_1_0_0_1_n_n : DotDims S160000x160 S160x160 S160000x160 where
  lhsContracting := [1]
  rhsContracting := [0]
  lhsNonContracting := [0]
  rhsNonContracting := [1]
  lhsBatch := []
  rhsBatch := []
  wf := dot_S160000x160_S160x160_S160000x160_1_0_0_1_n_n_wf
def scatter_S160000x25x32_S5x1_S160000x5x32_02_1_1_1 : ScatterDims S160000x25x32 S5x1 S160000x5x32 where
  updateWindowDims := [0, 2]
  insertedWindowDims := [1]
  scatterDimsToOperandDims := [1]
  indexVectorDim := 1
  wf := scatter_S160000x25x32_S5x1_S160000x5x32_02_1_1_1_wf
def gather_S160000x25x32_S4x1_S160000x4x32_02_1_n_n_1_1_160000132 : GatherDims S160000x25x32 S4x1 S160000x4x32 where
  offsetDims := [0, 2]
  collapsedSliceDims := [1]
  operandBatchingDims := []
  startIndicesBatchingDims := []
  startIndexMap := [1]
  indexVectorDim := 1
  sliceSizes := ![160000, 1, 32]
  wf := gather_S160000x25x32_S4x1_S160000x4x32_02_1_n_n_1_1_160000132_wf
def dot_S160000x128_S128x128_S160000x128_1_0_0_1_n_n : DotDims S160000x128 S128x128 S160000x128 where
  lhsContracting := [1]
  rhsContracting := [0]
  lhsNonContracting := [0]
  rhsNonContracting := [1]
  lhsBatch := []
  rhsBatch := []
  wf := dot_S160000x128_S128x128_S160000x128_1_0_0_1_n_n_wf
def scatter_S160000x25x32_S4x1_S160000x4x32_02_1_1_1 : ScatterDims S160000x25x32 S4x1 S160000x4x32 where
  updateWindowDims := [0, 2]
  insertedWindowDims := [1]
  scatterDimsToOperandDims := [1]
  indexVectorDim := 1
  wf := scatter_S160000x25x32_S4x1_S160000x4x32_02_1_1_1_wf
def gather_S160000x25x32_S3x1_S160000x3x32_02_1_n_n_1_1_160000132 : GatherDims S160000x25x32 S3x1 S160000x3x32 where
  offsetDims := [0, 2]
  collapsedSliceDims := [1]
  operandBatchingDims := []
  startIndicesBatchingDims := []
  startIndexMap := [1]
  indexVectorDim := 1
  sliceSizes := ![160000, 1, 32]
  wf := gather_S160000x25x32_S3x1_S160000x3x32_02_1_n_n_1_1_160000132_wf
def dot_S160000x96_S96x96_S160000x96_1_0_0_1_n_n : DotDims S160000x96 S96x96 S160000x96 where
  lhsContracting := [1]
  rhsContracting := [0]
  lhsNonContracting := [0]
  rhsNonContracting := [1]
  lhsBatch := []
  rhsBatch := []
  wf := dot_S160000x96_S96x96_S160000x96_1_0_0_1_n_n_wf
def scatter_S160000x25x32_S3x1_S160000x3x32_02_1_1_1 : ScatterDims S160000x25x32 S3x1 S160000x3x32 where
  updateWindowDims := [0, 2]
  insertedWindowDims := [1]
  scatterDimsToOperandDims := [1]
  indexVectorDim := 1
  wf := scatter_S160000x25x32_S3x1_S160000x3x32_02_1_1_1_wf
def gather_S160000x25x32_S2x1_S160000x2x32_02_1_n_n_1_1_160000132 : GatherDims S160000x25x32 S2x1 S160000x2x32 where
  offsetDims := [0, 2]
  collapsedSliceDims := [1]
  operandBatchingDims := []
  startIndicesBatchingDims := []
  startIndexMap := [1]
  indexVectorDim := 1
  sliceSizes := ![160000, 1, 32]
  wf := gather_S160000x25x32_S2x1_S160000x2x32_02_1_n_n_1_1_160000132_wf
def dot_S160000x64_S64x64_S160000x64_1_0_0_1_n_n : DotDims S160000x64 S64x64 S160000x64 where
  lhsContracting := [1]
  rhsContracting := [0]
  lhsNonContracting := [0]
  rhsNonContracting := [1]
  lhsBatch := []
  rhsBatch := []
  wf := dot_S160000x64_S64x64_S160000x64_1_0_0_1_n_n_wf
def scatter_S160000x25x32_S2x1_S160000x2x32_02_1_1_1 : ScatterDims S160000x25x32 S2x1 S160000x2x32 where
  updateWindowDims := [0, 2]
  insertedWindowDims := [1]
  scatterDimsToOperandDims := [1]
  indexVectorDim := 1
  wf := scatter_S160000x25x32_S2x1_S160000x2x32_02_1_1_1_wf
def gather_S160000x25x32_S1x1_S160000x1x32_02_1_n_n_1_1_160000132 : GatherDims S160000x25x32 S1x1 S160000x1x32 where
  offsetDims := [0, 2]
  collapsedSliceDims := [1]
  operandBatchingDims := []
  startIndicesBatchingDims := []
  startIndexMap := [1]
  indexVectorDim := 1
  sliceSizes := ![160000, 1, 32]
  wf := gather_S160000x25x32_S1x1_S160000x1x32_02_1_n_n_1_1_160000132_wf
def dot_S160000x32_S32x32_S160000x32_1_0_0_1_n_n : DotDims S160000x32 S32x32 S160000x32 where
  lhsContracting := [1]
  rhsContracting := [0]
  lhsNonContracting := [0]
  rhsNonContracting := [1]
  lhsBatch := []
  rhsBatch := []
  wf := dot_S160000x32_S32x32_S160000x32_1_0_0_1_n_n_wf
def scatter_S160000x25x32_S1x1_S160000x1x32_02_1_1_1 : ScatterDims S160000x25x32 S1x1 S160000x1x32 where
  updateWindowDims := [0, 2]
  insertedWindowDims := [1]
  scatterDimsToOperandDims := [1]
  indexVectorDim := 1
  wf := scatter_S160000x25x32_S1x1_S160000x1x32_02_1_1_1_wf
def dot_S160000x64_S64x160_S160000x160_1_0_0_1_n_n : DotDims S160000x64 S64x160 S160000x160 where
  lhsContracting := [1]
  rhsContracting := [0]
  lhsNonContracting := [0]
  rhsNonContracting := [1]
  lhsBatch := []
  rhsBatch := []
  wf := dot_S160000x64_S64x160_S160000x160_1_0_0_1_n_n_wf
def gather_S160000x5x32_S25x1_S160000x25x32_02_1_n_n_1_1_160000132 : GatherDims S160000x5x32 S25x1 S160000x25x32 where
  offsetDims := [0, 2]
  collapsedSliceDims := [1]
  operandBatchingDims := []
  startIndicesBatchingDims := []
  startIndexMap := [1]
  indexVectorDim := 1
  sliceSizes := ![160000, 1, 32]
  wf := gather_S160000x5x32_S25x1_S160000x25x32_02_1_n_n_1_1_160000132_wf
def dot_S160000x25x25_S160000x25x32_S160000x25x32_1_1_2_2_0_0 : DotDims S160000x25x25 S160000x25x32 S160000x25x32 where
  lhsContracting := [1]
  rhsContracting := [1]
  lhsNonContracting := [2]
  rhsNonContracting := [2]
  lhsBatch := [0]
  rhsBatch := [0]
  wf := dot_S160000x25x25_S160000x25x32_S160000x25x32_1_1_2_2_0_0_wf
def scatter_S10000x25x32_S160000x1_S160000x25x32_12_0_0_1 : ScatterDims S10000x25x32 S160000x1 S160000x25x32 where
  updateWindowDims := [1, 2]
  insertedWindowDims := [0]
  scatterDimsToOperandDims := [0]
  indexVectorDim := 1
  wf := scatter_S10000x25x32_S160000x1_S160000x25x32_12_0_0_1_wf

class Facts : Prop extends Facts₀ where

variable [Facts]
-- ==== Proof.Spec.lean ====
/-
  The specification of one edge's message, written twice over plain finite index types.

  For one edge, with Wigner matrix `W` (25 × 25), gathered node features `X` (25 × 32) and radial
  features `f` (64), the message is: rotate (`xr = W · X`), mix the coefficients of each order `m` by the
  SO(2) weights, scale each coefficient of degree `l` by `silu (f · FW + fb)` at `(l, channel)`, rotate back
  by the transpose (`out = Wᵀ · y`).

  `edgeR` spells it as the reference does: the rows of each order are taken out through index tables
  (`idx0`, `pos m`, `neg m`), multiplied by the per-order weights, and put back through the same tables.
  `edgeK` spells it as the kernel does: the rows are permuted once (`permK`: order by order, positive rows
  before negative ones), the 25 · 32 entries are multiplied by ONE block-diagonal 800 × 800 matrix
  (`wbigOf`), and the rotation back is the sum of three products two of which have a zero factor
  (`a - a`). The two are equal when every input entry is a real number.
-/
import Idealize.ShloMosaic.PureOps.Ideal
import Idealize.ShloMosaic.Lib.ValueIdx

noncomputable section

namespace Cert.SO2

open Idealize.ShloMosaic Idealize.ShloMosaic.ValueIdx

/-! ## Index arithmetic on `Fin` -/

/-- The quotient `k / d` of a position below `M * d`. -/
def fdiv (d M : ℕ) {N : ℕ} (h : N ≤ M * d) (hd : 0 < d) (k : Fin N) : Fin M :=
  ⟨k.val / d, (Nat.div_lt_iff_lt_mul hd).2 (lt_of_lt_of_le k.isLt h)⟩
/-- The remainder `k % d`. -/
def fmod (d : ℕ) {N : ℕ} (hd : 0 < d) (k : Fin N) : Fin d := ⟨k.val % d, Nat.mod_lt _ hd⟩
/-- The position `p * d + c` of entry `c` of row `p`. -/
def fcat {M d : ℕ} (N : ℕ) (h : M * d ≤ N) (p : Fin M) (c : Fin d) : Fin N :=
  ⟨p.val * d + c.val, lt_of_lt_of_le (by
    calc p.val * d + c.val < p.val * d + d := Nat.add_lt_add_left c.isLt _
      _ = (p.val + 1) * d := by ring
      _ ≤ M * d := Nat.mul_le_mul_right d p.isLt) h⟩

@[simp] theorem fdiv_val (d M : ℕ) {N : ℕ} (h : N ≤ M * d) (hd : 0 < d) (k : Fin N) : (fdiv d M h hd k).val = k.val / d := rfl
@[simp] theorem fmod_val (d : ℕ) {N : ℕ} (hd : 0 < d) (k : Fin N) : (fmod d hd k).val = k.val % d := rfl
@[simp] theorem fcat_val {M d : ℕ} (N : ℕ) (h : M * d ≤ N) (p : Fin M) (c : Fin d) : (fcat N h p c).val = p.val * d + c.val := rfl

/-- An extended real that is a real number. -/
def IsReal (x : EReal) : Prop := ∃ r : ℝ, x = (r : EReal)

/-! ## The tables -/

/-- The kernel's row order: the rows of order 0, then for each order `m = 1 … 4` its positive rows and its negative rows. -/
def permK : Fin 25 → Fin 25 := ![0, 2, 6, 12, 20, 3, 7, 13, 21, 1, 5, 11, 19, 8, 14, 22, 4, 10, 18, 15, 23, 9, 17, 24, 16]
/-- The degree of the kernel's row `p` (what the kernel's slices of the scale pick). -/
def kdeg : Fin 25 → Fin 5 := ![0, 1, 2, 3, 4, 1, 2, 3, 4, 1, 2, 3, 4, 2, 3, 4, 2, 3, 4, 3, 4, 3, 4, 4, 4]
/-- The degree `l` of coefficient `j = l² + l + m`. -/
def degR : Fin 25 → Fin 5 := ![0, 1, 1, 1, 2, 2, 2, 2, 2, 3, 3, 3, 3, 3, 3, 3, 4, 4, 4, 4, 4, 4, 4, 4, 4]
/-- The coefficients of order 0, by degree. -/
def idx0 : Fin 5 → Fin 25 := ![0, 2, 6, 12, 20]
/-- The coefficients of order `+m` and `-m`, by degree from `m` up. -/
def pos1 : Fin 4 → Fin 25 := ![3, 7, 13, 21]
def neg1 : Fin 4 → Fin 25 := ![1, 5, 11, 19]
def pos2 : Fin 3 → Fin 25 := ![8, 14, 22]
def neg2 : Fin 3 → Fin 25 := ![4, 10, 18]
def pos3 : Fin 2 → Fin 25 := ![15, 23]
def neg3 : Fin 2 → Fin 25 := ![9, 17]
def pos4 : Fin 1 → Fin 25 := ![24]
def neg4 : Fin 1 → Fin 25 := ![16]

/-! ## Shared pieces -/

/-- The rotation into the edge's frame: `xr i c = ∑ j, W i j * X j c`. -/
def rot (W : Fin 25 → Fin 25 → EReal) (X : Fin 25 → Fin 32 → EReal) (i : Fin 25) (c : Fin 32) : EReal := ∑ j, W i j * X j c

/-- The radial network before its activation: `z n = ∑ k, f k * FW k n + fb n`. -/
def radial (f : Fin 64 → EReal) (FW : Fin 64 → Fin 160 → EReal) (fb : Fin 160 → EReal) (n : Fin 160) : EReal :=
  (∑ k, f k * FW k n) + fb n

/-! ## The reference's spelling -/

/-- `L` rows of `xr` taken through a table and laid side by side: entry `a * 32 + c` is `xr (tbl a) c`. -/
def takeRows {L : ℕ} (N : ℕ) (h : N ≤ L * 32) (tbl : Fin L → Fin 25) (xr : Fin 25 → Fin 32 → EReal) (k : Fin N) : EReal :=
  xr (tbl (fdiv 32 L h (by decide) k)) (fmod 32 (by decide) k)

/-- A vector times a matrix. -/
def vecMat {N : ℕ} (v : Fin N → EReal) (A : Fin N → Fin N → EReal) (n : Fin N) : EReal := ∑ k, v k * A k n

/-- The first position of `j` in a table, if any. -/
def findRow {L : ℕ} (tbl : Fin L → Fin 25) (j : Fin 25) : Option (Fin L) := (List.finRange L).find? (fun l => decide (tbl l = j))

/-- Rows `tbl l` of `base` replaced by row `l` of `u` (`u` given flat: entry `l * 32 + c`). -/
def setRows {L : ℕ} (N : ℕ) (h : L * 32 ≤ N) (tbl : Fin L → Fin 25) (u : Fin N → EReal) (base : Fin 25 → Fin 32 → EReal) :
    Fin 25 → Fin 32 → EReal :=
  fun j c => match findRow tbl j with
    | some l => u (fcat N h l c)
    | none => base j c

/-- The SiLU as the reference spells it: `z * (1 / (1 + exp (-z)))`. -/
def siluR (z : EReal) : EReal := z * Ideal.div 1 (1 + Ideal.exp (-z))

/-- The mixed coefficients as the reference computes them: order 0 by `w0`; order `m` by
    `yp = xp · Wr - xn · Wi`, `yn = xp · Wi + xn · Wr`; each put back at its rows, over zeros. -/
def mixR (xr : Fin 25 → Fin 32 → EReal)
    (w0 : Fin 160 → Fin 160 → EReal) (w1r w1i : Fin 128 → Fin 128 → EReal) (w2r w2i : Fin 96 → Fin 96 → EReal)
    (w3r w3i : Fin 64 → Fin 64 → EReal) (w4r w4i : Fin 32 → Fin 32 → EReal) : Fin 25 → Fin 32 → EReal :=
  let x0 := takeRows 160 (by decide) idx0 xr
  let xp1 := takeRows 128 (by decide) pos1 xr
  let xn1 := takeRows 128 (by decide) neg1 xr
  let xp2 := takeRows 96 (by decide) pos2 xr
  let xn2 := takeRows 96 (by decide) neg2 xr
  let xp3 := takeRows 64 (by decide) pos3 xr
  let xn3 := takeRows 64 (by decide) neg3 xr
  let xp4 := takeRows 32 (by decide) pos4 xr
  let xn4 := takeRows 32 (by decide) neg4 xr
  setRows 32 (by decide) neg4 (fun n => vecMat xp4 w4i n + vecMat xn4 w4r n)
  (setRows 32 (by decide) pos4 (fun n => vecMat xp4 w4r n - vecMat xn4 w4i n)
  (setRows 64 (by decide) neg3 (fun n => vecMat xp3 w3i n + vecMat xn3 w3r n)
  (setRows 64 (by decide) pos3 (fun n => vecMat xp3 w3r n - vecMat xn3 w3i n)
  (setRows 96 (by decide) neg2 (fun n => vecMat xp2 w2i n + vecMat xn2 w2r n)
  (setRows 96 (by decide) pos2 (fun n => vecMat xp2 w2r n - vecMat xn2 w2i n)
  (setRows 128 (by decide) neg1 (fun n => vecMat xp1 w1i n + vecMat xn1 w1r n)
  (setRows 128 (by decide) pos1 (fun n => vecMat xp1 w1r n - vecMat xn1 w1i n)
  (setRows 160 (by decide) idx0 (vecMat x0 w0) (fun _ _ => 0)))))))))

/-- One edge's message as the reference computes it. -/
def edgeR (W : Fin 25 → Fin 25 → EReal) (X : Fin 25 → Fin 32 → EReal) (f : Fin 64 → EReal)
    (w0 : Fin 160 → Fin 160 → EReal) (w1r w1i : Fin 128 → Fin 128 → EReal) (w2r w2i : Fin 96 → Fin 96 → EReal)
    (w3r w3i : Fin 64 → Fin 64 → EReal) (w4r w4i : Fin 32 → Fin 32 → EReal)
    (FW : Fin 64 → Fin 160 → EReal) (fb : Fin 160 → EReal) (i : Fin 25) (c : Fin 32) : EReal :=
  ∑ j, W j i * (mixR (rot W X) w0 w1r w1i w2r w2i w3r w3i w4r w4i j c
      * siluR (radial f FW fb (fcat 160 (by decide) (degR j) c)))

/-! ## The kernel's spelling -/

/-- The 2 × 2 block matrix `[[Wr, Wi], [-Wi, Wr]]`. -/
def mblockOf {n N : ℕ} (h : N = n + n) (Wr Wi : Fin n → Fin n → EReal) : Fin N → Fin N → EReal :=
  fun a b =>
    if ha : a.val < n then
      (if hb : b.val < n then Wr ⟨a.val, ha⟩ ⟨b.val, hb⟩ else Wi ⟨a.val, ha⟩ ⟨b.val - n, by have := b.isLt; omega⟩)
    else
      (if hb : b.val < n then -(Wi ⟨a.val - n, by have := a.isLt; omega⟩ ⟨b.val, hb⟩)
        else Wr ⟨a.val - n, by have := a.isLt; omega⟩ ⟨b.val - n, by have := b.isLt; omega⟩)

/-- `base` with the square block `Bk` written at `(off, off)`. -/
def placeBlock (off n : ℕ) (Bk : Fin n → Fin n → EReal) (base : Fin 800 → Fin 800 → EReal) : Fin 800 → Fin 800 → EReal :=
  fun k q =>
    if h : (off ≤ k.val ∧ k.val < off + n) ∧ (off ≤ q.val ∧ q.val < off + n) then
      Bk ⟨k.val - off, by omega⟩ ⟨q.val - off, by omega⟩
    else base k q

/-- The block-diagonal 800 × 800 weight: `w0` at 0, then the block matrices of orders 1 to 4 at 160, 416, 608, 736. -/
def wbigOf (w0 : Fin 160 → Fin 160 → EReal) (w1r w1i : Fin 128 → Fin 128 → EReal) (w2r w2i : Fin 96 → Fin 96 → EReal)
    (w3r w3i : Fin 64 → Fin 64 → EReal) (w4r w4i : Fin 32 → Fin 32 → EReal) : Fin 800 → Fin 800 → EReal :=
  placeBlock 736 64 (mblockOf (N := 64) rfl w4r w4i)
  (placeBlock 608 128 (mblockOf (N := 128) rfl w3r w3i)
  (placeBlock 416 192 (mblockOf (N := 192) rfl w2r w2i)
  (placeBlock 160 256 (mblockOf (N := 256) rfl w1r w1i)
  (placeBlock 0 160 w0 (fun _ _ => 0)))))

/-- One edge's message as the kernel computes it, from the block-diagonal weight `B`. -/
def edgeK (W : Fin 25 → Fin 25 → EReal) (X : Fin 25 → Fin 32 → EReal) (f : Fin 64 → EReal)
    (B : Fin 800 → Fin 800 → EReal) (FW : Fin 64 → Fin 160 → EReal) (fb : Fin 160 → EReal) (i : Fin 25) (c : Fin 32) : EReal :=
  let Wp : Fin 25 → Fin 25 → EReal := fun p j => W (permK p) j
  let xrflat : Fin 800 → EReal := fun k => rot Wp X (fdiv 32 25 (by decide) (by decide) k) (fmod 32 (by decide) k)
  let y62 : Fin 25 → Fin 32 → EReal := fun p c' =>
    (∑ k, xrflat k * B k (fcat 800 (by decide) p c'))
      * (radial f FW fb (fcat 160 (by decide) (kdeg p) c') * Ideal.logistic (radial f FW fb (fcat 160 (by decide) (kdeg p) c')))
  ((∑ p, Wp p i * y62 p c) + (∑ p, Wp p i * (y62 p c - y62 p c))) + (∑ p, (Wp p i - Wp p i) * y62 p c)

/-! ## The shapes of the whole arrays, and the two programs' shared ends -/

abbrev SN : Shape := ⟨3, ![10000, 25, 32]⟩
abbrev SE : Shape := ⟨1, ![160000]⟩
abbrev SEx1 : Shape := ⟨2, ![160000, 1]⟩
abbrev SEX : Shape := ⟨3, ![160000, 25, 32]⟩
abbrev SEW : Shape := ⟨3, ![160000, 25, 25]⟩
abbrev SEF : Shape := ⟨2, ![160000, 64]⟩
abbrev S0 : Shape := ⟨0, ![]⟩

/-- The node features gathered to the edges: a negative source index counted from the end, then the gather (which clamps). -/
def xeOf (gd : GatherDims SN SEx1 SEX) (hb : S0.BroadcastsInDim SE (![] : Fin 0 → Fin SE.rank))
    (hb1 : SE.BroadcastsInDim SEx1 (![0] : Fin 1 → Fin SEx1.rank)) (x : SN.Idx → EReal) (src : SE.Idx → BitVec 32) : SEX.Idx → EReal :=
  Host.gather gd x (broadcastInDim SEx1 ![0] hb1
    (select (cmpi .slt src (broadcastInDim SE ![] hb (constantI S0 32 0#32)))
      (addi src (broadcastInDim SE ![] hb (constantI S0 32 10000#32))) src))

/-- The messages summed at their destination nodes. -/
def finalOf (sd : ScatterDims SN SEx1 SEX) (hb0 : S0.BroadcastsInDim SN (![] : Fin 0 → Fin SN.rank))
    (hb1 : SE.BroadcastsInDim SEx1 (![0] : Fin 1 → Fin SEx1.rank)) (dst : SE.Idx → BitVec 32) (Y : SEX.Idx → EReal) : SN.Idx → EReal :=
  Host.scatterAdd (F := Ideal) (φ := .f32) sd (broadcastInDim SN ![] hb0 (constant (F := Ideal) S0 .f32 0x00000000#32))
    (broadcastInDim SEx1 ![0] hb1 dst) Y

/-- Every edge's message as the reference computes it. -/
def msgR (xe : SEX.Idx → EReal) (wig : SEW.Idx → EReal) (efc : SEF.Idx → EReal)
    (w0 : Fin 160 → Fin 160 → EReal) (w1r w1i : Fin 128 → Fin 128 → EReal) (w2r w2i : Fin 96 → Fin 96 → EReal)
    (w3r w3i : Fin 64 → Fin 64 → EReal) (w4r w4i : Fin 32 → Fin 32 → EReal)
    (FW : Fin 64 → Fin 160 → EReal) (fb : Fin 160 → EReal) : SEX.Idx → EReal :=
  fun j => edgeR (fun a b => wig (ix3 (j 0 : Fin 160000) a b)) (fun a b => xe (ix3 (j 0 : Fin 160000) a b))
    (fun k => efc (ix2 (j 0 : Fin 160000) k)) w0 w1r w1i w2r w2i w3r w3i w4r w4i FW fb (j 1 : Fin 25) (j 2 : Fin 32)

/-- Every edge's message as the kernel computes it. -/
def msgK (xe : SEX.Idx → EReal) (wig : SEW.Idx → EReal) (efc : SEF.Idx → EReal)
    (B : Fin 800 → Fin 800 → EReal) (FW : Fin 64 → Fin 160 → EReal) (fb : Fin 160 → EReal) : SEX.Idx → EReal :=
  fun j => edgeK (fun a b => wig (ix3 (j 0 : Fin 160000) a b)) (fun a b => xe (ix3 (j 0 : Fin 160000) a b))
    (fun k => efc (ix2 (j 0 : Fin 160000) k)) B FW fb (j 1 : Fin 25) (j 2 : Fin 32)

/-- A rank-2 array as a matrix over its two coordinates. -/
abbrev mat2 {a b : ℕ} (x : (⟨2, ![a, b]⟩ : Shape).Idx → EReal) : Fin a → Fin b → EReal := fun i j => x (ix2 i j)
/-- A rank-1 array as a vector over its coordinate. -/
abbrev vec1 {a : ℕ} (x : (⟨1, ![a]⟩ : Shape).Idx → EReal) : Fin a → EReal := fun i => x (ix1 i)

/-! ## Facts about the tables, by evaluation -/

theorem permK_bijective : Function.Bijective permK := by decide
theorem degR_permK : ∀ p, degR (permK p) = kdeg p := by decide

end Cert.SO2

end
-- ==== Proof.Mix.lean ====
import proofs.«415867_j71554155151872_2_alg».proof.Proof.Spec
import Mathlib.Algebra.BigOperators.Group.Finset.Basic
import Mathlib.Algebra.BigOperators.Fin
import Mathlib.Data.EReal.Operations

noncomputable section

namespace Cert.SO2

open Idealize.ShloMosaic

/-! ## Real entries -/

private theorem IsReal.ne_bot {x : EReal} (h : IsReal x) : x ≠ ⊥ := by
  obtain ⟨r, rfl⟩ := h; exact EReal.coe_ne_bot r
private theorem IsReal.ne_top {x : EReal} (h : IsReal x) : x ≠ ⊤ := by
  obtain ⟨r, rfl⟩ := h; exact EReal.coe_ne_top r
private theorem IsReal.zero : IsReal 0 := ⟨0, rfl⟩
private theorem IsReal.add {x y : EReal} (hx : IsReal x) (hy : IsReal y) : IsReal (x + y) := by
  obtain ⟨r, rfl⟩ := hx; obtain ⟨s, rfl⟩ := hy; exact ⟨r + s, (EReal.coe_add r s).symm⟩
private theorem IsReal.mul {x y : EReal} (hx : IsReal x) (hy : IsReal y) : IsReal (x * y) := by
  obtain ⟨r, rfl⟩ := hx; obtain ⟨s, rfl⟩ := hy; exact ⟨r * s, (EReal.coe_mul r s).symm⟩
private theorem IsReal.neg {x : EReal} (hx : IsReal x) : IsReal (-x) := by
  obtain ⟨r, rfl⟩ := hx; exact ⟨-r, (EReal.coe_neg r).symm⟩
private theorem IsReal.sub {x y : EReal} (hx : IsReal x) (hy : IsReal y) : IsReal (x - y) := by
  obtain ⟨r, rfl⟩ := hx; obtain ⟨s, rfl⟩ := hy; exact ⟨r - s, (EReal.coe_sub r s).symm⟩
private theorem IsReal.sum {ι : Type*} (s : Finset ι) (f : ι → EReal) (hf : ∀ i, IsReal (f i)) : IsReal (∑ i ∈ s, f i) := by
  classical
  induction s using Finset.induction_on with
  | empty => simpa using IsReal.zero
  | insert a s ha ih => rw [Finset.sum_insert ha]; exact (hf a).add ih

/-- The negation of a finite sum of real numbers is the sum of the negations. -/
private theorem sum_neg_real {ι : Type*} (s : Finset ι) (f : ι → EReal) (hf : ∀ i, IsReal (f i)) :
    ∑ i ∈ s, -(f i) = -(∑ i ∈ s, f i) := by
  classical
  induction s using Finset.induction_on with
  | empty => simp
  | insert a s ha ih =>
    rw [Finset.sum_insert ha, Finset.sum_insert ha, ih,
      EReal.neg_add (Or.inl (hf a).ne_bot) (Or.inl (hf a).ne_top), sub_eq_add_neg]

/-! ## A sum against a column supported on a block of rows -/

/-- If `G` vanishes outside the rows `off … off + n - 1` and reads `F` there, the sum over all rows is the sum over the block. -/
private theorem sum_block {N : ℕ} (off n : ℕ) (hN : off + n ≤ N) (Y G : Fin N → EReal) (F : Fin n → EReal)
    (hG : ∀ k : Fin N, G k = if h : off ≤ k.val ∧ k.val < off + n then F ⟨k.val - off, by omega⟩ else 0) :
    ∑ k, Y k * G k = ∑ a : Fin n, Y ⟨off + a.val, by have := a.isLt; omega⟩ * F a := by
  symm
  refine Finset.sum_of_injOn (fun a : Fin n => (⟨off + a.val, by have := a.isLt; omega⟩ : Fin N)) ?_ ?_ ?_ ?_
  · intro a _ b _ hab
    have := congrArg Fin.val hab
    ext; simp only at this; omega
  · intro a _; exact Finset.mem_coe.2 (Finset.mem_univ _)
  · intro k _ hk
    rw [hG k]
    split
    · rename_i h
      exact absurd ⟨⟨k.val - off, by omega⟩, by simp, by ext; simp; omega⟩ hk
    · exact mul_zero _
  · intro a _
    rw [hG]
    have h : off ≤ off + a.val ∧ off + a.val < off + n := ⟨by omega, by have := a.isLt; omega⟩
    simp only [h, and_self, dif_pos]
    congr 2
    ext; simp

/-! ## A row vector against the block matrix `[[Wr, Wi], [-Wi, Wr]]` -/

private theorem mblockOf_ll {n N : ℕ} (h : N = n + n) (Wr Wi : Fin n → Fin n → EReal) (a b : Fin n) :
    mblockOf h Wr Wi ⟨a.val, by have := a.isLt; omega⟩ ⟨b.val, by have := b.isLt; omega⟩ = Wr a b := by
  unfold mblockOf; simp
private theorem mblockOf_lr {n N : ℕ} (h : N = n + n) (Wr Wi : Fin n → Fin n → EReal) (a b : Fin n) :
    mblockOf h Wr Wi ⟨a.val, by have := a.isLt; omega⟩ ⟨n + b.val, by have := b.isLt; omega⟩ = Wi a b := by
  unfold mblockOf; simp
private theorem mblockOf_rl {n N : ℕ} (h : N = n + n) (Wr Wi : Fin n → Fin n → EReal) (a b : Fin n) :
    mblockOf h Wr Wi ⟨n + a.val, by have := a.isLt; omega⟩ ⟨b.val, by have := b.isLt; omega⟩ = -(Wi a b) := by
  unfold mblockOf; simp
private theorem mblockOf_rr {n N : ℕ} (h : N = n + n) (Wr Wi : Fin n → Fin n → EReal) (a b : Fin n) :
    mblockOf h Wr Wi ⟨n + a.val, by have := a.isLt; omega⟩ ⟨n + b.val, by have := b.isLt; omega⟩ = Wr a b := by
  unfold mblockOf; simp

/-- A sum over `n + n` rows splits in its two halves. -/
private theorem sum_halves {n N : ℕ} (h : N = n + n) (f : Fin N → EReal) :
    ∑ a : Fin N, f a = (∑ a : Fin n, f ⟨a.val, by have := a.isLt; omega⟩) + ∑ a : Fin n, f ⟨n + a.val, by have := a.isLt; omega⟩ := by
  subst h
  rw [Fin.sum_univ_add]
  rfl

/-- The column `b` of the first half: `Yp · Wr - Yn · Wi`; of the second half: `Yp · Wi + Yn · Wr`. -/
private theorem sum_mblock {n N : ℕ} (h : N = n + n) (Y : Fin N → EReal) (Wr Wi : Fin n → Fin n → EReal)
    (hY : ∀ a, IsReal (Y a)) (hi : ∀ a b, IsReal (Wi a b)) (b : Fin n) :
    (∑ a : Fin N, Y a * mblockOf h Wr Wi a ⟨b.val, by have := b.isLt; omega⟩
        = (∑ a : Fin n, Y ⟨a.val, by have := a.isLt; omega⟩ * Wr a b) - ∑ a : Fin n, Y ⟨n + a.val, by have := a.isLt; omega⟩ * Wi a b)
    ∧ (∑ a : Fin N, Y a * mblockOf h Wr Wi a ⟨n + b.val, by have := b.isLt; omega⟩
        = (∑ a : Fin n, Y ⟨a.val, by have := a.isLt; omega⟩ * Wi a b) + ∑ a : Fin n, Y ⟨n + a.val, by have := a.isLt; omega⟩ * Wr a b) := by
  constructor
  · rw [sum_halves h, sub_eq_add_neg, ← sum_neg_real _ _ (fun a => (hY _).mul (hi a b))]
    congr 1
    · exact Finset.sum_congr rfl (fun a _ => by rw [mblockOf_ll])
    · exact Finset.sum_congr rfl (fun a _ => by rw [mblockOf_rl, mul_neg])
  · rw [sum_halves h]
    congr 1
    · exact Finset.sum_congr rfl (fun a _ => by rw [mblockOf_lr])
    · exact Finset.sum_congr rfl (fun a _ => by rw [mblockOf_rr])

/-! ## The columns of the block-diagonal weight -/

private theorem placeBlock_other (off n : ℕ) (Bk : Fin n → Fin n → EReal) (base : Fin 800 → Fin 800 → EReal) (k q : Fin 800)
    (hq : ¬(off ≤ q.val ∧ q.val < off + n)) : placeBlock off n Bk base k q = base k q := by
  unfold placeBlock
  rw [dif_neg (fun h => hq h.2)]

private theorem placeBlock_self (off n : ℕ) (Bk : Fin n → Fin n → EReal) (base : Fin 800 → Fin 800 → EReal) (k q : Fin 800)
    (hq : off ≤ q.val ∧ q.val < off + n) :
    placeBlock off n Bk base k q
      = if h : off ≤ k.val ∧ k.val < off + n then Bk ⟨k.val - off, by omega⟩ ⟨q.val - off, by omega⟩ else base k q := by
  unfold placeBlock
  by_cases hk : off ≤ k.val ∧ k.val < off + n
  · rw [dif_pos ⟨hk, hq⟩, dif_pos hk]
  · rw [dif_neg (fun h => hk h.1), dif_neg hk]

private theorem wbig_col0 (w0 : Fin 160 → Fin 160 → EReal) (w1r w1i : Fin 128 → Fin 128 → EReal) (w2r w2i : Fin 96 → Fin 96 → EReal)
    (w3r w3i : Fin 64 → Fin 64 → EReal) (w4r w4i : Fin 32 → Fin 32 → EReal) (k q : Fin 800) (hq : 0 ≤ q.val ∧ q.val < 0 + 160) :
    wbigOf w0 w1r w1i w2r w2i w3r w3i w4r w4i k q
      = if h : 0 ≤ k.val ∧ k.val < 0 + 160 then w0 ⟨k.val - 0, by omega⟩ ⟨q.val - 0, by omega⟩ else 0 := by
  unfold wbigOf
  rw [placeBlock_other 736 64 _ _ k q (by omega), placeBlock_other 608 128 _ _ k q (by omega),
    placeBlock_other 416 192 _ _ k q (by omega), placeBlock_other 160 256 _ _ k q (by omega),
    placeBlock_self 0 160 _ _ k q hq]

private theorem wbig_col1 (w0 : Fin 160 → Fin 160 → EReal) (w1r w1i : Fin 128 → Fin 128 → EReal) (w2r w2i : Fin 96 → Fin 96 → EReal)
    (w3r w3i : Fin 64 → Fin 64 → EReal) (w4r w4i : Fin 32 → Fin 32 → EReal) (k q : Fin 800) (hq : 160 ≤ q.val ∧ q.val < 160 + 256) :
    wbigOf w0 w1r w1i w2r w2i w3r w3i w4r w4i k q
      = if h : 160 ≤ k.val ∧ k.val < 160 + 256 then mblockOf (N := 256) rfl w1r w1i ⟨k.val - 160, by omega⟩ ⟨q.val - 160, by omega⟩ else 0 := by
  unfold wbigOf
  rw [placeBlock_other 736 64 _ _ k q (by omega), placeBlock_other 608 128 _ _ k q (by omega),
    placeBlock_other 416 192 _ _ k q (by omega), placeBlock_self 160 256 _ _ k q hq,
    placeBlock_other 0 160 _ _ k q (by omega)]

private theorem wbig_col2 (w0 : Fin 160 → Fin 160 → EReal) (w1r w1i : Fin 128 → Fin 128 → EReal) (w2r w2i : Fin 96 → Fin 96 → EReal)
    (w3r w3i : Fin 64 → Fin 64 → EReal) (w4r w4i : Fin 32 → Fin 32 → EReal) (k q : Fin 800) (hq : 416 ≤ q.val ∧ q.val < 416 + 192) :
    wbigOf w0 w1r w1i w2r w2i w3r w3i w4r w4i k q
      = if h : 416 ≤ k.val ∧ k.val < 416 + 192 then mblockOf (N := 192) rfl w2r w2i ⟨k.val - 416, by omega⟩ ⟨q.val - 416, by omega⟩ else 0 := by
  unfold wbigOf
  rw [placeBlock_other 736 64 _ _ k q (by omega), placeBlock_other 608 128 _ _ k q (by omega),
    placeBlock_self 416 192 _ _ k q hq, placeBlock_other 160 256 _ _ k q (by omega),
    placeBlock_other 0 160 _ _ k q (by omega)]

private theorem wbig_col3 (w0 : Fin 160 → Fin 160 → EReal) (w1r w1i : Fin 128 → Fin 128 → EReal) (w2r w2i : Fin 96 → Fin 96 → EReal)
    (w3r w3i : Fin 64 → Fin 64 → EReal) (w4r w4i : Fin 32 → Fin 32 → EReal) (k q : Fin 800) (hq : 608 ≤ q.val ∧ q.val < 608 + 128) :
    wbigOf w0 w1r w1i w2r w2i w3r w3i w4r w4i k q
      = if h : 608 ≤ k.val ∧ k.val < 608 + 128 then mblockOf (N := 128) rfl w3r w3i ⟨k.val - 608, by omega⟩ ⟨q.val - 608, by omega⟩ else 0 := by
  unfold wbigOf
  rw [placeBlock_other 736 64 _ _ k q (by omega), placeBlock_self 608 128 _ _ k q hq,
    placeBlock_other 416 192 _ _ k q (by omega), placeBlock_other 160 256 _ _ k q (by omega),
    placeBlock_other 0 160 _ _ k q (by omega)]

private theorem wbig_col4 (w0 : Fin 160 → Fin 160 → EReal) (w1r w1i : Fin 128 → Fin 128 → EReal) (w2r w2i : Fin 96 → Fin 96 → EReal)
    (w3r w3i : Fin 64 → Fin 64 → EReal) (w4r w4i : Fin 32 → Fin 32 → EReal) (k q : Fin 800) (hq : 736 ≤ q.val ∧ q.val < 736 + 64) :
    wbigOf w0 w1r w1i w2r w2i w3r w3i w4r w4i k q
      = if h : 736 ≤ k.val ∧ k.val < 736 + 64 then mblockOf (N := 64) rfl w4r w4i ⟨k.val - 736, by omega⟩ ⟨q.val - 736, by omega⟩ else 0 := by
  unfold wbigOf
  rw [placeBlock_self 736 64 _ _ k q hq, placeBlock_other 608 128 _ _ k q (by omega),
    placeBlock_other 416 192 _ _ k q (by omega), placeBlock_other 160 256 _ _ k q (by omega),
    placeBlock_other 0 160 _ _ k q (by omega)]

/-! ## The reference's mixed coefficients, row by row

  Row `permK p` is written by exactly one of the nine `setRows`; which one, and at which position of its table, is found by
  evaluating the tables. -/

private theorem mixR_row_idx0 (xr : Fin 25 → Fin 32 → EReal) (w0 : Fin 160 → Fin 160 → EReal) (w1r w1i : Fin 128 → Fin 128 → EReal) (w2r w2i : Fin 96 → Fin 96 → EReal)
    (w3r w3i : Fin 64 → Fin 64 → EReal) (w4r w4i : Fin 32 → Fin 32 → EReal) (l : Fin 5) (c : Fin 32) :
    mixR xr w0 w1r w1i w2r w2i w3r w3i w4r w4i (permK ⟨0 + l.val, by have := l.isLt; omega⟩) c
      = vecMat (takeRows 160 (by decide) idx0 xr) w0 (fcat 160 (by decide) l c) := by
  fin_cases l <;> rfl

private theorem mixR_row_pos1 (xr : Fin 25 → Fin 32 → EReal) (w0 : Fin 160 → Fin 160 → EReal) (w1r w1i : Fin 128 → Fin 128 → EReal) (w2r w2i : Fin 96 → Fin 96 → EReal)
    (w3r w3i : Fin 64 → Fin 64 → EReal) (w4r w4i : Fin 32 → Fin 32 → EReal) (l : Fin 4) (c : Fin 32) :
    mixR xr w0 w1r w1i w2r w2i w3r w3i w4r w4i (permK ⟨5 + l.val, by have := l.isLt; omega⟩) c
      = vecMat (takeRows 128 (by decide) pos1 xr) w1r (fcat 128 (by decide) l c)
        - vecMat (takeRows 128 (by decide) neg1 xr) w1i (fcat 128 (by decide) l c) := by
  fin_cases l <;> rfl

private theorem mixR_row_neg1 (xr : Fin 25 → Fin 32 → EReal) (w0 : Fin 160 → Fin 160 → EReal) (w1r w1i : Fin 128 → Fin 128 → EReal) (w2r w2i : Fin 96 → Fin 96 → EReal)
    (w3r w3i : Fin 64 → Fin 64 → EReal) (w4r w4i : Fin 32 → Fin 32 → EReal) (l : Fin 4) (c : Fin 32) :
    mixR xr w0 w1r w1i w2r w2i w3r w3i w4r w4i (permK ⟨9 + l.val, by have := l.isLt; omega⟩) c
      = vecMat (takeRows 128 (by decide) pos1 xr) w1i (fcat 128 (by decide) l c)
        + vecMat (takeRows 128 (by decide) neg1 xr) w1r (fcat 128 (by decide) l c) := by
  fin_cases l <;> rfl

private theorem mixR_row_pos2 (xr : Fin 25 → Fin 32 → EReal) (w0 : Fin 160 → Fin 160 → EReal) (w1r w1i : Fin 128 → Fin 128 → EReal) (w2r w2i : Fin 96 → Fin 96 → EReal)
    (w3r w3i : Fin 64 → Fin 64 → EReal) (w4r w4i : Fin 32 → Fin 32 → EReal) (l : Fin 3) (c : Fin 32) :
    mixR xr w0 w1r w1i w2r w2i w3r w3i w4r w4i (permK ⟨13 + l.val, by have := l.isLt; omega⟩) c
      = vecMat (takeRows 96 (by decide) pos2 xr) w2r (fcat 96 (by decide) l c)
        - vecMat (takeRows 96 (by decide) neg2 xr) w2i (fcat 96 (by decide) l c) := by
  fin_cases l <;> rfl

private theorem mixR_row_neg2 (xr : Fin 25 → Fin 32 → EReal) (w0 : Fin 160 → Fin 160 → EReal) (w1r w1i : Fin 128 → Fin 128 → EReal) (w2r w2i : Fin 96 → Fin 96 → EReal)
    (w3r w3i : Fin 64 → Fin 64 → EReal) (w4r w4i : Fin 32 → Fin 32 → EReal) (l : Fin 3) (c : Fin 32) :
    mixR xr w0 w1r w1i w2r w2i w3r w3i w4r w4i (permK ⟨16 + l.val, by have := l.isLt; omega⟩) c
      = vecMat (takeRows 96 (by decide) pos2 xr) w2i (fcat 96 (by decide) l c)
        + vecMat (takeRows 96 (by decide) neg2 xr) w2r (fcat 96 (by decide) l c) := by
  fin_cases l <;> rfl

private theorem mixR_row_pos3 (xr : Fin 25 → Fin 32 → EReal) (w0 : Fin 160 → Fin 160 → EReal) (w1r w1i : Fin 128 → Fin 128 → EReal) (w2r w2i : Fin 96 → Fin 96 → EReal)
    (w3r w3i : Fin 64 → Fin 64 → EReal) (w4r w4i : Fin 32 → Fin 32 → EReal) (l : Fin 2) (c : Fin 32) :
    mixR xr w0 w1r w1i w2r w2i w3r w3i w4r w4i (permK ⟨19 + l.val, by have := l.isLt; omega⟩) c
      = vecMat (takeRows 64 (by decide) pos3 xr) w3r (fcat 64 (by decide) l c)
        - vecMat (takeRows 64 (by decide) neg3 xr) w3i (fcat 64 (by decide) l c) := by
  fin_cases l <;> rfl

private theorem mixR_row_neg3 (xr : Fin 25 → Fin 32 → EReal) (w0 : Fin 160 → Fin 160 → EReal) (w1r w1i : Fin 128 → Fin 128 → EReal) (w2r w2i : Fin 96 → Fin 96 → EReal)
    (w3r w3i : Fin 64 → Fin 64 → EReal) (w4r w4i : Fin 32 → Fin 32 → EReal) (l : Fin 2) (c : Fin 32) :
    mixR xr w0 w1r w1i w2r w2i w3r w3i w4r w4i (permK ⟨21 + l.val, by have := l.isLt; omega⟩) c
      = vecMat (takeRows 64 (by decide) pos3 xr) w3i (fcat 64 (by decide) l c)
        + vecMat (takeRows 64 (by decide) neg3 xr) w3r (fcat 64 (by decide) l c) := by
  fin_cases l <;> rfl

private theorem mixR_row_pos4 (xr : Fin 25 → Fin 32 → EReal) (w0 : Fin 160 → Fin 160 → EReal) (w1r w1i : Fin 128 → Fin 128 → EReal) (w2r w2i : Fin 96 → Fin 96 → EReal)
    (w3r w3i : Fin 64 → Fin 64 → EReal) (w4r w4i : Fin 32 → Fin 32 → EReal) (l : Fin 1) (c : Fin 32) :
    mixR xr w0 w1r w1i w2r w2i w3r w3i w4r w4i (permK ⟨23 + l.val, by have := l.isLt; omega⟩) c
      = vecMat (takeRows 32 (by decide) pos4 xr) w4r (fcat 32 (by decide) l c)
        - vecMat (takeRows 32 (by decide) neg4 xr) w4i (fcat 32 (by decide) l c) := by
  fin_cases l <;> rfl

private theorem mixR_row_neg4 (xr : Fin 25 → Fin 32 → EReal) (w0 : Fin 160 → Fin 160 → EReal) (w1r w1i : Fin 128 → Fin 128 → EReal) (w2r w2i : Fin 96 → Fin 96 → EReal)
    (w3r w3i : Fin 64 → Fin 64 → EReal) (w4r w4i : Fin 32 → Fin 32 → EReal) (l : Fin 1) (c : Fin 32) :
    mixR xr w0 w1r w1i w2r w2i w3r w3i w4r w4i (permK ⟨24 + l.val, by have := l.isLt; omega⟩) c
      = vecMat (takeRows 32 (by decide) pos4 xr) w4i (fcat 32 (by decide) l c)
        + vecMat (takeRows 32 (by decide) neg4 xr) w4r (fcat 32 (by decide) l c) := by
  fin_cases l <;> rfl

/-! ## The kernel's side: the permuted, flattened rotation against one column -/

/-- The permuted rotation laid flat: entry `p * 32 + c` is `xr (permK p) c`. -/
private def flatK (xr : Fin 25 → Fin 32 → EReal) (k : Fin 800) : EReal :=
  xr (permK (fdiv 32 25 (by decide) (by decide) k)) (fmod 32 (by decide) k)

/-- If rows `p0 … p0 + L - 1` of the kernel's order are the table `tbl`, the flat entries from `p0 * 32` on are the rows taken through `tbl`. -/
private theorem flatK_shift (xr : Fin 25 → Fin 32 → EReal) {L n : ℕ} (h1 : n ≤ L * 32) (p0 : ℕ) (hp : p0 + L ≤ 25) (tbl : Fin L → Fin 25)
    (htbl : ∀ r : Fin L, permK ⟨p0 + r.val, by have := r.isLt; omega⟩ = tbl r) (a : Fin n) (k : Fin 800)
    (hk : k.val = p0 * 32 + a.val) : flatK xr k = takeRows n h1 tbl xr a := by
  unfold flatK takeRows
  have e1 : fdiv 32 25 (by decide) (by decide) k
      = ⟨p0 + (fdiv 32 L h1 (by decide) a).val, by have := (fdiv 32 L h1 (by decide) a).isLt; omega⟩ :=
    Fin.ext (by simp only [fdiv_val]; omega)
  have e2 : fmod 32 (by decide) k = fmod 32 (by decide) a := Fin.ext (by simp only [fmod_val]; omega)
  rw [e1, e2, htbl]

/-- A column of the first block: the order-0 rows against `w0`. -/
private theorem lhs_block0 (xr : Fin 25 → Fin 32 → EReal) (B : Fin 800 → Fin 800 → EReal) (w0 : Fin 160 → Fin 160 → EReal)
    (hB : ∀ k q : Fin 800, ∀ hq : 0 ≤ q.val ∧ q.val < 0 + 160,
      B k q = if h : 0 ≤ k.val ∧ k.val < 0 + 160 then w0 ⟨k.val - 0, by omega⟩ ⟨q.val - 0, by omega⟩ else 0)
    (l : Fin 5) (c : Fin 32) (q : Fin 800) (hqv : q.val = (0 + l.val) * 32 + c.val) :
    ∑ k : Fin 800, flatK xr k * B k q = vecMat (takeRows 160 (by decide) idx0 xr) w0 (fcat 160 (by decide) l c) := by
  have hl := l.isLt
  have hc := c.isLt
  have hq : 0 ≤ q.val ∧ q.val < 0 + 160 := by omega
  refine (sum_block 0 160 (by decide) (flatK xr) (fun k => B k q) (fun a => w0 a ⟨q.val - 0, by omega⟩)
    (fun k => hB k q hq)).trans ?_
  unfold vecMat
  refine Finset.sum_congr rfl (fun a _ => ?_)
  have hcol : (⟨q.val - 0, by omega⟩ : Fin 160) = fcat 160 (by decide) l c := Fin.ext (by simp only [fcat_val]; omega)
  rw [hcol, flatK_shift xr (by decide) 0 (by decide) idx0 (by decide) a _ (by simp)]

/-- A column of the block of order `m ≥ 1`: a "positive" column gives `xp · Wr - xn · Wi`, a "negative" one `xp · Wi + xn · Wr`. -/
private theorem lhs_mblock (xr : Fin 25 → Fin 32 → EReal) (hxr : ∀ j c, IsReal (xr j c)) {L n N : ℕ} (hN : N = n + n) (h1 : n ≤ L * 32) (h2 : L * 32 ≤ n)
    (off p0 : ℕ) (hoff : off = p0 * 32) (hend : off + N ≤ 800) (hp : p0 + L + L ≤ 25)
    (Wr Wi : Fin n → Fin n → EReal) (hi : ∀ a b, IsReal (Wi a b)) (tp tn : Fin L → Fin 25)
    (htp : ∀ r : Fin L, permK ⟨p0 + r.val, by have := r.isLt; omega⟩ = tp r)
    (htn : ∀ r : Fin L, permK ⟨p0 + L + r.val, by have := r.isLt; omega⟩ = tn r)
    (B : Fin 800 → Fin 800 → EReal)
    (hB : ∀ k q : Fin 800, ∀ hq : off ≤ q.val ∧ q.val < off + N,
      B k q = if h : off ≤ k.val ∧ k.val < off + N then mblockOf hN Wr Wi ⟨k.val - off, by omega⟩ ⟨q.val - off, by omega⟩ else 0)
    (l : Fin L) (c : Fin 32) (q : Fin 800) :
    (q.val = (p0 + l.val) * 32 + c.val →
      ∑ k : Fin 800, flatK xr k * B k q
        = vecMat (takeRows n h1 tp xr) Wr (fcat n h2 l c) - vecMat (takeRows n h1 tn xr) Wi (fcat n h2 l c))
    ∧ (q.val = (p0 + L + l.val) * 32 + c.val →
      ∑ k : Fin 800, flatK xr k * B k q
        = vecMat (takeRows n h1 tp xr) Wi (fcat n h2 l c) + vecMat (takeRows n h1 tn xr) Wr (fcat n h2 l c)) := by
  have hl := l.isLt
  have hc := c.isLt
  have hb := (fcat n h2 l c).isLt
  have hbv : (fcat n h2 l c).val = l.val * 32 + c.val := rfl
  have hY : ∀ a : Fin N, IsReal (flatK xr ⟨off + a.val, by have := a.isLt; omega⟩) := fun a => hxr _ _
  constructor
  · intro hqv
    have hq : off ≤ q.val ∧ q.val < off + N := by omega
    refine (sum_block off N hend (flatK xr) (fun k => B k q) (fun a => mblockOf hN Wr Wi a ⟨q.val - off, by omega⟩)
      (fun k => hB k q hq)).trans ?_
    have hcol : (⟨q.val - off, by omega⟩ : Fin N) = ⟨(fcat n h2 l c).val, by omega⟩ := Fin.ext (by simp only [fcat_val]; omega)
    rw [hcol]
    refine (sum_mblock hN (fun a => flatK xr ⟨off + a.val, by have := a.isLt; omega⟩) Wr Wi hY hi (fcat n h2 l c)).1.trans ?_
    unfold vecMat
    congr 1 <;> refine Finset.sum_congr rfl (fun a _ => ?_)
    · rw [flatK_shift xr h1 p0 (by omega) tp htp a _ (by simp only []; omega)]
    · rw [flatK_shift xr h1 (p0 + L) (by omega) tn htn a _ (by simp only []; omega)]
  · intro hqv
    have hq : off ≤ q.val ∧ q.val < off + N := by omega
    refine (sum_block off N hend (flatK xr) (fun k => B k q) (fun a => mblockOf hN Wr Wi a ⟨q.val - off, by omega⟩)
      (fun k => hB k q hq)).trans ?_
    have hcol : (⟨q.val - off, by omega⟩ : Fin N) = ⟨n + (fcat n h2 l c).val, by omega⟩ := Fin.ext (by simp only [fcat_val]; omega)
    rw [hcol]
    refine (sum_mblock hN (fun a => flatK xr ⟨off + a.val, by have := a.isLt; omega⟩) Wr Wi hY hi (fcat n h2 l c)).2.trans ?_
    unfold vecMat
    congr 1 <;> refine Finset.sum_congr rfl (fun a _ => ?_)
    · rw [flatK_shift xr h1 p0 (by omega) tp htp a _ (by simp only []; omega)]
    · rw [flatK_shift xr h1 (p0 + L) (by omega) tn htn a _ (by simp only []; omega)]

/-! ## Assembly -/

private theorem vecMat_isReal {N : ℕ} (v : Fin N → EReal) (A : Fin N → Fin N → EReal) (hv : ∀ k, IsReal (v k)) (hA : ∀ a b, IsReal (A a b))
    (n : Fin N) : IsReal (vecMat v A n) :=
  IsReal.sum _ _ (fun k => (hv k).mul (hA k n))

/-- A row between `p0` and `p0 + L` is `p0 + l` for a position `l` of a table of length `L`. -/
private theorem fin25_shift (p0 L : ℕ) (h : p0 + L ≤ 25) (p : Fin 25) (h0 : p0 ≤ p.val) (h1 : p.val < p0 + L) :
    ∃ l : Fin L, p = ⟨p0 + l.val, lt_of_lt_of_le (Nat.add_lt_add_left l.isLt p0) h⟩ :=
  ⟨⟨p.val - p0, by omega⟩, Fin.ext (by show p.val = p0 + (p.val - p0); omega)⟩

/-- Both facts at once, row by row of the kernel's order: the block-diagonal product is the reference's mixed coefficient, and that
    coefficient is real. The nine cases are the nine tables. -/
private theorem mix_core (xr : Fin 25 → Fin 32 → EReal) (w0 : Fin 160 → Fin 160 → EReal) (w1r w1i : Fin 128 → Fin 128 → EReal) (w2r w2i : Fin 96 → Fin 96 → EReal)
    (w3r w3i : Fin 64 → Fin 64 → EReal) (w4r w4i : Fin 32 → Fin 32 → EReal)
    (hxr : ∀ j c, IsReal (xr j c)) (h0 : ∀ a b, IsReal (w0 a b)) (h1r : ∀ a b, IsReal (w1r a b)) (h1i : ∀ a b, IsReal (w1i a b))
    (h2r : ∀ a b, IsReal (w2r a b)) (h2i : ∀ a b, IsReal (w2i a b)) (h3r : ∀ a b, IsReal (w3r a b)) (h3i : ∀ a b, IsReal (w3i a b))
    (h4r : ∀ a b, IsReal (w4r a b)) (h4i : ∀ a b, IsReal (w4i a b))
    (p : Fin 25) (c : Fin 32) :
    (∑ k : Fin 800, flatK xr k * wbigOf w0 w1r w1i w2r w2i w3r w3i w4r w4i k (fcat 800 (by decide) p c)
        = mixR xr w0 w1r w1i w2r w2i w3r w3i w4r w4i (permK p) c)
      ∧ IsReal (mixR xr w0 w1r w1i w2r w2i w3r w3i w4r w4i (permK p) c) := by
  have hp := p.isLt
  have hx : ∀ {L : ℕ} (n : ℕ) (h : n ≤ L * 32) (tbl : Fin L → Fin 25) (k : Fin n), IsReal (takeRows n h tbl xr k) :=
    fun _ _ _ _ => hxr _ _
  by_cases c0 : p.val < 5
  · obtain ⟨l, rfl⟩ := fin25_shift 0 5 (by decide) p (by omega) (by omega)
    rw [mixR_row_idx0]
    exact ⟨lhs_block0 xr _ w0 (fun k q hq => wbig_col0 w0 w1r w1i w2r w2i w3r w3i w4r w4i k q hq) l c _ rfl,
      vecMat_isReal _ _ (hx _ _ _) h0 _⟩
  by_cases c1 : p.val < 9
  · obtain ⟨l, rfl⟩ := fin25_shift 5 4 (by decide) p (by omega) (by omega)
    rw [mixR_row_pos1]
    exact ⟨(lhs_mblock xr hxr (N := 256) rfl (by decide) (by decide) 160 5 (by decide) (by decide) (by decide) w1r w1i h1i pos1 neg1
        (by decide) (by decide) _ (fun k q hq => wbig_col1 w0 w1r w1i w2r w2i w3r w3i w4r w4i k q hq) l c _).1 rfl,
      (vecMat_isReal _ _ (hx _ _ _) h1r _).sub (vecMat_isReal _ _ (hx _ _ _) h1i _)⟩
  by_cases c2 : p.val < 13
  · obtain ⟨l, rfl⟩ := fin25_shift 9 4 (by decide) p (by omega) (by omega)
    rw [mixR_row_neg1]
    exact ⟨(lhs_mblock xr hxr (N := 256) rfl (by decide) (by decide) 160 5 (by decide) (by decide) (by decide) w1r w1i h1i pos1 neg1
        (by decide) (by decide) _ (fun k q hq => wbig_col1 w0 w1r w1i w2r w2i w3r w3i w4r w4i k q hq) l c _).2 rfl,
      (vecMat_isReal _ _ (hx _ _ _) h1i _).add (vecMat_isReal _ _ (hx _ _ _) h1r _)⟩
  by_cases c3 : p.val < 16
  · obtain ⟨l, rfl⟩ := fin25_shift 13 3 (by decide) p (by omega) (by omega)
    rw [mixR_row_pos2]
    exact ⟨(lhs_mblock xr hxr (N := 192) rfl (by decide) (by decide) 416 13 (by decide) (by decide) (by decide) w2r w2i h2i pos2 neg2
        (by decide) (by decide) _ (fun k q hq => wbig_col2 w0 w1r w1i w2r w2i w3r w3i w4r w4i k q hq) l c _).1 rfl,
      (vecMat_isReal _ _ (hx _ _ _) h2r _).sub (vecMat_isReal _ _ (hx _ _ _) h2i _)⟩
  by_cases c4 : p.val < 19
  · obtain ⟨l, rfl⟩ := fin25_shift 16 3 (by decide) p (by omega) (by omega)
    rw [mixR_row_neg2]
    exact ⟨(lhs_mblock xr hxr (N := 192) rfl (by decide) (by decide) 416 13 (by decide) (by decide) (by decide) w2r w2i h2i pos2 neg2
        (by decide) (by decide) _ (fun k q hq => wbig_col2 w0 w1r w1i w2r w2i w3r w3i w4r w4i k q hq) l c _).2 rfl,
      (vecMat_isReal _ _ (hx _ _ _) h2i _).add (vecMat_isReal _ _ (hx _ _ _) h2r _)⟩
  by_cases c5 : p.val < 21
  · obtain ⟨l, rfl⟩ := fin25_shift 19 2 (by decide) p (by omega) (by omega)
    rw [mixR_row_pos3]
    exact ⟨(lhs_mblock xr hxr (N := 128) rfl (by decide) (by decide) 608 19 (by decide) (by decide) (by decide) w3r w3i h3i pos3 neg3
        (by decide) (by decide) _ (fun k q hq => wbig_col3 w0 w1r w1i w2r w2i w3r w3i w4r w4i k q hq) l c _).1 rfl,
      (vecMat_isReal _ _ (hx _ _ _) h3r _).sub (vecMat_isReal _ _ (hx _ _ _) h3i _)⟩
  by_cases c6 : p.val < 23
  · obtain ⟨l, rfl⟩ := fin25_shift 21 2 (by decide) p (by omega) (by omega)
    rw [mixR_row_neg3]
    exact ⟨(lhs_mblock xr hxr (N := 128) rfl (by decide) (by decide) 608 19 (by decide) (by decide) (by decide) w3r w3i h3i pos3 neg3
        (by decide) (by decide) _ (fun k q hq => wbig_col3 w0 w1r w1i w2r w2i w3r w3i w4r w4i k q hq) l c _).2 rfl,
      (vecMat_isReal _ _ (hx _ _ _) h3i _).add (vecMat_isReal _ _ (hx _ _ _) h3r _)⟩
  by_cases c7 : p.val < 24
  · obtain ⟨l, rfl⟩ := fin25_shift 23 1 (by decide) p (by omega) (by omega)
    rw [mixR_row_pos4]
    exact ⟨(lhs_mblock xr hxr (N := 64) rfl (by decide) (by decide) 736 23 (by decide) (by decide) (by decide) w4r w4i h4i pos4 neg4
        (by decide) (by decide) _ (fun k q hq => wbig_col4 w0 w1r w1i w2r w2i w3r w3i w4r w4i k q hq) l c _).1 rfl,
      (vecMat_isReal _ _ (hx _ _ _) h4r _).sub (vecMat_isReal _ _ (hx _ _ _) h4i _)⟩
  · obtain ⟨l, rfl⟩ := fin25_shift 24 1 (by decide) p (by omega) (by omega)
    rw [mixR_row_neg4]
    exact ⟨(lhs_mblock xr hxr (N := 64) rfl (by decide) (by decide) 736 23 (by decide) (by decide) (by decide) w4r w4i h4i pos4 neg4
        (by decide) (by decide) _ (fun k q hq => wbig_col4 w0 w1r w1i w2r w2i w3r w3i w4r w4i k q hq) l c _).2 rfl,
      (vecMat_isReal _ _ (hx _ _ _) h4i _).add (vecMat_isReal _ _ (hx _ _ _) h4r _)⟩

/-- The block-diagonal product is the per-order mixing: entry `p * 32 + c` of the permuted, flattened rotation times
    the 800 × 800 weight is the reference's mixed coefficient at row `permK p`, channel `c`. -/
theorem mix_eq (xr : Fin 25 → Fin 32 → EReal) (w0 : Fin 160 → Fin 160 → EReal) (w1r w1i : Fin 128 → Fin 128 → EReal) (w2r w2i : Fin 96 → Fin 96 → EReal)
    (w3r w3i : Fin 64 → Fin 64 → EReal) (w4r w4i : Fin 32 → Fin 32 → EReal)
    (hxr : ∀ j c, IsReal (xr j c)) (h0 : ∀ a b, IsReal (w0 a b)) (h1r : ∀ a b, IsReal (w1r a b)) (h1i : ∀ a b, IsReal (w1i a b))
    (h2r : ∀ a b, IsReal (w2r a b)) (h2i : ∀ a b, IsReal (w2i a b)) (h3r : ∀ a b, IsReal (w3r a b)) (h3i : ∀ a b, IsReal (w3i a b))
    (h4r : ∀ a b, IsReal (w4r a b)) (h4i : ∀ a b, IsReal (w4i a b))
    (p : Fin 25) (c : Fin 32) :
    (∑ k : Fin 800, xr (permK (fdiv 32 25 (by decide) (by decide) k)) (fmod 32 (by decide) k)
        * wbigOf w0 w1r w1i w2r w2i w3r w3i w4r w4i k (fcat 800 (by decide) p c))
      = mixR xr w0 w1r w1i w2r w2i w3r w3i w4r w4i (permK p) c := by
  exact (mix_core xr w0 w1r w1i w2r w2i w3r w3i w4r w4i hxr h0 h1r h1i h2r h2i h3r h3i h4r h4i p c).1

/-- The mixed coefficients of real inputs are real. -/
theorem mixR_isReal (xr : Fin 25 → Fin 32 → EReal) (w0 : Fin 160 → Fin 160 → EReal) (w1r w1i : Fin 128 → Fin 128 → EReal) (w2r w2i : Fin 96 → Fin 96 → EReal)
    (w3r w3i : Fin 64 → Fin 64 → EReal) (w4r w4i : Fin 32 → Fin 32 → EReal)
    (hxr : ∀ j c, IsReal (xr j c)) (h0 : ∀ a b, IsReal (w0 a b)) (h1r : ∀ a b, IsReal (w1r a b)) (h1i : ∀ a b, IsReal (w1i a b))
    (h2r : ∀ a b, IsReal (w2r a b)) (h2i : ∀ a b, IsReal (w2i a b)) (h3r : ∀ a b, IsReal (w3r a b)) (h3i : ∀ a b, IsReal (w3i a b))
    (h4r : ∀ a b, IsReal (w4r a b)) (h4i : ∀ a b, IsReal (w4i a b))
    (j : Fin 25) (c : Fin 32) : IsReal (mixR xr w0 w1r w1i w2r w2i w3r w3i w4r w4i j c) := by
  obtain ⟨p, rfl⟩ := permK_bijective.2 j
  exact (mix_core xr w0 w1r w1i w2r w2i w3r w3i w4r w4i hxr h0 h1r h1i h2r h2i h3r h3i h4r h4i p c).2

end Cert.SO2

end
-- ==== Proof.Edge.lean ====
import proofs.«415867_j71554155151872_2_alg».proof.Proof.Spec
import proofs.«415867_j71554155151872_2_alg».proof.Proof.Mix
import Mathlib.Algebra.BigOperators.Group.Finset.Basic
import Mathlib.Data.EReal.Basic

noncomputable section

namespace Cert.SO2

open Idealize.ShloMosaic

/-! ## Real extended reals are closed under the operations used -/

namespace EdgeAux

theorem isReal_zero : IsReal 0 := ⟨0, EReal.coe_zero.symm⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_sum {ι : Type} (s : Finset ι) (g : ι → EReal) (h : ∀ i ∈ s, IsReal (g i)) :
    IsReal (∑ i ∈ s, g i) := by
  classical
  induction s using Finset.induction_on with
  | empty => simpa using isReal_zero
  | insert a s ha ih =>
    rw [Finset.sum_insert ha]
    exact isReal_add (h a (Finset.mem_insert_self a s)) (ih (fun i hi => h i (Finset.mem_insert_of_mem hi)))

theorem isReal_logistic {x : EReal} (hx : IsReal x) : IsReal (Ideal.logistic x) := by
  obtain ⟨a, rfl⟩ := hx
  exact ⟨_, Ideal.logistic_coe a⟩

/-- On a real number, `x - x = 0`. -/
theorem sub_self_of_isReal {x : EReal} (hx : IsReal x) : x - x = 0 := by
  obtain ⟨a, rfl⟩ := hx
  rw [← EReal.coe_sub, sub_self, EReal.coe_zero]

/-- The SiLU in the reference's spelling is `z` times the logistic function of `z`. -/
theorem siluR_eq (z : EReal) : siluR z = z * Ideal.logistic z := rfl

theorem isReal_rot (W : Fin 25 → Fin 25 → EReal) (X : Fin 25 → Fin 32 → EReal)
    (hW : ∀ a b, IsReal (W a b)) (hX : ∀ a b, IsReal (X a b)) (a : Fin 25) (b : Fin 32) : IsReal (rot W X a b) :=
  isReal_sum _ _ (fun j _ => isReal_mul (hW a j) (hX j b))

theorem isReal_radial (f : Fin 64 → EReal) (FW : Fin 64 → Fin 160 → EReal) (fb : Fin 160 → EReal)
    (hf : ∀ k, IsReal (f k)) (hFW : ∀ a b, IsReal (FW a b)) (hfb : ∀ n, IsReal (fb n)) (n : Fin 160) :
    IsReal (radial f FW fb n) :=
  isReal_add (isReal_sum _ _ (fun k _ => isReal_mul (hf k) (hFW k n))) (hfb n)

/-- The rotation by the permuted rows is the rotation read at the permuted row. -/
theorem rot_perm (W : Fin 25 → Fin 25 → EReal) (X : Fin 25 → Fin 32 → EReal) (p : Fin 25) (c : Fin 32) :
    rot (fun p j => W (permK p) j) X p c = rot W X (permK p) c := rfl

end EdgeAux

/-- One edge: the kernel's spelling over the block-diagonal weight is the reference's spelling, when every entry is real. -/
theorem edge_eq (W : Fin 25 → Fin 25 → EReal) (X : Fin 25 → Fin 32 → EReal) (f : Fin 64 → EReal) (w0 : Fin 160 → Fin 160 → EReal) (w1r w1i : Fin 128 → Fin 128 → EReal) (w2r w2i : Fin 96 → Fin 96 → EReal)
    (w3r w3i : Fin 64 → Fin 64 → EReal) (w4r w4i : Fin 32 → Fin 32 → EReal)
    (FW : Fin 64 → Fin 160 → EReal) (fb : Fin 160 → EReal)
    (hW : ∀ a b, IsReal (W a b)) (hX : ∀ a b, IsReal (X a b)) (hf : ∀ k, IsReal (f k)) (h0 : ∀ a b, IsReal (w0 a b)) (h1r : ∀ a b, IsReal (w1r a b)) (h1i : ∀ a b, IsReal (w1i a b))
    (h2r : ∀ a b, IsReal (w2r a b)) (h2i : ∀ a b, IsReal (w2i a b)) (h3r : ∀ a b, IsReal (w3r a b)) (h3i : ∀ a b, IsReal (w3i a b))
    (h4r : ∀ a b, IsReal (w4r a b)) (h4i : ∀ a b, IsReal (w4i a b))
    (hFW : ∀ a b, IsReal (FW a b)) (hfb : ∀ n, IsReal (fb n)) (i : Fin 25) (c : Fin 32) :
    edgeK W X f (wbigOf w0 w1r w1i w2r w2i w3r w3i w4r w4i) FW fb i c
      = edgeR W X f w0 w1r w1i w2r w2i w3r w3i w4r w4i FW fb i c := by
  -- the rotated features are real
  have hrot : ∀ a b, IsReal (rot W X a b) := EdgeAux.isReal_rot W X hW hX
  -- the scaled mixed coefficient of row `j`, as the reference writes it
  obtain ⟨g, hg⟩ : ∃ g : Fin 25 → EReal, g = fun j =>
      mixR (rot W X) w0 w1r w1i w2r w2i w3r w3i w4r w4i j c
        * siluR (radial f FW fb (fcat 160 (by decide) (degR j) c)) := ⟨_, rfl⟩
  have hgreal : ∀ j, IsReal (g j) := by
    intro j
    rw [hg]
    refine EdgeAux.isReal_mul (mixR_isReal (rot W X) w0 w1r w1i w2r w2i w3r w3i w4r w4i hrot h0 h1r h1i h2r h2i h3r h3i h4r h4i j c) ?_
    rw [EdgeAux.siluR_eq]
    have hz := EdgeAux.isReal_radial f FW fb hf hFW hfb (fcat 160 (by decide) (degR j) c)
    exact EdgeAux.isReal_mul hz (EdgeAux.isReal_logistic hz)
  have hR : edgeR W X f w0 w1r w1i w2r w2i w3r w3i w4r w4i FW fb i c = ∑ j, W j i * g j := by
    rw [hg]; rfl
  rw [hR]
  let Wp : Fin 25 → Fin 25 → EReal := fun p j => W (permK p) j
  let xrflat : Fin 800 → EReal := fun k =>
    rot Wp X (fdiv 32 25 (by decide) (by decide) k) (fmod 32 (by decide) k)
  let y62 : Fin 25 → Fin 32 → EReal := fun p c' =>
    (∑ k, xrflat k * wbigOf w0 w1r w1i w2r w2i w3r w3i w4r w4i k (fcat 800 (by decide) p c'))
      * (radial f FW fb (fcat 160 (by decide) (kdeg p) c')
          * Ideal.logistic (radial f FW fb (fcat 160 (by decide) (kdeg p) c')))
  show ((∑ p, Wp p i * y62 p c) + (∑ p, Wp p i * (y62 p c - y62 p c)))
      + (∑ p, (Wp p i - Wp p i) * y62 p c) = ∑ j, W j i * g j
  -- the kernel's scaled coefficient of its row `p` is the reference's at row `permK p`
  have hy : ∀ p, y62 p c = g (permK p) := by
    intro p
    have h1 : y62 p c = (∑ k, xrflat k * wbigOf w0 w1r w1i w2r w2i w3r w3i w4r w4i k (fcat 800 (by decide) p c))
        * (radial f FW fb (fcat 160 (by decide) (kdeg p) c)
            * Ideal.logistic (radial f FW fb (fcat 160 (by decide) (kdeg p) c))) := rfl
    have h2 : (∑ k, xrflat k * wbigOf w0 w1r w1i w2r w2i w3r w3i w4r w4i k (fcat 800 (by decide) p c))
        = mixR (rot W X) w0 w1r w1i w2r w2i w3r w3i w4r w4i (permK p) c :=
      mix_eq (rot W X) w0 w1r w1i w2r w2i w3r w3i w4r w4i hrot h0 h1r h1i h2r h2i h3r h3i h4r h4i p c
    rw [h1, h2, ← degR_permK p, hg]
    rfl
  -- the two correction sums vanish: each has a factor `a - a` with `a` real
  have hz1 : (∑ p, Wp p i * (y62 p c - y62 p c)) = 0 := by
    apply Finset.sum_eq_zero
    intro p _
    rw [hy p, EdgeAux.sub_self_of_isReal (hgreal _), mul_zero]
  have hz2 : (∑ p, (Wp p i - Wp p i) * y62 p c) = 0 := by
    apply Finset.sum_eq_zero
    intro p _
    rw [EdgeAux.sub_self_of_isReal (hW (permK p) i), zero_mul]
  rw [hz1, hz2, add_zero, add_zero]
  -- reindex the remaining sum along the bijection `permK`
  have hmain : (∑ p, Wp p i * y62 p c) = ∑ p, (fun j => W j i * g j) (permK p) := by
    apply Finset.sum_congr rfl
    intro p _
    rw [hy p]
  rw [hmain]
  exact Function.Bijective.sum_comp permK_bijective (fun j => W j i * g j)

end Cert.SO2

end
-- ==== Proof.Finite.lean ====
import proofs.«415867_j71554155151872_2_alg».proof.Proof.Spec
import proofs.«415867_j71554155151872_2_alg».proof.Defs
import proofs.«415867_j71554155151872_2_alg».proof.Proof.Gen.Pre_finite_inputs
import Idealize.ShloMosaic.Lib.ReduceAll
import Idealize.ShloMosaic.Lib.ValueIdx

noncomputable section

namespace Cert.Finite

open Idealize.ShloMosaic Idealize.ShloMosaic.ValueIdx Cert.SO2

/-- The scalar shape has exactly one index. -/
instance subsingleton_scalar_idx : Subsingleton Cert.Pre_finite_inputs.S_.Idx :=
  ⟨fun a b => funext fun d => d.elim0⟩

/-- An extended real whose absolute value `max x (-x)` is below `⊤` is a real number. -/
theorem isReal_of_abs_lt_top (x : EReal) (h : max x (-x) < ⊤) : IsReal x := by
  induction x using EReal.rec with
  | bot => simp at h
  | coe r => exact ⟨r, rfl⟩
  | top => simp at h

/-- One conjunct of the precondition: an array all of whose entries have absolute value below `+inf`
    (the and-reduction of the comparisons is 1) has only real entries. -/
theorem isReal_of_all {S : Shape} {axes : List (Fin S.rank)}
    (hr : S.ReducesTo axes Cert.Pre_finite_inputs.S_) (hu : 0 < Cert.Pre_finite_inputs.S_.numel)
    (hb : Cert.Pre_finite_inputs.S_.BroadcastsInDim S (![] : Fin 0 → Fin S.rank))
    (x : FVec Ideal S .f32)
    (e : Host.reduce IntOp.andi
          (cmpf .olt (Host.absf x)
            (broadcastInDim S ![] hb (constant (F := Ideal) Cert.Pre_finite_inputs.S_ .f32 0x7F800000#32)))
          (constantI Cert.Pre_finite_inputs.S_ 1 1#1) hr hu ix0 = 1#1)
    (i : S.Idx) : IsReal (x i) := by
  have h1 := Host.reduce_andi_all _ _ hr hu ix0 e i
  apply isReal_of_abs_lt_top
  simp only [cmpf, Host.absf, broadcastInDim, constant] at h1
  have ht : Ideal.ofBits .f32 0x7F800000#32 = (⊤ : EReal) := by simp [Ideal.ofBits, Ideal.ieee]
  change Ideal.cmp .olt (max (x i) (-x i)) (Ideal.ofBits .f32 0x7F800000#32) = 1#1 at h1
  rw [ht] at h1
  simp only [Ideal.cmp] at h1
  by_contra hc
  simp [hc] at h1

/-- The precondition read entry by entry: every entry of every float argument array is a real number. -/
theorem isReal_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, IsReal ((m ((c.tc : Thread Cert.KernelIdeal.nD Cert.KernelIdeal.τ).loc Cert.KernelIdeal.main_arg0)) i)) ∧ (∀ i, IsReal ((m ((c.tc : Thread Cert.KernelIdeal.nD Cert.KernelIdeal.τ).loc Cert.KernelIdeal.main_arg1)) i))
    ∧ (∀ i, IsReal ((m ((c.tc : Thread Cert.KernelIdeal.nD Cert.KernelIdeal.τ).loc Cert.KernelIdeal.main_arg2)) i)) ∧ (∀ i, IsReal ((m ((c.tc : Thread Cert.KernelIdeal.nD Cert.KernelIdeal.τ).loc Cert.KernelIdeal.main_arg5)) i))
    ∧ (∀ i, IsReal ((m ((c.tc : Thread Cert.KernelIdeal.nD Cert.KernelIdeal.τ).loc Cert.KernelIdeal.main_arg6)) i)) ∧ (∀ i, IsReal ((m ((c.tc : Thread Cert.KernelIdeal.nD Cert.KernelIdeal.τ).loc Cert.KernelIdeal.main_arg7)) i))
    ∧ (∀ i, IsReal ((m ((c.tc : Thread Cert.KernelIdeal.nD Cert.KernelIdeal.τ).loc Cert.KernelIdeal.main_arg8)) i)) ∧ (∀ i, IsReal ((m ((c.tc : Thread Cert.KernelIdeal.nD Cert.KernelIdeal.τ).loc Cert.KernelIdeal.main_arg9)) i))
    ∧ (∀ i, IsReal ((m ((c.tc : Thread Cert.KernelIdeal.nD Cert.KernelIdeal.τ).loc Cert.KernelIdeal.main_arg10)) i)) ∧ (∀ i, IsReal ((m ((c.tc : Thread Cert.KernelIdeal.nD Cert.KernelIdeal.τ).loc Cert.KernelIdeal.main_arg11)) i))
    ∧ (∀ i, IsReal ((m ((c.tc : Thread Cert.KernelIdeal.nD Cert.KernelIdeal.τ).loc Cert.KernelIdeal.main_arg12)) i)) ∧ (∀ i, IsReal ((m ((c.tc : Thread Cert.KernelIdeal.nD Cert.KernelIdeal.τ).loc Cert.KernelIdeal.main_arg13)) i))
    ∧ (∀ i, IsReal ((m ((c.tc : Thread Cert.KernelIdeal.nD Cert.KernelIdeal.τ).loc Cert.KernelIdeal.main_arg14)) i)) ∧ (∀ i, IsReal ((m ((c.tc : Thread Cert.KernelIdeal.nD Cert.KernelIdeal.τ).loc Cert.KernelIdeal.main_arg15)) i)) := by
  have h0 := congrFun (h c) ix0
  dsimp only [Cert.Pre_finite_inputs.fn, Cert.Pre_finite_inputs.fn_part1, Cert.Pre_finite_inputs.fn_part2,
    Cert.Pre_finite_inputs.fn_part3, Cert.Pre_finite_inputs.fn_part4] at h0
  simp only [andi, IntOp.andi_eq_one] at h0
  obtain ⟨⟨⟨⟨⟨⟨⟨⟨⟨⟨⟨⟨⟨e0, e1⟩, e2⟩, e5⟩, e6⟩, e7⟩, e8⟩, e9⟩, e10⟩, e11⟩, e12⟩, e13⟩, e14⟩, e15⟩ := h0
  exact ⟨isReal_of_all _ _ _ _ e0, isReal_of_all _ _ _ _ e1, isReal_of_all _ _ _ _ e2, isReal_of_all _ _ _ _ e5,
    isReal_of_all _ _ _ _ e6, isReal_of_all _ _ _ _ e7, isReal_of_all _ _ _ _ e8, isReal_of_all _ _ _ _ e9,
    isReal_of_all _ _ _ _ e10, isReal_of_all _ _ _ _ e11, isReal_of_all _ _ _ _ e12, isReal_of_all _ _ _ _ e13,
    isReal_of_all _ _ _ _ e14, isReal_of_all _ _ _ _ e15⟩

end Cert.Finite

end
-- ==== Proof.KBody.lean ====
import proofs.«415867_j71554155151872_2_alg».proof.Proof.Spec
import proofs.«415867_j71554155151872_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KBody

open Cert.KernelIdeal Cert.KernelIdeal.Gen Idealize.ShloMosaic Idealize.ShloMosaic.ValueIdx Cert.SO2

/-! ## The four products read at an index

Each `tpu.matmul` of the body accumulates into the zero splat, so at an output index it is the sum over its one
contracted coordinate of the operands' products; the operand indices are read off the dimension numbers axis by axis. -/

/-- The rotation into the edge's frame: a stack of 25 × 25 matrices times a stack of 25 × 32 ones, edge by edge
    (`eij,ejc->eic`). -/
theorem matmul_rot_apply {φ₁ φ₂ : FTy} (A : FVec Ideal S400x25x25 φ₁) (B : FVec Ideal S400x25x32 φ₂)
    (r : Fin 400) (p : Fin 25) (c : Fin 32) :
    matmul (F := Ideal) dot_S400x25x25_S400x25x32_S400x25x32_2_1_1_2_0_0 none A B
        (constant (F := Ideal) S400x25x32 .f32 0x00000000#32) (ix3 r p c)
      = ∑ j : Fin 25, A (ix3 r p j) * B (ix3 r j c) := by
  show FloatOps.matmul _ none A B _ (ix3 r p c) = _
  rw [Ideal.matmul_constant_zero_apply,
    ← Equiv.sum_comp (contrEquiv1 dot_S400x25x25_S400x25x32_S400x25x32_2_1_1_2_0_0 25 rfl rfl).symm]
  refine Finset.sum_congr rfl fun j _ => ?_
  have cj := contrEquiv1_symm_val dot_S400x25x25_S400x25x32_S400x25x32_2_1_1_2_0_0 25 rfl rfl j
  have hl : dot_S400x25x25_S400x25x32_S400x25x32_2_1_1_2_0_0.lhsIdx (ix3 r p c)
      ((contrEquiv1 dot_S400x25x25_S400x25x32_S400x25x32_2_1_1_2_0_0 25 rfl rfl).symm j) = ix3 r p j := by
    funext ax; apply Fin.ext
    match ax with
    | ⟨0, _⟩ => simp [DotDims.lhsIdx, dot_S400x25x25_S400x25x32_S400x25x32_2_1_1_2_0_0]; rfl
    | ⟨1, _⟩ => simp [DotDims.lhsIdx, dot_S400x25x25_S400x25x32_S400x25x32_2_1_1_2_0_0]; rfl
    | ⟨2, _⟩ => simp [DotDims.lhsIdx, dot_S400x25x25_S400x25x32_S400x25x32_2_1_1_2_0_0]; exact cj
  have hr : dot_S400x25x25_S400x25x32_S400x25x32_2_1_1_2_0_0.rhsIdx (ix3 r p c)
      ((contrEquiv1 dot_S400x25x25_S400x25x32_S400x25x32_2_1_1_2_0_0 25 rfl rfl).symm j) = ix3 r j c := by
    funext ax; apply Fin.ext
    match ax with
    | ⟨0, _⟩ => simp [DotDims.rhsIdx, dot_S400x25x25_S400x25x32_S400x25x32_2_1_1_2_0_0]; rfl
    | ⟨1, _⟩ => simp [DotDims.rhsIdx, dot_S400x25x25_S400x25x32_S400x25x32_2_1_1_2_0_0]; exact cj
    | ⟨2, _⟩ => simp [DotDims.rhsIdx, dot_S400x25x25_S400x25x32_S400x25x32_2_1_1_2_0_0]; rfl
  rw [hl, hr]

/-- The rotation back by the transpose: both operands contracted on their middle axis, edge by edge
    (`eji,ejc->eic`). -/
theorem matmul_back_apply {φ₁ φ₂ : FTy} (A : FVec Ideal S400x25x25 φ₁) (B : FVec Ideal S400x25x32 φ₂)
    (r : Fin 400) (i : Fin 25) (c : Fin 32) :
    matmul (F := Ideal) dot_S400x25x25_S400x25x32_S400x25x32_1_1_2_2_0_0 none A B
        (constant (F := Ideal) S400x25x32 .f32 0x00000000#32) (ix3 r i c)
      = ∑ p : Fin 25, A (ix3 r p i) * B (ix3 r p c) := by
  show FloatOps.matmul _ none A B _ (ix3 r i c) = _
  rw [Ideal.matmul_constant_zero_apply,
    ← Equiv.sum_comp (contrEquiv1 dot_S400x25x25_S400x25x32_S400x25x32_1_1_2_2_0_0 25 rfl rfl).symm]
  refine Finset.sum_congr rfl fun p _ => ?_
  have cp := contrEquiv1_symm_val dot_S400x25x25_S400x25x32_S400x25x32_1_1_2_2_0_0 25 rfl rfl p
  have hl : dot_S400x25x25_S400x25x32_S400x25x32_1_1_2_2_0_0.lhsIdx (ix3 r i c)
      ((contrEquiv1 dot_S400x25x25_S400x25x32_S400x25x32_1_1_2_2_0_0 25 rfl rfl).symm p) = ix3 r p i := by
    funext ax; apply Fin.ext
    match ax with
    | ⟨0, _⟩ => simp [DotDims.lhsIdx, dot_S400x25x25_S400x25x32_S400x25x32_1_1_2_2_0_0]; rfl
    | ⟨1, _⟩ => simp [DotDims.lhsIdx, dot_S400x25x25_S400x25x32_S400x25x32_1_1_2_2_0_0]; exact cp
    | ⟨2, _⟩ => simp [DotDims.lhsIdx, dot_S400x25x25_S400x25x32_S400x25x32_1_1_2_2_0_0]; rfl
  have hr : dot_S400x25x25_S400x25x32_S400x25x32_1_1_2_2_0_0.rhsIdx (ix3 r i c)
      ((contrEquiv1 dot_S400x25x25_S400x25x32_S400x25x32_1_1_2_2_0_0 25 rfl rfl).symm p) = ix3 r p c := by
    funext ax; apply Fin.ext
    match ax with
    | ⟨0, _⟩ => simp [DotDims.rhsIdx, dot_S400x25x25_S400x25x32_S400x25x32_1_1_2_2_0_0]; rfl
    | ⟨1, _⟩ => simp [DotDims.rhsIdx, dot_S400x25x25_S400x25x32_S400x25x32_1_1_2_2_0_0]; exact cp
    | ⟨2, _⟩ => simp [DotDims.rhsIdx, dot_S400x25x25_S400x25x32_S400x25x32_1_1_2_2_0_0]; rfl
  rw [hl, hr]

/-- The mixing product: 400 × 800 times the 800 × 800 weight. -/
theorem matmul_mix_apply {φ₁ φ₂ : FTy} (A : FVec Ideal S400x800 φ₁) (B : FVec Ideal S800x800 φ₂)
    (r : Fin 400) (q : Fin 800) :
    matmul (F := Ideal) dot_S400x800_S800x800_S400x800_1_0_0_1_n_n none A B
        (constant (F := Ideal) S400x800 .f32 0x00000000#32) (ix2 r q)
      = ∑ k : Fin 800, A (ix2 r k) * B (ix2 k q) := by
  show FloatOps.matmul _ none A B _ (ix2 r q) = _
  rw [Ideal.matmul_constant_zero_apply,
    ← Equiv.sum_comp (contrEquiv1 dot_S400x800_S800x800_S400x800_1_0_0_1_n_n 800 rfl rfl).symm]
  refine Finset.sum_congr rfl fun k _ => ?_
  have ck := contrEquiv1_symm_val dot_S400x800_S800x800_S400x800_1_0_0_1_n_n 800 rfl rfl k
  have hl : dot_S400x800_S800x800_S400x800_1_0_0_1_n_n.lhsIdx (ix2 r q)
      ((contrEquiv1 dot_S400x800_S800x800_S400x800_1_0_0_1_n_n 800 rfl rfl).symm k) = ix2 r k := by
    funext ax; apply Fin.ext
    match ax with
    | ⟨0, _⟩ => simp [DotDims.lhsIdx, dot_S400x800_S800x800_S400x800_1_0_0_1_n_n]; rfl
    | ⟨1, _⟩ => simp [DotDims.lhsIdx, dot_S400x800_S800x800_S400x800_1_0_0_1_n_n]; exact ck
  have hr : dot_S400x800_S800x800_S400x800_1_0_0_1_n_n.rhsIdx (ix2 r q)
      ((contrEquiv1 dot_S400x800_S800x800_S400x800_1_0_0_1_n_n 800 rfl rfl).symm k) = ix2 k q := by
    funext ax; apply Fin.ext
    match ax with
    | ⟨0, _⟩ => simp [DotDims.rhsIdx, dot_S400x800_S800x800_S400x800_1_0_0_1_n_n]; exact ck
    | ⟨1, _⟩ => simp [DotDims.rhsIdx, dot_S400x800_S800x800_S400x800_1_0_0_1_n_n]; rfl
  rw [hl, hr]

/-- The radial network's product: 400 × 64 times the 64 × 160 weight. -/
theorem matmul_radial_apply {φ₁ φ₂ : FTy} (A : FVec Ideal S400x64 φ₁) (B : FVec Ideal S64x160 φ₂)
    (r : Fin 400) (n : Fin 160) :
    matmul (F := Ideal) dot_S400x64_S64x160_S400x160_1_0_0_1_n_n none A B
        (constant (F := Ideal) S400x160 .f32 0x00000000#32) (ix2 r n)
      = ∑ k : Fin 64, A (ix2 r k) * B (ix2 k n) := by
  show FloatOps.matmul _ none A B _ (ix2 r n) = _
  rw [Ideal.matmul_constant_zero_apply,
    ← Equiv.sum_comp (contrEquiv1 dot_S400x64_S64x160_S400x160_1_0_0_1_n_n 64 rfl rfl).symm]
  refine Finset.sum_congr rfl fun k _ => ?_
  have ck := contrEquiv1_symm_val dot_S400x64_S64x160_S400x160_1_0_0_1_n_n 64 rfl rfl k
  have hl : dot_S400x64_S64x160_S400x160_1_0_0_1_n_n.lhsIdx (ix2 r n)
      ((contrEquiv1 dot_S400x64_S64x160_S400x160_1_0_0_1_n_n 64 rfl rfl).symm k) = ix2 r k := by
    funext ax; apply Fin.ext
    match ax with
    | ⟨0, _⟩ => simp [DotDims.lhsIdx, dot_S400x64_S64x160_S400x160_1_0_0_1_n_n]; rfl
    | ⟨1, _⟩ => simp [DotDims.lhsIdx, dot_S400x64_S64x160_S400x160_1_0_0_1_n_n]; exact ck
  have hr : dot_S400x64_S64x160_S400x160_1_0_0_1_n_n.rhsIdx (ix2 r n)
      ((contrEquiv1 dot_S400x64_S64x160_S400x160_1_0_0_1_n_n 64 rfl rfl).symm k) = ix2 k n := by
    funext ax; apply Fin.ext
    match ax with
    | ⟨0, _⟩ => simp [DotDims.rhsIdx, dot_S400x64_S64x160_S400x160_1_0_0_1_n_n]; exact ck
    | ⟨1, _⟩ => simp [DotDims.rhsIdx, dot_S400x64_S64x160_S400x160_1_0_0_1_n_n]; rfl
  rw [hl, hr]

/-! ## The reshapes read at an index

A `vector.shape_cast` keeps the row-major position; between [400, a * b] and [400, a, b] that is
`(r, p * b + c) ↔ (r, p, c)`. -/

section Layout
variable {α : Type}

/-- [400, 625] viewed [400, 25, 25]. -/
theorem cast_625_apply (v : S400x625.Idx → α) (h : S400x625.ShapeCasts S400x25x25) (r : Fin 400) (a b : Fin 25) :
    shapeCast S400x25x25 v h (ix3 r a b) = v (ix2 r (fcat 625 (by decide) a b)) :=
  shapeCast_apply v h _ _ (by
    rw [Shape.rowMajor_val_two, Shape.rowMajor_val_three]
    show r.val * 625 + (a.val * 25 + b.val) = (r.val * 25 + a.val) * 25 + b.val
    omega)

/-- [400, 800] viewed [400, 25, 32]. -/
theorem cast_800_apply (v : S400x800.Idx → α) (h : S400x800.ShapeCasts S400x25x32) (r : Fin 400) (a : Fin 25) (b : Fin 32) :
    shapeCast S400x25x32 v h (ix3 r a b) = v (ix2 r (fcat 800 (by decide) a b)) :=
  shapeCast_apply v h _ _ (by
    rw [Shape.rowMajor_val_two, Shape.rowMajor_val_three]
    show r.val * 800 + (a.val * 32 + b.val) = (r.val * 25 + a.val) * 32 + b.val
    omega)

/-- [400, 160] viewed [400, 5, 32]. -/
theorem cast_160_apply (v : S400x160.Idx → α) (h : S400x160.ShapeCasts S400x5x32) (r : Fin 400) (l : Fin 5) (c : Fin 32) :
    shapeCast S400x5x32 v h (ix3 r l c) = v (ix2 r (fcat 160 (by decide) l c)) :=
  shapeCast_apply v h _ _ (by
    rw [Shape.rowMajor_val_two, Shape.rowMajor_val_three]
    show r.val * 160 + (l.val * 32 + c.val) = (r.val * 5 + l.val) * 32 + c.val
    omega)

/-- [400, 25, 32] laid flat [400, 800], read at any position `k`: the entry at `(k / 32, k % 32)`. -/
theorem flat_800_apply (v : S400x25x32.Idx → α) (h : S400x25x32.ShapeCasts S400x800) (r : Fin 400) (k : Fin 800) :
    shapeCast S400x800 v h (ix2 r k)
      = v (ix3 r (fdiv 32 25 (by decide) (by decide) k) (fmod 32 (by decide) k)) :=
  shapeCast_apply v h _ _ (by
    rw [Shape.rowMajor_val_two, Shape.rowMajor_val_three]
    show (r.val * 25 + k.val / 32) * 32 + k.val % 32 = r.val * 800 + k.val
    omega)

/-- The same read at the position `i * 32 + c`: the entry at `(i, c)`. -/
theorem flat_800_fcat_apply (v : S400x25x32.Idx → α) (h : S400x25x32.ShapeCasts S400x800) (r : Fin 400) (i : Fin 25) (c : Fin 32) :
    shapeCast S400x800 v h (ix2 r (fcat 800 (by decide) i c)) = v (ix3 r i c) :=
  shapeCast_apply v h _ _ (by
    rw [Shape.rowMajor_val_two, Shape.rowMajor_val_three]
    show (r.val * 25 + i.val) * 32 + c.val = r.val * 800 + (i.val * 32 + c.val)
    omega)

/-! ## The two concatenations along axis 1 read at an index -/

/-- Off the concatenation axis a piece's index `(r, l, c)` has the coordinates of the result's `(r, p, c)`. -/
theorem off_axis {m n : Nat} (r : Fin 400) (l : Fin m) (p : Fin 25) (c : Fin n) :
    ∀ b : Fin 3, b.cast (rfl : 3 = 3) ≠ (1 : Fin 3) →
      ((ix3 r l c : (⟨3, ![400, m, n]⟩ : Shape).Idx) b).val = ((ix3 r p c : (⟨3, ![400, 25, n]⟩ : Shape).Idx) (b.cast rfl)).val :=
  fun b hb => match b with
    | ⟨0, _⟩ => rfl
    | ⟨1, _⟩ => absurd rfl hb
    | ⟨2, _⟩ => rfl

/-- The rows of every matrix of a [400, 25, 25] stack taken in the kernel's order: 25 one-row slices laid along
    axis 1, the `p`-th of them row `permK p`, so row `p` of the result is row `permK p`. -/
theorem permRows_apply (V : S400x25x25.Idx → α) (r : Fin 400) (p j : Fin 25) :
    concatenate S400x25x25 1 [⟨S400x1x25, extractStridedSlice S400x1x25 ![0, 0, 0] V slices_S400x25x25_o0_0_0_S400x1x25⟩, ⟨S400x1x25, extractStridedSlice S400x1x25 ![0, 2, 0] V slices_S400x25x25_o0_2_0_S400x1x25⟩, ⟨S400x1x25, extractStridedSlice S400x1x25 ![0, 6, 0] V slices_S400x25x25_o0_6_0_S400x1x25⟩, ⟨S400x1x25, extractStridedSlice S400x1x25 ![0, 12, 0] V slices_S400x25x25_o0_12_0_S400x1x25⟩, ⟨S400x1x25, extractStridedSlice S400x1x25 ![0, 20, 0] V slices_S400x25x25_o0_20_0_S400x1x25⟩, ⟨S400x1x25, extractStridedSlice S400x1x25 ![0, 3, 0] V slices_S400x25x25_o0_3_0_S400x1x25⟩, ⟨S400x1x25, extractStridedSlice S400x1x25 ![0, 7, 0] V slices_S400x25x25_o0_7_0_S400x1x25⟩, ⟨S400x1x25, extractStridedSlice S400x1x25 ![0, 13, 0] V slices_S400x25x25_o0_13_0_S400x1x25⟩, ⟨S400x1x25, extractStridedSlice S400x1x25 ![0, 21, 0] V slices_S400x25x25_o0_21_0_S400x1x25⟩, ⟨S400x1x25, extractStridedSlice S400x1x25 ![0, 1, 0] V slices_S400x25x25_o0_1_0_S400x1x25⟩, ⟨S400x1x25, extractStridedSlice S400x1x25 ![0, 5, 0] V slices_S400x25x25_o0_5_0_S400x1x25⟩, ⟨S400x1x25, extractStridedSlice S400x1x25 ![0, 11, 0] V slices_S400x25x25_o0_11_0_S400x1x25⟩, ⟨S400x1x25, extractStridedSlice S400x1x25 ![0, 19, 0] V slices_S400x25x25_o0_19_0_S400x1x25⟩, ⟨S400x1x25, extractStridedSlice S400x1x25 ![0, 8, 0] V slices_S400x25x25_o0_8_0_S400x1x25⟩, ⟨S400x1x25, extractStridedSlice S400x1x25 ![0, 14, 0] V slices_S400x25x25_o0_14_0_S400x1x25⟩, ⟨S400x1x25, extractStridedSlice S400x1x25 ![0, 22, 0] V slices_S400x25x25_o0_22_0_S400x1x25⟩, ⟨S400x1x25, extractStridedSlice S400x1x25 ![0, 4, 0] V slices_S400x25x25_o0_4_0_S400x1x25⟩, ⟨S400x1x25, extractStridedSlice S400x1x25 ![0, 10, 0] V slices_S400x25x25_o0_10_0_S400x1x25⟩, ⟨S400x1x25, extractStridedSlice S400x1x25 ![0, 18, 0] V slices_S400x25x25_o0_18_0_S400x1x25⟩, ⟨S400x1x25, extractStridedSlice S400x1x25 ![0, 15, 0] V slices_S400x25x25_o0_15_0_S400x1x25⟩, ⟨S400x1x25, extractStridedSlice S400x1x25 ![0, 23, 0] V slices_S400x25x25_o0_23_0_S400x1x25⟩, ⟨S400x1x25, extractStridedSlice S400x1x25 ![0, 9, 0] V slices_S400x25x25_o0_9_0_S400x1x25⟩, ⟨S400x1x25, extractStridedSlice S400x1x25 ![0, 17, 0] V slices_S400x25x25_o0_17_0_S400x1x25⟩, ⟨S400x1x25, extractStridedSlice S400x1x25 ![0, 24, 0] V slices_S400x25x25_o0_24_0_S400x1x25⟩, ⟨S400x1x25, extractStridedSlice S400x1x25 ![0, 16, 0] V slices_S400x25x25_o0_16_0_S400x1x25⟩]
        concatenates_S400x1x25_S400x1x25_S400x1x25_S400x1x25_S400x1x25_S400x1x25_S400x1x25_S400x1x25_S400x1x25_S400x1x25_S400x1x25_S400x1x25_S400x1x25_S400x1x25_S400x1x25_S400x1x25_S400x1x25_S400x1x25_S400x1x25_S400x1x25_S400x1x25_S400x1x25_S400x1x25_S400x1x25_S400x1x25_S400x25x25_d1 (ix3 r p j)
      = V (ix3 r (permK p) j) := by
  have hs : ∀ n : Fin 25, S400x25x25.Slices ![0, (permK n).val, 0] S400x1x25 := by decide
  refine (concatenate_ofFn_unit_apply (t := S400x25x25) (s₁ := S400x1x25) (1 : Fin 3)
      (fun n : Fin 25 => extractStridedSlice S400x1x25 ![0, (permK n).val, 0] V (hs n))
      concatenates_S400x1x25_S400x1x25_S400x1x25_S400x1x25_S400x1x25_S400x1x25_S400x1x25_S400x1x25_S400x1x25_S400x1x25_S400x1x25_S400x1x25_S400x1x25_S400x1x25_S400x1x25_S400x1x25_S400x1x25_S400x1x25_S400x1x25_S400x1x25_S400x1x25_S400x1x25_S400x1x25_S400x1x25_S400x1x25_S400x25x25_d1
      rfl rfl (ix3 r p j) p rfl (ix3 r (0 : Fin 1) j) (off_axis r (0 : Fin 1) p j)).trans ?_
  exact slice3_axis1_apply (permK p).val V (hs p) r (0 : Fin 1) j (permK p) rfl

/-- One piece of the scale's concatenation that is the slice of the degrees from `o` on: the piece's rows are the
    result's rows `pre … pre + m - 1`, and its row `p - pre` is degree `o + (p - pre)`. -/
theorem scale_piece (V : S400x5x32.Idx → α) (r : Fin 400) (p : Fin 25) (c : Fin 32)
    (xs : List ((s : Shape) × (s.Idx → α))) (h : Shape.Concatenates (xs.map (·.1)) S400x25x32 1)
    (hlen : xs.length = 9) (k : Nat) (hk : k < 9) (m o : Nat) (hsl : S400x5x32.Slices ![0, o, 0] ⟨3, ![400, m, 32]⟩)
    (hxk : xs[k]'(hlen ▸ hk) = ⟨⟨3, ![400, m, 32]⟩, extractStridedSlice ⟨3, ![400, m, 32]⟩ ![0, o, 0] V hsl⟩)
    (pre : Nat)
    (hpre : (((xs.take k).map (·.1)).map fun s =>
      if h : s.rank = S400x25x32.rank then s.size ((1 : Fin S400x25x32.rank).cast h.symm) else 0).sum = pre)
    (hlo : pre ≤ p.val) (hhi : p.val - pre < m) (d : Fin 5) (hd : d.val = o + (p.val - pre)) :
    concatenate S400x25x32 1 xs h (ix3 r p c) = V (ix3 r d c) :=
  (concatenate_apply_piece (1 : Fin S400x25x32.rank) xs h (ix3 r p c) k (hlen ▸ hk) ⟨3, ![400, m, 32]⟩ _ hxk rfl pre hpre
      (ix3 r (⟨p.val - pre, hhi⟩ : Fin m) c) (off_axis r (⟨p.val - pre, hhi⟩ : Fin m) p c)
      (show pre + (p.val - pre) = p.val by omega)).trans
    (slice3_axis1_apply o V hsl r (⟨p.val - pre, hhi⟩ : Fin m) c d hd)

/-- The first piece is the whole scale: row `p < 5` of the result is degree `p`. -/
theorem scale_head (V : S400x5x32.Idx → α) (r : Fin 400) (p : Fin 25) (c : Fin 32)
    (xs : List ((s : Shape) × (s.Idx → α))) (h : Shape.Concatenates (xs.map (·.1)) S400x25x32 1)
    (hlen : xs.length = 9) (hxk : xs[0]'(hlen ▸ (by decide : 0 < 9)) = ⟨S400x5x32, V⟩)
    (hlt : p.val < 5) (d : Fin 5) (hd : d.val = p.val) :
    concatenate S400x25x32 1 xs h (ix3 r p c) = V (ix3 r d c) := by
  have e : d = ⟨p.val, hlt⟩ := Fin.ext hd
  subst e
  exact concatenate_apply_piece (1 : Fin S400x25x32.rank) xs h (ix3 r p c) 0 (hlen ▸ (by decide : 0 < 9)) S400x5x32 V hxk rfl 0 rfl
    (ix3 r (⟨p.val, hlt⟩ : Fin 5) c) (off_axis r (⟨p.val, hlt⟩ : Fin 5) p c) (Nat.zero_add _)

/-- The scale laid along the kernel's 25 rows: the whole scale (degrees 0 … 4: the rows of order 0), then for each
    order `m = 1 … 4` the degrees `m … 4` twice (its positive rows, its negative rows): nine pieces of 5, 4, 4, 3, 3, 2,
    2, 1, 1 rows, so that row `p` is degree `kdeg p`. -/
theorem scaleRows_apply (V : S400x5x32.Idx → α) (r : Fin 400) (p : Fin 25) (c : Fin 32) :
    concatenate S400x25x32 1 [⟨S400x5x32, V⟩, ⟨S400x4x32, extractStridedSlice S400x4x32 ![0, 1, 0] V slices_S400x5x32_o0_1_0_S400x4x32⟩, ⟨S400x4x32, extractStridedSlice S400x4x32 ![0, 1, 0] V slices_S400x5x32_o0_1_0_S400x4x32⟩, ⟨S400x3x32, extractStridedSlice S400x3x32 ![0, 2, 0] V slices_S400x5x32_o0_2_0_S400x3x32⟩, ⟨S400x3x32, extractStridedSlice S400x3x32 ![0, 2, 0] V slices_S400x5x32_o0_2_0_S400x3x32⟩, ⟨S400x2x32, extractStridedSlice S400x2x32 ![0, 3, 0] V slices_S400x5x32_o0_3_0_S400x2x32⟩, ⟨S400x2x32, extractStridedSlice S400x2x32 ![0, 3, 0] V slices_S400x5x32_o0_3_0_S400x2x32⟩, ⟨S400x1x32, extractStridedSlice S400x1x32 ![0, 4, 0] V slices_S400x5x32_o0_4_0_S400x1x32⟩, ⟨S400x1x32, extractStridedSlice S400x1x32 ![0, 4, 0] V slices_S400x5x32_o0_4_0_S400x1x32⟩]
        concatenates_S400x5x32_S400x4x32_S400x4x32_S400x3x32_S400x3x32_S400x2x32_S400x2x32_S400x1x32_S400x1x32_S400x25x32_d1 (ix3 r p c)
      = V (ix3 r (kdeg p) c) := by
  fin_cases p
  iterate 5 exact scale_head V r _ c _ _ rfl rfl (by decide) _ rfl
  iterate 4 exact scale_piece V r _ c _ _ rfl 1 (by decide) _ _ _ rfl 5 rfl (by decide) (by decide) _ rfl
  iterate 4 exact scale_piece V r _ c _ _ rfl 2 (by decide) _ _ _ rfl 9 rfl (by decide) (by decide) _ rfl
  iterate 3 exact scale_piece V r _ c _ _ rfl 3 (by decide) _ _ _ rfl 13 rfl (by decide) (by decide) _ rfl
  iterate 3 exact scale_piece V r _ c _ _ rfl 4 (by decide) _ _ _ rfl 16 rfl (by decide) (by decide) _ rfl
  iterate 2 exact scale_piece V r _ c _ _ rfl 5 (by decide) _ _ _ rfl 19 rfl (by decide) (by decide) _ rfl
  iterate 2 exact scale_piece V r _ c _ _ rfl 6 (by decide) _ _ _ rfl 21 rfl (by decide) (by decide) _ rfl
  exact scale_piece V r _ c _ _ rfl 7 (by decide) _ _ _ rfl 23 rfl (by decide) (by decide) _ rfl
  exact scale_piece V r _ c _ _ rfl 8 (by decide) _ _ _ rfl 24 rfl (by decide) (by decide) _ rfl

end Layout

/-! ## The payloads read at an index -/

/-- The Wigner block with each matrix's rows in the kernel's order: entry `(r, p, j)` is the block's
    `(r, permK p * 25 + j)`. -/
theorem pay2_apply (v3 : Vec Ideal S400x625 .f32) (r : Fin 400) (p j : Fin 25) :
    k0_pay2 (F := Ideal) v3 (ix3 r p j) = v3 (ix2 r (fcat 625 (by decide) (permK p) j)) := by
  unfold k0_pay2
  refine (permRows_apply _ r p j).trans ?_
  refine (cast_625_apply _ _ r (permK p) j).trans ?_
  rw [shapeCast_self]

/-- The radial network before its bias: `∑ k, edge_fc (r, k) * fc_w (k, n)` (narrowing to bf16 is the identity on the
    extended reals). -/
theorem pay4_apply (v41 : Vec Ideal S400x64 .f32) (v43 : Vec Ideal S64x160 .bf16) (r : Fin 400) (n : Fin 160) :
    k0_pay4 (F := Ideal) v41 v43 (ix2 r n) = ∑ k : Fin 64, (v41 (ix2 r k) : EReal) * (v43 (ix2 k n) : EReal) := by
  unfold k0_pay4
  refine (matmul_radial_apply _ _ r n).trans ?_
  refine Finset.sum_congr rfl fun k _ => congrArg₂ (· * ·) (truncf_apply (φ := .f32) (ψ := .bf16) _ bitsLt_bf16_f32 _) ?_
  rw [shapeCast_self]

/-- The mixed coefficients: the permuted Wigner matrix times the node features (the rotation), laid flat as
    `k = p' * 32 + c'`, times the 800 × 800 weight, viewed [400, 25, 32] again. -/
theorem pay3_apply (v0 : Vec Ideal S400x800 .f32) (v3 : Vec Ideal S400x625 .f32) (v37 : Vec Ideal S800x800 .bf16)
    (r : Fin 400) (p : Fin 25) (c : Fin 32) :
    k0_pay3 (F := Ideal) v0 v3 v37 (ix3 r p c)
      = ∑ k : Fin 800,
          (∑ j : Fin 25, (v3 (ix2 r (fcat 625 (by decide) (permK (fdiv 32 25 (by decide) (by decide) k)) j)) : EReal)
              * (v0 (ix2 r (fcat 800 (by decide) j (fmod 32 (by decide) k))) : EReal))
            * (v37 (ix2 k (fcat 800 (by decide) p c)) : EReal) := by
  unfold k0_pay3
  refine (cast_800_apply _ _ r p c).trans ?_
  refine (matmul_mix_apply _ _ r _).trans ?_
  refine Finset.sum_congr rfl fun k _ => congrArg₂ (· * ·) ?_ ?_
  · refine (truncf_apply (φ := .f32) (ψ := .bf16) _ bitsLt_bf16_f32 _).trans ?_
    refine (flat_800_apply _ _ r k).trans ?_
    refine (matmul_rot_apply _ _ r _ _).trans ?_
    refine Finset.sum_congr rfl fun j _ => congrArg₂ (· * ·) ?_ ?_
    · exact (truncf_apply (φ := .f32) (ψ := .bf16) _ bitsLt_bf16_f32 _).trans (pay2_apply v3 r _ j)
    · refine (truncf_apply (φ := .f32) (ψ := .bf16) _ bitsLt_bf16_f32 _).trans ?_
      refine (cast_800_apply _ _ r j _).trans ?_
      rw [shapeCast_self]
  · rw [shapeCast_self]

/-- The radial network with its bias at the entry that scales the kernel's row `p`, channel `c`: entry
    `kdeg p * 32 + c`. -/
def zAt (v45 : FVec Ideal S400x160 .f32) (v46 : Vec Ideal S1x160 .f32) (r : Fin 400) (p : Fin 25) (c : Fin 32) : EReal :=
  v45 (ix2 r (fcat 160 (by decide) (kdeg p) c)) + v46 (ix2 (0 : Fin 1) (fcat 160 (by decide) (kdeg p) c))

/-- The mixed coefficient at `(r, p, c)` times its scale `z * logistic z`. -/
def yAt (v40 : FVec Ideal S400x25x32 .f32) (v45 : FVec Ideal S400x160 .f32) (v46 : Vec Ideal S1x160 .f32)
    (r : Fin 400) (p : Fin 25) (c : Fin 32) : EReal :=
  v40 (ix3 r p c) * (zAt v45 v46 r p c * Ideal.logistic (zAt v45 v46 r p c))

/-- The vector `logistic` is the scalar one at every entry. -/
theorem logistic_apply {s : Shape} {φ : FTy} (x : FVec Ideal s φ) (i : s.Idx) : logistic x i = Ideal.logistic (x i) := rfl

/-- Three arrays added entry by entry. -/
theorem add3_apply {s : Shape} {φ : FTy} (a b c : FVec Ideal s φ) (i : s.Idx) :
    addf (addf a b) c i = (a i + b i) + c i := rfl

/-- The scale by degree: `z * logistic z` with `z` the radial product plus the bias row, viewed [400, 5, 32]. -/
theorem silu_apply (v45 : FVec Ideal S400x160 .f32) (v46 : Vec Ideal S1x160 .f32) (r : Fin 400) (l : Fin 5) (c : Fin 32) :
    (shapeCast S400x5x32 (mulf (addf v45 (broadcastTo S400x160 (shapeCast S1x160 v46 shapeCasts_S1x160_S1x160) broadcasts_S1x160_S400x160)) (logistic (addf v45 (broadcastTo S400x160 (shapeCast S1x160 v46 shapeCasts_S1x160_S1x160) broadcasts_S1x160_S400x160)))) shapeCasts_S400x160_S400x5x32) (ix3 r l c)
      = (v45 (ix2 r (fcat 160 (by decide) l c)) + v46 (ix2 (0 : Fin 1) (fcat 160 (by decide) l c)))
        * Ideal.logistic (v45 (ix2 r (fcat 160 (by decide) l c)) + v46 (ix2 (0 : Fin 1) (fcat 160 (by decide) l c))) := by
  refine (cast_160_apply _ _ r l c).trans ?_
  have hb : addf v45 (broadcastTo S400x160 (shapeCast S1x160 v46 shapeCasts_S1x160_S1x160) broadcasts_S1x160_S400x160)
      (ix2 r (fcat 160 (by decide) l c))
        = v45 (ix2 r (fcat 160 (by decide) l c)) + v46 (ix2 (0 : Fin 1) (fcat 160 (by decide) l c)) := by
    rw [addf_apply, broadcastTo_1b_ab_apply, shapeCast_self]
  rw [mulf_apply, logistic_apply, hb]

/-- The mixed coefficients times the scale laid along the kernel's rows. -/
theorem scaled_apply (v40 : FVec Ideal S400x25x32 .f32) (v45 : FVec Ideal S400x160 .f32) (v46 : Vec Ideal S1x160 .f32)
    (r : Fin 400) (p : Fin 25) (c : Fin 32) :
    mulf v40 (concatenate S400x25x32 1 [⟨S400x5x32, (shapeCast S400x5x32 (mulf (addf v45 (broadcastTo S400x160 (shapeCast S1x160 v46 shapeCasts_S1x160_S1x160) broadcasts_S1x160_S400x160)) (logistic (addf v45 (broadcastTo S400x160 (shapeCast S1x160 v46 shapeCasts_S1x160_S1x160) broadcasts_S1x160_S400x160)))) shapeCasts_S400x160_S400x5x32)⟩, ⟨S400x4x32, extractStridedSlice S400x4x32 ![0, 1, 0] (shapeCast S400x5x32 (mulf (addf v45 (broadcastTo S400x160 (shapeCast S1x160 v46 shapeCasts_S1x160_S1x160) broadcasts_S1x160_S400x160)) (logistic (addf v45 (broadcastTo S400x160 (shapeCast S1x160 v46 shapeCasts_S1x160_S1x160) broadcasts_S1x160_S400x160)))) shapeCasts_S400x160_S400x5x32) slices_S400x5x32_o0_1_0_S400x4x32⟩, ⟨S400x4x32, extractStridedSlice S400x4x32 ![0, 1, 0] (shapeCast S400x5x32 (mulf (addf v45 (broadcastTo S400x160 (shapeCast S1x160 v46 shapeCasts_S1x160_S1x160) broadcasts_S1x160_S400x160)) (logistic (addf v45 (broadcastTo S400x160 (shapeCast S1x160 v46 shapeCasts_S1x160_S1x160) broadcasts_S1x160_S400x160)))) shapeCasts_S400x160_S400x5x32) slices_S400x5x32_o0_1_0_S400x4x32⟩, ⟨S400x3x32, extractStridedSlice S400x3x32 ![0, 2, 0] (shapeCast S400x5x32 (mulf (addf v45 (broadcastTo S400x160 (shapeCast S1x160 v46 shapeCasts_S1x160_S1x160) broadcasts_S1x160_S400x160)) (logistic (addf v45 (broadcastTo S400x160 (shapeCast S1x160 v46 shapeCasts_S1x160_S1x160) broadcasts_S1x160_S400x160)))) shapeCasts_S400x160_S400x5x32) slices_S400x5x32_o0_2_0_S400x3x32⟩, ⟨S400x3x32, extractStridedSlice S400x3x32 ![0, 2, 0] (shapeCast S400x5x32 (mulf (addf v45 (broadcastTo S400x160 (shapeCast S1x160 v46 shapeCasts_S1x160_S1x160) broadcasts_S1x160_S400x160)) (logistic (addf v45 (broadcastTo S400x160 (shapeCast S1x160 v46 shapeCasts_S1x160_S1x160) broadcasts_S1x160_S400x160)))) shapeCasts_S400x160_S400x5x32) slices_S400x5x32_o0_2_0_S400x3x32⟩, ⟨S400x2x32, extractStridedSlice S400x2x32 ![0, 3, 0] (shapeCast S400x5x32 (mulf (addf v45 (broadcastTo S400x160 (shapeCast S1x160 v46 shapeCasts_S1x160_S1x160) broadcasts_S1x160_S400x160)) (logistic (addf v45 (broadcastTo S400x160 (shapeCast S1x160 v46 shapeCasts_S1x160_S1x160) broadcasts_S1x160_S400x160)))) shapeCasts_S400x160_S400x5x32) slices_S400x5x32_o0_3_0_S400x2x32⟩, ⟨S400x2x32, extractStridedSlice S400x2x32 ![0, 3, 0] (shapeCast S400x5x32 (mulf (addf v45 (broadcastTo S400x160 (shapeCast S1x160 v46 shapeCasts_S1x160_S1x160) broadcasts_S1x160_S400x160)) (logistic (addf v45 (broadcastTo S400x160 (shapeCast S1x160 v46 shapeCasts_S1x160_S1x160) broadcasts_S1x160_S400x160)))) shapeCasts_S400x160_S400x5x32) slices_S400x5x32_o0_3_0_S400x2x32⟩, ⟨S400x1x32, extractStridedSlice S400x1x32 ![0, 4, 0] (shapeCast S400x5x32 (mulf (addf v45 (broadcastTo S400x160 (shapeCast S1x160 v46 shapeCasts_S1x160_S1x160) broadcasts_S1x160_S400x160)) (logistic (addf v45 (broadcastTo S400x160 (shapeCast S1x160 v46 shapeCasts_S1x160_S1x160) broadcasts_S1x160_S400x160)))) shapeCasts_S400x160_S400x5x32) slices_S400x5x32_o0_4_0_S400x1x32⟩, ⟨S400x1x32, extractStridedSlice S400x1x32 ![0, 4, 0] (shapeCast S400x5x32 (mulf (addf v45 (broadcastTo S400x160 (shapeCast S1x160 v46 shapeCasts_S1x160_S1x160) broadcasts_S1x160_S400x160)) (logistic (addf v45 (broadcastTo S400x160 (shapeCast S1x160 v46 shapeCasts_S1x160_S1x160) broadcasts_S1x160_S400x160)))) shapeCasts_S400x160_S400x5x32) slices_S400x5x32_o0_4_0_S400x1x32⟩]
        concatenates_S400x5x32_S400x4x32_S400x4x32_S400x3x32_S400x3x32_S400x2x32_S400x2x32_S400x1x32_S400x1x32_S400x25x32_d1) (ix3 r p c) = yAt v40 v45 v46 r p c := by
  rw [mulf_apply, scaleRows_apply, silu_apply]
  rfl

/-- The output block: the rotation back as the sum of three products (the second and third have a factor `a - a`),
    laid flat as `i * 32 + c`. -/
theorem pay1_apply (v31 : FVec Ideal S400x25x25 .f32) (v40 : FVec Ideal S400x25x32 .f32) (v45 : FVec Ideal S400x160 .f32)
    (v46 : Vec Ideal S1x160 .f32) (r : Fin 400) (i : Fin 25) (c : Fin 32) :
    k0_pay1 (F := Ideal) v31 v40 v45 v46 (ix2 r (fcat 800 (by decide) i c))
      = ((∑ p : Fin 25, v31 (ix3 r p i) * yAt v40 v45 v46 r p c)
          + (∑ p : Fin 25, v31 (ix3 r p i) * (yAt v40 v45 v46 r p c - yAt v40 v45 v46 r p c)))
        + (∑ p : Fin 25, (v31 (ix3 r p i) - v31 (ix3 r p i)) * yAt v40 v45 v46 r p c) := by
  unfold k0_pay1
  refine (flat_800_fcat_apply _ _ r i c).trans ?_
  refine (add3_apply _ _ _ _).trans ?_
  refine congrArg₂ (· + ·) (congrArg₂ (· + ·) ?_ ?_) ?_
  · refine (matmul_back_apply _ _ r i c).trans ?_
    exact Finset.sum_congr rfl fun p _ => congrArg₂ (· * ·) (truncf_apply (φ := .f32) (ψ := .bf16) _ bitsLt_bf16_f32 _)
      ((truncf_apply (φ := .f32) (ψ := .bf16) _ bitsLt_bf16_f32 _).trans (scaled_apply v40 v45 v46 r p c))
  · refine (matmul_back_apply _ _ r i c).trans ?_
    exact Finset.sum_congr rfl fun p _ => congrArg₂ (· * ·) (truncf_apply (φ := .f32) (ψ := .bf16) _ bitsLt_bf16_f32 _)
      ((truncf_apply (φ := .f32) (ψ := .bf16) _ bitsLt_bf16_f32 _).trans ((subf_apply _ _ _).trans
        (congrArg₂ (· - ·) (scaled_apply v40 v45 v46 r p c) (scaled_apply v40 v45 v46 r p c))))
  · refine (matmul_back_apply _ _ r i c).trans ?_
    exact Finset.sum_congr rfl fun p _ => congrArg₂ (· * ·)
      ((truncf_apply (φ := .f32) (ψ := .bf16) _ bitsLt_bf16_f32 _).trans (subf_apply _ _ _))
      ((truncf_apply (φ := .f32) (ψ := .bf16) _ bitsLt_bf16_f32 _).trans (scaled_apply v40 v45 v46 r p c))

/-- What the body leaves in the output block, entry by entry: row `r` of the block is one edge, and entry `i * 32 + c` of
    it is that edge's message (`edgeK`) at `(i, c)`, computed from row `r` of the three edge blocks (the Wigner matrix laid
    flat as `a * 25 + b`, the node features as `a * 32 + b`), the whole 800 × 800 weight, the radial weight and its bias. -/
theorem out0_6_apply (x0 : Vec Ideal S400x800 .f32) (x1 : Vec Ideal S400x625 .f32) (x2 : Vec Ideal S400x64 .f32)
    (x3 : Vec Ideal S800x800 .bf16) (x4 : Vec Ideal S64x160 .bf16) (x5 : Vec Ideal S1x160 .f32)
    (r : Fin 400) (i : Fin 25) (c : Fin 32) :
    Gen.out0_6 (F := Ideal) x0 x1 x2 x3 x4 x5 (ix2 r (fcat 800 (by decide) i c))
      = edgeK (fun a b => x1 (ix2 r (fcat 625 (by decide) a b))) (fun a b => x0 (ix2 r (fcat 800 (by decide) a b)))
          (fun k => x2 (ix2 r k)) (fun k q => x3 (ix2 k q)) (fun k n => x4 (ix2 k n)) (fun n => x5 (ix2 (0 : Fin 1) n)) i c := by
  -- the body loads its six whole blocks and stores one whole block: the stored payload at the loaded blocks
  have hz : (![0, 0] : Fin 2 → Nat) = fun _ => 0 := funext fun a => by fin_cases a <;> rfl
  unfold Gen.out0_6
  rw [View.canon_unit_zero hz]
  simp only [View.ld_unit_zero (S := S400x800) hz, View.ld_unit_zero (S := S400x625) hz, View.ld_unit_zero (S := S400x64) hz,
    View.ld_unit_zero (S := S800x800) hz, View.ld_unit_zero (S := S64x160) hz, View.ld_unit_zero (S := S1x160) hz]
  refine (pay1_apply _ _ _ _ r i c).trans ?_
  -- the permuted Wigner row and the scaled mixed coefficient in the specification's words
  have hW : ∀ p : Fin 25, k0_pay2 (F := Ideal) x1 (ix3 r p i) = x1 (ix2 r (fcat 625 (by decide) (permK p) i)) :=
    fun p => pay2_apply x1 r p i
  have hY : ∀ p : Fin 25, yAt (k0_pay3 (F := Ideal) x0 x1 x3) (k0_pay4 (F := Ideal) x2 x4) x5 r p c
      = (∑ k : Fin 800,
            rot (fun p j => x1 (ix2 r (fcat 625 (by decide) (permK p) j))) (fun a b => x0 (ix2 r (fcat 800 (by decide) a b)))
                (fdiv 32 25 (by decide) (by decide) k) (fmod 32 (by decide) k)
              * x3 (ix2 k (fcat 800 (by decide) p c)))
          * (radial (fun k => x2 (ix2 r k)) (fun k n => x4 (ix2 k n)) (fun n => x5 (ix2 (0 : Fin 1) n))
                (fcat 160 (by decide) (kdeg p) c)
              * Ideal.logistic (radial (fun k => x2 (ix2 r k)) (fun k n => x4 (ix2 k n)) (fun n => x5 (ix2 (0 : Fin 1) n))
                (fcat 160 (by decide) (kdeg p) c))) := fun p => by
    unfold yAt zAt
    rw [pay3_apply, pay4_apply]
    rfl
  exact congrArg₂ (· + ·)
    (congrArg₂ (· + ·)
      (Finset.sum_congr rfl fun p _ => congrArg₂ (· * ·) (hW p) (hY p))
      (Finset.sum_congr rfl fun p _ => congrArg₂ (· * ·) (hW p) (congrArg₂ (· - ·) (hY p) (hY p))))
    (Finset.sum_congr rfl fun p _ => congrArg₂ (· * ·) (congrArg₂ (· - ·) (hW p) (hW p)) (hY p))

end Cert.KernelIdeal.KBody

end
-- ==== Proof.LibScatterBlock.lean ====
import Idealize.ShloMosaic.PureOps
import Idealize.ShloMosaic.Lib.ValueIdx

noncomputable section

namespace Cert.SO2.LibIndex

open Idealize.ShloMosaic Idealize.ShloMosaic.ValueIdx

/-! ## A fold of pointwise overwrites, read at one entry

The fold's step is taken abstractly: all that is used of it is that a list element whose key is not `k` leaves entry
`k` alone, and one whose key is `k` puts its own value there. -/

/-- An entry no list element is keyed to keeps its value through the fold. -/
theorem foldl_overwrite_miss {ι κ α : Type} (step : (κ → α) → ι → κ → α) (key : ι → Option κ) (k : κ)
    (hmiss : ∀ r n, key n ≠ some k → step r n k = r k) :
    ∀ (l : List ι) (x : κ → α), (∀ n ∈ l, key n ≠ some k) → l.foldl step x k = x k := by
  intro l
  induction l with
  | nil => intro x _; rfl
  | cons a t ih =>
    intro x h
    rw [List.foldl_cons, ih _ (fun n hn => h n (List.mem_cons_of_mem _ hn))]
    exact hmiss x a (h a List.mem_cons_self)

/-- An entry some list element is keyed to, every such element carrying the value `c`, holds `c` after the fold:
    the last element keyed to `k` decides, and its value is `c` like the others'. -/
theorem foldl_overwrite_hit {ι κ α : Type} (step : (κ → α) → ι → κ → α) (key : ι → Option κ) (v : ι → α) (k : κ)
    (hmiss : ∀ r n, key n ≠ some k → step r n k = r k) (hhit : ∀ r n, key n = some k → step r n k = v n) (c : α) :
    ∀ (l : List ι) (x : κ → α), (∃ n ∈ l, key n = some k) → (∀ n ∈ l, key n = some k → v n = c) →
      l.foldl step x k = c := by
  intro l
  induction l with
  | nil => intro x h; obtain ⟨n, hn, _⟩ := h; cases hn
  | cons a t ih =>
    intro x hex hall
    rw [List.foldl_cons]
    by_cases ht : ∃ n ∈ t, key n = some k
    · exact ih _ ht (fun n hn => hall n (List.mem_cons_of_mem _ hn))
    · have hnone : ∀ n ∈ t, key n ≠ some k := fun n hn e => ht ⟨n, hn, e⟩
      rw [foldl_overwrite_miss step key k hmiss t _ hnone]
      obtain ⟨n, hn, hk⟩ := hex
      rcases List.mem_cons.1 hn with rfl | hn'
      · rw [hhit x n hk]; exact hall n List.mem_cons_self hk
      · exact absurd hk (hnone n hn')

/-! ## A scatter whose body returns the update, read at one entry -/

/-- The scatter's step leaves alone every entry but the one the update index lands at. -/
theorem scatter_step_miss {α : Type} {s : Shape} (o : Option s.Idx) (r : s.Idx → α) (b : α) (k : s.Idx) (h : o ≠ some k) :
    (match o with
      | some i => fun i' => if i' = i then (fun _ b => b) (r i) b else r i'
      | none => r) k = r k := by
  cases o with
  | none => rfl
  | some i =>
    have hne : k ≠ i := fun e => h (by rw [e])
    exact if_neg hne

/-- The scatter's step puts the update at the entry the update index lands at. -/
theorem scatter_step_hit {α : Type} {s : Shape} (o : Option s.Idx) (r : s.Idx → α) (b : α) (k : s.Idx) (h : o = some k) :
    (match o with
      | some i => fun i' => if i' = i then (fun _ b => b) (r i) b else r i'
      | none => r) k = b := by
  subst h
  exact if_pos rfl

/-- An entry no update index lands at keeps the operand's value. -/
theorem scatter_set_miss {α : Type} {s si u : Shape} {w : ℕ} (d : ScatterDims s si u) (x : s.Idx → α) (idx : IVec si w)
    (upd : u.Idx → α) (k : s.Idx) (h : ∀ j, d.resultIdx? j idx ≠ some k) :
    Host.scatter d (fun _ b => b) x idx upd k = x k := by
  unfold Host.scatter
  refine foldl_overwrite_miss _ (fun m => d.resultIdx? (u.rowMajor.symm m) idx) k ?_ _ _ ?_
  · intro r m hm
    exact scatter_step_miss _ r _ k hm
  · intro m _
    exact h _

/-- An entry some update index lands at, every such index carrying the value `c`, holds `c`. -/
theorem scatter_set_hit {α : Type} {s si u : Shape} {w : ℕ} (d : ScatterDims s si u) (x : s.Idx → α) (idx : IVec si w)
    (upd : u.Idx → α) (k : s.Idx) (c : α) (hex : ∃ j, d.resultIdx? j idx = some k)
    (hall : ∀ j, d.resultIdx? j idx = some k → upd j = c) :
    Host.scatter d (fun _ b => b) x idx upd k = c := by
  unfold Host.scatter
  refine foldl_overwrite_hit _ (fun m => d.resultIdx? (u.rowMajor.symm m) idx) (fun m => upd (u.rowMajor.symm m)) k
    ?_ ?_ c _ _ ?_ ?_
  · intro r m hm
    exact scatter_step_miss _ r _ k hm
  · intro r m hm
    exact scatter_step_hit _ r _ k hm
  · obtain ⟨j, hj⟩ := hex
    refine ⟨u.rowMajor j, List.mem_finRange _, ?_⟩
    show d.resultIdx? (u.rowMajor.symm (u.rowMajor j)) idx = some k
    rw [Equiv.symm_apply_apply]; exact hj
  · intro m _ hm
    exact hall _ hm

/-! ## The dimension numbers of one `n × n` window written at a start held by a 2-vector -/

/-- Two rank-2 indices are equal exactly when their coordinates are. -/
theorem ix2_inj {n0 n1 : ℕ} {a a' : Fin n0} {b b' : Fin n1} : ix2 a b = ix2 a' b' ↔ a = a' ∧ b = b' := by
  constructor
  · intro h; exact ⟨congrFun h 0, congrFun h 1⟩
  · rintro ⟨rfl, rfl⟩; rfl

/-- The window's start on each operand axis is that axis's word of the index vector. -/
theorem block_start {N n : ℕ}
    (d : ScatterDims ⟨2, ![N, N]⟩ ⟨1, ![2]⟩ ⟨2, ![n, n]⟩)
    (h1 : d.updateWindowDims = [0, 1]) (h2 : d.insertedWindowDims = []) (h3 : d.scatterDimsToOperandDims = [0, 1])
    (h4 : d.indexVectorDim = 0)
    (idx : IVec ⟨1, ![2]⟩ 32) (j : (⟨2, ![n, n]⟩ : Shape).Idx) :
    ∀ c : Fin 2, d.start j idx c = (idx (ix1 c)).toInt := by
  obtain ⟨uw, iw, sd, iv, wf⟩ := d
  simp only at h1 h2 h3 h4
  subst h1 h2 h3 h4
  refine Fin.forall_fin_two.2 ⟨?_, ?_⟩
  · unfold ScatterDims.start
    split
    · refine congrArg (fun z => (idx z).toInt) ?_
      funext b
      match b with
      | ⟨0, _⟩ => rfl
    · next h => exact absurd List.mem_cons_self h
  · unfold ScatterDims.start
    split
    · refine congrArg (fun z => (idx z).toInt) ?_
      funext b
      match b with
      | ⟨0, _⟩ => rfl
    · next h => exact absurd (List.mem_cons_of_mem _ List.mem_cons_self) h

/-- The window coordinate on each operand axis is the update index's coordinate on the same axis. -/
theorem block_window {N n : ℕ}
    (d : ScatterDims ⟨2, ![N, N]⟩ ⟨1, ![2]⟩ ⟨2, ![n, n]⟩)
    (h1 : d.updateWindowDims = [0, 1]) (h2 : d.insertedWindowDims = []) (h3 : d.scatterDimsToOperandDims = [0, 1])
    (h4 : d.indexVectorDim = 0)
    (j : (⟨2, ![n, n]⟩ : Shape).Idx) :
    ∀ c : Fin 2, d.window j c = (j c).val := by
  obtain ⟨uw, iw, sd, iv, wf⟩ := d
  simp only at h1 h2 h3 h4
  subst h1 h2 h3 h4
  refine Fin.forall_fin_two.2 ⟨?_, ?_⟩
  · unfold ScatterDims.window
    split
    · rfl
    · next h => exact absurd (List.mem_filter.2 ⟨List.mem_finRange _, by simp⟩) h
  · unfold ScatterDims.window
    split
    · rfl
    · next h => exact absurd (List.mem_filter.2 ⟨List.mem_finRange _, by simp⟩) h

/-- With the window inside the array, the update index `(a, b)` lands at `(off + a, off + b)`. -/
theorem block_resultIdx {N n : ℕ}
    (d : ScatterDims ⟨2, ![N, N]⟩ ⟨1, ![2]⟩ ⟨2, ![n, n]⟩)
    (h1 : d.updateWindowDims = [0, 1]) (h2 : d.insertedWindowDims = []) (h3 : d.scatterDimsToOperandDims = [0, 1])
    (h4 : d.indexVectorDim = 0)
    (idx : IVec ⟨1, ![2]⟩ 32) (off : ℕ) (hoff : off + n ≤ N)
    (hi0 : (idx (ix1 (0 : Fin 2))).toInt = (off : ℤ)) (hi1 : (idx (ix1 (1 : Fin 2))).toInt = (off : ℤ))
    (j : (⟨2, ![n, n]⟩ : Shape).Idx) :
    d.resultIdx? j idx
      = some (ix2 ⟨off + (j 0).val, by have := idx2_lt0 j; omega⟩ ⟨off + (j 1).val, by have := idx2_lt1 j; omega⟩) := by
  have hs0 : d.start j idx 0 = (off : ℤ) := (block_start d h1 h2 h3 h4 idx j 0).trans hi0
  have hs1 : d.start j idx 1 = (off : ℤ) := (block_start d h1 h2 h3 h4 idx j 1).trans hi1
  have hw0 : d.window j 0 = (j 0).val := block_window d h1 h2 h3 h4 j 0
  have hw1 : d.window j 1 = (j 1).val := block_window d h1 h2 h3 h4 j 1
  have hj0 := idx2_lt0 j
  have hj1 := idx2_lt1 j
  have H : ∀ c, 0 ≤ d.start j idx c + d.window j c ∧
      d.start j idx c + d.window j c < (⟨2, ![N, N]⟩ : Shape).size c := by
    refine Fin.forall_fin_two.2 ⟨?_, ?_⟩
    · rw [hs0, hw0]
      show _ ∧ _ < ((N : ℕ) : ℤ)
      omega
    · rw [hs1, hw1]
      show _ ∧ _ < ((N : ℕ) : ℤ)
      omega
  unfold ScatterDims.resultIdx?
  rw [dif_pos H]
  refine congrArg some ?_
  funext c
  match c with
  | ⟨0, _⟩ =>
    refine Fin.ext ?_
    show (d.start j idx 0 + d.window j 0).toNat = off + (j 0).val
    rw [hs0, hw0]; omega
  | ⟨1, _⟩ =>
    refine Fin.ext ?_
    show (d.start j idx 1 + d.window j 1).toNat = off + (j 1).val
    rw [hs1, hw1]; omega

/-- A `stablehlo.scatter` whose body returns the update, writing ONE `n × n` window into an `N × N` array at the start
    index `(off, off)` held by a 2-vector of indices (`x.at[off:off+n, off:off+n].set(u)`: update_window_dims `[0, 1]`, no
    inserted window dims, scatter_dims_to_operand_dims `[0, 1]`, index_vector_dim `0`), the window inside the array:
    inside the window the update, outside it the operand. -/
theorem scatter_block_set_apply {α : Type} {N n : ℕ}
    (d : ScatterDims ⟨2, ![N, N]⟩ ⟨1, ![2]⟩ ⟨2, ![n, n]⟩)
    (h1 : d.updateWindowDims = [0, 1]) (h2 : d.insertedWindowDims = []) (h3 : d.scatterDimsToOperandDims = [0, 1])
    (h4 : d.indexVectorDim = 0)
    (x : (⟨2, ![N, N]⟩ : Shape).Idx → α) (idx : IVec ⟨1, ![2]⟩ 32) (upd : (⟨2, ![n, n]⟩ : Shape).Idx → α)
    (off : ℕ) (hoff : off + n ≤ N) (hi0 : (idx (ix1 (0 : Fin 2))).toInt = (off : ℤ)) (hi1 : (idx (ix1 (1 : Fin 2))).toInt = (off : ℤ))
    (k q : Fin N) :
    Host.scatter d (fun _ b => b) x idx upd (ix2 k q)
      = if h : (off ≤ k.val ∧ k.val < off + n) ∧ (off ≤ q.val ∧ q.val < off + n) then
          upd (ix2 ⟨k.val - off, by omega⟩ ⟨q.val - off, by omega⟩)
        else x (ix2 k q) := by
  have hres := block_resultIdx d h1 h2 h3 h4 idx off hoff hi0 hi1
  by_cases h : (off ≤ k.val ∧ k.val < off + n) ∧ (off ≤ q.val ∧ q.val < off + n)
  · rw [dif_pos h]
    refine scatter_set_hit d x idx upd (ix2 k q) _ ⟨ix2 ⟨k.val - off, by omega⟩ ⟨q.val - off, by omega⟩, ?_⟩ ?_
    · -- the update index (k - off, q - off) lands at (k, q)
      rw [hres]
      refine congrArg some (ix2_inj.2 ⟨Fin.ext ?_, Fin.ext ?_⟩)
      · show off + (k.val - off) = k.val
        omega
      · show off + (q.val - off) = q.val
        omega
    · -- and it is the only one that does
      intro j hj
      rw [hres] at hj
      obtain ⟨e0, e1⟩ := ix2_inj.1 (Option.some.inj hj)
      have e0' : off + (j 0).val = k.val := congrArg Fin.val e0
      have e1' : off + (j 1).val = q.val := congrArg Fin.val e1
      refine congrArg upd ((eq_ix2 j).trans (ix2_inj.2 ⟨Fin.ext ?_, Fin.ext ?_⟩))
      · show (j 0).val = k.val - off
        omega
      · show (j 1).val = q.val - off
        omega
  · rw [dif_neg h]
    refine scatter_set_miss d x idx upd (ix2 k q) ?_
    -- an update index landing at (k, q) would put (k, q) inside the window
    intro j hj
    rw [hres] at hj
    obtain ⟨e0, e1⟩ := ix2_inj.1 (Option.some.inj hj)
    have e0' : off + (j 0).val = k.val := congrArg Fin.val e0
    have e1' : off + (j 1).val = q.val := congrArg Fin.val e1
    have hj0 := idx2_lt0 j
    have hj1 := idx2_lt1 j
    exact h ⟨⟨by omega, by omega⟩, ⟨by omega, by omega⟩⟩

end Cert.SO2.LibIndex

end
-- ==== Proof.KPrefix.lean ====
import proofs.«415867_j71554155151872_2_alg».proof.Proof.Spec
import proofs.«415867_j71554155151872_2_alg».proof.Proof.LibScatterBlock
import proofs.«415867_j71554155151872_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.KPrefix

open Cert.KernelIdeal Cert.KernelIdeal.Gen Idealize.ShloMosaic Idealize.ShloMosaic.ValueIdx Idealize.ShloMosaic.TcCoe Idealize.SL.Sem Cert.SO2

variable (m : (ℓ : Loc nD τ sig) → Buf (Elt Ideal) ℓ)

/-! ## The two flattened arrays -/

/-- A rank-3 array `[E, a, b]` laid flat to `[E, a * b]` reads, at `(e, k)`, the operand at `(e, k / b, k % b)`. -/
theorem shapeCast_flat_apply {α : Type} {E a b N : ℕ} (hN : N ≤ a * b) (hb : 0 < b) (hN' : N = a * b)
    (x : (⟨3, ![E, a, b]⟩ : Shape).Idx → α) (h : (⟨3, ![E, a, b]⟩ : Shape).ShapeCasts ⟨2, ![E, N]⟩) (e : Fin E) (k : Fin N) :
    shapeCast ⟨2, ![E, N]⟩ x h (ix2 e k) = x (ix3 e (fdiv b a hN hb k) (fmod b hb k)) := by
  refine shapeCast_apply x h _ _ ?_
  rw [Shape.rowMajor_val_three, Shape.rowMajor_val_two]
  show (e.val * a + k.val / b) * b + k.val % b = e.val * N + k.val
  have h1 : k.val / b * b + k.val % b = k.val := Nat.div_add_mod' _ _
  have h2 : e.val * N = e.val * a * b := by rw [hN', Nat.mul_assoc]
  rw [h2, Nat.add_mul, Nat.add_assoc, h1]

/-- The node features before they are read at an index: the gathered rows, laid flat. -/
theorem V_v7_term (c : Dev nD) : (V m c main_v7 : S160000x800.Idx → EReal)
    = shapeCast S160000x800 (xeOf gather_S10000x25x32_S160000x1_S160000x25x32_12_0_n_n_0_1_12532 bcast_S_S160000 bcast_S160000_S160000x1_0 (m ((c.tc : Thread nD τ).loc main_arg0)) (m ((c.tc : Thread nD τ).loc main_arg3)))
        shapeCasts_S160000x25x32_S160000x800 := by
  show StableHlo.after hostOps0 (fun b => m (c, b)) (Proc.devRef .tc main_v7) = _
  after_results
  rfl

/-- The node features as the region finds them: the gathered rows, each edge's 25 × 32 block laid flat. -/
theorem V_v7 (c : Dev nD) : (V m c main_v7 : S160000x800.Idx → EReal)
    = fun j => (xeOf gather_S10000x25x32_S160000x1_S160000x25x32_12_0_n_n_0_1_12532 bcast_S_S160000 bcast_S160000_S160000x1_0 (m ((c.tc : Thread nD τ).loc main_arg0)) (m ((c.tc : Thread nD τ).loc main_arg3)))
        (ix3 (j 0 : Fin 160000) (fdiv 32 25 (by decide) (by decide) (j 1 : Fin 800)) (fmod 32 (by decide) (j 1 : Fin 800))) := by
  rw [V_v7_term]
  funext j
  refine (congrArg _ (eq_ix2 j)).trans ?_
  exact shapeCast_flat_apply (by decide) (by decide) (by decide) _ _ _ _

/-- The Wigner matrices before they are read at an index: laid flat. -/
theorem V_v8_term (c : Dev nD) : (V m c main_v8 : S160000x625.Idx → EReal) = shapeCast S160000x625 (m ((c.tc : Thread nD τ).loc main_arg1)) shapeCasts_S160000x25x25_S160000x625 := by
  show StableHlo.after hostOps0 (fun b => m (c, b)) (Proc.devRef .tc main_v8) = _
  after_results
  rfl

/-- The Wigner matrices as the region finds them: each edge's 25 × 25 matrix laid flat. -/
theorem V_v8 (c : Dev nD) : (V m c main_v8 : S160000x625.Idx → EReal)
    = fun j => (m ((c.tc : Thread nD τ).loc main_arg1))
        (ix3 (j 0 : Fin 160000) (fdiv 25 25 (by decide) (by decide) (j 1 : Fin 625)) (fmod 25 (by decide) (j 1 : Fin 625))) := by
  rw [V_v8_term]
  funext j
  refine (congrArg _ (eq_ix2 j)).trans ?_
  exact shapeCast_flat_apply (by decide) (by decide) (by decide) _ _ _ _

/-! ## The block-diagonal weight -/

/-- An array equal, as a matrix, to `M` is `M` read at each index's two coordinates. -/
theorem of_mat2 {a b : ℕ} {X : (⟨2, ![a, b]⟩ : Shape).Idx → EReal} {M : Fin a → Fin b → EReal} (h : mat2 X = M) :
    X = fun j => M (j 0 : Fin a) (j 1 : Fin b) := by
  subst h
  funext j
  exact congrArg X (eq_ix2 j)

/-- A change of format changes no entry. -/
theorem mat2_truncf {a b : ℕ} (X : FVec Ideal (⟨2, ![a, b]⟩ : Shape) .f32) (h : FTy.bits .bf16 < FTy.bits .f32) :
    mat2 (truncf .bf16 X h : (⟨2, ![a, b]⟩ : Shape).Idx → EReal) = mat2 (X : (⟨2, ![a, b]⟩ : Shape).Idx → EReal) := rfl

/-- The zero array as a matrix. -/
theorem mat2_zero {a b : ℕ} (hb : (⟨0, ![]⟩ : Shape).BroadcastsInDim ⟨2, ![a, b]⟩ (![] : Fin 0 → Fin 2)) :
    mat2 (broadcastInDim (⟨2, ![a, b]⟩ : Shape) ![] hb (constant (F := Ideal) ⟨0, ![]⟩ .f32 0x00000000#32) : (⟨2, ![a, b]⟩ : Shape).Idx → EReal)
      = fun _ _ => 0 := by
  funext i j
  exact Ideal.ofBits_zero_f32

/-- The two-entry index vector made of two splat constants reads, at each position, its constant. -/
theorem idx2_apply0 (hb : (⟨0, ![]⟩ : Shape).BroadcastsInDim ⟨1, ![1]⟩ (![] : Fin 0 → Fin 1))
    (hc : Shape.Concatenates [(⟨1, ![1]⟩ : Shape), ⟨1, ![1]⟩] ⟨1, ![2]⟩ 0) (v w : BitVec 32) :
    (concatenate (⟨1, ![2]⟩ : Shape) 0 [⟨⟨1, ![1]⟩, broadcastInDim (⟨1, ![1]⟩ : Shape) ![] hb (constantI ⟨0, ![]⟩ 32 v)⟩,
      ⟨⟨1, ![1]⟩, broadcastInDim (⟨1, ![1]⟩ : Shape) ![] hb (constantI ⟨0, ![]⟩ 32 w)⟩] hc : IVec ⟨1, ![2]⟩ 32) (ix1 (0 : Fin 2)) = v := by
  refine (concatenate_pair_apply_left (t := ⟨1, ![2]⟩) (s₁ := ⟨1, ![1]⟩) (s₂ := ⟨1, ![1]⟩) (0 : Fin 1) _ _ hc (ix1 (0 : Fin 2)) rfl (ix1 (0 : Fin 1)) ?_).trans rfl
  intro d
  match d with
  | ⟨0, _⟩ => rfl

theorem idx2_apply1 (hb : (⟨0, ![]⟩ : Shape).BroadcastsInDim ⟨1, ![1]⟩ (![] : Fin 0 → Fin 1))
    (hc : Shape.Concatenates [(⟨1, ![1]⟩ : Shape), ⟨1, ![1]⟩] ⟨1, ![2]⟩ 0) (v w : BitVec 32) :
    (concatenate (⟨1, ![2]⟩ : Shape) 0 [⟨⟨1, ![1]⟩, broadcastInDim (⟨1, ![1]⟩ : Shape) ![] hb (constantI ⟨0, ![]⟩ 32 v)⟩,
      ⟨⟨1, ![1]⟩, broadcastInDim (⟨1, ![1]⟩ : Shape) ![] hb (constantI ⟨0, ![]⟩ 32 w)⟩] hc : IVec ⟨1, ![2]⟩ 32) (ix1 (1 : Fin 2)) = w := by
  refine (concatenate_pair_apply_right (t := ⟨1, ![2]⟩) (s₁ := ⟨1, ![1]⟩) (s₂ := ⟨1, ![1]⟩) (0 : Fin 1) _ _ hc (ix1 (1 : Fin 2)) rfl rfl (ix1 (0 : Fin 1)) ?_ rfl).trans rfl
  intro d hd
  match d with
  | ⟨0, _⟩ => exact absurd rfl hd

/-- The block matrix `[[Wr, Wi], [-Wi, Wr]]` built by joining rows and columns. -/
theorem mblock_mat2 {n N : ℕ} (hN : N = n + n) (Wr Wi : FVec Ideal (⟨2, ![n, n]⟩ : Shape) .f32)
    (h1 : Shape.Concatenates [(⟨2, ![n, n]⟩ : Shape), ⟨2, ![n, n]⟩] ⟨2, ![n, N]⟩ 1)
    (h0 : Shape.Concatenates [(⟨2, ![n, N]⟩ : Shape), ⟨2, ![n, N]⟩] ⟨2, ![N, N]⟩ 0) :
    mat2 (concatenate (⟨2, ![N, N]⟩ : Shape) 0
        [⟨⟨2, ![n, N]⟩, concatenate (⟨2, ![n, N]⟩ : Shape) 1 [⟨⟨2, ![n, n]⟩, Wr⟩, ⟨⟨2, ![n, n]⟩, Wi⟩] h1⟩,
         ⟨⟨2, ![n, N]⟩, concatenate (⟨2, ![n, N]⟩ : Shape) 1 [⟨⟨2, ![n, n]⟩, Host.negf Wi⟩, ⟨⟨2, ![n, n]⟩, Wr⟩] h1⟩] h0
          : (⟨2, ![N, N]⟩ : Shape).Idx → EReal)
      = mblockOf hN (mat2 Wr) (mat2 Wi) := by
  funext a b
  unfold mblockOf
  by_cases ha : a.val < n
  · rw [dif_pos ha]
    refine (concatenate_pair_apply_left (t := ⟨2, ![N, N]⟩) (s₁ := ⟨2, ![n, N]⟩) (s₂ := ⟨2, ![n, N]⟩) (0 : Fin 2) _ _ h0 (ix2 a b) rfl (ix2 (⟨a.val, ha⟩ : Fin n) b) ?_).trans ?_
    · intro d
      match d with
      | ⟨0, _⟩ => rfl
      | ⟨1, _⟩ => rfl
    by_cases hb : b.val < n
    · rw [dif_pos hb]
      refine concatenate_pair_apply_left (t := ⟨2, ![n, N]⟩) (s₁ := ⟨2, ![n, n]⟩) (s₂ := ⟨2, ![n, n]⟩) (1 : Fin 2) _ _ h1 (ix2 (⟨a.val, ha⟩ : Fin n) b) rfl (ix2 (⟨a.val, ha⟩ : Fin n) (⟨b.val, hb⟩ : Fin n)) ?_
      intro d
      match d with
      | ⟨0, _⟩ => rfl
      | ⟨1, _⟩ => rfl
    · rw [dif_neg hb]
      refine concatenate_pair_apply_right (t := ⟨2, ![n, N]⟩) (s₁ := ⟨2, ![n, n]⟩) (s₂ := ⟨2, ![n, n]⟩) (1 : Fin 2) _ _ h1 (ix2 (⟨a.val, ha⟩ : Fin n) b) rfl rfl
        (ix2 (⟨a.val, ha⟩ : Fin n) (⟨b.val - n, by have := b.isLt; omega⟩ : Fin n)) ?_ ?_
      · intro d hd
        match d with
        | ⟨0, _⟩ => rfl
        | ⟨1, _⟩ => exact absurd rfl hd
      · show b.val - n + n = b.val
        omega
  · rw [dif_neg ha]
    refine (concatenate_pair_apply_right (t := ⟨2, ![N, N]⟩) (s₁ := ⟨2, ![n, N]⟩) (s₂ := ⟨2, ![n, N]⟩) (0 : Fin 2) _ _ h0 (ix2 a b) rfl rfl
        (ix2 (⟨a.val - n, by have := a.isLt; omega⟩ : Fin n) b) ?_ ?_).trans ?_
    · intro d hd
      match d with
      | ⟨0, _⟩ => exact absurd rfl hd
      | ⟨1, _⟩ => rfl
    · show a.val - n + n = a.val
      omega
    by_cases hb : b.val < n
    · rw [dif_pos hb]
      refine concatenate_pair_apply_left (t := ⟨2, ![n, N]⟩) (s₁ := ⟨2, ![n, n]⟩) (s₂ := ⟨2, ![n, n]⟩) (1 : Fin 2) _ _ h1 (ix2 (⟨a.val - n, by have := a.isLt; omega⟩ : Fin n) b) rfl
        (ix2 (⟨a.val - n, by have := a.isLt; omega⟩ : Fin n) (⟨b.val, hb⟩ : Fin n)) ?_
      intro d
      match d with
      | ⟨0, _⟩ => rfl
      | ⟨1, _⟩ => rfl
    · rw [dif_neg hb]
      refine concatenate_pair_apply_right (t := ⟨2, ![n, N]⟩) (s₁ := ⟨2, ![n, n]⟩) (s₂ := ⟨2, ![n, n]⟩) (1 : Fin 2) _ _ h1 (ix2 (⟨a.val - n, by have := a.isLt; omega⟩ : Fin n) b) rfl rfl
        (ix2 (⟨a.val - n, by have := a.isLt; omega⟩ : Fin n) (⟨b.val - n, by have := b.isLt; omega⟩ : Fin n)) ?_ ?_
      · intro d hd
        match d with
        | ⟨0, _⟩ => rfl
        | ⟨1, _⟩ => exact absurd rfl hd
      · show b.val - n + n = b.val
        omega

/-- Writing one square window into an 800 × 800 array at `(off, off)`, as matrices. -/
theorem place_step {n : ℕ} (d : ScatterDims ⟨2, ![800, 800]⟩ ⟨1, ![2]⟩ ⟨2, ![n, n]⟩)
    (h1 : d.updateWindowDims = [0, 1]) (h2 : d.insertedWindowDims = []) (h3 : d.scatterDimsToOperandDims = [0, 1])
    (h4 : d.indexVectorDim = 0)
    (base : (⟨2, ![800, 800]⟩ : Shape).Idx → EReal) (idx : IVec ⟨1, ![2]⟩ 32) (upd : (⟨2, ![n, n]⟩ : Shape).Idx → EReal)
    (off : ℕ) (hoff : off + n ≤ 800) (hi0 : (idx (ix1 (0 : Fin 2))).toInt = (off : ℤ)) (hi1 : (idx (ix1 (1 : Fin 2))).toInt = (off : ℤ))
    {Bk : Fin n → Fin n → EReal} {M : Fin 800 → Fin 800 → EReal} (hB : mat2 upd = Bk) (hM : mat2 base = M) :
    mat2 (Host.scatter d (fun _ b => b) base idx upd) = placeBlock off n Bk M := by
  subst hB hM
  funext k q
  exact LibIndex.scatter_block_set_apply d h1 h2 h3 h4 base idx upd off hoff hi0 hi1 k q

/-- Two arrays joined along an axis, the two operands as plain arguments. -/
def concat2 {α : Type} (t : Shape) (a : Fin t.rank) (s₁ s₂ : Shape) (x₁ : s₁.Idx → α) (x₂ : s₂.Idx → α)
    (h : Shape.Concatenates [s₁, s₂] t a) : t.Idx → α := concatenate t a [⟨s₁, x₁⟩, ⟨s₂, x₂⟩] h

theorem concat2_eq {α : Type} (t : Shape) (a : Fin t.rank) (s₁ s₂ : Shape) (x₁ : s₁.Idx → α) (x₂ : s₂.Idx → α)
    (h : Shape.Concatenates [s₁, s₂] t a) : concatenate t a [⟨s₁, x₁⟩, ⟨s₂, x₂⟩] h = concat2 t a s₁ s₂ x₁ x₂ h := rfl

set_option maxHeartbeats 4000000 in
/-- The 800 × 800 weight as the region finds it: the block-diagonal matrix of the nine weight arrays. -/
theorem V_v46 (c : Dev nD) : (V m c main_v46 : S800x800.Idx → EReal)
    = fun j => (wbigOf (mat2 (m ((c.tc : Thread nD τ).loc main_arg5))) (mat2 (m ((c.tc : Thread nD τ).loc main_arg6))) (mat2 (m ((c.tc : Thread nD τ).loc main_arg7))) (mat2 (m ((c.tc : Thread nD τ).loc main_arg8))) (mat2 (m ((c.tc : Thread nD τ).loc main_arg9)))
          (mat2 (m ((c.tc : Thread nD τ).loc main_arg10))) (mat2 (m ((c.tc : Thread nD τ).loc main_arg11))) (mat2 (m ((c.tc : Thread nD τ).loc main_arg12))) (mat2 (m ((c.tc : Thread nD τ).loc main_arg13)))) (j 0 : Fin 800) (j 1 : Fin 800) := by
  show StableHlo.after hostOps0 (fun b => m (c, b)) (Proc.devRef .tc main_v46) = _
  simp (disch := decide) only [StableHlo.after_cons, StableHlo.after_nil, concat2_eq,
      StableHlo.nullary_result', StableHlo.unary_result', StableHlo.binary_result', StableHlo.ternary_result', StableHlo.reshape_result',
      StableHlo.nullary_result_ne', StableHlo.unary_result_ne', StableHlo.binary_result_ne', StableHlo.ternary_result_ne', StableHlo.reshape_result_ne']
  unfold concat2
  refine of_mat2 ?_
  refine (mat2_truncf _ _).trans ?_
  unfold wbigOf
  refine place_step _ rfl rfl rfl rfl _ _ _ 736 (by decide)
    ((congrArg BitVec.toInt (idx2_apply0 _ _ _ _)).trans (by decide)) ((congrArg BitVec.toInt (idx2_apply1 _ _ _ _)).trans (by decide))
    (mblock_mat2 (by decide) _ _ _ _) ?_
  refine place_step _ rfl rfl rfl rfl _ _ _ 608 (by decide)
    ((congrArg BitVec.toInt (idx2_apply0 _ _ _ _)).trans (by decide)) ((congrArg BitVec.toInt (idx2_apply1 _ _ _ _)).trans (by decide))
    (mblock_mat2 (by decide) _ _ _ _) ?_
  refine place_step _ rfl rfl rfl rfl _ _ _ 416 (by decide)
    ((congrArg BitVec.toInt (idx2_apply0 _ _ _ _)).trans (by decide)) ((congrArg BitVec.toInt (idx2_apply1 _ _ _ _)).trans (by decide))
    (mblock_mat2 (by decide) _ _ _ _) ?_
  refine place_step _ rfl rfl rfl rfl _ _ _ 160 (by decide)
    ((congrArg BitVec.toInt (idx2_apply0 _ _ _ _)).trans (by decide)) ((congrArg BitVec.toInt (idx2_apply1 _ _ _ _)).trans (by decide))
    (mblock_mat2 (by decide) _ _ _ _) ?_
  refine place_step _ rfl rfl rfl rfl _ _ _ 0 (by decide)
    ((congrArg BitVec.toInt (idx2_apply0 _ _ _ _)).trans (by decide)) ((congrArg BitVec.toInt (idx2_apply1 _ _ _ _)).trans (by decide))
    rfl ?_
  exact mat2_zero _

/-! ## The radial weight and bias -/

/-- The radial weight as the region finds it (a change of format only). -/
theorem V_v47 (c : Dev nD) : (V m c main_v47 : S64x160.Idx → EReal) = (m ((c.tc : Thread nD τ).loc main_arg14)) := by
  show StableHlo.after hostOps0 (fun b => m (c, b)) (Proc.devRef .tc main_v47) = _
  after_results
  rfl

/-- The radial bias laid as one row, before it is read at an index. -/
theorem V_v48_term (c : Dev nD) : (V m c main_v48 : S1x160.Idx → EReal) = shapeCast S1x160 (m ((c.tc : Thread nD τ).loc main_arg15)) shapeCasts_S160_S1x160 := by
  show StableHlo.after hostOps0 (fun b => m (c, b)) (Proc.devRef .tc main_v48) = _
  after_results
  rfl

/-- The radial bias as the region finds it: one row. -/
theorem V_v48 (c : Dev nD) : (V m c main_v48 : S1x160.Idx → EReal) = fun j => (m ((c.tc : Thread nD τ).loc main_arg15)) (ix1 (j 1 : Fin 160)) := by
  rw [V_v48_term]
  funext j
  refine (congrArg _ (eq_ix2 j)).trans ?_
  exact shapeCast_a_1a_apply _ _ _ _

end Cert.KernelIdeal.KPrefix

end
-- ==== Proof.KValue.lean ====
import proofs.«415867_j71554155151872_2_alg».proof.Proof.Spec
import proofs.«415867_j71554155151872_2_alg».proof.Proof.KBody
import proofs.«415867_j71554155151872_2_alg».proof.Proof.KPrefix
import proofs.«415867_j71554155151872_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KValue

open Cert.KernelIdeal Cert.KernelIdeal.Gen Idealize.ShloMosaic Idealize.ShloMosaic.ValueIdx Idealize.ShloMosaic.TcCoe Idealize.SL.Sem Cert.SO2

/-! ## Index arithmetic -/

theorem fcat_fdiv_fmod_800 (k : Fin 800) :
    fcat 800 (by decide) (fdiv 32 25 (by decide) (by decide) k) (fmod 32 (by decide) k) = k :=
  Fin.ext (by simp only [fcat_val, fdiv_val, fmod_val]; exact Nat.div_add_mod' k.val 32)

theorem fdiv_fcat_800 (i : Fin 25) (c : Fin 32) :
    fdiv 32 25 (by decide) (by decide) (fcat 800 (by decide) i c) = i :=
  Fin.ext (by simp only [fcat_val, fdiv_val]; have := c.isLt; omega)

theorem fmod_fcat_800 (i : Fin 25) (c : Fin 32) :
    fmod 32 (by decide) (fcat 800 (by decide) i c) = c :=
  Fin.ext (by simp only [fcat_val, fmod_val]; have := c.isLt; omega)

theorem fdiv_fcat_625 (a b : Fin 25) :
    fdiv 25 25 (by decide) (by decide) (fcat 625 (by decide) a b) = a :=
  Fin.ext (by simp only [fcat_val, fdiv_val]; have := b.isLt; omega)

theorem fmod_fcat_625 (a b : Fin 25) :
    fmod 25 (by decide) (fcat 625 (by decide) a b) = b :=
  Fin.ext (by simp only [fcat_val, fmod_val]; have := b.isLt; omega)

/-- One edge's message depends on its arguments entry by entry. -/
theorem edgeK_congr {W W' : Fin 25 → Fin 25 → EReal} {X X' : Fin 25 → Fin 32 → EReal} {f f' : Fin 64 → EReal}
    {B B' : Fin 800 → Fin 800 → EReal} {FW FW' : Fin 64 → Fin 160 → EReal} {fb fb' : Fin 160 → EReal}
    {i i' : Fin 25} {c c' : Fin 32}
    (hW : ∀ a b, W a b = W' a b) (hX : ∀ a b, X a b = X' a b) (hf : ∀ k, f k = f' k)
    (hB : ∀ k q, B k q = B' k q) (hFW : ∀ k n, FW k n = FW' k n) (hfb : ∀ n, fb n = fb' n)
    (hi : i = i') (hc : c = c') :
    edgeK W X f B FW fb i c = edgeK W' X' f' B' FW' fb' i' c' := by
  obtain rfl : W = W' := funext fun a => funext (hW a)
  obtain rfl : X = X' := funext fun a => funext (hX a)
  obtain rfl : f = f' := funext hf
  obtain rfl : B = B' := funext fun a => funext (hB a)
  obtain rfl : FW = FW' := funext fun a => funext (hFW a)
  obtain rfl : fb = fb' := funext hfb
  subst hi hc
  rfl

/-! ## The windows' blocks -/

/-- The index maps over the grid: the four windows that move with the grid are at block `(t, 0)`, the three others at `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

variable (m : (ℓ : Loc nD τ sig) → Buf (Elt Ideal) ℓ)

/-- Row `r` of the node-feature block at point `t` is row `400 t + r` of the array. -/
theorem blk0_apply (c : Dev nD) (t : Fin cfg0.N) (r : Fin 400) (q : Fin 800) (e : Fin 160000)
    (he : e.val = t.val * 400 + r.val) :
    (iblk m c 0 t : Vec Ideal S400x800 .f32) (ix2 r q) = (V m c main_v7 : S160000x800.Idx → EReal) (ix2 e q) := by
  obtain ⟨⟨h0, h1⟩, -⟩ := idx_facts t
  unfold iblk
  rw [View.read_apply]
  show V m c main_v7 _ = V m c main_v7 _
  congr 1
  funext a
  apply Fin.ext
  match a with
  | ⟨0, _⟩ => show win0_0.index t (0 : Fin 2) * 400 + 1 * r.val = e.val; rw [h0, he]; omega
  | ⟨1, _⟩ => show win0_0.index t (1 : Fin 2) * 800 + 1 * q.val = q.val; rw [h1]; omega

/-- Row `r` of the Wigner block at point `t` is row `400 t + r` of the array. -/
theorem blk1_apply (c : Dev nD) (t : Fin cfg0.N) (r : Fin 400) (q : Fin 625) (e : Fin 160000)
    (he : e.val = t.val * 400 + r.val) :
    (iblk m c 1 t : Vec Ideal S400x625 .f32) (ix2 r q) = (V m c main_v8 : S160000x625.Idx → EReal) (ix2 e q) := by
  obtain ⟨-, ⟨h0, h1⟩, -⟩ := idx_facts t
  unfold iblk
  rw [View.read_apply]
  show V m c main_v8 _ = V m c main_v8 _
  congr 1
  funext a
  apply Fin.ext
  match a with
  | ⟨0, _⟩ => show win0_1.index t (0 : Fin 2) * 400 + 1 * r.val = e.val; rw [h0, he]; omega
  | ⟨1, _⟩ => show win0_1.index t (1 : Fin 2) * 625 + 1 * q.val = q.val; rw [h1]; omega

/-- Row `r` of the radial-feature block at point `t` is row `400 t + r` of the array. -/
theorem blk2_apply (c : Dev nD) (t : Fin cfg0.N) (r : Fin 400) (q : Fin 64) (e : Fin 160000)
    (he : e.val = t.val * 400 + r.val) :
    (iblk m c 2 t : Vec Ideal S400x64 .f32) (ix2 r q) = (V m c main_arg2 : S160000x64.Idx → EReal) (ix2 e q) := by
  obtain ⟨-, -, ⟨h0, h1⟩, -⟩ := idx_facts t
  unfold iblk
  rw [View.read_apply]
  show V m c main_arg2 _ = V m c main_arg2 _
  congr 1
  funext a
  apply Fin.ext
  match a with
  | ⟨0, _⟩ => show win0_2.index t (0 : Fin 2) * 400 + 1 * r.val = e.val; rw [h0, he]; omega
  | ⟨1, _⟩ => show win0_2.index t (1 : Fin 2) * 64 + 1 * q.val = q.val; rw [h1]; omega

/-- The weight block is the whole weight at every point. -/
theorem blk3_apply (c : Dev nD) (t : Fin cfg0.N) (k q : Fin 800) :
    (iblk m c 3 t : Vec Ideal S800x800 .bf16) (ix2 k q) = (V m c main_v46 : S800x800.Idx → EReal) (ix2 k q) := by
  obtain ⟨-, -, -, ⟨h0, h1⟩, -⟩ := idx_facts t
  unfold iblk
  rw [View.read_apply]
  show V m c main_v46 _ = V m c main_v46 _
  congr 1
  funext a
  apply Fin.ext
  match a with
  | ⟨0, _⟩ => show win0_3.index t (0 : Fin 2) * 800 + 1 * k.val = k.val; rw [h0]; omega
  | ⟨1, _⟩ => show win0_3.index t (1 : Fin 2) * 800 + 1 * q.val = q.val; rw [h1]; omega

/-- The radial-weight block is the whole radial weight at every point. -/
theorem blk4_apply (c : Dev nD) (t : Fin cfg0.N) (k : Fin 64) (n : Fin 160) :
    (iblk m c 4 t : Vec Ideal S64x160 .bf16) (ix2 k n) = (V m c main_v47 : S64x160.Idx → EReal) (ix2 k n) := by
  obtain ⟨-, -, -, -, ⟨h0, h1⟩, -⟩ := idx_facts t
  unfold iblk
  rw [View.read_apply]
  show V m c main_v47 _ = V m c main_v47 _
  congr 1
  funext a
  apply Fin.ext
  match a with
  | ⟨0, _⟩ => show win0_4.index t (0 : Fin 2) * 64 + 1 * k.val = k.val; rw [h0]; omega
  | ⟨1, _⟩ => show win0_4.index t (1 : Fin 2) * 160 + 1 * n.val = n.val; rw [h1]; omega

/-- The bias block is the whole bias row at every point. -/
theorem blk5_apply (c : Dev nD) (t : Fin cfg0.N) (z : Fin 1) (n : Fin 160) :
    (iblk m c 5 t : Vec Ideal S1x160 .f32) (ix2 z n) = (V m c main_v48 : S1x160.Idx → EReal) (ix2 z n) := by
  obtain ⟨-, -, -, -, -, ⟨h0, h1⟩, -⟩ := idx_facts t
  unfold iblk
  rw [View.read_apply]
  show V m c main_v48 _ = V m c main_v48 _
  congr 1
  funext a
  apply Fin.ext
  match a with
  | ⟨0, _⟩ => show win0_5.index t (0 : Fin 2) * 1 + 1 * z.val = z.val; rw [h0]; omega
  | ⟨1, _⟩ => show win0_5.index t (1 : Fin 2) * 160 + 1 * n.val = n.val; rw [h1]; omega

/-! ## The region's output as one function of the arguments -/

/-- The node features gathered to the edges. -/
abbrev xeA (c : Dev nD) : SEX.Idx → EReal :=
  xeOf gather_S10000x25x32_S160000x1_S160000x25x32_12_0_n_n_0_1_12532 bcast_S_S160000 bcast_S160000_S160000x1_0
    (m ((c.tc : Thread nD τ).loc main_arg0)) (m ((c.tc : Thread nD τ).loc main_arg3))

/-- The block-diagonal weight of the nine weight arrays. -/
abbrev wbigA (c : Dev nD) : Fin 800 → Fin 800 → EReal :=
  wbigOf (mat2 (m ((c.tc : Thread nD τ).loc main_arg5))) (mat2 (m ((c.tc : Thread nD τ).loc main_arg6))) (mat2 (m ((c.tc : Thread nD τ).loc main_arg7))) (mat2 (m ((c.tc : Thread nD τ).loc main_arg8))) (mat2 (m ((c.tc : Thread nD τ).loc main_arg9)))
    (mat2 (m ((c.tc : Thread nD τ).loc main_arg10))) (mat2 (m ((c.tc : Thread nD τ).loc main_arg11))) (mat2 (m ((c.tc : Thread nD τ).loc main_arg12))) (mat2 (m ((c.tc : Thread nD τ).loc main_arg13)))

/-- Every edge's message, as the kernel computes it, of the arguments. -/
abbrev msgA (c : Dev nD) : SEX.Idx → EReal :=
  msgK (xeA m c) (m ((c.tc : Thread nD τ).loc main_arg1)) (m ((c.tc : Thread nD τ).loc main_arg2)) (wbigA m c)
    (mat2 (m ((c.tc : Thread nD τ).loc main_arg14))) (vec1 (m ((c.tc : Thread nD τ).loc main_arg15)))

/-- The message of edge `e` at the flat position `q = i * 32 + c` of its 25 × 32 block. -/
def flatAt (c : Dev nD) (e : Fin 160000) (q : Fin 800) : EReal :=
  msgA m c (ix3 e (fdiv 32 25 (by decide) (by decide) q) (fmod 32 (by decide) q))

/-- The messages with each edge's 25 × 32 block laid flat: entry `(e, i * 32 + c)` is the message of edge `e` at `(i, c)`. -/
def flatMsg (c : Dev nD) : S160000x800.Idx → EReal := fun j => flatAt m c (j 0) (j 1)

/-- The body's output block at any entry, the entry's column split into coefficient and channel. -/
theorem out_point (x0 : Vec Ideal S400x800 .f32) (x1 : Vec Ideal S400x625 .f32) (x2 : Vec Ideal S400x64 .f32)
    (x3 : Vec Ideal S800x800 .bf16) (x4 : Vec Ideal S64x160 .bf16) (x5 : Vec Ideal S1x160 .f32) (r : Fin 400) (q : Fin 800) :
    Gen.out0_6 (F := Ideal) x0 x1 x2 x3 x4 x5 (ix2 r q)
      = edgeK (fun a b => x1 (ix2 r (fcat 625 (by decide) a b))) (fun a b => x0 (ix2 r (fcat 800 (by decide) a b)))
          (fun k => x2 (ix2 r k)) (fun k q' => x3 (ix2 k q')) (fun k n => x4 (ix2 k n)) (fun n => x5 (ix2 (0 : Fin 1) n))
          (fdiv 32 25 (by decide) (by decide) q) (fmod 32 (by decide) q) :=
  (congrArg (fun q' : Fin 800 => Gen.out0_6 (F := Ideal) x0 x1 x2 x3 x4 x5 (ix2 r q')) (fcat_fdiv_fmod_800 q).symm).trans
    (KBody.out0_6_apply x0 x1 x2 x3 x4 x5 r _ _)

/-- What the body leaves at entry `(r, q)` of the block of point `t` is the flat message at row `400 t + r`, column `q`. -/
theorem flushed_point (c : Dev nD) (t : Fin cfg0.N) (r : Fin 400) (q : Fin 800) (e : Fin 160000) (q' : Fin 800)
    (he : e.val = t.val * 400 + r.val) (hq : q'.val = q.val) :
    Gen.out0_6 (F := Ideal) (iblk m c 0 t) (iblk m c 1 t) (iblk m c 2 t) (iblk m c 3 t) (iblk m c 4 t) (iblk m c 5 t) (ix2 r q)
      = flatMsg m c (ix2 e q') := by
  obtain rfl : q' = q := Fin.ext hq
  refine (out_point (iblk m c 0 t) (iblk m c 1 t) (iblk m c 2 t) (iblk m c 3 t) (iblk m c 4 t) (iblk m c 5 t) r q').trans ?_
  show _ = edgeK (fun a b => (m ((c.tc : Thread nD τ).loc main_arg1)) (ix3 e a b)) (fun a b => xeA m c (ix3 e a b))
      (fun k => (m ((c.tc : Thread nD τ).loc main_arg2)) (ix2 e k)) (wbigA m c)
      (mat2 (m ((c.tc : Thread nD τ).loc main_arg14))) (vec1 (m ((c.tc : Thread nD τ).loc main_arg15)))
      (fdiv 32 25 (by decide) (by decide) q') (fmod 32 (by decide) q')
  refine edgeK_congr (fun a b => ?_) (fun a b => ?_) (fun k => ?_) (fun k p => ?_) (fun k n => ?_) (fun n => ?_) rfl rfl
  · refine (blk1_apply m c t r (fcat 625 (by decide) a b) e he).trans ?_
    refine (congrFun (KPrefix.V_v8 m c) _).trans ?_
    show (m ((c.tc : Thread nD τ).loc main_arg1)) (ix3 e (fdiv 25 25 (by decide) (by decide) (fcat 625 (by decide) a b)) (fmod 25 (by decide) (fcat 625 (by decide) a b))) = _
    rw [fdiv_fcat_625, fmod_fcat_625]
  · refine (blk0_apply m c t r (fcat 800 (by decide) a b) e he).trans ?_
    refine (congrFun (KPrefix.V_v7 m c) _).trans ?_
    show xeA m c (ix3 e (fdiv 32 25 (by decide) (by decide) (fcat 800 (by decide) a b)) (fmod 32 (by decide) (fcat 800 (by decide) a b))) = _
    rw [fdiv_fcat_800, fmod_fcat_800]
  · refine (blk2_apply m c t r k e he).trans ?_
    exact congrFun (V_main_arg2 m c) _
  · refine (blk3_apply m c t k p).trans ?_
    exact congrFun (KPrefix.V_v46 m c) _
  · refine (blk4_apply m c t k n).trans ?_
    exact congrFun (KPrefix.V_v47 m c) _
  · refine (blk5_apply m c t (0 : Fin 1) n).trans ?_
    exact congrFun (KPrefix.V_v48 m c) _

/-- What point `t` writes back is block `t` of the flat messages. -/
theorem flushed_eq (c : Dev nD) (t : Fin cfg0.N) :
    (dats m 0 c).flushed 6 t = ((cfg0.win 6).blk t).view.read (Elt Ideal) (flatMsg m c) := by
  show (cfg0.win 6).cut (grid0.coords t) ((dats m 0 c).after 6 t) = _
  rw [after0_6]
  obtain ⟨-, -, -, -, -, -, h0, h1⟩ := idx_facts t
  funext y
  rw [View.read_apply]
  show Gen.out0_6 (F := Ideal) (iblk m c 0 t) (iblk m c 1 t) (iblk m c 2 t) (iblk m c 3 t) (iblk m c 4 t) (iblk m c 5 t) ((cfg0.win 6).xinj (grid0.coords t) y)
    = flatMsg m c (((cfg0.win 6).blk t).view.emb y)
  have hy := eq_ix2 (n0 := 400) (n1 := 800) ((cfg0.win 6).xinj (grid0.coords t) y)
  have hj := eq_ix2 (n0 := 160000) (n1 := 800) (((cfg0.win 6).blk t).view.emb y)
  refine (congrArg (Gen.out0_6 (F := Ideal) (iblk m c 0 t) (iblk m c 1 t) (iblk m c 2 t) (iblk m c 3 t) (iblk m c 4 t) (iblk m c 5 t)) hy).trans ?_
  refine (flushed_point m c t _ _ _ _ ?_ ?_).trans (congrArg (flatMsg m c) hj.symm)
  · show win0_6.index t (0 : Fin 2) * 400 + 1 * (y 0).val = t.val * 400 + (y 0).val
    rw [h0]; omega
  · show win0_6.index t (1 : Fin 2) * 800 + 1 * (y 1).val = (y 1).val
    rw [h1]; omega

/-- Every entry of the array is in some point's block: row `e` in that of point `e / 400`. -/
theorem cover (i : S160000x800.Idx) :
    ∃ t : Fin cfg0.N, (cfg0.win 6).flush t = true ∧ i ∈ ((cfg0.win 6).blk t).view.set := by
  have hi0 : (i 0).val < 160000 := (i 0).isLt
  have hi1 : (i 1).val < 800 := (i 1).isLt
  have hN : cfg0.N = 400 := N_0
  have ht : (i 0).val / 400 < cfg0.N := by rw [hN]; omega
  obtain ⟨-, -, -, -, -, -, h0, h1⟩ := idx_facts ⟨(i 0).val / 400, ht⟩
  refine ⟨⟨(i 0).val / 400, ht⟩, flush0_6 _, ?_⟩
  show i ∈ ((View.whole main_v49).slice (win0_6.rect ⟨(i 0).val / 400, ht⟩)).set
  rw [View.set_slice_whole, Rect.mem_set_unit]
  intro a
  match a with
  | ⟨0, _⟩ =>
    show win0_6.index ⟨(i 0).val / 400, ht⟩ (0 : Fin 2) * 400 ≤ (i 0).val ∧ (i 0).val < win0_6.index ⟨(i 0).val / 400, ht⟩ (0 : Fin 2) * 400 + 400
    rw [h0]; show (i 0).val / 400 * 400 ≤ (i 0).val ∧ (i 0).val < (i 0).val / 400 * 400 + 400; omega
  | ⟨1, _⟩ =>
    show win0_6.index ⟨(i 0).val / 400, ht⟩ (1 : Fin 2) * 800 ≤ (i 1).val ∧ (i 1).val < win0_6.index ⟨(i 0).val / 400, ht⟩ (1 : Fin 2) * 800 + 800
    rw [h1]; omega

/-- The region's output array after the run is the flat messages. -/
theorem final (c : Dev nD) : (dats m 0 c).arrAt 6 cfg0.N = flatMsg m c :=
  (dats m 0 c).arrAt_eq_of_cover 6 (flatMsg m c) (fun t _ => flushed_eq m c t) (cover)

/-! ## The operations after the region -/

/-- The reshape of the flat messages to `[E, 25, 32]` is the messages. -/
theorem reshape_flat (c : Dev nD) (i : S160000x25x32.Idx) :
    shapeCast S160000x25x32 (flatMsg m c) shapeCasts_S160000x800_S160000x25x32 i = msgA m c i := by
  obtain ⟨e, a, b, rfl⟩ : ∃ (e : Fin 160000) (a : Fin 25) (b : Fin 32), i = ix3 e a b := ⟨i 0, i 1, i 2, eq_ix3 i⟩
  refine (shapeCast_apply (flatMsg m c) shapeCasts_S160000x800_S160000x25x32 (ix3 e a b) (ix2 e (fcat 800 (by decide) a b)) ?_).trans ?_
  · rw [Shape.rowMajor_val_two, Shape.rowMajor_val_three]
    show e.val * 800 + (a.val * 32 + b.val) = (e.val * 25 + a.val) * 32 + b.val
    omega
  · show msgA m c (ix3 e (fdiv 32 25 (by decide) (by decide) (fcat 800 (by decide) a b)) (fmod 32 (by decide) (fcat 800 (by decide) a b))) = _
    rw [fdiv_fcat_800, fmod_fcat_800]

/-- The result buffer after the operations that follow the region: the messages summed at their destination nodes. -/
theorem tail_eq (c : Dev nD) :
    Pipeline.afterTail₀ cfgs (dats m) 0 (V0 m) [hostOps1] c main_v53
      = finalOf scatter_S10000x25x32_S160000x1_S160000x25x32_12_0_0_1 bcast_S_S10000x25x32 bcast_S160000_S160000x1_0 (m ((c.tc : Thread nD τ).loc main_arg4)) (msgA m c) := by
  have e4 : Pipeline.withArrays (cfgs 0).spec c (V0 m c) (fun w => (dats m 0 c).arrAt w (cfgs 0).N) (Proc.devRef .tc main_arg4) = m ((c.tc : Thread nD τ).loc main_arg4) :=
    (Pipeline.withArrays_of_ne _ c (V0 m c) _ main_arg4 (by exact (by decide : ∀ w, Pipeline.arrRef spec0 w ≠ main_arg4))).trans (V_main_arg4 m c)
  have e49 : Pipeline.withArrays (cfgs 0).spec c (V0 m c) (fun w => (dats m 0 c).arrAt w (cfgs 0).N) (Proc.devRef .tc main_v49) = flatMsg m c :=
    (Pipeline.withArrays_arr spec0 launch0.win.arr_inj c _ _ 6).trans (final m c)
  unfold Pipeline.afterTail₀
  show StableHlo.after hostOps1 _ (Proc.devRef .tc main_v53) = _
  after_results
  rw [e4, e49]
  unfold finalOf
  refine congrArg _ ?_
  funext i
  exact reshape_flat m c i

/-! ## The run -/

/-- The kernel program's run with its result named: the messages (`msgK` of the gathered node features, the Wigner matrices,
    the radial features and the weights) summed at their destination nodes; the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v53)
        = finalOf scatter_S10000x25x32_S160000x1_S160000x25x32_12_0_0_1 bcast_S_S10000x25x32 bcast_S160000_S160000x1_0 (m ((c.tc : Thread nD τ).loc main_arg4))
            (msgK (xeOf gather_S10000x25x32_S160000x1_S160000x25x32_12_0_n_n_0_1_12532 bcast_S_S160000 bcast_S160000_S160000x1_0 (m ((c.tc : Thread nD τ).loc main_arg0)) (m ((c.tc : Thread nD τ).loc main_arg3))) (m ((c.tc : Thread nD τ).loc main_arg1)) (m ((c.tc : Thread nD τ).loc main_arg2))
              (wbigOf (mat2 (m ((c.tc : Thread nD τ).loc main_arg5))) (mat2 (m ((c.tc : Thread nD τ).loc main_arg6))) (mat2 (m ((c.tc : Thread nD τ).loc main_arg7))) (mat2 (m ((c.tc : Thread nD τ).loc main_arg8))) (mat2 (m ((c.tc : Thread nD τ).loc main_arg9)))
          (mat2 (m ((c.tc : Thread nD τ).loc main_arg10))) (mat2 (m ((c.tc : Thread nD τ).loc main_arg11))) (mat2 (m ((c.tc : Thread nD τ).loc main_arg12))) (mat2 (m ((c.tc : Thread nD τ).loc main_arg13)))) (mat2 (m ((c.tc : Thread nD τ).loc main_arg14))) (vec1 (m ((c.tc : Thread nD τ).loc main_arg15))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(((h c).2 main_v53 (Pipeline.mem_restRefs_of main_v53 (by decide) (by decide))).trans (tail_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c))⟩) (run_main m ρ)

end Cert.KernelIdeal.KValue

end
-- ==== Proof.RefOps.lean ====
/- The reference program's 218 host operations, in order, as one list.
   A transcription of the printed @main of proof/ReferenceIdeal.lean (and of @silu at its one call), line by line; no step of the proof is made here. -/
import proofs.«415867_j71554155151872_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 218 operations, in order (the nine of @silu where @main calls it). -/
abbrev ops : List (HloOp τ sig (Elt F)) :=
  [ nullary main_c (fun i => lit0 (S5.rowMajor i)),
    nullary main_c_0 (constantI S5 1 0#1),
    nullary main_c_1 (constantI S5 1 0#1),
    nullary main_c_2 (fun i => lit1 (S4.rowMajor i)),
    nullary main_c_3 (constantI S4 1 0#1),
    nullary main_c_4 (fun i => lit2 (S4.rowMajor i)),
    nullary main_c_5 (constantI S4 1 0#1),
    nullary main_c_6 (constantI S4 1 0#1),
    nullary main_c_7 (constantI S4 1 0#1),
    nullary main_c_8 (fun i => lit3 (S3.rowMajor i)),
    nullary main_c_9 (constantI S3 1 0#1),
    nullary main_c_10 (fun i => lit4 (S3.rowMajor i)),
    nullary main_c_11 (constantI S3 1 0#1),
    nullary main_c_12 (constantI S3 1 0#1),
    nullary main_c_13 (constantI S3 1 0#1),
    nullary main_c_14 (fun i => lit5 (S2.rowMajor i)),
    nullary main_c_15 (constantI S2 1 0#1),
    nullary main_c_16 (fun i => lit6 (S2.rowMajor i)),
    nullary main_c_17 (constantI S2 1 0#1),
    nullary main_c_18 (constantI S2 1 0#1),
    nullary main_c_19 (constantI S2 1 0#1),
    nullary main_c_20 (constantI S1 32 24#32),
    nullary main_c_21 (constantI S1 1 0#1),
    nullary main_c_22 (constantI S1 32 16#32),
    nullary main_c_23 (constantI S1 1 0#1),
    nullary main_c_24 (constantI S1 1 0#1),
    nullary main_c_25 (constantI S1 1 0#1),
    nullary main_c_26 (fun i => lit7 (S25.rowMajor i)),
    nullary main_c_27 (constantI S25 1 0#1),
    nullary main_c_28 (constantI S_ 32 0#32),
    unary main_c_28 main_v0 (broadcastInDim S160000 ![] bcast_S_S160000 : (⟨S_, .i32⟩ : BufTy).Contents (Elt F) → (⟨S160000, .i32⟩ : BufTy).Contents (Elt F)),
    binary main_arg3 main_v0 main_v1 (cmpi .slt : (⟨S160000, .i32⟩ : BufTy).Contents (Elt F) → (⟨S160000, .i32⟩ : BufTy).Contents (Elt F) → (⟨S160000, .i1⟩ : BufTy).Contents (Elt F)),
    nullary main_c_29 (constantI S_ 32 10000#32),
    unary main_c_29 main_v2 (broadcastInDim S160000 ![] bcast_S_S160000 : (⟨S_, .i32⟩ : BufTy).Contents (Elt F) → (⟨S160000, .i32⟩ : BufTy).Contents (Elt F)),
    binary main_arg3 main_v2 main_v3 (addi : (⟨S160000, .i32⟩ : BufTy).Contents (Elt F) → (⟨S160000, .i32⟩ : BufTy).Contents (Elt F) → (⟨S160000, .i32⟩ : BufTy).Contents (Elt F)),
    ternary main_v1 main_v3 main_arg3 main_v4 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v4 main_v5 (broadcastInDim S160000x1 ![0] bcast_S160000_S160000x1_0 : (⟨S160000, .i32⟩ : BufTy).Contents (Elt F) → (⟨S160000x1, .i32⟩ : BufTy).Contents (Elt F)),
    binary main_arg0 main_v5 main_v6 ((fun x i => Host.gather gather_S10000x25x32_S160000x1_S160000x25x32_12_0_n_n_0_1_12532 x i) : (⟨S10000x25x32, .f32⟩ : BufTy).Contents (Elt F) → (⟨S160000x1, .i32⟩ : BufTy).Contents (Elt F) → (⟨S160000x25x32, .f32⟩ : BufTy).Contents (Elt F)),
    binary main_arg1 main_v6 main_v7 ((fun l r => Host.dotGeneral dot_S160000x25x25_S160000x25x32_S160000x25x32_2_1_1_2_0_0 none l r) : (⟨S160000x25x25, .f32⟩ : BufTy).Contents (Elt F) → (⟨S160000x25x32, .f32⟩ : BufTy).Contents (Elt F) → (⟨S160000x25x32, .f32⟩ : BufTy).Contents (Elt F)),
    nullary main_cst (constant S_ .f32 0x00000000#32),
    unary main_cst main_v8 (broadcastInDim S160000x25x32 ![] bcast_S_S160000x25x32 : (⟨S_, .f32⟩ : BufTy).Contents (Elt F) → (⟨S160000x25x32, .f32⟩ : BufTy).Contents (Elt F)),
    nullary main_c_30 (constantI S_ 32 25#32),
    unary main_c_30 main_v9 (broadcastInDim S5 ![] bcast_S_S5 : (⟨S_, .i32⟩ : BufTy).Contents (Elt F) → (⟨S5, .i32⟩ : BufTy).Contents (Elt F)),
    binary main_c main_v9 main_v10 (addi : (⟨S5, .i32⟩ : BufTy).Contents (Elt F) → (⟨S5, .i32⟩ : BufTy).Contents (Elt F) → (⟨S5, .i32⟩ : BufTy).Contents (Elt F)),
    ternary main_c_0 main_v10 main_c main_v11 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
    unary main_v11 main_v12 (broadcastInDim S5x1 ![0] bcast_S5_S5x1_0 : (⟨S5, .i32⟩ : BufTy).Contents (Elt F) → (⟨S5x1, .i32⟩ : BufTy).Contents (Elt F)),
    binary main_v7 main_v12 main_v13 ((fun x i => Host.gather gather_S160000x25x32_S5x1_S160000x5x32_02_1_n_n_1_1_160000132 x i) : (⟨S160000x25x32, .f32⟩ : BufTy).Contents (Elt F) → (⟨S5x1, .i32⟩ : BufTy).Contents (Elt F) → (⟨S160000x5x32, .f32⟩ : BufTy).Contents (Elt F)),
    reshape main_v13 main_v14 rfl shapeCasts_S160000x5x32_S160000x160,
    binary main_v14 main_arg5 main_v15 ((fun l r => Host.dotGeneral dot_S160000x160_S160x160_S160000x160_1_0_0_1_n_n none l r) : (⟨S160000x160, .f32⟩ : BufTy).Contents (Elt F) → (⟨S160x160, .f32⟩ : BufTy).Contents (Elt F) → (⟨S160000x160, .f32⟩ : BufTy).Contents (Elt F)),
    reshape main_v15 main_v16 rfl shapeCasts_S160000x160_S160000x5x32,
    nullary main_c_31 (constantI S_ 32 25#32),
    unary main_c_31 main_v17 (broadcastInDim S5 ![] bcast_S_S5 : (⟨S_, .i32⟩ : BufTy).Contents (Elt F) → (⟨S5, .i32⟩ : BufTy).Contents (Elt F)),
    binary main_c main_v17 main_v18 (addi : (⟨S5, .i32⟩ : BufTy).Contents (Elt F) → (⟨S5, .i32⟩ : BufTy).Contents (Elt F) → (⟨S5, .i32⟩ : BufTy).Contents (Elt F)),
    ternary main_c_1 main_v18 main_c main_v19 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
    unary main_v19 main_v20 (broadcastInDim S5x1 ![0] bcast_S5_S5x1_0 : (⟨S5, .i32⟩ : BufTy).Contents (Elt F) → (⟨S5x1, .i32⟩ : BufTy).Contents (Elt F)),
    ternary main_v8 main_v20 main_v16 main_v21 ((fun x i u => Host.scatter scatter_S160000x25x32_S5x1_S160000x5x32_02_1_1_1 (fun _ b => b) x i u) : (⟨S160000x25x32, .f32⟩ : BufTy).Contents (Elt F) → (⟨S5x1, .i32⟩ : BufTy).Contents (Elt F) → (⟨S160000x5x32, .f32⟩ : BufTy).Contents (Elt F) → (⟨S160000x25x32, .f32⟩ : BufTy).Contents (Elt F)),
    nullary main_c_32 (constantI S_ 32 25#32),
    unary main_c_32 main_v22 (broadcastInDim S4 ![] bcast_S_S4 : (⟨S_, .i32⟩ : BufTy).Contents (Elt F) → (⟨S4, .i32⟩ : BufTy).Contents (Elt F)),
    binary main_c_2 main_v22 main_v23 (addi : (⟨S4, .i32⟩ : BufTy).Contents (Elt F) → (⟨S4, .i32⟩ : BufTy).Contents (Elt F) → (⟨S4, .i32⟩ : BufTy).Contents (Elt F)),
    ternary main_c_3 main_v23 main_c_2 main_v24 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v24 main_v25 (broadcastInDim S4x1 ![0] bcast_S4_S4x1_0 : (⟨S4, .i32⟩ : BufTy).Contents (Elt F) → (⟨S4x1, .i32⟩ : BufTy).Contents (Elt F)),
    binary main_v7 main_v25 main_v26 ((fun x i => Host.gather gather_S160000x25x32_S4x1_S160000x4x32_02_1_n_n_1_1_160000132 x i) : (⟨S160000x25x32, .f32⟩ : BufTy).Contents (Elt F) → (⟨S4x1, .i32⟩ : BufTy).Contents (Elt F) → (⟨S160000x4x32, .f32⟩ : BufTy).Contents (Elt F)),
    reshape main_v26 main_v27 rfl shapeCasts_S160000x4x32_S160000x128,
    nullary main_c_33 (constantI S_ 32 25#32),
    unary main_c_33 main_v28 (broadcastInDim S4 ![] bcast_S_S4 : (⟨S_, .i32⟩ : BufTy).Contents (Elt F) → (⟨S4, .i32⟩ : BufTy).Contents (Elt F)),
    binary main_c_4 main_v28 main_v29 (addi : (⟨S4, .i32⟩ : BufTy).Contents (Elt F) → (⟨S4, .i32⟩ : BufTy).Contents (Elt F) → (⟨S4, .i32⟩ : BufTy).Contents (Elt F)),
    ternary main_c_5 main_v29 main_c_4 main_v30 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v30 main_v31 (broadcastInDim S4x1 ![0] bcast_S4_S4x1_0 : (⟨S4, .i32⟩ : BufTy).Contents (Elt F) → (⟨S4x1, .i32⟩ : BufTy).Contents (Elt F)),
    binary main_v7 main_v31 main_v32 ((fun x i => Host.gather gather_S160000x25x32_S4x1_S160000x4x32_02_1_n_n_1_1_160000132 x i) : (⟨S160000x25x32, .f32⟩ : BufTy).Contents (Elt F) → (⟨S4x1, .i32⟩ : BufTy).Contents (Elt F) → (⟨S160000x4x32, .f32⟩ : BufTy).Contents (Elt F)),
    reshape main_v32 main_v33 rfl shapeCasts_S160000x4x32_S160000x128,
    binary main_v27 main_arg6 main_v34 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    binary main_v33 main_arg7 main_v35 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    binary main_v34 main_v35 main_v36 (subf : (⟨S160000x128, .f32⟩ : BufTy).Contents (Elt F) → (⟨S160000x128, .f32⟩ : BufTy).Contents (Elt F) → (⟨S160000x128, .f32⟩ : BufTy).Contents (Elt F)),
    binary main_v27 main_arg7 main_v37 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    binary main_v33 main_arg6 main_v38 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    binary main_v37 main_v38 main_v39 (addf : (⟨S160000x128, .f32⟩ : BufTy).Contents (Elt F) → (⟨S160000x128, .f32⟩ : BufTy).Contents (Elt F) → (⟨S160000x128, .f32⟩ : BufTy).Contents (Elt F)),
    reshape main_v36 main_v40 rfl shapeCasts_S160000x128_S160000x4x32,
    nullary main_c_34 (constantI S_ 32 25#32),
    unary main_c_34 main_v41 (broadcastInDim S4 ![] bcast_S_S4 : (⟨S_, .i32⟩ : BufTy).Contents (Elt F) → (⟨S4, .i32⟩ : BufTy).Contents (Elt F)),
    binary main_c_2 main_v41 main_v42 (addi : (⟨S4, .i32⟩ : BufTy).Contents (Elt F) → (⟨S4, .i32⟩ : BufTy).Contents (Elt F) → (⟨S4, .i32⟩ : BufTy).Contents (Elt F)),
    ternary main_c_6 main_v42 main_c_2 main_v43 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v43 main_v44 (broadcastInDim S4x1 ![0] bcast_S4_S4x1_0 : (⟨S4, .i32⟩ : BufTy).Contents (Elt F) → (⟨S4x1, .i32⟩ : BufTy).Contents (Elt F)),
    ternary main_v21 main_v44 main_v40 main_v45 ((fun x i u => Host.scatter scatter_S160000x25x32_S4x1_S160000x4x32_02_1_1_1 (fun _ b => b) x i u) : (⟨S160000x25x32, .f32⟩ : BufTy).Contents (Elt F) → (⟨S4x1, .i32⟩ : BufTy).Contents (Elt F) → (⟨S160000x4x32, .f32⟩ : BufTy).Contents (Elt F) → (⟨S160000x25x32, .f32⟩ : BufTy).Contents (Elt F)),
    reshape main_v39 main_v46 rfl shapeCasts_S160000x128_S160000x4x32,
    nullary main_c_35 (constantI S_ 32 25#32),
    unary main_c_35 main_v47 (broadcastInDim S4 ![] bcast_S_S4 : (⟨S_, .i32⟩ : BufTy).Contents (Elt F) → (⟨S4, .i32⟩ : BufTy).Contents (Elt F)),
    binary main_c_4 main_v47 main_v48 (addi : (⟨S4, .i32⟩ : BufTy).Contents (Elt F) → (⟨S4, .i32⟩ : BufTy).Contents (Elt F) → (⟨S4, .i32⟩ : BufTy).Contents (Elt F)),
    ternary main_c_7 main_v48 main_c_4 main_v49 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v49 main_v50 (broadcastInDim S4x1 ![0] bcast_S4_S4x1_0 : (⟨S4, .i32⟩ : BufTy).Contents (Elt F) → (⟨S4x1, .i32⟩ : BufTy).Contents (Elt F)),
    ternary main_v45 main_v50 main_v46 main_v51 ((fun x i u => Host.scatter scatter_S160000x25x32_S4x1_S160000x4x32_02_1_1_1 (fun _ b => b) x i u) : (⟨S160000x25x32, .f32⟩ : BufTy).Contents (Elt F) → (⟨S4x1, .i32⟩ : BufTy).Contents (Elt F) → (⟨S160000x4x32, .f32⟩ : BufTy).Contents (Elt F) → (⟨S160000x25x32, .f32⟩ : BufTy).Contents (Elt F)),
    nullary main_c_36 (constantI S_ 32 25#32),
    unary main_c_36 main_v52 (broadcastInDim S3 ![] bcast_S_S3 : (⟨S_, .i32⟩ : BufTy).Contents (Elt F) → (⟨S3, .i32⟩ : BufTy).Contents (Elt F)),
    binary main_c_8 main_v52 main_v53 (addi : (⟨S3, .i32⟩ : BufTy).Contents (Elt F) → (⟨S3, .i32⟩ : BufTy).Contents (Elt F) → (⟨S3, .i32⟩ : BufTy).Contents (Elt F)),
    ternary main_c_9 main_v53 main_c_8 main_v54 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v54 main_v55 (broadcastInDim S3x1 ![0] bcast_S3_S3x1_0 : (⟨S3, .i32⟩ : BufTy).Contents (Elt F) → (⟨S3x1, .i32⟩ : BufTy).Contents (Elt F)),
    binary main_v7 main_v55 main_v56 ((fun x i => Host.gather gather_S160000x25x32_S3x1_S160000x3x32_02_1_n_n_1_1_160000132 x i) : (⟨S160000x25x32, .f32⟩ : BufTy).Contents (Elt F) → (⟨S3x1, .i32⟩ : BufTy).Contents (Elt F) → (⟨S160000x3x32, .f32⟩ : BufTy).Contents (Elt F)),
    reshape main_v56 main_v57 rfl shapeCasts_S160000x3x32_S160000x96,
    nullary main_c_37 (constantI S_ 32 25#32),
    unary main_c_37 main_v58 (broadcastInDim S3 ![] bcast_S_S3 : (⟨S_, .i32⟩ : BufTy).Contents (Elt F) → (⟨S3, .i32⟩ : BufTy).Contents (Elt F)),
    binary main_c_10 main_v58 main_v59 (addi : (⟨S3, .i32⟩ : BufTy).Contents (Elt F) → (⟨S3, .i32⟩ : BufTy).Contents (Elt F) → (⟨S3, .i32⟩ : BufTy).Contents (Elt F)),
    ternary main_c_11 main_v59 main_c_10 main_v60 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v60 main_v61 (broadcastInDim S3x1 ![0] bcast_S3_S3x1_0 : (⟨S3, .i32⟩ : BufTy).Contents (Elt F) → (⟨S3x1, .i32⟩ : BufTy).Contents (Elt F)),
    binary main_v7 main_v61 main_v62 ((fun x i => Host.gather gather_S160000x25x32_S3x1_S160000x3x32_02_1_n_n_1_1_160000132 x i) : (⟨S160000x25x32, .f32⟩ : BufTy).Contents (Elt F) → (⟨S3x1, .i32⟩ : BufTy).Contents (Elt F) → (⟨S160000x3x32, .f32⟩ : BufTy).Contents (Elt F)),
    reshape main_v62 main_v63 rfl shapeCasts_S160000x3x32_S160000x96,
    binary main_v57 main_arg8 main_v64 ((fun l r => Host.dotGeneral dot_S160000x96_S96x96_S160000x96_1_0_0_1_n_n none l r) : (⟨S160000x96, .f32⟩ : BufTy).Contents (Elt F) → (⟨S96x96, .f32⟩ : BufTy).Contents (Elt F) → (⟨S160000x96, .f32⟩ : BufTy).Contents (Elt F)),
    binary main_v63 main_arg9 main_v65 ((fun l r => Host.dotGeneral dot_S160000x96_S96x96_S160000x96_1_0_0_1_n_n none l r) : (⟨S160000x96, .f32⟩ : BufTy).Contents (Elt F) → (⟨S96x96, .f32⟩ : BufTy).Contents (Elt F) → (⟨S160000x96, .f32⟩ : BufTy).Contents (Elt F)),
    binary main_v64 main_v65 main_v66 (subf : (⟨S160000x96, .f32⟩ : BufTy).Contents (Elt F) → (⟨S160000x96, .f32⟩ : BufTy).Contents (Elt F) → (⟨S160000x96, .f32⟩ : BufTy).Contents (Elt F)),
    binary main_v57 main_arg9 main_v67 ((fun l r => Host.dotGeneral dot_S160000x96_S96x96_S160000x96_1_0_0_1_n_n none l r) : (⟨S160000x96, .f32⟩ : BufTy).Contents (Elt F) → (⟨S96x96, .f32⟩ : BufTy).Contents (Elt F) → (⟨S160000x96, .f32⟩ : BufTy).Contents (Elt F)),
    binary main_v63 main_arg8 main_v68 ((fun l r => Host.dotGeneral dot_S160000x96_S96x96_S160000x96_1_0_0_1_n_n none l r) : (⟨S160000x96, .f32⟩ : BufTy).Contents (Elt F) → (⟨S96x96, .f32⟩ : BufTy).Contents (Elt F) → (⟨S160000x96, .f32⟩ : BufTy).Contents (Elt F)),
    binary main_v67 main_v68 main_v69 (addf : (⟨S160000x96, .f32⟩ : BufTy).Contents (Elt F) → (⟨S160000x96, .f32⟩ : BufTy).Contents (Elt F) → (⟨S160000x96, .f32⟩ : BufTy).Contents (Elt F)),
    reshape main_v66 main_v70 rfl shapeCasts_S160000x96_S160000x3x32,
    nullary main_c_38 (constantI S_ 32 25#32),
    unary main_c_38 main_v71 (broadcastInDim S3 ![] bcast_S_S3 : (⟨S_, .i32⟩ : BufTy).Contents (Elt F) → (⟨S3, .i32⟩ : BufTy).Contents (Elt F)),
    binary main_c_8 main_v71 main_v72 (addi : (⟨S3, .i32⟩ : BufTy).Contents (Elt F) → (⟨S3, .i32⟩ : BufTy).Contents (Elt F) → (⟨S3, .i32⟩ : BufTy).Contents (Elt F)),
    ternary main_c_12 main_v72 main_c_8 main_v73 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v73 main_v74 (broadcastInDim S3x1 ![0] bcast_S3_S3x1_0 : (⟨S3, .i32⟩ : BufTy).Contents (Elt F) → (⟨S3x1, .i32⟩ : BufTy).Contents (Elt F)),
    ternary main_v51 main_v74 main_v70 main_v75 ((fun x i u => Host.scatter scatter_S160000x25x32_S3x1_S160000x3x32_02_1_1_1 (fun _ b => b) x i u) : (⟨S160000x25x32, .f32⟩ : BufTy).Contents (Elt F) → (⟨S3x1, .i32⟩ : BufTy).Contents (Elt F) → (⟨S160000x3x32, .f32⟩ : BufTy).Contents (Elt F) → (⟨S160000x25x32, .f32⟩ : BufTy).Contents (Elt F)),
    reshape main_v69 main_v76 rfl shapeCasts_S160000x96_S160000x3x32,
    nullary main_c_39 (constantI S_ 32 25#32),
    unary main_c_39 main_v77 (broadcastInDim S3 ![] bcast_S_S3 : (⟨S_, .i32⟩ : BufTy).Contents (Elt F) → (⟨S3, .i32⟩ : BufTy).Contents (Elt F)),
    binary main_c_10 main_v77 main_v78 (addi : (⟨S3, .i32⟩ : BufTy).Contents (Elt F) → (⟨S3, .i32⟩ : BufTy).Contents (Elt F) → (⟨S3, .i32⟩ : BufTy).Contents (Elt F)),
    ternary main_c_13 main_v78 main_c_10 main_v79 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v79 main_v80 (broadcastInDim S3x1 ![0] bcast_S3_S3x1_0 : (⟨S3, .i32⟩ : BufTy).Contents (Elt F) → (⟨S3x1, .i32⟩ : BufTy).Contents (Elt F)),
    ternary main_v75 main_v80 main_v76 main_v81 ((fun x i u => Host.scatter scatter_S160000x25x32_S3x1_S160000x3x32_02_1_1_1 (fun _ b => b) x i u) : (⟨S160000x25x32, .f32⟩ : BufTy).Contents (Elt F) → (⟨S3x1, .i32⟩ : BufTy).Contents (Elt F) → (⟨S160000x3x32, .f32⟩ : BufTy).Contents (Elt F) → (⟨S160000x25x32, .f32⟩ : BufTy).Contents (Elt F)),
    nullary main_c_40 (constantI S_ 32 25#32),
    unary main_c_40 main_v82 (broadcastInDim S2 ![] bcast_S_S2 : (⟨S_, .i32⟩ : BufTy).Contents (Elt F) → (⟨S2, .i32⟩ : BufTy).Contents (Elt F)),
    binary main_c_14 main_v82 main_v83 (addi : (⟨S2, .i32⟩ : BufTy).Contents (Elt F) → (⟨S2, .i32⟩ : BufTy).Contents (Elt F) → (⟨S2, .i32⟩ : BufTy).Contents (Elt F)),
    ternary main_c_15 main_v83 main_c_14 main_v84 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v84 main_v85 (broadcastInDim S2x1 ![0] bcast_S2_S2x1_0 : (⟨S2, .i32⟩ : BufTy).Contents (Elt F) → (⟨S2x1, .i32⟩ : BufTy).Contents (Elt F)),
    binary main_v7 main_v85 main_v86 ((fun x i => Host.gather gather_S160000x25x32_S2x1_S160000x2x32_02_1_n_n_1_1_160000132 x i) : (⟨S160000x25x32, .f32⟩ : BufTy).Contents (Elt F) → (⟨S2x1, .i32⟩ : BufTy).Contents (Elt F) → (⟨S160000x2x32, .f32⟩ : BufTy).Contents (Elt F)),
    reshape main_v86 main_v87 rfl shapeCasts_S160000x2x32_S160000x64,
    nullary main_c_41 (constantI S_ 32 25#32),
    unary main_c_41 main_v88 (broadcastInDim S2 ![] bcast_S_S2 : (⟨S_, .i32⟩ : BufTy).Contents (Elt F) → (⟨S2, .i32⟩ : BufTy).Contents (Elt F)),
    binary main_c_16 main_v88 main_v89 (addi : (⟨S2, .i32⟩ : BufTy).Contents (Elt F) → (⟨S2, .i32⟩ : BufTy).Contents (Elt F) → (⟨S2, .i32⟩ : BufTy).Contents (Elt F)),
    ternary main_c_17 main_v89 main_c_16 main_v90 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v90 main_v91 (broadcastInDim S2x1 ![0] bcast_S2_S2x1_0 : (⟨S2, .i32⟩ : BufTy).Contents (Elt F) → (⟨S2x1, .i32⟩ : BufTy).Contents (Elt F)),
    binary main_v7 main_v91 main_v92 ((fun x i => Host.gather gather_S160000x25x32_S2x1_S160000x2x32_02_1_n_n_1_1_160000132 x i) : (⟨S160000x25x32, .f32⟩ : BufTy).Contents (Elt F) → (⟨S2x1, .i32⟩ : BufTy).Contents (Elt F) → (⟨S160000x2x32, .f32⟩ : BufTy).Contents (Elt F)),
    reshape main_v92 main_v93 rfl shapeCasts_S160000x2x32_S160000x64,
    binary main_v87 main_arg10 main_v94 ((fun l r => Host.dotGeneral dot_S160000x64_S64x64_S160000x64_1_0_0_1_n_n none l r) : (⟨S160000x64, .f32⟩ : BufTy).Contents (Elt F) → (⟨S64x64, .f32⟩ : BufTy).Contents (Elt F) → (⟨S160000x64, .f32⟩ : BufTy).Contents (Elt F)),
    binary main_v93 main_arg11 main_v95 ((fun l r => Host.dotGeneral dot_S160000x64_S64x64_S160000x64_1_0_0_1_n_n none l r) : (⟨S160000x64, .f32⟩ : BufTy).Contents (Elt F) → (⟨S64x64, .f32⟩ : BufTy).Contents (Elt F) → (⟨S160000x64, .f32⟩ : BufTy).Contents (Elt F)),
    binary main_v94 main_v95 main_v96 (subf : (⟨S160000x64, .f32⟩ : BufTy).Contents (Elt F) → (⟨S160000x64, .f32⟩ : BufTy).Contents (Elt F) → (⟨S160000x64, .f32⟩ : BufTy).Contents (Elt F)),
    binary main_v87 main_arg11 main_v97 ((fun l r => Host.dotGeneral dot_S160000x64_S64x64_S160000x64_1_0_0_1_n_n none l r) : (⟨S160000x64, .f32⟩ : BufTy).Contents (Elt F) → (⟨S64x64, .f32⟩ : BufTy).Contents (Elt F) → (⟨S160000x64, .f32⟩ : BufTy).Contents (Elt F)),
    binary main_v93 main_arg10 main_v98 ((fun l r => Host.dotGeneral dot_S160000x64_S64x64_S160000x64_1_0_0_1_n_n none l r) : (⟨S160000x64, .f32⟩ : BufTy).Contents (Elt F) → (⟨S64x64, .f32⟩ : BufTy).Contents (Elt F) → (⟨S160000x64, .f32⟩ : BufTy).Contents (Elt F)),
    binary main_v97 main_v98 main_v99 (addf : (⟨S160000x64, .f32⟩ : BufTy).Contents (Elt F) → (⟨S160000x64, .f32⟩ : BufTy).Contents (Elt F) → (⟨S160000x64, .f32⟩ : BufTy).Contents (Elt F)),
    reshape main_v96 main_v100 rfl shapeCasts_S160000x64_S160000x2x32,
    nullary main_c_42 (constantI S_ 32 25#32),
    unary main_c_42 main_v101 (broadcastInDim S2 ![] bcast_S_S2 : (⟨S_, .i32⟩ : BufTy).Contents (Elt F) → (⟨S2, .i32⟩ : BufTy).Contents (Elt F)),
    binary main_c_14 main_v101 main_v102 (addi : (⟨S2, .i32⟩ : BufTy).Contents (Elt F) → (⟨S2, .i32⟩ : BufTy).Contents (Elt F) → (⟨S2, .i32⟩ : BufTy).Contents (Elt F)),
    ternary main_c_18 main_v102 main_c_14 main_v103 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v103 main_v104 (broadcastInDim S2x1 ![0] bcast_S2_S2x1_0 : (⟨S2, .i32⟩ : BufTy).Contents (Elt F) → (⟨S2x1, .i32⟩ : BufTy).Contents (Elt F)),
    ternary main_v81 main_v104 main_v100 main_v105 ((fun x i u => Host.scatter scatter_S160000x25x32_S2x1_S160000x2x32_02_1_1_1 (fun _ b => b) x i u) : (⟨S160000x25x32, .f32⟩ : BufTy).Contents (Elt F) → (⟨S2x1, .i32⟩ : BufTy).Contents (Elt F) → (⟨S160000x2x32, .f32⟩ : BufTy).Contents (Elt F) → (⟨S160000x25x32, .f32⟩ : BufTy).Contents (Elt F)),
    reshape main_v99 main_v106 rfl shapeCasts_S160000x64_S160000x2x32,
    nullary main_c_43 (constantI S_ 32 25#32),
    unary main_c_43 main_v107 (broadcastInDim S2 ![] bcast_S_S2 : (⟨S_, .i32⟩ : BufTy).Contents (Elt F) → (⟨S2, .i32⟩ : BufTy).Contents (Elt F)),
    binary main_c_16 main_v107 main_v108 (addi : (⟨S2, .i32⟩ : BufTy).Contents (Elt F) → (⟨S2, .i32⟩ : BufTy).Contents (Elt F) → (⟨S2, .i32⟩ : BufTy).Contents (Elt F)),
    ternary main_c_19 main_v108 main_c_16 main_v109 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v109 main_v110 (broadcastInDim S2x1 ![0] bcast_S2_S2x1_0 : (⟨S2, .i32⟩ : BufTy).Contents (Elt F) → (⟨S2x1, .i32⟩ : BufTy).Contents (Elt F)),
    ternary main_v105 main_v110 main_v106 main_v111 ((fun x i u => Host.scatter scatter_S160000x25x32_S2x1_S160000x2x32_02_1_1_1 (fun _ b => b) x i u) : (⟨S160000x25x32, .f32⟩ : BufTy).Contents (Elt F) → (⟨S2x1, .i32⟩ : BufTy).Contents (Elt F) → (⟨S160000x2x32, .f32⟩ : BufTy).Contents (Elt F) → (⟨S160000x25x32, .f32⟩ : BufTy).Contents (Elt F)),
    nullary main_c_44 (constantI S_ 32 25#32),
    unary main_c_44 main_v112 (broadcastInDim S1 ![] bcast_S_S1 : (⟨S_, .i32⟩ : BufTy).Contents (Elt F) → (⟨S1, .i32⟩ : BufTy).Contents (Elt F)),
    binary main_c_20 main_v112 main_v113 (addi : (⟨S1, .i32⟩ : BufTy).Contents (Elt F) → (⟨S1, .i32⟩ : BufTy).Contents (Elt F) → (⟨S1, .i32⟩ : BufTy).Contents (Elt F)),
    ternary main_c_21 main_v113 main_c_20 main_v114 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v114 main_v115 (broadcastInDim S1x1 ![0] bcast_S1_S1x1_0 : (⟨S1, .i32⟩ : BufTy).Contents (Elt F) → (⟨S1x1, .i32⟩ : BufTy).Contents (Elt F)),
    binary main_v7 main_v115 main_v116 ((fun x i => Host.gather gather_S160000x25x32_S1x1_S160000x1x32_02_1_n_n_1_1_160000132 x i) : (⟨S160000x25x32, .f32⟩ : BufTy).Contents (Elt F) → (⟨S1x1, .i32⟩ : BufTy).Contents (Elt F) → (⟨S160000x1x32, .f32⟩ : BufTy).Contents (Elt F)),
    reshape main_v116 main_v117 rfl shapeCasts_S160000x1x32_S160000x32,
    nullary main_c_45 (constantI S_ 32 25#32),
    unary main_c_45 main_v118 (broadcastInDim S1 ![] bcast_S_S1 : (⟨S_, .i32⟩ : BufTy).Contents (Elt F) → (⟨S1, .i32⟩ : BufTy).Contents (Elt F)),
    binary main_c_22 main_v118 main_v119 (addi : (⟨S1, .i32⟩ : BufTy).Contents (Elt F) → (⟨S1, .i32⟩ : BufTy).Contents (Elt F) → (⟨S1, .i32⟩ : BufTy).Contents (Elt F)),
    ternary main_c_23 main_v119 main_c_22 main_v120 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v120 main_v121 (broadcastInDim S1x1 ![0] bcast_S1_S1x1_0 : (⟨S1, .i32⟩ : BufTy).Contents (Elt F) → (⟨S1x1, .i32⟩ : BufTy).Contents (Elt F)),
    binary main_v7 main_v121 main_v122 ((fun x i => Host.gather gather_S160000x25x32_S1x1_S160000x1x32_02_1_n_n_1_1_160000132 x i) : (⟨S160000x25x32, .f32⟩ : BufTy).Contents (Elt F) → (⟨S1x1, .i32⟩ : BufTy).Contents (Elt F) → (⟨S160000x1x32, .f32⟩ : BufTy).Contents (Elt F)),
    reshape main_v122 main_v123 rfl shapeCasts_S160000x1x32_S160000x32,
    binary main_v117 main_arg12 main_v124 ((fun l r => Host.dotGeneral dot_S160000x32_S32x32_S160000x32_1_0_0_1_n_n none l r) : (⟨S160000x32, .f32⟩ : BufTy).Contents (Elt F) → (⟨S32x32, .f32⟩ : BufTy).Contents (Elt F) → (⟨S160000x32, .f32⟩ : BufTy).Contents (Elt F)),
    binary main_v123 main_arg13 main_v125 ((fun l r => Host.dotGeneral dot_S160000x32_S32x32_S160000x32_1_0_0_1_n_n none l r) : (⟨S160000x32, .f32⟩ : BufTy).Contents (Elt F) → (⟨S32x32, .f32⟩ : BufTy).Contents (Elt F) → (⟨S160000x32, .f32⟩ : BufTy).Contents (Elt F)),
    binary main_v124 main_v125 main_v126 (subf : (⟨S160000x32, .f32⟩ : BufTy).Contents (Elt F) → (⟨S160000x32, .f32⟩ : BufTy).Contents (Elt F) → (⟨S160000x32, .f32⟩ : BufTy).Contents (Elt F)),
    binary main_v117 main_arg13 main_v127 ((fun l r => Host.dotGeneral dot_S160000x32_S32x32_S160000x32_1_0_0_1_n_n none l r) : (⟨S160000x32, .f32⟩ : BufTy).Contents (Elt F) → (⟨S32x32, .f32⟩ : BufTy).Contents (Elt F) → (⟨S160000x32, .f32⟩ : BufTy).Contents (Elt F)),
    binary main_v123 main_arg12 main_v128 ((fun l r => Host.dotGeneral dot_S160000x32_S32x32_S160000x32_1_0_0_1_n_n none l r) : (⟨S160000x32, .f32⟩ : BufTy).Contents (Elt F) → (⟨S32x32, .f32⟩ : BufTy).Contents (Elt F) → (⟨S160000x32, .f32⟩ : BufTy).Contents (Elt F)),
    binary main_v127 main_v128 main_v129 (addf : (⟨S160000x32, .f32⟩ : BufTy).Contents (Elt F) → (⟨S160000x32, .f32⟩ : BufTy).Contents (Elt F) → (⟨S160000x32, .f32⟩ : BufTy).Contents (Elt F)),
    reshape main_v126 main_v130 rfl shapeCasts_S160000x32_S160000x1x32,
    nullary main_c_46 (constantI S_ 32 25#32),
    unary main_c_46 main_v131 (broadcastInDim S1 ![] bcast_S_S1 : (⟨S_, .i32⟩ : BufTy).Contents (Elt F) → (⟨S1, .i32⟩ : BufTy).Contents (Elt F)),
    binary main_c_20 main_v131 main_v132 (addi : (⟨S1, .i32⟩ : BufTy).Contents (Elt F) → (⟨S1, .i32⟩ : BufTy).Contents (Elt F) → (⟨S1, .i32⟩ : BufTy).Contents (Elt F)),
    ternary main_c_24 main_v132 main_c_20 main_v133 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v133 main_v134 (broadcastInDim S1x1 ![0] bcast_S1_S1x1_0 : (⟨S1, .i32⟩ : BufTy).Contents (Elt F) → (⟨S1x1, .i32⟩ : BufTy).Contents (Elt F)),
    ternary main_v111 main_v134 main_v130 main_v135 ((fun x i u => Host.scatter scatter_S160000x25x32_S1x1_S160000x1x32_02_1_1_1 (fun _ b => b) x i u) : (⟨S160000x25x32, .f32⟩ : BufTy).Contents (Elt F) → (⟨S1x1, .i32⟩ : BufTy).Contents (Elt F) → (⟨S160000x1x32, .f32⟩ : BufTy).Contents (Elt F) → (⟨S160000x25x32, .f32⟩ : BufTy).Contents (Elt F)),
    reshape main_v129 main_v136 rfl shapeCasts_S160000x32_S160000x1x32,
    nullary main_c_47 (constantI S_ 32 25#32),
    unary main_c_47 main_v137 (broadcastInDim S1 ![] bcast_S_S1 : (⟨S_, .i32⟩ : BufTy).Contents (Elt F) → (⟨S1, .i32⟩ : BufTy).Contents (Elt F)),
    binary main_c_22 main_v137 main_v138 (addi : (⟨S1, .i32⟩ : BufTy).Contents (Elt F) → (⟨S1, .i32⟩ : BufTy).Contents (Elt F) → (⟨S1, .i32⟩ : BufTy).Contents (Elt F)),
    ternary main_c_25 main_v138 main_c_22 main_v139 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v139 main_v140 (broadcastInDim S1x1 ![0] bcast_S1_S1x1_0 : (⟨S1, .i32⟩ : BufTy).Contents (Elt F) → (⟨S1x1, .i32⟩ : BufTy).Contents (Elt F)),
    ternary main_v135 main_v140 main_v136 main_v141 ((fun x i u => Host.scatter scatter_S160000x25x32_S1x1_S160000x1x32_02_1_1_1 (fun _ b => b) x i u) : (⟨S160000x25x32, .f32⟩ : BufTy).Contents (Elt F) → (⟨S1x1, .i32⟩ : BufTy).Contents (Elt F) → (⟨S160000x1x32, .f32⟩ : BufTy).Contents (Elt F) → (⟨S160000x25x32, .f32⟩ : BufTy).Contents (Elt F)),
    binary main_arg2 main_arg14 main_v142 ((fun l r => Host.dotGeneral dot_S160000x64_S64x160_S160000x160_1_0_0_1_n_n none l r) : (⟨S160000x64, .f32⟩ : BufTy).Contents (Elt F) → (⟨S64x160, .f32⟩ : BufTy).Contents (Elt F) → (⟨S160000x160, .f32⟩ : BufTy).Contents (Elt F)),
    unary main_arg15 main_v143 (broadcastInDim S1x160 ![1] bcast_S160_S1x160_1 : (⟨S160, .f32⟩ : BufTy).Contents (Elt F) → (⟨S1x160, .f32⟩ : BufTy).Contents (Elt F)),
    unary main_v143 main_v144 (broadcastInDim S160000x160 ![0, 1] bcast_S1x160_S160000x160_0_1 : (⟨S1x160, .f32⟩ : BufTy).Contents (Elt F) → (⟨S160000x160, .f32⟩ : BufTy).Contents (Elt F)),
    binary main_v142 main_v144 main_v145 (addf : (⟨S160000x160, .f32⟩ : BufTy).Contents (Elt F) → (⟨S160000x160, .f32⟩ : BufTy).Contents (Elt F) → (⟨S160000x160, .f32⟩ : BufTy).Contents (Elt F)),
    TRef.unary (.of main_v145) main_call0.v0 Host.negf,
    TRef.unary main_call0.v0 main_call0.v1 Host.exp,
    TRef.nullary main_call0.cst (constant S_ .f32 0x3F800000#32),
    TRef.unary main_call0.cst main_call0.v2 (broadcastInDim S160000x160 ![] bcast_S_S160000x160),
    TRef.binary main_call0.v2 main_call0.v1 main_call0.v3 addf,
    TRef.nullary main_call0.cst_0 (constant S_ .f32 0x3F800000#32),
    TRef.unary main_call0.cst_0 main_call0.v4 (broadcastInDim S160000x160 ![] bcast_S_S160000x160),
    TRef.binary main_call0.v4 main_call0.v3 main_call0.v5 Host.divf,
    TRef.binary (.of main_v145) main_call0.v5 main_call0.v6 mulf,
    reshape main_v146 main_v147 rfl shapeCasts_S160000x160_S160000x5x32,
    nullary main_c_48 (constantI S_ 32 5#32),
    unary main_c_48 main_v148 (broadcastInDim S25 ![] bcast_S_S25 : (⟨S_, .i32⟩ : BufTy).Contents (Elt F) → (⟨S25, .i32⟩ : BufTy).Contents (Elt F)),
    binary main_c_26 main_v148 main_v149 (addi : (⟨S25, .i32⟩ : BufTy).Contents (Elt F) → (⟨S25, .i32⟩ : BufTy).Contents (Elt F) → (⟨S25, .i32⟩ : BufTy).Contents (Elt F)),
    ternary main_c_27 main_v149 main_c_26 main_v150 (select : (⟨S25, .i1⟩ : BufTy).Contents (Elt F) → (⟨S25, .i32⟩ : BufTy).Contents (Elt F) → (⟨S25, .i32⟩ : BufTy).Contents (Elt F) → (⟨S25, .i32⟩ : BufTy).Contents (Elt F)),
    unary main_v150 main_v151 (broadcastInDim S25x1 ![0] bcast_S25_S25x1_0 : (⟨S25, .i32⟩ : BufTy).Contents (Elt F) → (⟨S25x1, .i32⟩ : BufTy).Contents (Elt F)),
    binary main_v147 main_v151 main_v152 ((fun x i => Host.gather gather_S160000x5x32_S25x1_S160000x25x32_02_1_n_n_1_1_160000132 x i) : (⟨S160000x5x32, .f32⟩ : BufTy).Contents (Elt F) → (⟨S25x1, .i32⟩ : BufTy).Contents (Elt F) → (⟨S160000x25x32, .f32⟩ : BufTy).Contents (Elt F)),
    binary main_v141 main_v152 main_v153 (mulf : (⟨S160000x25x32, .f32⟩ : BufTy).Contents (Elt F) → (⟨S160000x25x32, .f32⟩ : BufTy).Contents (Elt F) → (⟨S160000x25x32, .f32⟩ : BufTy).Contents (Elt F)),
    binary main_arg1 main_v153 main_v154 ((fun l r => Host.dotGeneral dot_S160000x25x25_S160000x25x32_S160000x25x32_1_1_2_2_0_0 none l r) : (⟨S160000x25x25, .f32⟩ : BufTy).Contents (Elt F) → (⟨S160000x25x32, .f32⟩ : BufTy).Contents (Elt F) → (⟨S160000x25x32, .f32⟩ : BufTy).Contents (Elt F)),
    nullary main_cst_49 (constant S_ .f32 0x00000000#32),
    unary main_cst_49 main_v155 (broadcastInDim S10000x25x32 ![] bcast_S_S10000x25x32 : (⟨S_, .f32⟩ : BufTy).Contents (Elt F) → (⟨S10000x25x32, .f32⟩ : BufTy).Contents (Elt F)),
    unary main_arg4 main_v156 (broadcastInDim S160000x1 ![0] bcast_S160000_S160000x1_0 : (⟨S160000, .i32⟩ : BufTy).Contents (Elt F) → (⟨S160000x1, .i32⟩ : BufTy).Contents (Elt F)),
    ternary main_v155 main_v156 main_v154 main_v157 ((fun x i u => Host.scatterAdd scatter_S10000x25x32_S160000x1_S160000x25x32_12_0_0_1 x i u) : (⟨S10000x25x32, .f32⟩ : BufTy).Contents (Elt F) → (⟨S160000x1, .i32⟩ : BufTy).Contents (Elt F) → (⟨S160000x25x32, .f32⟩ : BufTy).Contents (Elt F) → (⟨S10000x25x32, .f32⟩ : BufTy).Contents (Elt F)) ]

/-- Every operation touches TensorCore references only (one constructor per operation, in the list's order). -/
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., ternary_bufs_sub .., unary_bufs_sub .., binary_bufs_sub .., reshape_bufs_sub .., binary_bufs_sub .., reshape_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., reshape_bufs_sub .., nullary_bufs_sub .., unary_bufs_sub .., binary_bufs_sub .., ternary_bufs_sub .., unary_bufs_sub .., binary_bufs_sub .., reshape_bufs_sub .., binary_bufs_sub .., binary_bufs_sub .., binary_bufs_sub .., binary_bufs_sub .., binary_bufs_sub .., binary_bufs_sub .., reshape_bufs_sub .., nullary_bufs_sub .., unary_bufs_sub .., binary_bufs_sub .., ternary_bufs_sub .., unary_bufs_sub .., ternary_bufs_sub .., reshape_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., reshape_bufs_sub .., nullary_bufs_sub .., unary_bufs_sub .., binary_bufs_sub .., ternary_bufs_sub .., unary_bufs_sub .., binary_bufs_sub .., reshape_bufs_sub .., binary_bufs_sub .., binary_bufs_sub .., binary_bufs_sub .., binary_bufs_sub .., binary_bufs_sub .., binary_bufs_sub .., reshape_bufs_sub .., nullary_bufs_sub .., unary_bufs_sub .., binary_bufs_sub .., ternary_bufs_sub .., unary_bufs_sub .., ternary_bufs_sub .., reshape_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., reshape_bufs_sub .., nullary_bufs_sub .., unary_bufs_sub .., binary_bufs_sub .., ternary_bufs_sub .., unary_bufs_sub .., binary_bufs_sub .., reshape_bufs_sub .., binary_bufs_sub .., binary_bufs_sub .., binary_bufs_sub .., binary_bufs_sub .., binary_bufs_sub .., binary_bufs_sub .., reshape_bufs_sub .., nullary_bufs_sub .., unary_bufs_sub .., binary_bufs_sub .., ternary_bufs_sub .., unary_bufs_sub .., ternary_bufs_sub .., reshape_bufs_sub .., nullary_bufs_sub .., unary_bufs_sub .., binary_bufs_sub .., ternary_bufs_sub .., unary_bufs_sub .., ternary_bufs_sub .., nullary_bufs_sub .., unary_bufs_sub .., binary_bufs_sub .., ternary_bufs_sub .., unary_bufs_sub .., binary_bufs_sub .., reshape_bufs_sub .., nullary_bufs_sub .., unary_bufs_sub .., binary_bufs_sub .., ternary_bufs_sub .., unary_bufs_sub .., binary_bufs_sub .., reshape_bufs_sub .., binary_bufs_sub .., binary_bufs_sub .., binary_bufs_sub .., binary_bufs_sub .., binary_bufs_sub .., binary_bufs_sub .., reshape_bufs_sub .., nullary_bufs_sub .., unary_bufs_sub .., binary_bufs_sub .., ternary_bufs_sub .., unary_bufs_sub .., ternary_bufs_sub .., reshape_bufs_sub .., nullary_bufs_sub .., unary_bufs_sub .., binary_bufs_sub .., ternary_bufs_sub .., unary_bufs_sub .., ternary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., reshape_bufs_sub .., nullary_bufs_sub .., unary_bufs_sub .., binary_bufs_sub .., ternary_bufs_sub .., unary_bufs_sub .., binary_bufs_sub .., binary_bufs_sub .., binary_bufs_sub .., nullary_bufs_sub .., unary_bufs_sub .., unary_bufs_sub .., ternary_bufs_sub ..⟩

end Cert.ReferenceIdeal.RefRun

end
-- ==== Proof.RefTerm.lean ====
/- Each tensor value of the reference's @main as a function of the argument arrays it depends on (a<k> is %arg<k>).
   A transcription of the printed @main of proof/ReferenceIdeal.lean (and of @silu at its one call), line by line; no step of the proof is made here. -/
import proofs.«415867_j71554155151872_2_alg».proof.Proof.Gen.ReferenceIdeal
import Idealize.ShloMosaic.Lib.StableHlo.Run

noncomputable section

namespace Cert.ReferenceIdeal.RefTerm

open Cert.ReferenceIdeal Cert.ReferenceIdeal.Gen Idealize.ShloMosaic Idealize.ShloMosaic.TcCoe Idealize.SL.Sem

variable {F : FTy → Type} [FloatOps F]

def t_main_c : (⟨S5, .i32⟩ : BufTy).Contents (Elt F) :=
  (fun i => lit0 (S5.rowMajor i))
def t_main_c_0 : (⟨S5, .i1⟩ : BufTy).Contents (Elt F) :=
  (constantI S5 1 0#1)
def t_main_c_1 : (⟨S5, .i1⟩ : BufTy).Contents (Elt F) :=
  (constantI S5 1 0#1)
def t_main_c_2 : (⟨S4, .i32⟩ : BufTy).Contents (Elt F) :=
  (fun i => lit1 (S4.rowMajor i))
def t_main_c_3 : (⟨S4, .i1⟩ : BufTy).Contents (Elt F) :=
  (constantI S4 1 0#1)
def t_main_c_4 : (⟨S4, .i32⟩ : BufTy).Contents (Elt F) :=
  (fun i => lit2 (S4.rowMajor i))
def t_main_c_5 : (⟨S4, .i1⟩ : BufTy).Contents (Elt F) :=
  (constantI S4 1 0#1)
def t_main_c_6 : (⟨S4, .i1⟩ : BufTy).Contents (Elt F) :=
  (constantI S4 1 0#1)
def t_main_c_7 : (⟨S4, .i1⟩ : BufTy).Contents (Elt F) :=
  (constantI S4 1 0#1)
def t_main_c_8 : (⟨S3, .i32⟩ : BufTy).Contents (Elt F) :=
  (fun i => lit3 (S3.rowMajor i))
def t_main_c_9 : (⟨S3, .i1⟩ : BufTy).Contents (Elt F) :=
  (constantI S3 1 0#1)
def t_main_c_10 : (⟨S3, .i32⟩ : BufTy).Contents (Elt F) :=
  (fun i => lit4 (S3.rowMajor i))
def t_main_c_11 : (⟨S3, .i1⟩ : BufTy).Contents (Elt F) :=
  (constantI S3 1 0#1)
def t_main_c_12 : (⟨S3, .i1⟩ : BufTy).Contents (Elt F) :=
  (constantI S3 1 0#1)
def t_main_c_13 : (⟨S3, .i1⟩ : BufTy).Contents (Elt F) :=
  (constantI S3 1 0#1)
def t_main_c_14 : (⟨S2, .i32⟩ : BufTy).Contents (Elt F) :=
  (fun i => lit5 (S2.rowMajor i))
def t_main_c_15 : (⟨S2, .i1⟩ : BufTy).Contents (Elt F) :=
  (constantI S2 1 0#1)
def t_main_c_16 : (⟨S2, .i32⟩ : BufTy).Contents (Elt F) :=
  (fun i => lit6 (S2.rowMajor i))
def t_main_c_17 : (⟨S2, .i1⟩ : BufTy).Contents (Elt F) :=
  (constantI S2 1 0#1)
def t_main_c_18 : (⟨S2, .i1⟩ : BufTy).Contents (Elt F) :=
  (constantI S2 1 0#1)
def t_main_c_19 : (⟨S2, .i1⟩ : BufTy).Contents (Elt F) :=
  (constantI S2 1 0#1)
def t_main_c_20 : (⟨S1, .i32⟩ : BufTy).Contents (Elt F) :=
  (constantI S1 32 24#32)
def t_main_c_21 : (⟨S1, .i1⟩ : BufTy).Contents (Elt F) :=
  (constantI S1 1 0#1)
def t_main_c_22 : (⟨S1, .i32⟩ : BufTy).Contents (Elt F) :=
  (constantI S1 32 16#32)
def t_main_c_23 : (⟨S1, .i1⟩ : BufTy).Contents (Elt F) :=
  (constantI S1 1 0#1)
def t_main_c_24 : (⟨S1, .i1⟩ : BufTy).Contents (Elt F) :=
  (constantI S1 1 0#1)
def t_main_c_25 : (⟨S1, .i1⟩ : BufTy).Contents (Elt F) :=
  (constantI S1 1 0#1)
def t_main_c_26 : (⟨S25, .i32⟩ : BufTy).Contents (Elt F) :=
  (fun i => lit7 (S25.rowMajor i))
def t_main_c_27 : (⟨S25, .i1⟩ : BufTy).Contents (Elt F) :=
  (constantI S25 1 0#1)
def t_main_c_28 : (⟨S_, .i32⟩ : BufTy).Contents (Elt F) :=
  (constantI S_ 32 0#32)
def t_main_v0 : (⟨S160000, .i32⟩ : BufTy).Contents (Elt F) :=
  (broadcastInDim S160000 ![] bcast_S_S160000 : (⟨S_, .i32⟩ : BufTy).Contents (Elt F) → (⟨S160000, .i32⟩ : BufTy).Contents (Elt F)) (t_main_c_28 (F := F))
def t_main_v1 (a3 : (⟨S160000, .i32⟩ : BufTy).Contents (Elt F)) : (⟨S160000, .i1⟩ : BufTy).Contents (Elt F) :=
  (cmpi .slt : (⟨S160000, .i32⟩ : BufTy).Contents (Elt F) → (⟨S160000, .i32⟩ : BufTy).Contents (Elt F) → (⟨S160000, .i1⟩ : BufTy).Contents (Elt F)) a3 (t_main_v0 (F := F))
def t_main_c_29 : (⟨S_, .i32⟩ : BufTy).Contents (Elt F) :=
  (constantI S_ 32 10000#32)
def t_main_v2 : (⟨S160000, .i32⟩ : BufTy).Contents (Elt F) :=
  (broadcastInDim S160000 ![] bcast_S_S160000 : (⟨S_, .i32⟩ : BufTy).Contents (Elt F) → (⟨S160000, .i32⟩ : BufTy).Contents (Elt F)) (t_main_c_29 (F := F))
def t_main_v3 (a3 : (⟨S160000, .i32⟩ : BufTy).Contents (Elt F)) : (⟨S160000, .i32⟩ : BufTy).Contents (Elt F) :=
  (addi : (⟨S160000, .i32⟩ : BufTy).Contents (Elt F) → (⟨S160000, .i32⟩ : BufTy).Contents (Elt F) → (⟨S160000, .i32⟩ : BufTy).Contents (Elt F)) a3 (t_main_v2 (F := F))
def t_main_v4 (a3 : (⟨S160000, .i32⟩ : BufTy).Contents (Elt F)) : (⟨S160000, .i32⟩ : BufTy).Contents (Elt F) :=
  (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) (t_main_v1 (F := F) a3) (t_main_v3 (F := F) a3) a3
def t_main_v5 (a3 : (⟨S160000, .i32⟩ : BufTy).Contents (Elt F)) : (⟨S160000x1, .i32⟩ : BufTy).Contents (Elt F) :=
  (broadcastInDim S160000x1 ![0] bcast_S160000_S160000x1_0 : (⟨S160000, .i32⟩ : BufTy).Contents (Elt F) → (⟨S160000x1, .i32⟩ : BufTy).Contents (Elt F)) (t_main_v4 (F := F) a3)
def t_main_v6 (a0 : (⟨S10000x25x32, .f32⟩ : BufTy).Contents (Elt F)) (a3 : (⟨S160000, .i32⟩ : BufTy).Contents (Elt F)) : (⟨S160000x25x32, .f32⟩ : BufTy).Contents (Elt F) :=
  ((fun x i => Host.gather gather_S10000x25x32_S160000x1_S160000x25x32_12_0_n_n_0_1_12532 x i) : (⟨S10000x25x32, .f32⟩ : BufTy).Contents (Elt F) → (⟨S160000x1, .i32⟩ : BufTy).Contents (Elt F) → (⟨S160000x25x32, .f32⟩ : BufTy).Contents (Elt F)) a0 (t_main_v5 (F := F) a3)
def t_main_v7 (a0 : (⟨S10000x25x32, .f32⟩ : BufTy).Contents (Elt F)) (a1 : (⟨S160000x25x25, .f32⟩ : BufTy).Contents (Elt F)) (a3 : (⟨S160000, .i32⟩ : BufTy).Contents (Elt F)) : (⟨S160000x25x32, .f32⟩ : BufTy).Contents (Elt F) :=
  ((fun l r => Host.dotGeneral dot_S160000x25x25_S160000x25x32_S160000x25x32_2_1_1_2_0_0 none l r) : (⟨S160000x25x25, .f32⟩ : BufTy).Contents (Elt F) → (⟨S160000x25x32, .f32⟩ : BufTy).Contents (Elt F) → (⟨S160000x25x32, .f32⟩ : BufTy).Contents (Elt F)) a1 (t_main_v6 (F := F) a0 a3)
def t_main_cst : (⟨S_, .f32⟩ : BufTy).Contents (Elt F) :=
  (constant S_ .f32 0x00000000#32)
def t_main_v8 : (⟨S160000x25x32, .f32⟩ : BufTy).Contents (Elt F) :=
  (broadcastInDim S160000x25x32 ![] bcast_S_S160000x25x32 : (⟨S_, .f32⟩ : BufTy).Contents (Elt F) → (⟨S160000x25x32, .f32⟩ : BufTy).Contents (Elt F)) (t_main_cst (F := F))
def t_main_c_30 : (⟨S_, .i32⟩ : BufTy).Contents (Elt F) :=
  (constantI S_ 32 25#32)
def t_main_v9 : (⟨S5, .i32⟩ : BufTy).Contents (Elt F) :=
  (broadcastInDim S5 ![] bcast_S_S5 : (⟨S_, .i32⟩ : BufTy).Contents (Elt F) → (⟨S5, .i32⟩ : BufTy).Contents (Elt F)) (t_main_c_30 (F := F))
def t_main_v10 : (⟨S5, .i32⟩ : BufTy).Contents (Elt F) :=
  (addi : (⟨S5, .i32⟩ : BufTy).Contents (Elt F) → (⟨S5, .i32⟩ : BufTy).Contents (Elt F) → (⟨S5, .i32⟩ : BufTy).Contents (Elt F)) (t_main_c (F := F)) (t_main_v9 (F := F))
def t_main_v11 : (⟨S5, .i32⟩ : BufTy).Contents (Elt F) :=
  (select : (⟨S5, .i1⟩ : BufTy).Contents (Elt F) → (⟨S5, .i32⟩ : BufTy).Contents (Elt F) → (⟨S5, .i32⟩ : BufTy).Contents (Elt F) → (⟨S5, .i32⟩ : BufTy).Contents (Elt F)) (t_main_c_0 (F := F)) (t_main_v10 (F := F)) (t_main_c (F := F))
def t_main_v12 : (⟨S5x1, .i32⟩ : BufTy).Contents (Elt F) :=
  (broadcastInDim S5x1 ![0] bcast_S5_S5x1_0 : (⟨S5, .i32⟩ : BufTy).Contents (Elt F) → (⟨S5x1, .i32⟩ : BufTy).Contents (Elt F)) (t_main_v11 (F := F))
def t_main_v13 (a0 : (⟨S10000x25x32, .f32⟩ : BufTy).Contents (Elt F)) (a1 : (⟨S160000x25x25, .f32⟩ : BufTy).Contents (Elt F)) (a3 : (⟨S160000, .i32⟩ : BufTy).Contents (Elt F)) : (⟨S160000x5x32, .f32⟩ : BufTy).Contents (Elt F) :=
  ((fun x i => Host.gather gather_S160000x25x32_S5x1_S160000x5x32_02_1_n_n_1_1_160000132 x i) : (⟨S160000x25x32, .f32⟩ : BufTy).Contents (Elt F) → (⟨S5x1, .i32⟩ : BufTy).Contents (Elt F) → (⟨S160000x5x32, .f32⟩ : BufTy).Contents (Elt F)) (t_main_v7 (F := F) a0 a1 a3) (t_main_v12 (F := F))
def t_main_v14 (a0 : (⟨S10000x25x32, .f32⟩ : BufTy).Contents (Elt F)) (a1 : (⟨S160000x25x25, .f32⟩ : BufTy).Contents (Elt F)) (a3 : (⟨S160000, .i32⟩ : BufTy).Contents (Elt F)) : (⟨S160000x160, .f32⟩ : BufTy).Contents (Elt F) :=
  shapeCast S160000x160 (t_main_v13 (F := F) a0 a1 a3) shapeCasts_S160000x5x32_S160000x160
def t_main_v15 (a0 : (⟨S10000x25x32, .f32⟩ : BufTy).Contents (Elt F)) (a1 : (⟨S160000x25x25, .f32⟩ : BufTy).Contents (Elt F)) (a3 : (⟨S160000, .i32⟩ : BufTy).Contents (Elt F)) (a5 : (⟨S160x160, .f32⟩ : BufTy).Contents (Elt F)) : (⟨S160000x160, .f32⟩ : BufTy).Contents (Elt F) :=
  ((fun l r => Host.dotGeneral dot_S160000x160_S160x160_S160000x160_1_0_0_1_n_n none l r) : (⟨S160000x160, .f32⟩ : BufTy).Contents (Elt F) → (⟨S160x160, .f32⟩ : BufTy).Contents (Elt F) → (⟨S160000x160, .f32⟩ : BufTy).Contents (Elt F)) (t_main_v14 (F := F) a0 a1 a3) a5
def t_main_v16 (a0 : (⟨S10000x25x32, .f32⟩ : BufTy).Contents (Elt F)) (a1 : (⟨S160000x25x25, .f32⟩ : BufTy).Contents (Elt F)) (a3 : (⟨S160000, .i32⟩ : BufTy).Contents (Elt F)) (a5 : (⟨S160x160, .f32⟩ : BufTy).Contents (Elt F)) : (⟨S160000x5x32, .f32⟩ : BufTy).Contents (Elt F) :=
  shapeCast S160000x5x32 (t_main_v15 (F := F) a0 a1 a3 a5) shapeCasts_S160000x160_S160000x5x32
def t_main_c_31 : (⟨S_, .i32⟩ : BufTy).Contents (Elt F) :=
  (constantI S_ 32 25#32)
def t_main_v17 : (⟨S5, .i32⟩ : BufTy).Contents (Elt F) :=
  (broadcastInDim S5 ![] bcast_S_S5 : (⟨S_, .i32⟩ : BufTy).Contents (Elt F) → (⟨S5, .i32⟩ : BufTy).Contents (Elt F)) (t_main_c_31 (F := F))
def t_main_v18 : (⟨S5, .i32⟩ : BufTy).Contents (Elt F) :=
  (addi : (⟨S5, .i32⟩ : BufTy).Contents (Elt F) → (⟨S5, .i32⟩ : BufTy).Contents (Elt F) → (⟨S5, .i32⟩ : BufTy).Contents (Elt F)) (t_main_c (F := F)) (t_main_v17 (F := F))
def t_main_v19 : (⟨S5, .i32⟩ : BufTy).Contents (Elt F) :=
  (select : (⟨S5, .i1⟩ : BufTy).Contents (Elt F) → (⟨S5, .i32⟩ : BufTy).Contents (Elt F) → (⟨S5, .i32⟩ : BufTy).Contents (Elt F) → (⟨S5, .i32⟩ : BufTy).Contents (Elt F)) (t_main_c_1 (F := F)) (t_main_v18 (F := F)) (t_main_c (F := F))
def t_main_v20 : (⟨S5x1, .i32⟩ : BufTy).Contents (Elt F) :=
  (broadcastInDim S5x1 ![0] bcast_S5_S5x1_0 : (⟨S5, .i32⟩ : BufTy).Contents (Elt F) → (⟨S5x1, .i32⟩ : BufTy).Contents (Elt F)) (t_main_v19 (F := F))
def t_main_v21 (a0 : (⟨S10000x25x32, .f32⟩ : BufTy).Contents (Elt F)) (a1 : (⟨S160000x25x25, .f32⟩ : BufTy).Contents (Elt F)) (a3 : (⟨S160000, .i32⟩ : BufTy).Contents (Elt F)) (a5 : (⟨S160x160, .f32⟩ : BufTy).Contents (Elt F)) : (⟨S160000x25x32, .f32⟩ : BufTy).Contents (Elt F) :=
  ((fun x i u => Host.scatter scatter_S160000x25x32_S5x1_S160000x5x32_02_1_1_1 (fun _ b => b) x i u) : (⟨S160000x25x32, .f32⟩ : BufTy).Contents (Elt F) → (⟨S5x1, .i32⟩ : BufTy).Contents (Elt F) → (⟨S160000x5x32, .f32⟩ : BufTy).Contents (Elt F) → (⟨S160000x25x32, .f32⟩ : BufTy).Contents (Elt F)) (t_main_v8 (F := F)) (t_main_v20 (F := F)) (t_main_v16 (F := F) a0 a1 a3 a5)
def t_main_c_32 : (⟨S_, .i32⟩ : BufTy).Contents (Elt F) :=
  (constantI S_ 32 25#32)
def t_main_v22 : (⟨S4, .i32⟩ : BufTy).Contents (Elt F) :=
  (broadcastInDim S4 ![] bcast_S_S4 : (⟨S_, .i32⟩ : BufTy).Contents (Elt F) → (⟨S4, .i32⟩ : BufTy).Contents (Elt F)) (t_main_c_32 (F := F))
def t_main_v23 : (⟨S4, .i32⟩ : BufTy).Contents (Elt F) :=
  (addi : (⟨S4, .i32⟩ : BufTy).Contents (Elt F) → (⟨S4, .i32⟩ : BufTy).Contents (Elt F) → (⟨S4, .i32⟩ : BufTy).Contents (Elt F)) (t_main_c_2 (F := F)) (t_main_v22 (F := F))
def t_main_v24 : (⟨S4, .i32⟩ : BufTy).Contents (Elt F) :=
  (select : (⟨S4, .i1⟩ : BufTy).Contents (Elt F) → (⟨S4, .i32⟩ : BufTy).Contents (Elt F) → (⟨S4, .i32⟩ : BufTy).Contents (Elt F) → (⟨S4, .i32⟩ : BufTy).Contents (Elt F)) (t_main_c_3 (F := F)) (t_main_v23 (F := F)) (t_main_c_2 (F := F))
def t_main_v25 : (⟨S4x1, .i32⟩ : BufTy).Contents (Elt F) :=
  (broadcastInDim S4x1 ![0] bcast_S4_S4x1_0 : (⟨S4, .i32⟩ : BufTy).Contents (Elt F) → (⟨S4x1, .i32⟩ : BufTy).Contents (Elt F)) (t_main_v24 (F := F))
def t_main_v26 (a0 : (⟨S10000x25x32, .f32⟩ : BufTy).Contents (Elt F)) (a1 : (⟨S160000x25x25, .f32⟩ : BufTy).Contents (Elt F)) (a3 : (⟨S160000, .i32⟩ : BufTy).Contents (Elt F)) : (⟨S160000x4x32, .f32⟩ : BufTy).Contents (Elt F) :=
  ((fun x i => Host.gather gather_S160000x25x32_S4x1_S160000x4x32_02_1_n_n_1_1_160000132 x i) : (⟨S160000x25x32, .f32⟩ : BufTy).Contents (Elt F) → (⟨S4x1, .i32⟩ : BufTy).Contents (Elt F) → (⟨S160000x4x32, .f32⟩ : BufTy).Contents (Elt F)) (t_main_v7 (F := F) a0 a1 a3) (t_main_v25 (F := F))
def t_main_v27 (a0 : (⟨S10000x25x32, .f32⟩ : BufTy).Contents (Elt F)) (a1 : (⟨S160000x25x25, .f32⟩ : BufTy).Contents (Elt F)) (a3 : (⟨S160000, .i32⟩ : BufTy).Contents (Elt F)) : (⟨S160000x128, .f32⟩ : BufTy).Contents (Elt F) :=
  shapeCast S160000x128 (t_main_v26 (F := F) a0 a1 a3) shapeCasts_S160000x4x32_S160000x128
def t_main_c_33 : (⟨S_, .i32⟩ : BufTy).Contents (Elt F) :=
  (constantI S_ 32 25#32)
def t_main_v28 : (⟨S4, .i32⟩ : BufTy).Contents (Elt F) :=
  (broadcastInDim S4 ![] bcast_S_S4 : (⟨S_, .i32⟩ : BufTy).Contents (Elt F) → (⟨S4, .i32⟩ : BufTy).Contents (Elt F)) (t_main_c_33 (F := F))
def t_main_v29 : (⟨S4, .i32⟩ : BufTy).Contents (Elt F) :=
  (addi : (⟨S4, .i32⟩ : BufTy).Contents (Elt F) → (⟨S4, .i32⟩ : BufTy).Contents (Elt F) → (⟨S4, .i32⟩ : BufTy).Contents (Elt F)) (t_main_c_4 (F := F)) (t_main_v28 (F := F))
def t_main_v30 : (⟨S4, .i32⟩ : BufTy).Contents (Elt F) :=
  (select : (⟨S4, .i1⟩ : BufTy).Contents (Elt F) → (⟨S4, .i32⟩ : BufTy).Contents (Elt F) → (⟨S4, .i32⟩ : BufTy).Contents (Elt F) → (⟨S4, .i32⟩ : BufTy).Contents (Elt F)) (t_main_c_5 (F := F)) (t_main_v29 (F := F)) (t_main_c_4 (F := F))
def t_main_v31 : (⟨S4x1, .i32⟩ : BufTy).Contents (Elt F) :=
  (broadcastInDim S4x1 ![0] bcast_S4_S4x1_0 : (⟨S4, .i32⟩ : BufTy).Contents (Elt F) → (⟨S4x1, .i32⟩ : BufTy).Contents (Elt F)) (t_main_v30 (F := F))
def t_main_v32 (a0 : (⟨S10000x25x32, .f32⟩ : BufTy).Contents (Elt F)) (a1 : (⟨S160000x25x25, .f32⟩ : BufTy).Contents (Elt F)) (a3 : (⟨S160000, .i32⟩ : BufTy).Contents (Elt F)) : (⟨S160000x4x32, .f32⟩ : BufTy).Contents (Elt F) :=
  ((fun x i => Host.gather gather_S160000x25x32_S4x1_S160000x4x32_02_1_n_n_1_1_160000132 x i) : (⟨S160000x25x32, .f32⟩ : BufTy).Contents (Elt F) → (⟨S4x1, .i32⟩ : BufTy).Contents (Elt F) → (⟨S160000x4x32, .f32⟩ : BufTy).Contents (Elt F)) (t_main_v7 (F := F) a0 a1 a3) (t_main_v31 (F := F))
def t_main_v33 (a0 : (⟨S10000x25x32, .f32⟩ : BufTy).Contents (Elt F)) (a1 : (⟨S160000x25x25, .f32⟩ : BufTy).Contents (Elt F)) (a3 : (⟨S160000, .i32⟩ : BufTy).Contents (Elt F)) : (⟨S160000x128, .f32⟩ : BufTy).Contents (Elt F) :=
  shapeCast S160000x128 (t_main_v32 (F := F) a0 a1 a3) shapeCasts_S160000x4x32_S160000x128
def t_main_v34 (a0 : (⟨S10000x25x32, .f32⟩ : BufTy).Contents (Elt F)) (a1 : (⟨S160000x25x25, .f32⟩ : BufTy).Contents (Elt F)) (a3 : (⟨S160000, .i32⟩ : BufTy).Contents (Elt F)) (a6 : (⟨S128x128, .f32⟩ : BufTy).Contents (Elt F)) : (⟨S160000x128, .f32⟩ : BufTy).Contents (Elt F) :=
  ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)) (t_main_v27 (F := F) a0 a1 a3) a6
def t_main_v35 (a0 : (⟨S10000x25x32, .f32⟩ : BufTy).Contents (Elt F)) (a1 : (⟨S160000x25x25, .f32⟩ : BufTy).Contents (Elt F)) (a3 : (⟨S160000, .i32⟩ : BufTy).Contents (Elt F)) (a7 : (⟨S128x128, .f32⟩ : BufTy).Contents (Elt F)) : (⟨S160000x128, .f32⟩ : BufTy).Contents (Elt F) :=
  ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)) (t_main_v33 (F := F) a0 a1 a3) a7
def t_main_v36 (a0 : (⟨S10000x25x32, .f32⟩ : BufTy).Contents (Elt F)) (a1 : (⟨S160000x25x25, .f32⟩ : BufTy).Contents (Elt F)) (a3 : (⟨S160000, .i32⟩ : BufTy).Contents (Elt F)) (a6 : (⟨S128x128, .f32⟩ : BufTy).Contents (Elt F)) (a7 : (⟨S128x128, .f32⟩ : BufTy).Contents (Elt F)) : (⟨S160000x128, .f32⟩ : BufTy).Contents (Elt F) :=
  (subf : (⟨S160000x128, .f32⟩ : BufTy).Contents (Elt F) → (⟨S160000x128, .f32⟩ : BufTy).Contents (Elt F) → (⟨S160000x128, .f32⟩ : BufTy).Contents (Elt F)) (t_main_v34 (F := F) a0 a1 a3 a6) (t_main_v35 (F := F) a0 a1 a3 a7)
def t_main_v37 (a0 : (⟨S10000x25x32, .f32⟩ : BufTy).Contents (Elt F)) (a1 : (⟨S160000x25x25, .f32⟩ : BufTy).Contents (Elt F)) (a3 : (⟨S160000, .i32⟩ : BufTy).Contents (Elt F)) (a7 : (⟨S128x128, .f32⟩ : BufTy).Contents (Elt F)) : (⟨S160000x128, .f32⟩ : BufTy).Contents (Elt F) :=
  ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)) (t_main_v27 (F := F) a0 a1 a3) a7
def t_main_v38 (a0 : (⟨S10000x25x32, .f32⟩ : BufTy).Contents (Elt F)) (a1 : (⟨S160000x25x25, .f32⟩ : BufTy).Contents (Elt F)) (a3 : (⟨S160000, .i32⟩ : BufTy).Contents (Elt F)) (a6 : (⟨S128x128, .f32⟩ : BufTy).Contents (Elt F)) : (⟨S160000x128, .f32⟩ : BufTy).Contents (Elt F) :=
  ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)) (t_main_v33 (F := F) a0 a1 a3) a6
def t_main_v39 (a0 : (⟨S10000x25x32, .f32⟩ : BufTy).Contents (Elt F)) (a1 : (⟨S160000x25x25, .f32⟩ : BufTy).Contents (Elt F)) (a3 : (⟨S160000, .i32⟩ : BufTy).Contents (Elt F)) (a6 : (⟨S128x128, .f32⟩ : BufTy).Contents (Elt F)) (a7 : (⟨S128x128, .f32⟩ : BufTy).Contents (Elt F)) : (⟨S160000x128, .f32⟩ : BufTy).Contents (Elt F) :=
  (addf : (⟨S160000x128, .f32⟩ : BufTy).Contents (Elt F) → (⟨S160000x128, .f32⟩ : BufTy).Contents (Elt F) → (⟨S160000x128, .f32⟩ : BufTy).Contents (Elt F)) (t_main_v37 (F := F) a0 a1 a3 a7) (t_main_v38 (F := F) a0 a1 a3 a6)
def t_main_v40 (a0 : (⟨S10000x25x32, .f32⟩ : BufTy).Contents (Elt F)) (a1 : (⟨S160000x25x25, .f32⟩ : BufTy).Contents (Elt F)) (a3 : (⟨S160000, .i32⟩ : BufTy).Contents (Elt F)) (a6 : (⟨S128x128, .f32⟩ : BufTy).Contents (Elt F)) (a7 : (⟨S128x128, .f32⟩ : BufTy).Contents (Elt F)) : (⟨S160000x4x32, .f32⟩ : BufTy).Contents (Elt F) :=
  shapeCast S160000x4x32 (t_main_v36 (F := F) a0 a1 a3 a6 a7) shapeCasts_S160000x128_S160000x4x32
def t_main_c_34 : (⟨S_, .i32⟩ : BufTy).Contents (Elt F) :=
  (constantI S_ 32 25#32)
def t_main_v41 : (⟨S4, .i32⟩ : BufTy).Contents (Elt F) :=
  (broadcastInDim S4 ![] bcast_S_S4 : (⟨S_, .i32⟩ : BufTy).Contents (Elt F) → (⟨S4, .i32⟩ : BufTy).Contents (Elt F)) (t_main_c_34 (F := F))
def t_main_v42 : (⟨S4, .i32⟩ : BufTy).Contents (Elt F) :=
  (addi : (⟨S4, .i32⟩ : BufTy).Contents (Elt F) → (⟨S4, .i32⟩ : BufTy).Contents (Elt F) → (⟨S4, .i32⟩ : BufTy).Contents (Elt F)) (t_main_c_2 (F := F)) (t_main_v41 (F := F))
def t_main_v43 : (⟨S4, .i32⟩ : BufTy).Contents (Elt F) :=
  (select : (⟨S4, .i1⟩ : BufTy).Contents (Elt F) → (⟨S4, .i32⟩ : BufTy).Contents (Elt F) → (⟨S4, .i32⟩ : BufTy).Contents (Elt F) → (⟨S4, .i32⟩ : BufTy).Contents (Elt F)) (t_main_c_6 (F := F)) (t_main_v42 (F := F)) (t_main_c_2 (F := F))
def t_main_v44 : (⟨S4x1, .i32⟩ : BufTy).Contents (Elt F) :=
  (broadcastInDim S4x1 ![0] bcast_S4_S4x1_0 : (⟨S4, .i32⟩ : BufTy).Contents (Elt F) → (⟨S4x1, .i32⟩ : BufTy).Contents (Elt F)) (t_main_v43 (F := F))
def t_main_v45 (a0 : (⟨S10000x25x32, .f32⟩ : BufTy).Contents (Elt F)) (a1 : (⟨S160000x25x25, .f32⟩ : BufTy).Contents (Elt F)) (a3 : (⟨S160000, .i32⟩ : BufTy).Contents (Elt F)) (a5 : (⟨S160x160, .f32⟩ : BufTy).Contents (Elt F)) (a6 : (⟨S128x128, .f32⟩ : BufTy).Contents (Elt F)) (a7 : (⟨S128x128, .f32⟩ : BufTy).Contents (Elt F)) : (⟨S160000x25x32, .f32⟩ : BufTy).Contents (Elt F) :=
  ((fun x i u => Host.scatter scatter_S160000x25x32_S4x1_S160000x4x32_02_1_1_1 (fun _ b => b) x i u) : (⟨S160000x25x32, .f32⟩ : BufTy).Contents (Elt F) → (⟨S4x1, .i32⟩ : BufTy).Contents (Elt F) → (⟨S160000x4x32, .f32⟩ : BufTy).Contents (Elt F) → (⟨S160000x25x32, .f32⟩ : BufTy).Contents (Elt F)) (t_main_v21 (F := F) a0 a1 a3 a5) (t_main_v44 (F := F)) (t_main_v40 (F := F) a0 a1 a3 a6 a7)
def t_main_v46 (a0 : (⟨S10000x25x32, .f32⟩ : BufTy).Contents (Elt F)) (a1 : (⟨S160000x25x25, .f32⟩ : BufTy).Contents (Elt F)) (a3 : (⟨S160000, .i32⟩ : BufTy).Contents (Elt F)) (a6 : (⟨S128x128, .f32⟩ : BufTy).Contents (Elt F)) (a7 : (⟨S128x128, .f32⟩ : BufTy).Contents (Elt F)) : (⟨S160000x4x32, .f32⟩ : BufTy).Contents (Elt F) :=
  shapeCast S160000x4x32 (t_main_v39 (F := F) a0 a1 a3 a6 a7) shapeCasts_S160000x128_S160000x4x32
def t_main_c_35 : (⟨S_, .i32⟩ : BufTy).Contents (Elt F) :=
  (constantI S_ 32 25#32)
def t_main_v47 : (⟨S4, .i32⟩ : BufTy).Contents (Elt F) :=
  (broadcastInDim S4 ![] bcast_S_S4 : (⟨S_, .i32⟩ : BufTy).Contents (Elt F) → (⟨S4, .i32⟩ : BufTy).Contents (Elt F)) (t_main_c_35 (F := F))
def t_main_v48 : (⟨S4, .i32⟩ : BufTy).Contents (Elt F) :=
  (addi : (⟨S4, .i32⟩ : BufTy).Contents (Elt F) → (⟨S4, .i32⟩ : BufTy).Contents (Elt F) → (⟨S4, .i32⟩ : BufTy).Contents (Elt F)) (t_main_c_4 (F := F)) (t_main_v47 (F := F))
def t_main_v49 : (⟨S4, .i32⟩ : BufTy).Contents (Elt F) :=
  (select : (⟨S4, .i1⟩ : BufTy).Contents (Elt F) → (⟨S4, .i32⟩ : BufTy).Contents (Elt F) → (⟨S4, .i32⟩ : BufTy).Contents (Elt F) → (⟨S4, .i32⟩ : BufTy).Contents (Elt F)) (t_main_c_7 (F := F)) (t_main_v48 (F := F)) (t_main_c_4 (F := F))
def t_main_v50 : (⟨S4x1, .i32⟩ : BufTy).Contents (Elt F) :=
  (broadcastInDim S4x1 ![0] bcast_S4_S4x1_0 : (⟨S4, .i32⟩ : BufTy).Contents (Elt F) → (⟨S4x1, .i32⟩ : BufTy).Contents (Elt F)) (t_main_v49 (F := F))
def t_main_v51 (a0 : (⟨S10000x25x32, .f32⟩ : BufTy).Contents (Elt F)) (a1 : (⟨S160000x25x25, .f32⟩ : BufTy).Contents (Elt F)) (a3 : (⟨S160000, .i32⟩ : BufTy).Contents (Elt F)) (a5 : (⟨S160x160, .f32⟩ : BufTy).Contents (Elt F)) (a6 : (⟨S128x128, .f32⟩ : BufTy).Contents (Elt F)) (a7 : (⟨S128x128, .f32⟩ : BufTy).Contents (Elt F)) : (⟨S160000x25x32, .f32⟩ : BufTy).Contents (Elt F) :=
  ((fun x i u => Host.scatter scatter_S160000x25x32_S4x1_S160000x4x32_02_1_1_1 (fun _ b => b) x i u) : (⟨S160000x25x32, .f32⟩ : BufTy).Contents (Elt F) → (⟨S4x1, .i32⟩ : BufTy).Contents (Elt F) → (⟨S160000x4x32, .f32⟩ : BufTy).Contents (Elt F) → (⟨S160000x25x32, .f32⟩ : BufTy).Contents (Elt F)) (t_main_v45 (F := F) a0 a1 a3 a5 a6 a7) (t_main_v50 (F := F)) (t_main_v46 (F := F) a0 a1 a3 a6 a7)
def t_main_c_36 : (⟨S_, .i32⟩ : BufTy).Contents (Elt F) :=
  (constantI S_ 32 25#32)
def t_main_v52 : (⟨S3, .i32⟩ : BufTy).Contents (Elt F) :=
  (broadcastInDim S3 ![] bcast_S_S3 : (⟨S_, .i32⟩ : BufTy).Contents (Elt F) → (⟨S3, .i32⟩ : BufTy).Contents (Elt F)) (t_main_c_36 (F := F))
def t_main_v53 : (⟨S3, .i32⟩ : BufTy).Contents (Elt F) :=
  (addi : (⟨S3, .i32⟩ : BufTy).Contents (Elt F) → (⟨S3, .i32⟩ : BufTy).Contents (Elt F) → (⟨S3, .i32⟩ : BufTy).Contents (Elt F)) (t_main_c_8 (F := F)) (t_main_v52 (F := F))
def t_main_v54 : (⟨S3, .i32⟩ : BufTy).Contents (Elt F) :=
  (select : (⟨S3, .i1⟩ : BufTy).Contents (Elt F) → (⟨S3, .i32⟩ : BufTy).Contents (Elt F) → (⟨S3, .i32⟩ : BufTy).Contents (Elt F) → (⟨S3, .i32⟩ : BufTy).Contents (Elt F)) (t_main_c_9 (F := F)) (t_main_v53 (F := F)) (t_main_c_8 (F := F))
def t_main_v55 : (⟨S3x1, .i32⟩ : BufTy).Contents (Elt F) :=
  (broadcastInDim S3x1 ![0] bcast_S3_S3x1_0 : (⟨S3, .i32⟩ : BufTy).Contents (Elt F) → (⟨S3x1, .i32⟩ : BufTy).Contents (Elt F)) (t_main_v54 (F := F))
def t_main_v56 (a0 : (⟨S10000x25x32, .f32⟩ : BufTy).Contents (Elt F)) (a1 : (⟨S160000x25x25, .f32⟩ : BufTy).Contents (Elt F)) (a3 : (⟨S160000, .i32⟩ : BufTy).Contents (Elt F)) : (⟨S160000x3x32, .f32⟩ : BufTy).Contents (Elt F) :=
  ((fun x i => Host.gather gather_S160000x25x32_S3x1_S160000x3x32_02_1_n_n_1_1_160000132 x i) : (⟨S160000x25x32, .f32⟩ : BufTy).Contents (Elt F) → (⟨S3x1, .i32⟩ : BufTy).Contents (Elt F) → (⟨S160000x3x32, .f32⟩ : BufTy).Contents (Elt F)) (t_main_v7 (F := F) a0 a1 a3) (t_main_v55 (F := F))
def t_main_v57 (a0 : (⟨S10000x25x32, .f32⟩ : BufTy).Contents (Elt F)) (a1 : (⟨S160000x25x25, .f32⟩ : BufTy).Contents (Elt F)) (a3 : (⟨S160000, .i32⟩ : BufTy).Contents (Elt F)) : (⟨S160000x96, .f32⟩ : BufTy).Contents (Elt F) :=
  shapeCast S160000x96 (t_main_v56 (F := F) a0 a1 a3) shapeCasts_S160000x3x32_S160000x96
def t_main_c_37 : (⟨S_, .i32⟩ : BufTy).Contents (Elt F) :=
  (constantI S_ 32 25#32)
def t_main_v58 : (⟨S3, .i32⟩ : BufTy).Contents (Elt F) :=
  (broadcastInDim S3 ![] bcast_S_S3 : (⟨S_, .i32⟩ : BufTy).Contents (Elt F) → (⟨S3, .i32⟩ : BufTy).Contents (Elt F)) (t_main_c_37 (F := F))
def t_main_v59 : (⟨S3, .i32⟩ : BufTy).Contents (Elt F) :=
  (addi : (⟨S3, .i32⟩ : BufTy).Contents (Elt F) → (⟨S3, .i32⟩ : BufTy).Contents (Elt F) → (⟨S3, .i32⟩ : BufTy).Contents (Elt F)) (t_main_c_10 (F := F)) (t_main_v58 (F := F))
def t_main_v60 : (⟨S3, .i32⟩ : BufTy).Contents (Elt F) :=
  (select : (⟨S3, .i1⟩ : BufTy).Contents (Elt F) → (⟨S3, .i32⟩ : BufTy).Contents (Elt F) → (⟨S3, .i32⟩ : BufTy).Contents (Elt F) → (⟨S3, .i32⟩ : BufTy).Contents (Elt F)) (t_main_c_11 (F := F)) (t_main_v59 (F := F)) (t_main_c_10 (F := F))
def t_main_v61 : (⟨S3x1, .i32⟩ : BufTy).Contents (Elt F) :=
  (broadcastInDim S3x1 ![0] bcast_S3_S3x1_0 : (⟨S3, .i32⟩ : BufTy).Contents (Elt F) → (⟨S3x1, .i32⟩ : BufTy).Contents (Elt F)) (t_main_v60 (F := F))
def t_main_v62 (a0 : (⟨S10000x25x32, .f32⟩ : BufTy).Contents (Elt F)) (a1 : (⟨S160000x25x25, .f32⟩ : BufTy).Contents (Elt F)) (a3 : (⟨S160000, .i32⟩ : BufTy).Contents (Elt F)) : (⟨S160000x3x32, .f32⟩ : BufTy).Contents (Elt F) :=
  ((fun x i => Host.gather gather_S160000x25x32_S3x1_S160000x3x32_02_1_n_n_1_1_160000132 x i) : (⟨S160000x25x32, .f32⟩ : BufTy).Contents (Elt F) → (⟨S3x1, .i32⟩ : BufTy).Contents (Elt F) → (⟨S160000x3x32, .f32⟩ : BufTy).Contents (Elt F)) (t_main_v7 (F := F) a0 a1 a3) (t_main_v61 (F := F))
def t_main_v63 (a0 : (⟨S10000x25x32, .f32⟩ : BufTy).Contents (Elt F)) (a1 : (⟨S160000x25x25, .f32⟩ : BufTy).Contents (Elt F)) (a3 : (⟨S160000, .i32⟩ : BufTy).Contents (Elt F)) : (⟨S160000x96, .f32⟩ : BufTy).Contents (Elt F) :=
  shapeCast S160000x96 (t_main_v62 (F := F) a0 a1 a3) shapeCasts_S160000x3x32_S160000x96
def t_main_v64 (a0 : (⟨S10000x25x32, .f32⟩ : BufTy).Contents (Elt F)) (a1 : (⟨S160000x25x25, .f32⟩ : BufTy).Contents (Elt F)) (a3 : (⟨S160000, .i32⟩ : BufTy).Contents (Elt F)) (a8 : (⟨S96x96, .f32⟩ : BufTy).Contents (Elt F)) : (⟨S160000x96, .f32⟩ : BufTy).Contents (Elt F) :=
  ((fun l r => Host.dotGeneral dot_S160000x96_S96x96_S160000x96_1_0_0_1_n_n none l r) : (⟨S160000x96, .f32⟩ : BufTy).Contents (Elt F) → (⟨S96x96, .f32⟩ : BufTy).Contents (Elt F) → (⟨S160000x96, .f32⟩ : BufTy).Contents (Elt F)) (t_main_v57 (F := F) a0 a1 a3) a8
def t_main_v65 (a0 : (⟨S10000x25x32, .f32⟩ : BufTy).Contents (Elt F)) (a1 : (⟨S160000x25x25, .f32⟩ : BufTy).Contents (Elt F)) (a3 : (⟨S160000, .i32⟩ : BufTy).Contents (Elt F)) (a9 : (⟨S96x96, .f32⟩ : BufTy).Contents (Elt F)) : (⟨S160000x96, .f32⟩ : BufTy).Contents (Elt F) :=
  ((fun l r => Host.dotGeneral dot_S160000x96_S96x96_S160000x96_1_0_0_1_n_n none l r) : (⟨S160000x96, .f32⟩ : BufTy).Contents (Elt F) → (⟨S96x96, .f32⟩ : BufTy).Contents (Elt F) → (⟨S160000x96, .f32⟩ : BufTy).Contents (Elt F)) (t_main_v63 (F := F) a0 a1 a3) a9
def t_main_v66 (a0 : (⟨S10000x25x32, .f32⟩ : BufTy).Contents (Elt F)) (a1 : (⟨S160000x25x25, .f32⟩ : BufTy).Contents (Elt F)) (a3 : (⟨S160000, .i32⟩ : BufTy).Contents (Elt F)) (a8 : (⟨S96x96, .f32⟩ : BufTy).Contents (Elt F)) (a9 : (⟨S96x96, .f32⟩ : BufTy).Contents (Elt F)) : (⟨S160000x96, .f32⟩ : BufTy).Contents (Elt F) :=
  (subf : (⟨S160000x96, .f32⟩ : BufTy).Contents (Elt F) → (⟨S160000x96, .f32⟩ : BufTy).Contents (Elt F) → (⟨S160000x96, .f32⟩ : BufTy).Contents (Elt F)) (t_main_v64 (F := F) a0 a1 a3 a8) (t_main_v65 (F := F) a0 a1 a3 a9)
def t_main_v67 (a0 : (⟨S10000x25x32, .f32⟩ : BufTy).Contents (Elt F)) (a1 : (⟨S160000x25x25, .f32⟩ : BufTy).Contents (Elt F)) (a3 : (⟨S160000, .i32⟩ : BufTy).Contents (Elt F)) (a9 : (⟨S96x96, .f32⟩ : BufTy).Contents (Elt F)) : (⟨S160000x96, .f32⟩ : BufTy).Contents (Elt F) :=
  ((fun l r => Host.dotGeneral dot_S160000x96_S96x96_S160000x96_1_0_0_1_n_n none l r) : (⟨S160000x96, .f32⟩ : BufTy).Contents (Elt F) → (⟨S96x96, .f32⟩ : BufTy).Contents (Elt F) → (⟨S160000x96, .f32⟩ : BufTy).Contents (Elt F)) (t_main_v57 (F := F) a0 a1 a3) a9
def t_main_v68 (a0 : (⟨S10000x25x32, .f32⟩ : BufTy).Contents (Elt F)) (a1 : (⟨S160000x25x25, .f32⟩ : BufTy).Contents (Elt F)) (a3 : (⟨S160000, .i32⟩ : BufTy).Contents (Elt F)) (a8 : (⟨S96x96, .f32⟩ : BufTy).Contents (Elt F)) : (⟨S160000x96, .f32⟩ : BufTy).Contents (Elt F) :=
  ((fun l r => Host.dotGeneral dot_S160000x96_S96x96_S160000x96_1_0_0_1_n_n none l r) : (⟨S160000x96, .f32⟩ : BufTy).Contents (Elt F) → (⟨S96x96, .f32⟩ : BufTy).Contents (Elt F) → (⟨S160000x96, .f32⟩ : BufTy).Contents (Elt F)) (t_main_v63 (F := F) a0 a1 a3) a8
def t_main_v69 (a0 : (⟨S10000x25x32, .f32⟩ : BufTy).Contents (Elt F)) (a1 : (⟨S160000x25x25, .f32⟩ : BufTy).Contents (Elt F)) (a3 : (⟨S160000, .i32⟩ : BufTy).Contents (Elt F)) (a8 : (⟨S96x96, .f32⟩ : BufTy).Contents (Elt F)) (a9 : (⟨S96x96, .f32⟩ : BufTy).Contents (Elt F)) : (⟨S160000x96, .f32⟩ : BufTy).Contents (Elt F) :=
  (addf : (⟨S160000x96, .f32⟩ : BufTy).Contents (Elt F) → (⟨S160000x96, .f32⟩ : BufTy).Contents (Elt F) → (⟨S160000x96, .f32⟩ : BufTy).Contents (Elt F)) (t_main_v67 (F := F) a0 a1 a3 a9) (t_main_v68 (F := F) a0 a1 a3 a8)
def t_main_v70 (a0 : (⟨S10000x25x32, .f32⟩ : BufTy).Contents (Elt F)) (a1 : (⟨S160000x25x25, .f32⟩ : BufTy).Contents (Elt F)) (a3 : (⟨S160000, .i32⟩ : BufTy).Contents (Elt F)) (a8 : (⟨S96x96, .f32⟩ : BufTy).Contents (Elt F)) (a9 : (⟨S96x96, .f32⟩ : BufTy).Contents (Elt F)) : (⟨S160000x3x32, .f32⟩ : BufTy).Contents (Elt F) :=
  shapeCast S160000x3x32 (t_main_v66 (F := F) a0 a1 a3 a8 a9) shapeCasts_S160000x96_S160000x3x32
def t_main_c_38 : (⟨S_, .i32⟩ : BufTy).Contents (Elt F) :=
  (constantI S_ 32 25#32)
def t_main_v71 : (⟨S3, .i32⟩ : BufTy).Contents (Elt F) :=
  (broadcastInDim S3 ![] bcast_S_S3 : (⟨S_, .i32⟩ : BufTy).Contents (Elt F) → (⟨S3, .i32⟩ : BufTy).Contents (Elt F)) (t_main_c_38 (F := F))
def t_main_v72 : (⟨S3, .i32⟩ : BufTy).Contents (Elt F) :=
  (addi : (⟨S3, .i32⟩ : BufTy).Contents (Elt F) → (⟨S3, .i32⟩ : BufTy).Contents (Elt F) → (⟨S3, .i32⟩ : BufTy).Contents (Elt F)) (t_main_c_8 (F := F)) (t_main_v71 (F := F))
def t_main_v73 : (⟨S3, .i32⟩ : BufTy).Contents (Elt F) :=
  (select : (⟨S3, .i1⟩ : BufTy).Contents (Elt F) → (⟨S3, .i32⟩ : BufTy).Contents (Elt F) → (⟨S3, .i32⟩ : BufTy).Contents (Elt F) → (⟨S3, .i32⟩ : BufTy).Contents (Elt F)) (t_main_c_12 (F := F)) (t_main_v72 (F := F)) (t_main_c_8 (F := F))
def t_main_v74 : (⟨S3x1, .i32⟩ : BufTy).Contents (Elt F) :=
  (broadcastInDim S3x1 ![0] bcast_S3_S3x1_0 : (⟨S3, .i32⟩ : BufTy).Contents (Elt F) → (⟨S3x1, .i32⟩ : BufTy).Contents (Elt F)) (t_main_v73 (F := F))
def t_main_v75 (a0 : (⟨S10000x25x32, .f32⟩ : BufTy).Contents (Elt F)) (a1 : (⟨S160000x25x25, .f32⟩ : BufTy).Contents (Elt F)) (a3 : (⟨S160000, .i32⟩ : BufTy).Contents (Elt F)) (a5 : (⟨S160x160, .f32⟩ : BufTy).Contents (Elt F)) (a6 : (⟨S128x128, .f32⟩ : BufTy).Contents (Elt F)) (a7 : (⟨S128x128, .f32⟩ : BufTy).Contents (Elt F)) (a8 : (⟨S96x96, .f32⟩ : BufTy).Contents (Elt F)) (a9 : (⟨S96x96, .f32⟩ : BufTy).Contents (Elt F)) : (⟨S160000x25x32, .f32⟩ : BufTy).Contents (Elt F) :=
  ((fun x i u => Host.scatter scatter_S160000x25x32_S3x1_S160000x3x32_02_1_1_1 (fun _ b => b) x i u) : (⟨S160000x25x32, .f32⟩ : BufTy).Contents (Elt F) → (⟨S3x1, .i32⟩ : BufTy).Contents (Elt F) → (⟨S160000x3x32, .f32⟩ : BufTy).Contents (Elt F) → (⟨S160000x25x32, .f32⟩ : BufTy).Contents (Elt F)) (t_main_v51 (F := F) a0 a1 a3 a5 a6 a7) (t_main_v74 (F := F)) (t_main_v70 (F := F) a0 a1 a3 a8 a9)
def t_main_v76 (a0 : (⟨S10000x25x32, .f32⟩ : BufTy).Contents (Elt F)) (a1 : (⟨S160000x25x25, .f32⟩ : BufTy).Contents (Elt F)) (a3 : (⟨S160000, .i32⟩ : BufTy).Contents (Elt F)) (a8 : (⟨S96x96, .f32⟩ : BufTy).Contents (Elt F)) (a9 : (⟨S96x96, .f32⟩ : BufTy).Contents (Elt F)) : (⟨S160000x3x32, .f32⟩ : BufTy).Contents (Elt F) :=
  shapeCast S160000x3x32 (t_main_v69 (F := F) a0 a1 a3 a8 a9) shapeCasts_S160000x96_S160000x3x32
def t_main_c_39 : (⟨S_, .i32⟩ : BufTy).Contents (Elt F) :=
  (constantI S_ 32 25#32)
def t_main_v77 : (⟨S3, .i32⟩ : BufTy).Contents (Elt F) :=
  (broadcastInDim S3 ![] bcast_S_S3 : (⟨S_, .i32⟩ : BufTy).Contents (Elt F) → (⟨S3, .i32⟩ : BufTy).Contents (Elt F)) (t_main_c_39 (F := F))
def t_main_v78 : (⟨S3, .i32⟩ : BufTy).Contents (Elt F) :=
  (addi : (⟨S3, .i32⟩ : BufTy).Contents (Elt F) → (⟨S3, .i32⟩ : BufTy).Contents (Elt F) → (⟨S3, .i32⟩ : BufTy).Contents (Elt F)) (t_main_c_10 (F := F)) (t_main_v77 (F := F))
def t_main_v79 : (⟨S3, .i32⟩ : BufTy).Contents (Elt F) :=
  (select : (⟨S3, .i1⟩ : BufTy).Contents (Elt F) → (⟨S3, .i32⟩ : BufTy).Contents (Elt F) → (⟨S3, .i32⟩ : BufTy).Contents (Elt F) → (⟨S3, .i32⟩ : BufTy).Contents (Elt F)) (t_main_c_13 (F := F)) (t_main_v78 (F := F)) (t_main_c_10 (F := F))
def t_main_v80 : (⟨S3x1, .i32⟩ : BufTy).Contents (Elt F) :=
  (broadcastInDim S3x1 ![0] bcast_S3_S3x1_0 : (⟨S3, .i32⟩ : BufTy).Contents (Elt F) → (⟨S3x1, .i32⟩ : BufTy).Contents (Elt F)) (t_main_v79 (F := F))
def t_main_v81 (a0 : (⟨S10000x25x32, .f32⟩ : BufTy).Contents (Elt F)) (a1 : (⟨S160000x25x25, .f32⟩ : BufTy).Contents (Elt F)) (a3 : (⟨S160000, .i32⟩ : BufTy).Contents (Elt F)) (a5 : (⟨S160x160, .f32⟩ : BufTy).Contents (Elt F)) (a6 : (⟨S128x128, .f32⟩ : BufTy).Contents (Elt F)) (a7 : (⟨S128x128, .f32⟩ : BufTy).Contents (Elt F)) (a8 : (⟨S96x96, .f32⟩ : BufTy).Contents (Elt F)) (a9 : (⟨S96x96, .f32⟩ : BufTy).Contents (Elt F)) : (⟨S160000x25x32, .f32⟩ : BufTy).Contents (Elt F) :=
  ((fun x i u => Host.scatter scatter_S160000x25x32_S3x1_S160000x3x32_02_1_1_1 (fun _ b => b) x i u) : (⟨S160000x25x32, .f32⟩ : BufTy).Contents (Elt F) → (⟨S3x1, .i32⟩ : BufTy).Contents (Elt F) → (⟨S160000x3x32, .f32⟩ : BufTy).Contents (Elt F) → (⟨S160000x25x32, .f32⟩ : BufTy).Contents (Elt F)) (t_main_v75 (F := F) a0 a1 a3 a5 a6 a7 a8 a9) (t_main_v80 (F := F)) (t_main_v76 (F := F) a0 a1 a3 a8 a9)
def t_main_c_40 : (⟨S_, .i32⟩ : BufTy).Contents (Elt F) :=
  (constantI S_ 32 25#32)
def t_main_v82 : (⟨S2, .i32⟩ : BufTy).Contents (Elt F) :=
  (broadcastInDim S2 ![] bcast_S_S2 : (⟨S_, .i32⟩ : BufTy).Contents (Elt F) → (⟨S2, .i32⟩ : BufTy).Contents (Elt F)) (t_main_c_40 (F := F))
def t_main_v83 : (⟨S2, .i32⟩ : BufTy).Contents (Elt F) :=
  (addi : (⟨S2, .i32⟩ : BufTy).Contents (Elt F) → (⟨S2, .i32⟩ : BufTy).Contents (Elt F) → (⟨S2, .i32⟩ : BufTy).Contents (Elt F)) (t_main_c_14 (F := F)) (t_main_v82 (F := F))
def t_main_v84 : (⟨S2, .i32⟩ : BufTy).Contents (Elt F) :=
  (select : (⟨S2, .i1⟩ : BufTy).Contents (Elt F) → (⟨S2, .i32⟩ : BufTy).Contents (Elt F) → (⟨S2, .i32⟩ : BufTy).Contents (Elt F) → (⟨S2, .i32⟩ : BufTy).Contents (Elt F)) (t_main_c_15 (F := F)) (t_main_v83 (F := F)) (t_main_c_14 (F := F))
def t_main_v85 : (⟨S2x1, .i32⟩ : BufTy).Contents (Elt F) :=
  (broadcastInDim S2x1 ![0] bcast_S2_S2x1_0 : (⟨S2, .i32⟩ : BufTy).Contents (Elt F) → (⟨S2x1, .i32⟩ : BufTy).Contents (Elt F)) (t_main_v84 (F := F))
def t_main_v86 (a0 : (⟨S10000x25x32, .f32⟩ : BufTy).Contents (Elt F)) (a1 : (⟨S160000x25x25, .f32⟩ : BufTy).Contents (Elt F)) (a3 : (⟨S160000, .i32⟩ : BufTy).Contents (Elt F)) : (⟨S160000x2x32, .f32⟩ : BufTy).Contents (Elt F) :=
  ((fun x i => Host.gather gather_S160000x25x32_S2x1_S160000x2x32_02_1_n_n_1_1_160000132 x i) : (⟨S160000x25x32, .f32⟩ : BufTy).Contents (Elt F) → (⟨S2x1, .i32⟩ : BufTy).Contents (Elt F) → (⟨S160000x2x32, .f32⟩ : BufTy).Contents (Elt F)) (t_main_v7 (F := F) a0 a1 a3) (t_main_v85 (F := F))
def t_main_v87 (a0 : (⟨S10000x25x32, .f32⟩ : BufTy).Contents (Elt F)) (a1 : (⟨S160000x25x25, .f32⟩ : BufTy).Contents (Elt F)) (a3 : (⟨S160000, .i32⟩ : BufTy).Contents (Elt F)) : (⟨S160000x64, .f32⟩ : BufTy).Contents (Elt F) :=
  shapeCast S160000x64 (t_main_v86 (F := F) a0 a1 a3) shapeCasts_S160000x2x32_S160000x64
def t_main_c_41 : (⟨S_, .i32⟩ : BufTy).Contents (Elt F) :=
  (constantI S_ 32 25#32)
def t_main_v88 : (⟨S2, .i32⟩ : BufTy).Contents (Elt F) :=
  (broadcastInDim S2 ![] bcast_S_S2 : (⟨S_, .i32⟩ : BufTy).Contents (Elt F) → (⟨S2, .i32⟩ : BufTy).Contents (Elt F)) (t_main_c_41 (F := F))
def t_main_v89 : (⟨S2, .i32⟩ : BufTy).Contents (Elt F) :=
  (addi : (⟨S2, .i32⟩ : BufTy).Contents (Elt F) → (⟨S2, .i32⟩ : BufTy).Contents (Elt F) → (⟨S2, .i32⟩ : BufTy).Contents (Elt F)) (t_main_c_16 (F := F)) (t_main_v88 (F := F))
def t_main_v90 : (⟨S2, .i32⟩ : BufTy).Contents (Elt F) :=
  (select : (⟨S2, .i1⟩ : BufTy).Contents (Elt F) → (⟨S2, .i32⟩ : BufTy).Contents (Elt F) → (⟨S2, .i32⟩ : BufTy).Contents (Elt F) → (⟨S2, .i32⟩ : BufTy).Contents (Elt F)) (t_main_c_17 (F := F)) (t_main_v89 (F := F)) (t_main_c_16 (F := F))
def t_main_v91 : (⟨S2x1, .i32⟩ : BufTy).Contents (Elt F) :=
  (broadcastInDim S2x1 ![0] bcast_S2_S2x1_0 : (⟨S2, .i32⟩ : BufTy).Contents (Elt F) → (⟨S2x1, .i32⟩ : BufTy).Contents (Elt F)) (t_main_v90 (F := F))
def t_main_v92 (a0 : (⟨S10000x25x32, .f32⟩ : BufTy).Contents (Elt F)) (a1 : (⟨S160000x25x25, .f32⟩ : BufTy).Contents (Elt F)) (a3 : (⟨S160000, .i32⟩ : BufTy).Contents (Elt F)) : (⟨S160000x2x32, .f32⟩ : BufTy).Contents (Elt F) :=
  ((fun x i => Host.gather gather_S160000x25x32_S2x1_S160000x2x32_02_1_n_n_1_1_160000132 x i) : (⟨S160000x25x32, .f32⟩ : BufTy).Contents (Elt F) → (⟨S2x1, .i32⟩ : BufTy).Contents (Elt F) → (⟨S160000x2x32, .f32⟩ : BufTy).Contents (Elt F)) (t_main_v7 (F := F) a0 a1 a3) (t_main_v91 (F := F))
def t_main_v93 (a0 : (⟨S10000x25x32, .f32⟩ : BufTy).Contents (Elt F)) (a1 : (⟨S160000x25x25, .f32⟩ : BufTy).Contents (Elt F)) (a3 : (⟨S160000, .i32⟩ : BufTy).Contents (Elt F)) : (⟨S160000x64, .f32⟩ : BufTy).Contents (Elt F) :=
  shapeCast S160000x64 (t_main_v92 (F := F) a0 a1 a3) shapeCasts_S160000x2x32_S160000x64
def t_main_v94 (a0 : (⟨S10000x25x32, .f32⟩ : BufTy).Contents (Elt F)) (a1 : (⟨S160000x25x25, .f32⟩ : BufTy).Contents (Elt F)) (a3 : (⟨S160000, .i32⟩ : BufTy).Contents (Elt F)) (a10 : (⟨S64x64, .f32⟩ : BufTy).Contents (Elt F)) : (⟨S160000x64, .f32⟩ : BufTy).Contents (Elt F) :=
  ((fun l r => Host.dotGeneral dot_S160000x64_S64x64_S160000x64_1_0_0_1_n_n none l r) : (⟨S160000x64, .f32⟩ : BufTy).Contents (Elt F) → (⟨S64x64, .f32⟩ : BufTy).Contents (Elt F) → (⟨S160000x64, .f32⟩ : BufTy).Contents (Elt F)) (t_main_v87 (F := F) a0 a1 a3) a10
def t_main_v95 (a0 : (⟨S10000x25x32, .f32⟩ : BufTy).Contents (Elt F)) (a1 : (⟨S160000x25x25, .f32⟩ : BufTy).Contents (Elt F)) (a3 : (⟨S160000, .i32⟩ : BufTy).Contents (Elt F)) (a11 : (⟨S64x64, .f32⟩ : BufTy).Contents (Elt F)) : (⟨S160000x64, .f32⟩ : BufTy).Contents (Elt F) :=
  ((fun l r => Host.dotGeneral dot_S160000x64_S64x64_S160000x64_1_0_0_1_n_n none l r) : (⟨S160000x64, .f32⟩ : BufTy).Contents (Elt F) → (⟨S64x64, .f32⟩ : BufTy).Contents (Elt F) → (⟨S160000x64, .f32⟩ : BufTy).Contents (Elt F)) (t_main_v93 (F := F) a0 a1 a3) a11
def t_main_v96 (a0 : (⟨S10000x25x32, .f32⟩ : BufTy).Contents (Elt F)) (a1 : (⟨S160000x25x25, .f32⟩ : BufTy).Contents (Elt F)) (a3 : (⟨S160000, .i32⟩ : BufTy).Contents (Elt F)) (a10 : (⟨S64x64, .f32⟩ : BufTy).Contents (Elt F)) (a11 : (⟨S64x64, .f32⟩ : BufTy).Contents (Elt F)) : (⟨S160000x64, .f32⟩ : BufTy).Contents (Elt F) :=
  (subf : (⟨S160000x64, .f32⟩ : BufTy).Contents (Elt F) → (⟨S160000x64, .f32⟩ : BufTy).Contents (Elt F) → (⟨S160000x64, .f32⟩ : BufTy).Contents (Elt F)) (t_main_v94 (F := F) a0 a1 a3 a10) (t_main_v95 (F := F) a0 a1 a3 a11)
def t_main_v97 (a0 : (⟨S10000x25x32, .f32⟩ : BufTy).Contents (Elt F)) (a1 : (⟨S160000x25x25, .f32⟩ : BufTy).Contents (Elt F)) (a3 : (⟨S160000, .i32⟩ : BufTy).Contents (Elt F)) (a11 : (⟨S64x64, .f32⟩ : BufTy).Contents (Elt F)) : (⟨S160000x64, .f32⟩ : BufTy).Contents (Elt F) :=
  ((fun l r => Host.dotGeneral dot_S160000x64_S64x64_S160000x64_1_0_0_1_n_n none l r) : (⟨S160000x64, .f32⟩ : BufTy).Contents (Elt F) → (⟨S64x64, .f32⟩ : BufTy).Contents (Elt F) → (⟨S160000x64, .f32⟩ : BufTy).Contents (Elt F)) (t_main_v87 (F := F) a0 a1 a3) a11
def t_main_v98 (a0 : (⟨S10000x25x32, .f32⟩ : BufTy).Contents (Elt F)) (a1 : (⟨S160000x25x25, .f32⟩ : BufTy).Contents (Elt F)) (a3 : (⟨S160000, .i32⟩ : BufTy).Contents (Elt F)) (a10 : (⟨S64x64, .f32⟩ : BufTy).Contents (Elt F)) : (⟨S160000x64, .f32⟩ : BufTy).Contents (Elt F) :=
  ((fun l r => Host.dotGeneral dot_S160000x64_S64x64_S160000x64_1_0_0_1_n_n none l r) : (⟨S160000x64, .f32⟩ : BufTy).Contents (Elt F) → (⟨S64x64, .f32⟩ : BufTy).Contents (Elt F) → (⟨S160000x64, .f32⟩ : BufTy).Contents (Elt F)) (t_main_v93 (F := F) a0 a1 a3) a10
def t_main_v99 (a0 : (⟨S10000x25x32, .f32⟩ : BufTy).Contents (Elt F)) (a1 : (⟨S160000x25x25, .f32⟩ : BufTy).Contents (Elt F)) (a3 : (⟨S160000, .i32⟩ : BufTy).Contents (Elt F)) (a10 : (⟨S64x64, .f32⟩ : BufTy).Contents (Elt F)) (a11 : (⟨S64x64, .f32⟩ : BufTy).Contents (Elt F)) : (⟨S160000x64, .f32⟩ : BufTy).Contents (Elt F) :=
  (addf : (⟨S160000x64, .f32⟩ : BufTy).Contents (Elt F) → (⟨S160000x64, .f32⟩ : BufTy).Contents (Elt F) → (⟨S160000x64, .f32⟩ : BufTy).Contents (Elt F)) (t_main_v97 (F := F) a0 a1 a3 a11) (t_main_v98 (F := F) a0 a1 a3 a10)
def t_main_v100 (a0 : (⟨S10000x25x32, .f32⟩ : BufTy).Contents (Elt F)) (a1 : (⟨S160000x25x25, .f32⟩ : BufTy).Contents (Elt F)) (a3 : (⟨S160000, .i32⟩ : BufTy).Contents (Elt F)) (a10 : (⟨S64x64, .f32⟩ : BufTy).Contents (Elt F)) (a11 : (⟨S64x64, .f32⟩ : BufTy).Contents (Elt F)) : (⟨S160000x2x32, .f32⟩ : BufTy).Contents (Elt F) :=
  shapeCast S160000x2x32 (t_main_v96 (F := F) a0 a1 a3 a10 a11) shapeCasts_S160000x64_S160000x2x32
def t_main_c_42 : (⟨S_, .i32⟩ : BufTy).Contents (Elt F) :=
  (constantI S_ 32 25#32)
def t_main_v101 : (⟨S2, .i32⟩ : BufTy).Contents (Elt F) :=
  (broadcastInDim S2 ![] bcast_S_S2 : (⟨S_, .i32⟩ : BufTy).Contents (Elt F) → (⟨S2, .i32⟩ : BufTy).Contents (Elt F)) (t_main_c_42 (F := F))
def t_main_v102 : (⟨S2, .i32⟩ : BufTy).Contents (Elt F) :=
  (addi : (⟨S2, .i32⟩ : BufTy).Contents (Elt F) → (⟨S2, .i32⟩ : BufTy).Contents (Elt F) → (⟨S2, .i32⟩ : BufTy).Contents (Elt F)) (t_main_c_14 (F := F)) (t_main_v101 (F := F))
def t_main_v103 : (⟨S2, .i32⟩ : BufTy).Contents (Elt F) :=
  (select : (⟨S2, .i1⟩ : BufTy).Contents (Elt F) → (⟨S2, .i32⟩ : BufTy).Contents (Elt F) → (⟨S2, .i32⟩ : BufTy).Contents (Elt F) → (⟨S2, .i32⟩ : BufTy).Contents (Elt F)) (t_main_c_18 (F := F)) (t_main_v102 (F := F)) (t_main_c_14 (F := F))
def t_main_v104 : (⟨S2x1, .i32⟩ : BufTy).Contents (Elt F) :=
  (broadcastInDim S2x1 ![0] bcast_S2_S2x1_0 : (⟨S2, .i32⟩ : BufTy).Contents (Elt F) → (⟨S2x1, .i32⟩ : BufTy).Contents (Elt F)) (t_main_v103 (F := F))
def t_main_v105 (a0 : (⟨S10000x25x32, .f32⟩ : BufTy).Contents (Elt F)) (a1 : (⟨S160000x25x25, .f32⟩ : BufTy).Contents (Elt F)) (a3 : (⟨S160000, .i32⟩ : BufTy).Contents (Elt F)) (a5 : (⟨S160x160, .f32⟩ : BufTy).Contents (Elt F)) (a6 : (⟨S128x128, .f32⟩ : BufTy).Contents (Elt F)) (a7 : (⟨S128x128, .f32⟩ : BufTy).Contents (Elt F)) (a8 : (⟨S96x96, .f32⟩ : BufTy).Contents (Elt F)) (a9 : (⟨S96x96, .f32⟩ : BufTy).Contents (Elt F)) (a10 : (⟨S64x64, .f32⟩ : BufTy).Contents (Elt F)) (a11 : (⟨S64x64, .f32⟩ : BufTy).Contents (Elt F)) : (⟨S160000x25x32, .f32⟩ : BufTy).Contents (Elt F) :=
  ((fun x i u => Host.scatter scatter_S160000x25x32_S2x1_S160000x2x32_02_1_1_1 (fun _ b => b) x i u) : (⟨S160000x25x32, .f32⟩ : BufTy).Contents (Elt F) → (⟨S2x1, .i32⟩ : BufTy).Contents (Elt F) → (⟨S160000x2x32, .f32⟩ : BufTy).Contents (Elt F) → (⟨S160000x25x32, .f32⟩ : BufTy).Contents (Elt F)) (t_main_v81 (F := F) a0 a1 a3 a5 a6 a7 a8 a9) (t_main_v104 (F := F)) (t_main_v100 (F := F) a0 a1 a3 a10 a11)
def t_main_v106 (a0 : (⟨S10000x25x32, .f32⟩ : BufTy).Contents (Elt F)) (a1 : (⟨S160000x25x25, .f32⟩ : BufTy).Contents (Elt F)) (a3 : (⟨S160000, .i32⟩ : BufTy).Contents (Elt F)) (a10 : (⟨S64x64, .f32⟩ : BufTy).Contents (Elt F)) (a11 : (⟨S64x64, .f32⟩ : BufTy).Contents (Elt F)) : (⟨S160000x2x32, .f32⟩ : BufTy).Contents (Elt F) :=
  shapeCast S160000x2x32 (t_main_v99 (F := F) a0 a1 a3 a10 a11) shapeCasts_S160000x64_S160000x2x32
def t_main_c_43 : (⟨S_, .i32⟩ : BufTy).Contents (Elt F) :=
  (constantI S_ 32 25#32)
def t_main_v107 : (⟨S2, .i32⟩ : BufTy).Contents (Elt F) :=
  (broadcastInDim S2 ![] bcast_S_S2 : (⟨S_, .i32⟩ : BufTy).Contents (Elt F) → (⟨S2, .i32⟩ : BufTy).Contents (Elt F)) (t_main_c_43 (F := F))
def t_main_v108 : (⟨S2, .i32⟩ : BufTy).Contents (Elt F) :=
  (addi : (⟨S2, .i32⟩ : BufTy).Contents (Elt F) → (⟨S2, .i32⟩ : BufTy).Contents (Elt F) → (⟨S2, .i32⟩ : BufTy).Contents (Elt F)) (t_main_c_16 (F := F)) (t_main_v107 (F := F))
def t_main_v109 : (⟨S2, .i32⟩ : BufTy).Contents (Elt F) :=
  (select : (⟨S2, .i1⟩ : BufTy).Contents (Elt F) → (⟨S2, .i32⟩ : BufTy).Contents (Elt F) → (⟨S2, .i32⟩ : BufTy).Contents (Elt F) → (⟨S2, .i32⟩ : BufTy).Contents (Elt F)) (t_main_c_19 (F := F)) (t_main_v108 (F := F)) (t_main_c_16 (F := F))
def t_main_v110 : (⟨S2x1, .i32⟩ : BufTy).Contents (Elt F) :=
  (broadcastInDim S2x1 ![0] bcast_S2_S2x1_0 : (⟨S2, .i32⟩ : BufTy).Contents (Elt F) → (⟨S2x1, .i32⟩ : BufTy).Contents (Elt F)) (t_main_v109 (F := F))
def t_main_v111 (a0 : (⟨S10000x25x32, .f32⟩ : BufTy).Contents (Elt F)) (a1 : (⟨S160000x25x25, .f32⟩ : BufTy).Contents (Elt F)) (a3 : (⟨S160000, .i32⟩ : BufTy).Contents (Elt F)) (a5 : (⟨S160x160, .f32⟩ : BufTy).Contents (Elt F)) (a6 : (⟨S128x128, .f32⟩ : BufTy).Contents (Elt F)) (a7 : (⟨S128x128, .f32⟩ : BufTy).Contents (Elt F)) (a8 : (⟨S96x96, .f32⟩ : BufTy).Contents (Elt F)) (a9 : (⟨S96x96, .f32⟩ : BufTy).Contents (Elt F)) (a10 : (⟨S64x64, .f32⟩ : BufTy).Contents (Elt F)) (a11 : (⟨S64x64, .f32⟩ : BufTy).Contents (Elt F)) : (⟨S160000x25x32, .f32⟩ : BufTy).Contents (Elt F) :=
  ((fun x i u => Host.scatter scatter_S160000x25x32_S2x1_S160000x2x32_02_1_1_1 (fun _ b => b) x i u) : (⟨S160000x25x32, .f32⟩ : BufTy).Contents (Elt F) → (⟨S2x1, .i32⟩ : BufTy).Contents (Elt F) → (⟨S160000x2x32, .f32⟩ : BufTy).Contents (Elt F) → (⟨S160000x25x32, .f32⟩ : BufTy).Contents (Elt F)) (t_main_v105 (F := F) a0 a1 a3 a5 a6 a7 a8 a9 a10 a11) (t_main_v110 (F := F)) (t_main_v106 (F := F) a0 a1 a3 a10 a11)
def t_main_c_44 : (⟨S_, .i32⟩ : BufTy).Contents (Elt F) :=
  (constantI S_ 32 25#32)
def t_main_v112 : (⟨S1, .i32⟩ : BufTy).Contents (Elt F) :=
  (broadcastInDim S1 ![] bcast_S_S1 : (⟨S_, .i32⟩ : BufTy).Contents (Elt F) → (⟨S1, .i32⟩ : BufTy).Contents (Elt F)) (t_main_c_44 (F := F))
def t_main_v113 : (⟨S1, .i32⟩ : BufTy).Contents (Elt F) :=
  (addi : (⟨S1, .i32⟩ : BufTy).Contents (Elt F) → (⟨S1, .i32⟩ : BufTy).Contents (Elt F) → (⟨S1, .i32⟩ : BufTy).Contents (Elt F)) (t_main_c_20 (F := F)) (t_main_v112 (F := F))
def t_main_v114 : (⟨S1, .i32⟩ : BufTy).Contents (Elt F) :=
  (select : (⟨S1, .i1⟩ : BufTy).Contents (Elt F) → (⟨S1, .i32⟩ : BufTy).Contents (Elt F) → (⟨S1, .i32⟩ : BufTy).Contents (Elt F) → (⟨S1, .i32⟩ : BufTy).Contents (Elt F)) (t_main_c_21 (F := F)) (t_main_v113 (F := F)) (t_main_c_20 (F := F))
def t_main_v115 : (⟨S1x1, .i32⟩ : BufTy).Contents (Elt F) :=
  (broadcastInDim S1x1 ![0] bcast_S1_S1x1_0 : (⟨S1, .i32⟩ : BufTy).Contents (Elt F) → (⟨S1x1, .i32⟩ : BufTy).Contents (Elt F)) (t_main_v114 (F := F))
def t_main_v116 (a0 : (⟨S10000x25x32, .f32⟩ : BufTy).Contents (Elt F)) (a1 : (⟨S160000x25x25, .f32⟩ : BufTy).Contents (Elt F)) (a3 : (⟨S160000, .i32⟩ : BufTy).Contents (Elt F)) : (⟨S160000x1x32, .f32⟩ : BufTy).Contents (Elt F) :=
  ((fun x i => Host.gather gather_S160000x25x32_S1x1_S160000x1x32_02_1_n_n_1_1_160000132 x i) : (⟨S160000x25x32, .f32⟩ : BufTy).Contents (Elt F) → (⟨S1x1, .i32⟩ : BufTy).Contents (Elt F) → (⟨S160000x1x32, .f32⟩ : BufTy).Contents (Elt F)) (t_main_v7 (F := F) a0 a1 a3) (t_main_v115 (F := F))
def t_main_v117 (a0 : (⟨S10000x25x32, .f32⟩ : BufTy).Contents (Elt F)) (a1 : (⟨S160000x25x25, .f32⟩ : BufTy).Contents (Elt F)) (a3 : (⟨S160000, .i32⟩ : BufTy).Contents (Elt F)) : (⟨S160000x32, .f32⟩ : BufTy).Contents (Elt F) :=
  shapeCast S160000x32 (t_main_v116 (F := F) a0 a1 a3) shapeCasts_S160000x1x32_S160000x32
def t_main_c_45 : (⟨S_, .i32⟩ : BufTy).Contents (Elt F) :=
  (constantI S_ 32 25#32)
def t_main_v118 : (⟨S1, .i32⟩ : BufTy).Contents (Elt F) :=
  (broadcastInDim S1 ![] bcast_S_S1 : (⟨S_, .i32⟩ : BufTy).Contents (Elt F) → (⟨S1, .i32⟩ : BufTy).Contents (Elt F)) (t_main_c_45 (F := F))
def t_main_v119 : (⟨S1, .i32⟩ : BufTy).Contents (Elt F) :=
  (addi : (⟨S1, .i32⟩ : BufTy).Contents (Elt F) → (⟨S1, .i32⟩ : BufTy).Contents (Elt F) → (⟨S1, .i32⟩ : BufTy).Contents (Elt F)) (t_main_c_22 (F := F)) (t_main_v118 (F := F))
def t_main_v120 : (⟨S1, .i32⟩ : BufTy).Contents (Elt F) :=
  (select : (⟨S1, .i1⟩ : BufTy).Contents (Elt F) → (⟨S1, .i32⟩ : BufTy).Contents (Elt F) → (⟨S1, .i32⟩ : BufTy).Contents (Elt F) → (⟨S1, .i32⟩ : BufTy).Contents (Elt F)) (t_main_c_23 (F := F)) (t_main_v119 (F := F)) (t_main_c_22 (F := F))
def t_main_v121 : (⟨S1x1, .i32⟩ : BufTy).Contents (Elt F) :=
  (broadcastInDim S1x1 ![0] bcast_S1_S1x1_0 : (⟨S1, .i32⟩ : BufTy).Contents (Elt F) → (⟨S1x1, .i32⟩ : BufTy).Contents (Elt F)) (t_main_v120 (F := F))
def t_main_v122 (a0 : (⟨S10000x25x32, .f32⟩ : BufTy).Contents (Elt F)) (a1 : (⟨S160000x25x25, .f32⟩ : BufTy).Contents (Elt F)) (a3 : (⟨S160000, .i32⟩ : BufTy).Contents (Elt F)) : (⟨S160000x1x32, .f32⟩ : BufTy).Contents (Elt F) :=
  ((fun x i => Host.gather gather_S160000x25x32_S1x1_S160000x1x32_02_1_n_n_1_1_160000132 x i) : (⟨S160000x25x32, .f32⟩ : BufTy).Contents (Elt F) → (⟨S1x1, .i32⟩ : BufTy).Contents (Elt F) → (⟨S160000x1x32, .f32⟩ : BufTy).Contents (Elt F)) (t_main_v7 (F := F) a0 a1 a3) (t_main_v121 (F := F))
def t_main_v123 (a0 : (⟨S10000x25x32, .f32⟩ : BufTy).Contents (Elt F)) (a1 : (⟨S160000x25x25, .f32⟩ : BufTy).Contents (Elt F)) (a3 : (⟨S160000, .i32⟩ : BufTy).Contents (Elt F)) : (⟨S160000x32, .f32⟩ : BufTy).Contents (Elt F) :=
  shapeCast S160000x32 (t_main_v122 (F := F) a0 a1 a3) shapeCasts_S160000x1x32_S160000x32
def t_main_v124 (a0 : (⟨S10000x25x32, .f32⟩ : BufTy).Contents (Elt F)) (a1 : (⟨S160000x25x25, .f32⟩ : BufTy).Contents (Elt F)) (a3 : (⟨S160000, .i32⟩ : BufTy).Contents (Elt F)) (a12 : (⟨S32x32, .f32⟩ : BufTy).Contents (Elt F)) : (⟨S160000x32, .f32⟩ : BufTy).Contents (Elt F) :=
  ((fun l r => Host.dotGeneral dot_S160000x32_S32x32_S160000x32_1_0_0_1_n_n none l r) : (⟨S160000x32, .f32⟩ : BufTy).Contents (Elt F) → (⟨S32x32, .f32⟩ : BufTy).Contents (Elt F) → (⟨S160000x32, .f32⟩ : BufTy).Contents (Elt F)) (t_main_v117 (F := F) a0 a1 a3) a12
def t_main_v125 (a0 : (⟨S10000x25x32, .f32⟩ : BufTy).Contents (Elt F)) (a1 : (⟨S160000x25x25, .f32⟩ : BufTy).Contents (Elt F)) (a3 : (⟨S160000, .i32⟩ : BufTy).Contents (Elt F)) (a13 : (⟨S32x32, .f32⟩ : BufTy).Contents (Elt F)) : (⟨S160000x32, .f32⟩ : BufTy).Contents (Elt F) :=
  ((fun l r => Host.dotGeneral dot_S160000x32_S32x32_S160000x32_1_0_0_1_n_n none l r) : (⟨S160000x32, .f32⟩ : BufTy).Contents (Elt F) → (⟨S32x32, .f32⟩ : BufTy).Contents (Elt F) → (⟨S160000x32, .f32⟩ : BufTy).Contents (Elt F)) (t_main_v123 (F := F) a0 a1 a3) a13
def t_main_v126 (a0 : (⟨S10000x25x32, .f32⟩ : BufTy).Contents (Elt F)) (a1 : (⟨S160000x25x25, .f32⟩ : BufTy).Contents (Elt F)) (a3 : (⟨S160000, .i32⟩ : BufTy).Contents (Elt F)) (a12 : (⟨S32x32, .f32⟩ : BufTy).Contents (Elt F)) (a13 : (⟨S32x32, .f32⟩ : BufTy).Contents (Elt F)) : (⟨S160000x32, .f32⟩ : BufTy).Contents (Elt F) :=
  (subf : (⟨S160000x32, .f32⟩ : BufTy).Contents (Elt F) → (⟨S160000x32, .f32⟩ : BufTy).Contents (Elt F) → (⟨S160000x32, .f32⟩ : BufTy).Contents (Elt F)) (t_main_v124 (F := F) a0 a1 a3 a12) (t_main_v125 (F := F) a0 a1 a3 a13)
def t_main_v127 (a0 : (⟨S10000x25x32, .f32⟩ : BufTy).Contents (Elt F)) (a1 : (⟨S160000x25x25, .f32⟩ : BufTy).Contents (Elt F)) (a3 : (⟨S160000, .i32⟩ : BufTy).Contents (Elt F)) (a13 : (⟨S32x32, .f32⟩ : BufTy).Contents (Elt F)) : (⟨S160000x32, .f32⟩ : BufTy).Contents (Elt F) :=
  ((fun l r => Host.dotGeneral dot_S160000x32_S32x32_S160000x32_1_0_0_1_n_n none l r) : (⟨S160000x32, .f32⟩ : BufTy).Contents (Elt F) → (⟨S32x32, .f32⟩ : BufTy).Contents (Elt F) → (⟨S160000x32, .f32⟩ : BufTy).Contents (Elt F)) (t_main_v117 (F := F) a0 a1 a3) a13
def t_main_v128 (a0 : (⟨S10000x25x32, .f32⟩ : BufTy).Contents (Elt F)) (a1 : (⟨S160000x25x25, .f32⟩ : BufTy).Contents (Elt F)) (a3 : (⟨S160000, .i32⟩ : BufTy).Contents (Elt F)) (a12 : (⟨S32x32, .f32⟩ : BufTy).Contents (Elt F)) : (⟨S160000x32, .f32⟩ : BufTy).Contents (Elt F) :=
  ((fun l r => Host.dotGeneral dot_S160000x32_S32x32_S160000x32_1_0_0_1_n_n none l r) : (⟨S160000x32, .f32⟩ : BufTy).Contents (Elt F) → (⟨S32x32, .f32⟩ : BufTy).Contents (Elt F) → (⟨S160000x32, .f32⟩ : BufTy).Contents (Elt F)) (t_main_v123 (F := F) a0 a1 a3) a12
def t_main_v129 (a0 : (⟨S10000x25x32, .f32⟩ : BufTy).Contents (Elt F)) (a1 : (⟨S160000x25x25, .f32⟩ : BufTy).Contents (Elt F)) (a3 : (⟨S160000, .i32⟩ : BufTy).Contents (Elt F)) (a12 : (⟨S32x32, .f32⟩ : BufTy).Contents (Elt F)) (a13 : (⟨S32x32, .f32⟩ : BufTy).Contents (Elt F)) : (⟨S160000x32, .f32⟩ : BufTy).Contents (Elt F) :=
  (addf : (⟨S160000x32, .f32⟩ : BufTy).Contents (Elt F) → (⟨S160000x32, .f32⟩ : BufTy).Contents (Elt F) → (⟨S160000x32, .f32⟩ : BufTy).Contents (Elt F)) (t_main_v127 (F := F) a0 a1 a3 a13) (t_main_v128 (F := F) a0 a1 a3 a12)
def t_main_v130 (a0 : (⟨S10000x25x32, .f32⟩ : BufTy).Contents (Elt F)) (a1 : (⟨S160000x25x25, .f32⟩ : BufTy).Contents (Elt F)) (a3 : (⟨S160000, .i32⟩ : BufTy).Contents (Elt F)) (a12 : (⟨S32x32, .f32⟩ : BufTy).Contents (Elt F)) (a13 : (⟨S32x32, .f32⟩ : BufTy).Contents (Elt F)) : (⟨S160000x1x32, .f32⟩ : BufTy).Contents (Elt F) :=
  shapeCast S160000x1x32 (t_main_v126 (F := F) a0 a1 a3 a12 a13) shapeCasts_S160000x32_S160000x1x32
def t_main_c_46 : (⟨S_, .i32⟩ : BufTy).Contents (Elt F) :=
  (constantI S_ 32 25#32)
def t_main_v131 : (⟨S1, .i32⟩ : BufTy).Contents (Elt F) :=
  (broadcastInDim S1 ![] bcast_S_S1 : (⟨S_, .i32⟩ : BufTy).Contents (Elt F) → (⟨S1, .i32⟩ : BufTy).Contents (Elt F)) (t_main_c_46 (F := F))
def t_main_v132 : (⟨S1, .i32⟩ : BufTy).Contents (Elt F) :=
  (addi : (⟨S1, .i32⟩ : BufTy).Contents (Elt F) → (⟨S1, .i32⟩ : BufTy).Contents (Elt F) → (⟨S1, .i32⟩ : BufTy).Contents (Elt F)) (t_main_c_20 (F := F)) (t_main_v131 (F := F))
def t_main_v133 : (⟨S1, .i32⟩ : BufTy).Contents (Elt F) :=
  (select : (⟨S1, .i1⟩ : BufTy).Contents (Elt F) → (⟨S1, .i32⟩ : BufTy).Contents (Elt F) → (⟨S1, .i32⟩ : BufTy).Contents (Elt F) → (⟨S1, .i32⟩ : BufTy).Contents (Elt F)) (t_main_c_24 (F := F)) (t_main_v132 (F := F)) (t_main_c_20 (F := F))
def t_main_v134 : (⟨S1x1, .i32⟩ : BufTy).Contents (Elt F) :=
  (broadcastInDim S1x1 ![0] bcast_S1_S1x1_0 : (⟨S1, .i32⟩ : BufTy).Contents (Elt F) → (⟨S1x1, .i32⟩ : BufTy).Contents (Elt F)) (t_main_v133 (F := F))
def t_main_v135 (a0 : (⟨S10000x25x32, .f32⟩ : BufTy).Contents (Elt F)) (a1 : (⟨S160000x25x25, .f32⟩ : BufTy).Contents (Elt F)) (a3 : (⟨S160000, .i32⟩ : BufTy).Contents (Elt F)) (a5 : (⟨S160x160, .f32⟩ : BufTy).Contents (Elt F)) (a6 : (⟨S128x128, .f32⟩ : BufTy).Contents (Elt F)) (a7 : (⟨S128x128, .f32⟩ : BufTy).Contents (Elt F)) (a8 : (⟨S96x96, .f32⟩ : BufTy).Contents (Elt F)) (a9 : (⟨S96x96, .f32⟩ : BufTy).Contents (Elt F)) (a10 : (⟨S64x64, .f32⟩ : BufTy).Contents (Elt F)) (a11 : (⟨S64x64, .f32⟩ : BufTy).Contents (Elt F)) (a12 : (⟨S32x32, .f32⟩ : BufTy).Contents (Elt F)) (a13 : (⟨S32x32, .f32⟩ : BufTy).Contents (Elt F)) : (⟨S160000x25x32, .f32⟩ : BufTy).Contents (Elt F) :=
  ((fun x i u => Host.scatter scatter_S160000x25x32_S1x1_S160000x1x32_02_1_1_1 (fun _ b => b) x i u) : (⟨S160000x25x32, .f32⟩ : BufTy).Contents (Elt F) → (⟨S1x1, .i32⟩ : BufTy).Contents (Elt F) → (⟨S160000x1x32, .f32⟩ : BufTy).Contents (Elt F) → (⟨S160000x25x32, .f32⟩ : BufTy).Contents (Elt F)) (t_main_v111 (F := F) a0 a1 a3 a5 a6 a7 a8 a9 a10 a11) (t_main_v134 (F := F)) (t_main_v130 (F := F) a0 a1 a3 a12 a13)
def t_main_v136 (a0 : (⟨S10000x25x32, .f32⟩ : BufTy).Contents (Elt F)) (a1 : (⟨S160000x25x25, .f32⟩ : BufTy).Contents (Elt F)) (a3 : (⟨S160000, .i32⟩ : BufTy).Contents (Elt F)) (a12 : (⟨S32x32, .f32⟩ : BufTy).Contents (Elt F)) (a13 : (⟨S32x32, .f32⟩ : BufTy).Contents (Elt F)) : (⟨S160000x1x32, .f32⟩ : BufTy).Contents (Elt F) :=
  shapeCast S160000x1x32 (t_main_v129 (F := F) a0 a1 a3 a12 a13) shapeCasts_S160000x32_S160000x1x32
def t_main_c_47 : (⟨S_, .i32⟩ : BufTy).Contents (Elt F) :=
  (constantI S_ 32 25#32)
def t_main_v137 : (⟨S1, .i32⟩ : BufTy).Contents (Elt F) :=
  (broadcastInDim S1 ![] bcast_S_S1 : (⟨S_, .i32⟩ : BufTy).Contents (Elt F) → (⟨S1, .i32⟩ : BufTy).Contents (Elt F)) (t_main_c_47 (F := F))
def t_main_v138 : (⟨S1, .i32⟩ : BufTy).Contents (Elt F) :=
  (addi : (⟨S1, .i32⟩ : BufTy).Contents (Elt F) → (⟨S1, .i32⟩ : BufTy).Contents (Elt F) → (⟨S1, .i32⟩ : BufTy).Contents (Elt F)) (t_main_c_22 (F := F)) (t_main_v137 (F := F))
def t_main_v139 : (⟨S1, .i32⟩ : BufTy).Contents (Elt F) :=
  (select : (⟨S1, .i1⟩ : BufTy).Contents (Elt F) → (⟨S1, .i32⟩ : BufTy).Contents (Elt F) → (⟨S1, .i32⟩ : BufTy).Contents (Elt F) → (⟨S1, .i32⟩ : BufTy).Contents (Elt F)) (t_main_c_25 (F := F)) (t_main_v138 (F := F)) (t_main_c_22 (F := F))
def t_main_v140 : (⟨S1x1, .i32⟩ : BufTy).Contents (Elt F) :=
  (broadcastInDim S1x1 ![0] bcast_S1_S1x1_0 : (⟨S1, .i32⟩ : BufTy).Contents (Elt F) → (⟨S1x1, .i32⟩ : BufTy).Contents (Elt F)) (t_main_v139 (F := F))
def t_main_v141 (a0 : (⟨S10000x25x32, .f32⟩ : BufTy).Contents (Elt F)) (a1 : (⟨S160000x25x25, .f32⟩ : BufTy).Contents (Elt F)) (a3 : (⟨S160000, .i32⟩ : BufTy).Contents (Elt F)) (a5 : (⟨S160x160, .f32⟩ : BufTy).Contents (Elt F)) (a6 : (⟨S128x128, .f32⟩ : BufTy).Contents (Elt F)) (a7 : (⟨S128x128, .f32⟩ : BufTy).Contents (Elt F)) (a8 : (⟨S96x96, .f32⟩ : BufTy).Contents (Elt F)) (a9 : (⟨S96x96, .f32⟩ : BufTy).Contents (Elt F)) (a10 : (⟨S64x64, .f32⟩ : BufTy).Contents (Elt F)) (a11 : (⟨S64x64, .f32⟩ : BufTy).Contents (Elt F)) (a12 : (⟨S32x32, .f32⟩ : BufTy).Contents (Elt F)) (a13 : (⟨S32x32, .f32⟩ : BufTy).Contents (Elt F)) : (⟨S160000x25x32, .f32⟩ : BufTy).Contents (Elt F) :=
  ((fun x i u => Host.scatter scatter_S160000x25x32_S1x1_S160000x1x32_02_1_1_1 (fun _ b => b) x i u) : (⟨S160000x25x32, .f32⟩ : BufTy).Contents (Elt F) → (⟨S1x1, .i32⟩ : BufTy).Contents (Elt F) → (⟨S160000x1x32, .f32⟩ : BufTy).Contents (Elt F) → (⟨S160000x25x32, .f32⟩ : BufTy).Contents (Elt F)) (t_main_v135 (F := F) a0 a1 a3 a5 a6 a7 a8 a9 a10 a11 a12 a13) (t_main_v140 (F := F)) (t_main_v136 (F := F) a0 a1 a3 a12 a13)
def t_main_v142 (a2 : (⟨S160000x64, .f32⟩ : BufTy).Contents (Elt F)) (a14 : (⟨S64x160, .f32⟩ : BufTy).Contents (Elt F)) : (⟨S160000x160, .f32⟩ : BufTy).Contents (Elt F) :=
  ((fun l r => Host.dotGeneral dot_S160000x64_S64x160_S160000x160_1_0_0_1_n_n none l r) : (⟨S160000x64, .f32⟩ : BufTy).Contents (Elt F) → (⟨S64x160, .f32⟩ : BufTy).Contents (Elt F) → (⟨S160000x160, .f32⟩ : BufTy).Contents (Elt F)) a2 a14
def t_main_v143 (a15 : (⟨S160, .f32⟩ : BufTy).Contents (Elt F)) : (⟨S1x160, .f32⟩ : BufTy).Contents (Elt F) :=
  (broadcastInDim S1x160 ![1] bcast_S160_S1x160_1 : (⟨S160, .f32⟩ : BufTy).Contents (Elt F) → (⟨S1x160, .f32⟩ : BufTy).Contents (Elt F)) a15
def t_main_v144 (a15 : (⟨S160, .f32⟩ : BufTy).Contents (Elt F)) : (⟨S160000x160, .f32⟩ : BufTy).Contents (Elt F) :=
  (broadcastInDim S160000x160 ![0, 1] bcast_S1x160_S160000x160_0_1 : (⟨S1x160, .f32⟩ : BufTy).Contents (Elt F) → (⟨S160000x160, .f32⟩ : BufTy).Contents (Elt F)) (t_main_v143 (F := F) a15)
def t_main_v145 (a2 : (⟨S160000x64, .f32⟩ : BufTy).Contents (Elt F)) (a14 : (⟨S64x160, .f32⟩ : BufTy).Contents (Elt F)) (a15 : (⟨S160, .f32⟩ : BufTy).Contents (Elt F)) : (⟨S160000x160, .f32⟩ : BufTy).Contents (Elt F) :=
  (addf : (⟨S160000x160, .f32⟩ : BufTy).Contents (Elt F) → (⟨S160000x160, .f32⟩ : BufTy).Contents (Elt F) → (⟨S160000x160, .f32⟩ : BufTy).Contents (Elt F)) (t_main_v142 (F := F) a2 a14) (t_main_v144 (F := F) a15)
def t_main_call0_v0 (a2 : (⟨S160000x64, .f32⟩ : BufTy).Contents (Elt F)) (a14 : (⟨S64x160, .f32⟩ : BufTy).Contents (Elt F)) (a15 : (⟨S160, .f32⟩ : BufTy).Contents (Elt F)) : (⟨S160000x160, .f32⟩ : BufTy).Contents (Elt F) :=
  Host.negf (t_main_v145 (F := F) a2 a14 a15)
def t_main_call0_v1 (a2 : (⟨S160000x64, .f32⟩ : BufTy).Contents (Elt F)) (a14 : (⟨S64x160, .f32⟩ : BufTy).Contents (Elt F)) (a15 : (⟨S160, .f32⟩ : BufTy).Contents (Elt F)) : (⟨S160000x160, .f32⟩ : BufTy).Contents (Elt F) :=
  Host.exp (t_main_call0_v0 (F := F) a2 a14 a15)
def t_main_call0_cst : (⟨S_, .f32⟩ : BufTy).Contents (Elt F) :=
  (constant S_ .f32 0x3F800000#32)
def t_main_call0_v2 : (⟨S160000x160, .f32⟩ : BufTy).Contents (Elt F) :=
  (broadcastInDim S160000x160 ![] bcast_S_S160000x160) (t_main_call0_cst (F := F))
def t_main_call0_v3 (a2 : (⟨S160000x64, .f32⟩ : BufTy).Contents (Elt F)) (a14 : (⟨S64x160, .f32⟩ : BufTy).Contents (Elt F)) (a15 : (⟨S160, .f32⟩ : BufTy).Contents (Elt F)) : (⟨S160000x160, .f32⟩ : BufTy).Contents (Elt F) :=
  addf (t_main_call0_v2 (F := F)) (t_main_call0_v1 (F := F) a2 a14 a15)
def t_main_call0_cst_0 : (⟨S_, .f32⟩ : BufTy).Contents (Elt F) :=
  (constant S_ .f32 0x3F800000#32)
def t_main_call0_v4 : (⟨S160000x160, .f32⟩ : BufTy).Contents (Elt F) :=
  (broadcastInDim S160000x160 ![] bcast_S_S160000x160) (t_main_call0_cst_0 (F := F))
def t_main_call0_v5 (a2 : (⟨S160000x64, .f32⟩ : BufTy).Contents (Elt F)) (a14 : (⟨S64x160, .f32⟩ : BufTy).Contents (Elt F)) (a15 : (⟨S160, .f32⟩ : BufTy).Contents (Elt F)) : (⟨S160000x160, .f32⟩ : BufTy).Contents (Elt F) :=
  Host.divf (t_main_call0_v4 (F := F)) (t_main_call0_v3 (F := F) a2 a14 a15)
def t_main_v146 (a2 : (⟨S160000x64, .f32⟩ : BufTy).Contents (Elt F)) (a14 : (⟨S64x160, .f32⟩ : BufTy).Contents (Elt F)) (a15 : (⟨S160, .f32⟩ : BufTy).Contents (Elt F)) : (⟨S160000x160, .f32⟩ : BufTy).Contents (Elt F) :=
  mulf (t_main_v145 (F := F) a2 a14 a15) (t_main_call0_v5 (F := F) a2 a14 a15)
def t_main_v147 (a2 : (⟨S160000x64, .f32⟩ : BufTy).Contents (Elt F)) (a14 : (⟨S64x160, .f32⟩ : BufTy).Contents (Elt F)) (a15 : (⟨S160, .f32⟩ : BufTy).Contents (Elt F)) : (⟨S160000x5x32, .f32⟩ : BufTy).Contents (Elt F) :=
  shapeCast S160000x5x32 (t_main_v146 (F := F) a2 a14 a15) shapeCasts_S160000x160_S160000x5x32
def t_main_c_48 : (⟨S_, .i32⟩ : BufTy).Contents (Elt F) :=
  (constantI S_ 32 5#32)
def t_main_v148 : (⟨S25, .i32⟩ : BufTy).Contents (Elt F) :=
  (broadcastInDim S25 ![] bcast_S_S25 : (⟨S_, .i32⟩ : BufTy).Contents (Elt F) → (⟨S25, .i32⟩ : BufTy).Contents (Elt F)) (t_main_c_48 (F := F))
def t_main_v149 : (⟨S25, .i32⟩ : BufTy).Contents (Elt F) :=
  (addi : (⟨S25, .i32⟩ : BufTy).Contents (Elt F) → (⟨S25, .i32⟩ : BufTy).Contents (Elt F) → (⟨S25, .i32⟩ : BufTy).Contents (Elt F)) (t_main_c_26 (F := F)) (t_main_v148 (F := F))
def t_main_v150 : (⟨S25, .i32⟩ : BufTy).Contents (Elt F) :=
  (select : (⟨S25, .i1⟩ : BufTy).Contents (Elt F) → (⟨S25, .i32⟩ : BufTy).Contents (Elt F) → (⟨S25, .i32⟩ : BufTy).Contents (Elt F) → (⟨S25, .i32⟩ : BufTy).Contents (Elt F)) (t_main_c_27 (F := F)) (t_main_v149 (F := F)) (t_main_c_26 (F := F))
def t_main_v151 : (⟨S25x1, .i32⟩ : BufTy).Contents (Elt F) :=
  (broadcastInDim S25x1 ![0] bcast_S25_S25x1_0 : (⟨S25, .i32⟩ : BufTy).Contents (Elt F) → (⟨S25x1, .i32⟩ : BufTy).Contents (Elt F)) (t_main_v150 (F := F))
def t_main_v152 (a2 : (⟨S160000x64, .f32⟩ : BufTy).Contents (Elt F)) (a14 : (⟨S64x160, .f32⟩ : BufTy).Contents (Elt F)) (a15 : (⟨S160, .f32⟩ : BufTy).Contents (Elt F)) : (⟨S160000x25x32, .f32⟩ : BufTy).Contents (Elt F) :=
  ((fun x i => Host.gather gather_S160000x5x32_S25x1_S160000x25x32_02_1_n_n_1_1_160000132 x i) : (⟨S160000x5x32, .f32⟩ : BufTy).Contents (Elt F) → (⟨S25x1, .i32⟩ : BufTy).Contents (Elt F) → (⟨S160000x25x32, .f32⟩ : BufTy).Contents (Elt F)) (t_main_v147 (F := F) a2 a14 a15) (t_main_v151 (F := F))
def t_main_v153 (a0 : (⟨S10000x25x32, .f32⟩ : BufTy).Contents (Elt F)) (a1 : (⟨S160000x25x25, .f32⟩ : BufTy).Contents (Elt F)) (a2 : (⟨S160000x64, .f32⟩ : BufTy).Contents (Elt F)) (a3 : (⟨S160000, .i32⟩ : BufTy).Contents (Elt F)) (a5 : (⟨S160x160, .f32⟩ : BufTy).Contents (Elt F)) (a6 : (⟨S128x128, .f32⟩ : BufTy).Contents (Elt F)) (a7 : (⟨S128x128, .f32⟩ : BufTy).Contents (Elt F)) (a8 : (⟨S96x96, .f32⟩ : BufTy).Contents (Elt F)) (a9 : (⟨S96x96, .f32⟩ : BufTy).Contents (Elt F)) (a10 : (⟨S64x64, .f32⟩ : BufTy).Contents (Elt F)) (a11 : (⟨S64x64, .f32⟩ : BufTy).Contents (Elt F)) (a12 : (⟨S32x32, .f32⟩ : BufTy).Contents (Elt F)) (a13 : (⟨S32x32, .f32⟩ : BufTy).Contents (Elt F)) (a14 : (⟨S64x160, .f32⟩ : BufTy).Contents (Elt F)) (a15 : (⟨S160, .f32⟩ : BufTy).Contents (Elt F)) : (⟨S160000x25x32, .f32⟩ : BufTy).Contents (Elt F) :=
  (mulf : (⟨S160000x25x32, .f32⟩ : BufTy).Contents (Elt F) → (⟨S160000x25x32, .f32⟩ : BufTy).Contents (Elt F) → (⟨S160000x25x32, .f32⟩ : BufTy).Contents (Elt F)) (t_main_v141 (F := F) a0 a1 a3 a5 a6 a7 a8 a9 a10 a11 a12 a13) (t_main_v152 (F := F) a2 a14 a15)
def t_main_v154 (a0 : (⟨S10000x25x32, .f32⟩ : BufTy).Contents (Elt F)) (a1 : (⟨S160000x25x25, .f32⟩ : BufTy).Contents (Elt F)) (a2 : (⟨S160000x64, .f32⟩ : BufTy).Contents (Elt F)) (a3 : (⟨S160000, .i32⟩ : BufTy).Contents (Elt F)) (a5 : (⟨S160x160, .f32⟩ : BufTy).Contents (Elt F)) (a6 : (⟨S128x128, .f32⟩ : BufTy).Contents (Elt F)) (a7 : (⟨S128x128, .f32⟩ : BufTy).Contents (Elt F)) (a8 : (⟨S96x96, .f32⟩ : BufTy).Contents (Elt F)) (a9 : (⟨S96x96, .f32⟩ : BufTy).Contents (Elt F)) (a10 : (⟨S64x64, .f32⟩ : BufTy).Contents (Elt F)) (a11 : (⟨S64x64, .f32⟩ : BufTy).Contents (Elt F)) (a12 : (⟨S32x32, .f32⟩ : BufTy).Contents (Elt F)) (a13 : (⟨S32x32, .f32⟩ : BufTy).Contents (Elt F)) (a14 : (⟨S64x160, .f32⟩ : BufTy).Contents (Elt F)) (a15 : (⟨S160, .f32⟩ : BufTy).Contents (Elt F)) : (⟨S160000x25x32, .f32⟩ : BufTy).Contents (Elt F) :=
  ((fun l r => Host.dotGeneral dot_S160000x25x25_S160000x25x32_S160000x25x32_1_1_2_2_0_0 none l r) : (⟨S160000x25x25, .f32⟩ : BufTy).Contents (Elt F) → (⟨S160000x25x32, .f32⟩ : BufTy).Contents (Elt F) → (⟨S160000x25x32, .f32⟩ : BufTy).Contents (Elt F)) a1 (t_main_v153 (F := F) a0 a1 a2 a3 a5 a6 a7 a8 a9 a10 a11 a12 a13 a14 a15)
def t_main_cst_49 : (⟨S_, .f32⟩ : BufTy).Contents (Elt F) :=
  (constant S_ .f32 0x00000000#32)
def t_main_v155 : (⟨S10000x25x32, .f32⟩ : BufTy).Contents (Elt F) :=
  (broadcastInDim S10000x25x32 ![] bcast_S_S10000x25x32 : (⟨S_, .f32⟩ : BufTy).Contents (Elt F) → (⟨S10000x25x32, .f32⟩ : BufTy).Contents (Elt F)) (t_main_cst_49 (F := F))
def t_main_v156 (a4 : (⟨S160000, .i32⟩ : BufTy).Contents (Elt F)) : (⟨S160000x1, .i32⟩ : BufTy).Contents (Elt F) :=
  (broadcastInDim S160000x1 ![0] bcast_S160000_S160000x1_0 : (⟨S160000, .i32⟩ : BufTy).Contents (Elt F) → (⟨S160000x1, .i32⟩ : BufTy).Contents (Elt F)) a4
def t_main_v157 (a0 : (⟨S10000x25x32, .f32⟩ : BufTy).Contents (Elt F)) (a1 : (⟨S160000x25x25, .f32⟩ : BufTy).Contents (Elt F)) (a2 : (⟨S160000x64, .f32⟩ : BufTy).Contents (Elt F)) (a3 : (⟨S160000, .i32⟩ : BufTy).Contents (Elt F)) (a4 : (⟨S160000, .i32⟩ : BufTy).Contents (Elt F)) (a5 : (⟨S160x160, .f32⟩ : BufTy).Contents (Elt F)) (a6 : (⟨S128x128, .f32⟩ : BufTy).Contents (Elt F)) (a7 : (⟨S128x128, .f32⟩ : BufTy).Contents (Elt F)) (a8 : (⟨S96x96, .f32⟩ : BufTy).Contents (Elt F)) (a9 : (⟨S96x96, .f32⟩ : BufTy).Contents (Elt F)) (a10 : (⟨S64x64, .f32⟩ : BufTy).Contents (Elt F)) (a11 : (⟨S64x64, .f32⟩ : BufTy).Contents (Elt F)) (a12 : (⟨S32x32, .f32⟩ : BufTy).Contents (Elt F)) (a13 : (⟨S32x32, .f32⟩ : BufTy).Contents (Elt F)) (a14 : (⟨S64x160, .f32⟩ : BufTy).Contents (Elt F)) (a15 : (⟨S160, .f32⟩ : BufTy).Contents (Elt F)) : (⟨S10000x25x32, .f32⟩ : BufTy).Contents (Elt F) :=
  ((fun x i u => Host.scatterAdd scatter_S10000x25x32_S160000x1_S160000x25x32_12_0_0_1 x i u) : (⟨S10000x25x32, .f32⟩ : BufTy).Contents (Elt F) → (⟨S160000x1, .i32⟩ : BufTy).Contents (Elt F) → (⟨S160000x25x32, .f32⟩ : BufTy).Contents (Elt F) → (⟨S10000x25x32, .f32⟩ : BufTy).Contents (Elt F)) (t_main_v155 (F := F)) (t_main_v156 (F := F) a4) (t_main_v154 (F := F) a0 a1 a2 a3 a5 a6 a7 a8 a9 a10 a11 a12 a13 a14 a15)

end Cert.ReferenceIdeal.RefTerm

end
-- ==== Proof.RefRun.lean ====
import proofs.«415867_j71554155151872_2_alg».proof.Proof.RefOps
import proofs.«415867_j71554155151872_2_alg».proof.Proof.RefTerm
import Idealize.ShloMosaic.Lib.StableHlo.Run

noncomputable section

namespace Cert.ReferenceIdeal.RefRun

open Cert.ReferenceIdeal Cert.ReferenceIdeal.Gen Cert.ReferenceIdeal.RefTerm Idealize.ShloMosaic Idealize.ShloMosaic.TcCoe Idealize.SL.Sem Idealize.ShloMosaic.StableHlo

variable {F : FTy → Type} [FloatOps F]

set_option maxRecDepth 65536 in
set_option maxHeartbeats 4000000 in
/-- Each printed window of @main is the straight line of its sixty (the last: thirty-eight) operations,
    the callee's nine in place of its call: both sides are one chain of steps by computation. -/
theorem part0_eq (c : Dev nD) : main_part0 (F := F) c = seq ((ops (F := F)).take 60) := rfl

set_option maxRecDepth 65536 in
set_option maxHeartbeats 4000000 in
theorem part1_eq (c : Dev nD) : main_part1 (F := F) c = seq (((ops (F := F)).drop 60).take 60) := rfl

set_option maxRecDepth 65536 in
set_option maxHeartbeats 4000000 in
theorem part2_eq (c : Dev nD) : main_part2 (F := F) c = seq (((ops (F := F)).drop 120).take 60) := rfl

set_option maxRecDepth 65536 in
set_option maxHeartbeats 4000000 in
theorem part3_eq (c : Dev nD) : main_part3 (F := F) c = seq ((ops (F := F)).drop 180) := rfl

/-- The line is its four windows in order. -/
theorem ops_cut : (ops (F := F)) = (ops (F := F)).take 60 ++ (((ops (F := F)).drop 60).take 60 ++ (((ops (F := F)).drop 120).take 60 ++ (ops (F := F)).drop 180)) := by
  have h1 := (List.take_append_drop 60 (ops (F := F))).symm
  have h2 := (List.take_append_drop 60 ((ops (F := F)).drop 60)).symm
  have h3 := (List.take_append_drop 60 ((ops (F := F)).drop 120)).symm
  have e2 : ((ops (F := F)).drop 60).drop 60 = (ops (F := F)).drop 120 := by rw [List.drop_drop]
  have e3 : ((ops (F := F)).drop 120).drop 60 = (ops (F := F)).drop 180 := by rw [List.drop_drop]
  rw [e2] at h2; rw [e3] at h3
  exact h1.trans (congrArg (fun l => List.take 60 (ops (F := F)) ++ l) (h2.trans (congrArg (fun l => List.take 60 (List.drop 60 (ops (F := F))) ++ l) h3)))

/-- @main is the straight line of its operations. -/
theorem main_eq (c : Dev nD) : main (F := F) c = seq ops := by
  rw [ops_cut (F := F), seq_append, seq_append, seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Operations 1 … 60 of the line. -/
abbrev p0 : List (HloOp τ sig (Elt F)) :=
  [ nullary main_c (fun i => lit0 (S5.rowMajor i)),
    nullary main_c_0 (constantI S5 1 0#1),
    nullary main_c_1 (constantI S5 1 0#1),
    nullary main_c_2 (fun i => lit1 (S4.rowMajor i)),
    nullary main_c_3 (constantI S4 1 0#1),
    nullary main_c_4 (fun i => lit2 (S4.rowMajor i)),
    nullary main_c_5 (constantI S4 1 0#1),
    nullary main_c_6 (constantI S4 1 0#1),
    nullary main_c_7 (constantI S4 1 0#1),
    nullary main_c_8 (fun i => lit3 (S3.rowMajor i)),
    nullary main_c_9 (constantI S3 1 0#1),
    nullary main_c_10 (fun i => lit4 (S3.rowMajor i)),
    nullary main_c_11 (constantI S3 1 0#1),
    nullary main_c_12 (constantI S3 1 0#1),
    nullary main_c_13 (constantI S3 1 0#1),
    nullary main_c_14 (fun i => lit5 (S2.rowMajor i)),
    nullary main_c_15 (constantI S2 1 0#1),
    nullary main_c_16 (fun i => lit6 (S2.rowMajor i)),
    nullary main_c_17 (constantI S2 1 0#1),
    nullary main_c_18 (constantI S2 1 0#1),
    nullary main_c_19 (constantI S2 1 0#1),
    nullary main_c_20 (constantI S1 32 24#32),
    nullary main_c_21 (constantI S1 1 0#1),
    nullary main_c_22 (constantI S1 32 16#32),
    nullary main_c_23 (constantI S1 1 0#1),
    nullary main_c_24 (constantI S1 1 0#1),
    nullary main_c_25 (constantI S1 1 0#1),
    nullary main_c_26 (fun i => lit7 (S25.rowMajor i)),
    nullary main_c_27 (constantI S25 1 0#1),
    nullary main_c_28 (constantI S_ 32 0#32),
    unary main_c_28 main_v0 (broadcastInDim S160000 ![] bcast_S_S160000 : (⟨S_, .i32⟩ : BufTy).Contents (Elt F) → (⟨S160000, .i32⟩ : BufTy).Contents (Elt F)),
    binary main_arg3 main_v0 main_v1 (cmpi .slt : (⟨S160000, .i32⟩ : BufTy).Contents (Elt F) → (⟨S160000, .i32⟩ : BufTy).Contents (Elt F) → (⟨S160000, .i1⟩ : BufTy).Contents (Elt F)),
    nullary main_c_29 (constantI S_ 32 10000#32),
    unary main_c_29 main_v2 (broadcastInDim S160000 ![] bcast_S_S160000 : (⟨S_, .i32⟩ : BufTy).Contents (Elt F) → (⟨S160000, .i32⟩ : BufTy).Contents (Elt F)),
    binary main_arg3 main_v2 main_v3 (addi : (⟨S160000, .i32⟩ : BufTy).Contents (Elt F) → (⟨S160000, .i32⟩ : BufTy).Contents (Elt F) → (⟨S160000, .i32⟩ : BufTy).Contents (Elt F)),
    ternary main_v1 main_v3 main_arg3 main_v4 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v4 main_v5 (broadcastInDim S160000x1 ![0] bcast_S160000_S160000x1_0 : (⟨S160000, .i32⟩ : BufTy).Contents (Elt F) → (⟨S160000x1, .i32⟩ : BufTy).Contents (Elt F)),
    binary main_arg0 main_v5 main_v6 ((fun x i => Host.gather gather_S10000x25x32_S160000x1_S160000x25x32_12_0_n_n_0_1_12532 x i) : (⟨S10000x25x32, .f32⟩ : BufTy).Contents (Elt F) → (⟨S160000x1, .i32⟩ : BufTy).Contents (Elt F) → (⟨S160000x25x32, .f32⟩ : BufTy).Contents (Elt F)),
    binary main_arg1 main_v6 main_v7 ((fun l r => Host.dotGeneral dot_S160000x25x25_S160000x25x32_S160000x25x32_2_1_1_2_0_0 none l r) : (⟨S160000x25x25, .f32⟩ : BufTy).Contents (Elt F) → (⟨S160000x25x32, .f32⟩ : BufTy).Contents (Elt F) → (⟨S160000x25x32, .f32⟩ : BufTy).Contents (Elt F)),
    nullary main_cst (constant S_ .f32 0x00000000#32),
    unary main_cst main_v8 (broadcastInDim S160000x25x32 ![] bcast_S_S160000x25x32 : (⟨S_, .f32⟩ : BufTy).Contents (Elt F) → (⟨S160000x25x32, .f32⟩ : BufTy).Contents (Elt F)),
    nullary main_c_30 (constantI S_ 32 25#32),
    unary main_c_30 main_v9 (broadcastInDim S5 ![] bcast_S_S5 : (⟨S_, .i32⟩ : BufTy).Contents (Elt F) → (⟨S5, .i32⟩ : BufTy).Contents (Elt F)),
    binary main_c main_v9 main_v10 (addi : (⟨S5, .i32⟩ : BufTy).Contents (Elt F) → (⟨S5, .i32⟩ : BufTy).Contents (Elt F) → (⟨S5, .i32⟩ : BufTy).Contents (Elt F)),
    ternary main_c_0 main_v10 main_c main_v11 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
    unary main_v11 main_v12 (broadcastInDim S5x1 ![0] bcast_S5_S5x1_0 : (⟨S5, .i32⟩ : BufTy).Contents (Elt F) → (⟨S5x1, .i32⟩ : BufTy).Contents (Elt F)),
    binary main_v7 main_v12 main_v13 ((fun x i => Host.gather gather_S160000x25x32_S5x1_S160000x5x32_02_1_n_n_1_1_160000132 x i) : (⟨S160000x25x32, .f32⟩ : BufTy).Contents (Elt F) → (⟨S5x1, .i32⟩ : BufTy).Contents (Elt F) → (⟨S160000x5x32, .f32⟩ : BufTy).Contents (Elt F)),
    reshape main_v13 main_v14 rfl shapeCasts_S160000x5x32_S160000x160,
    binary main_v14 main_arg5 main_v15 ((fun l r => Host.dotGeneral dot_S160000x160_S160x160_S160000x160_1_0_0_1_n_n none l r) : (⟨S160000x160, .f32⟩ : BufTy).Contents (Elt F) → (⟨S160x160, .f32⟩ : BufTy).Contents (Elt F) → (⟨S160000x160, .f32⟩ : BufTy).Contents (Elt F)),
    reshape main_v15 main_v16 rfl shapeCasts_S160000x160_S160000x5x32,
    nullary main_c_31 (constantI S_ 32 25#32),
    unary main_c_31 main_v17 (broadcastInDim S5 ![] bcast_S_S5 : (⟨S_, .i32⟩ : BufTy).Contents (Elt F) → (⟨S5, .i32⟩ : BufTy).Contents (Elt F)),
    binary main_c main_v17 main_v18 (addi : (⟨S5, .i32⟩ : BufTy).Contents (Elt F) → (⟨S5, .i32⟩ : BufTy).Contents (Elt F) → (⟨S5, .i32⟩ : BufTy).Contents (Elt F)),
    ternary main_c_1 main_v18 main_c main_v19 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
    unary main_v19 main_v20 (broadcastInDim S5x1 ![0] bcast_S5_S5x1_0 : (⟨S5, .i32⟩ : BufTy).Contents (Elt F) → (⟨S5x1, .i32⟩ : BufTy).Contents (Elt F)),
    ternary main_v8 main_v20 main_v16 main_v21 ((fun x i u => Host.scatter scatter_S160000x25x32_S5x1_S160000x5x32_02_1_1_1 (fun _ b => b) x i u) : (⟨S160000x25x32, .f32⟩ : BufTy).Contents (Elt F) → (⟨S5x1, .i32⟩ : BufTy).Contents (Elt F) → (⟨S160000x5x32, .f32⟩ : BufTy).Contents (Elt F) → (⟨S160000x25x32, .f32⟩ : BufTy).Contents (Elt F)),
    nullary main_c_32 (constantI S_ 32 25#32),
    unary main_c_32 main_v22 (broadcastInDim S4 ![] bcast_S_S4 : (⟨S_, .i32⟩ : BufTy).Contents (Elt F) → (⟨S4, .i32⟩ : BufTy).Contents (Elt F)),
    binary main_c_2 main_v22 main_v23 (addi : (⟨S4, .i32⟩ : BufTy).Contents (Elt F) → (⟨S4, .i32⟩ : BufTy).Contents (Elt F) → (⟨S4, .i32⟩ : BufTy).Contents (Elt F)),
    ternary main_c_3 main_v23 main_c_2 main_v24 (select : (⟨S4, .i1⟩ : BufTy).Contents (Elt F) → (⟨S4, .i32⟩ : BufTy).Contents (Elt F) → (⟨S4, .i32⟩ : BufTy).Contents (Elt F) → (⟨S4, .i32⟩ : BufTy).Contents (Elt F)) ]
/-- The references they write. -/
abbrev p0_W : List (Ref sig .tc) :=
  [
    main_c, main_c_0, main_c_1, main_c_2, main_c_3, main_c_4, main_c_5, main_c_6,
    main_c_7, main_c_8, main_c_9, main_c_10, main_c_11, main_c_12, main_c_13, main_c_14,
    main_c_15, main_c_16, main_c_17, main_c_18, main_c_19, main_c_20, main_c_21, main_c_22,
    main_c_23, main_c_24, main_c_25, main_c_26, main_c_27, main_c_28, main_v0, main_v1,
    main_c_29, main_v2, main_v3, main_v4, main_v5, main_v6, main_v7, main_cst,
    main_v8, main_c_30, main_v9, main_v10, main_v11, main_v12, main_v13, main_v14,
    main_v15, main_v16, main_c_31, main_v17, main_v18, main_v19, main_v20, main_v21,
    main_c_32, main_v22, main_v23, main_v24 ]
set_option maxRecDepth 65536 in
set_option maxHeartbeats 4000000 in
theorem p0_writes : (p0 : List (HloOp τ sig (Elt F))).Forall fun op =>
    op.writes ⊆ (p0_W.map (Proc.devRef (τ := τ) .tc)).toFinset := by
  simp only [List.Forall]
  repeat' apply And.intro
  all_goals (simp only [nullary_writes, unary_writes, binary_writes, ternary_writes, reshape_writes,
    Finset.singleton_subset_iff, List.mem_toFinset]; exact List.mem_map_of_mem (by decide))

/-- Operations 61 … 120 of the line. -/
abbrev p1 : List (HloOp τ sig (Elt F)) :=
  [ unary main_v24 main_v25 (broadcastInDim S4x1 ![0] bcast_S4_S4x1_0 : (⟨S4, .i32⟩ : BufTy).Contents (Elt F) → (⟨S4x1, .i32⟩ : BufTy).Contents (Elt F)),
    binary main_v7 main_v25 main_v26 ((fun x i => Host.gather gather_S160000x25x32_S4x1_S160000x4x32_02_1_n_n_1_1_160000132 x i) : (⟨S160000x25x32, .f32⟩ : BufTy).Contents (Elt F) → (⟨S4x1, .i32⟩ : BufTy).Contents (Elt F) → (⟨S160000x4x32, .f32⟩ : BufTy).Contents (Elt F)),
    reshape main_v26 main_v27 rfl shapeCasts_S160000x4x32_S160000x128,
    nullary main_c_33 (constantI S_ 32 25#32),
    unary main_c_33 main_v28 (broadcastInDim S4 ![] bcast_S_S4 : (⟨S_, .i32⟩ : BufTy).Contents (Elt F) → (⟨S4, .i32⟩ : BufTy).Contents (Elt F)),
    binary main_c_4 main_v28 main_v29 (addi : (⟨S4, .i32⟩ : BufTy).Contents (Elt F) → (⟨S4, .i32⟩ : BufTy).Contents (Elt F) → (⟨S4, .i32⟩ : BufTy).Contents (Elt F)),
    ternary main_c_5 main_v29 main_c_4 main_v30 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v30 main_v31 (broadcastInDim S4x1 ![0] bcast_S4_S4x1_0 : (⟨S4, .i32⟩ : BufTy).Contents (Elt F) → (⟨S4x1, .i32⟩ : BufTy).Contents (Elt F)),
    binary main_v7 main_v31 main_v32 ((fun x i => Host.gather gather_S160000x25x32_S4x1_S160000x4x32_02_1_n_n_1_1_160000132 x i) : (⟨S160000x25x32, .f32⟩ : BufTy).Contents (Elt F) → (⟨S4x1, .i32⟩ : BufTy).Contents (Elt F) → (⟨S160000x4x32, .f32⟩ : BufTy).Contents (Elt F)),
    reshape main_v32 main_v33 rfl shapeCasts_S160000x4x32_S160000x128,
    binary main_v27 main_arg6 main_v34 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    binary main_v33 main_arg7 main_v35 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    binary main_v34 main_v35 main_v36 (subf : (⟨S160000x128, .f32⟩ : BufTy).Contents (Elt F) → (⟨S160000x128, .f32⟩ : BufTy).Contents (Elt F) → (⟨S160000x128, .f32⟩ : BufTy).Contents (Elt F)),
    binary main_v27 main_arg7 main_v37 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    binary main_v33 main_arg6 main_v38 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    binary main_v37 main_v38 main_v39 (addf : (⟨S160000x128, .f32⟩ : BufTy).Contents (Elt F) → (⟨S160000x128, .f32⟩ : BufTy).Contents (Elt F) → (⟨S160000x128, .f32⟩ : BufTy).Contents (Elt F)),
    reshape main_v36 main_v40 rfl shapeCasts_S160000x128_S160000x4x32,
    nullary main_c_34 (constantI S_ 32 25#32),
    unary main_c_34 main_v41 (broadcastInDim S4 ![] bcast_S_S4 : (⟨S_, .i32⟩ : BufTy).Contents (Elt F) → (⟨S4, .i32⟩ : BufTy).Contents (Elt F)),
    binary main_c_2 main_v41 main_v42 (addi : (⟨S4, .i32⟩ : BufTy).Contents (Elt F) → (⟨S4, .i32⟩ : BufTy).Contents (Elt F) → (⟨S4, .i32⟩ : BufTy).Contents (Elt F)),
    ternary main_c_6 main_v42 main_c_2 main_v43 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v43 main_v44 (broadcastInDim S4x1 ![0] bcast_S4_S4x1_0 : (⟨S4, .i32⟩ : BufTy).Contents (Elt F) → (⟨S4x1, .i32⟩ : BufTy).Contents (Elt F)),
    ternary main_v21 main_v44 main_v40 main_v45 ((fun x i u => Host.scatter scatter_S160000x25x32_S4x1_S160000x4x32_02_1_1_1 (fun _ b => b) x i u) : (⟨S160000x25x32, .f32⟩ : BufTy).Contents (Elt F) → (⟨S4x1, .i32⟩ : BufTy).Contents (Elt F) → (⟨S160000x4x32, .f32⟩ : BufTy).Contents (Elt F) → (⟨S160000x25x32, .f32⟩ : BufTy).Contents (Elt F)),
    reshape main_v39 main_v46 rfl shapeCasts_S160000x128_S160000x4x32,
    nullary main_c_35 (constantI S_ 32 25#32),
    unary main_c_35 main_v47 (broadcastInDim S4 ![] bcast_S_S4 : (⟨S_, .i32⟩ : BufTy).Contents (Elt F) → (⟨S4, .i32⟩ : BufTy).Contents (Elt F)),
    binary main_c_4 main_v47 main_v48 (addi : (⟨S4, .i32⟩ : BufTy).Contents (Elt F) → (⟨S4, .i32⟩ : BufTy).Contents (Elt F) → (⟨S4, .i32⟩ : BufTy).Contents (Elt F)),
    ternary main_c_7 main_v48 main_c_4 main_v49 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v49 main_v50 (broadcastInDim S4x1 ![0] bcast_S4_S4x1_0 : (⟨S4, .i32⟩ : BufTy).Contents (Elt F) → (⟨S4x1, .i32⟩ : BufTy).Contents (Elt F)),
    ternary main_v45 main_v50 main_v46 main_v51 ((fun x i u => Host.scatter scatter_S160000x25x32_S4x1_S160000x4x32_02_1_1_1 (fun _ b => b) x i u) : (⟨S160000x25x32, .f32⟩ : BufTy).Contents (Elt F) → (⟨S4x1, .i32⟩ : BufTy).Contents (Elt F) → (⟨S160000x4x32, .f32⟩ : BufTy).Contents (Elt F) → (⟨S160000x25x32, .f32⟩ : BufTy).Contents (Elt F)),
    nullary main_c_36 (constantI S_ 32 25#32),
    unary main_c_36 main_v52 (broadcastInDim S3 ![] bcast_S_S3 : (⟨S_, .i32⟩ : BufTy).Contents (Elt F) → (⟨S3, .i32⟩ : BufTy).Contents (Elt F)),
    binary main_c_8 main_v52 main_v53 (addi : (⟨S3, .i32⟩ : BufTy).Contents (Elt F) → (⟨S3, .i32⟩ : BufTy).Contents (Elt F) → (⟨S3, .i32⟩ : BufTy).Contents (Elt F)),
    ternary main_c_9 main_v53 main_c_8 main_v54 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v54 main_v55 (broadcastInDim S3x1 ![0] bcast_S3_S3x1_0 : (⟨S3, .i32⟩ : BufTy).Contents (Elt F) → (⟨S3x1, .i32⟩ : BufTy).Contents (Elt F)),
    binary main_v7 main_v55 main_v56 ((fun x i => Host.gather gather_S160000x25x32_S3x1_S160000x3x32_02_1_n_n_1_1_160000132 x i) : (⟨S160000x25x32, .f32⟩ : BufTy).Contents (Elt F) → (⟨S3x1, .i32⟩ : BufTy).Contents (Elt F) → (⟨S160000x3x32, .f32⟩ : BufTy).Contents (Elt F)),
    reshape main_v56 main_v57 rfl shapeCasts_S160000x3x32_S160000x96,
    nullary main_c_37 (constantI S_ 32 25#32),
    unary main_c_37 main_v58 (broadcastInDim S3 ![] bcast_S_S3 : (⟨S_, .i32⟩ : BufTy).Contents (Elt F) → (⟨S3, .i32⟩ : BufTy).Contents (Elt F)),
    binary main_c_10 main_v58 main_v59 (addi : (⟨S3, .i32⟩ : BufTy).Contents (Elt F) → (⟨S3, .i32⟩ : BufTy).Contents (Elt F) → (⟨S3, .i32⟩ : BufTy).Contents (Elt F)),
    ternary main_c_11 main_v59 main_c_10 main_v60 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v60 main_v61 (broadcastInDim S3x1 ![0] bcast_S3_S3x1_0 : (⟨S3, .i32⟩ : BufTy).Contents (Elt F) → (⟨S3x1, .i32⟩ : BufTy).Contents (Elt F)),
    binary main_v7 main_v61 main_v62 ((fun x i => Host.gather gather_S160000x25x32_S3x1_S160000x3x32_02_1_n_n_1_1_160000132 x i) : (⟨S160000x25x32, .f32⟩ : BufTy).Contents (Elt F) → (⟨S3x1, .i32⟩ : BufTy).Contents (Elt F) → (⟨S160000x3x32, .f32⟩ : BufTy).Contents (Elt F)),
    reshape main_v62 main_v63 rfl shapeCasts_S160000x3x32_S160000x96,
    binary main_v57 main_arg8 main_v64 ((fun l r => Host.dotGeneral dot_S160000x96_S96x96_S160000x96_1_0_0_1_n_n none l r) : (⟨S160000x96, .f32⟩ : BufTy).Contents (Elt F) → (⟨S96x96, .f32⟩ : BufTy).Contents (Elt F) → (⟨S160000x96, .f32⟩ : BufTy).Contents (Elt F)),
    binary main_v63 main_arg9 main_v65 ((fun l r => Host.dotGeneral dot_S160000x96_S96x96_S160000x96_1_0_0_1_n_n none l r) : (⟨S160000x96, .f32⟩ : BufTy).Contents (Elt F) → (⟨S96x96, .f32⟩ : BufTy).Contents (Elt F) → (⟨S160000x96, .f32⟩ : BufTy).Contents (Elt F)),
    binary main_v64 main_v65 main_v66 (subf : (⟨S160000x96, .f32⟩ : BufTy).Contents (Elt F) → (⟨S160000x96, .f32⟩ : BufTy).Contents (Elt F) → (⟨S160000x96, .f32⟩ : BufTy).Contents (Elt F)),
    binary main_v57 main_arg9 main_v67 ((fun l r => Host.dotGeneral dot_S160000x96_S96x96_S160000x96_1_0_0_1_n_n none l r) : (⟨S160000x96, .f32⟩ : BufTy).Contents (Elt F) → (⟨S96x96, .f32⟩ : BufTy).Contents (Elt F) → (⟨S160000x96, .f32⟩ : BufTy).Contents (Elt F)),
    binary main_v63 main_arg8 main_v68 ((fun l r => Host.dotGeneral dot_S160000x96_S96x96_S160000x96_1_0_0_1_n_n none l r) : (⟨S160000x96, .f32⟩ : BufTy).Contents (Elt F) → (⟨S96x96, .f32⟩ : BufTy).Contents (Elt F) → (⟨S160000x96, .f32⟩ : BufTy).Contents (Elt F)),
    binary main_v67 main_v68 main_v69 (addf : (⟨S160000x96, .f32⟩ : BufTy).Contents (Elt F) → (⟨S160000x96, .f32⟩ : BufTy).Contents (Elt F) → (⟨S160000x96, .f32⟩ : BufTy).Contents (Elt F)),
    reshape main_v66 main_v70 rfl shapeCasts_S160000x96_S160000x3x32,
    nullary main_c_38 (constantI S_ 32 25#32),
    unary main_c_38 main_v71 (broadcastInDim S3 ![] bcast_S_S3 : (⟨S_, .i32⟩ : BufTy).Contents (Elt F) → (⟨S3, .i32⟩ : BufTy).Contents (Elt F)),
    binary main_c_8 main_v71 main_v72 (addi : (⟨S3, .i32⟩ : BufTy).Contents (Elt F) → (⟨S3, .i32⟩ : BufTy).Contents (Elt F) → (⟨S3, .i32⟩ : BufTy).Contents (Elt F)),
    ternary main_c_12 main_v72 main_c_8 main_v73 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v73 main_v74 (broadcastInDim S3x1 ![0] bcast_S3_S3x1_0 : (⟨S3, .i32⟩ : BufTy).Contents (Elt F) → (⟨S3x1, .i32⟩ : BufTy).Contents (Elt F)),
    ternary main_v51 main_v74 main_v70 main_v75 ((fun x i u => Host.scatter scatter_S160000x25x32_S3x1_S160000x3x32_02_1_1_1 (fun _ b => b) x i u) : (⟨S160000x25x32, .f32⟩ : BufTy).Contents (Elt F) → (⟨S3x1, .i32⟩ : BufTy).Contents (Elt F) → (⟨S160000x3x32, .f32⟩ : BufTy).Contents (Elt F) → (⟨S160000x25x32, .f32⟩ : BufTy).Contents (Elt F)),
    reshape main_v69 main_v76 rfl shapeCasts_S160000x96_S160000x3x32,
    nullary main_c_39 (constantI S_ 32 25#32),
    unary main_c_39 main_v77 (broadcastInDim S3 ![] bcast_S_S3 : (⟨S_, .i32⟩ : BufTy).Contents (Elt F) → (⟨S3, .i32⟩ : BufTy).Contents (Elt F)) ]
/-- The references they write. -/
abbrev p1_W : List (Ref sig .tc) :=
  [
    main_v25, main_v26, main_v27, main_c_33, main_v28, main_v29, main_v30, main_v31,
    main_v32, main_v33, main_v34, main_v35, main_v36, main_v37, main_v38, main_v39,
    main_v40, main_c_34, main_v41, main_v42, main_v43, main_v44, main_v45, main_v46,
    main_c_35, main_v47, main_v48, main_v49, main_v50, main_v51, main_c_36, main_v52,
    main_v53, main_v54, main_v55, main_v56, main_v57, main_c_37, main_v58, main_v59,
    main_v60, main_v61, main_v62, main_v63, main_v64, main_v65, main_v66, main_v67,
    main_v68, main_v69, main_v70, main_c_38, main_v71, main_v72, main_v73, main_v74,
    main_v75, main_v76, main_c_39, main_v77 ]
set_option maxRecDepth 65536 in
set_option maxHeartbeats 4000000 in
theorem p1_writes : (p1 : List (HloOp τ sig (Elt F))).Forall fun op =>
    op.writes ⊆ (p1_W.map (Proc.devRef (τ := τ) .tc)).toFinset := by
  simp only [List.Forall]
  repeat' apply And.intro
  all_goals (simp only [nullary_writes, unary_writes, binary_writes, ternary_writes, reshape_writes,
    Finset.singleton_subset_iff, List.mem_toFinset]; exact List.mem_map_of_mem (by decide))

/-- Operations 121 … 180 of the line. -/
abbrev p2 : List (HloOp τ sig (Elt F)) :=
  [ binary main_c_10 main_v77 main_v78 (addi : (⟨S3, .i32⟩ : BufTy).Contents (Elt F) → (⟨S3, .i32⟩ : BufTy).Contents (Elt F) → (⟨S3, .i32⟩ : BufTy).Contents (Elt F)),
    ternary main_c_13 main_v78 main_c_10 main_v79 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v79 main_v80 (broadcastInDim S3x1 ![0] bcast_S3_S3x1_0 : (⟨S3, .i32⟩ : BufTy).Contents (Elt F) → (⟨S3x1, .i32⟩ : BufTy).Contents (Elt F)),
    ternary main_v75 main_v80 main_v76 main_v81 ((fun x i u => Host.scatter scatter_S160000x25x32_S3x1_S160000x3x32_02_1_1_1 (fun _ b => b) x i u) : (⟨S160000x25x32, .f32⟩ : BufTy).Contents (Elt F) → (⟨S3x1, .i32⟩ : BufTy).Contents (Elt F) → (⟨S160000x3x32, .f32⟩ : BufTy).Contents (Elt F) → (⟨S160000x25x32, .f32⟩ : BufTy).Contents (Elt F)),
    nullary main_c_40 (constantI S_ 32 25#32),
    unary main_c_40 main_v82 (broadcastInDim S2 ![] bcast_S_S2 : (⟨S_, .i32⟩ : BufTy).Contents (Elt F) → (⟨S2, .i32⟩ : BufTy).Contents (Elt F)),
    binary main_c_14 main_v82 main_v83 (addi : (⟨S2, .i32⟩ : BufTy).Contents (Elt F) → (⟨S2, .i32⟩ : BufTy).Contents (Elt F) → (⟨S2, .i32⟩ : BufTy).Contents (Elt F)),
    ternary main_c_15 main_v83 main_c_14 main_v84 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v84 main_v85 (broadcastInDim S2x1 ![0] bcast_S2_S2x1_0 : (⟨S2, .i32⟩ : BufTy).Contents (Elt F) → (⟨S2x1, .i32⟩ : BufTy).Contents (Elt F)),
    binary main_v7 main_v85 main_v86 ((fun x i => Host.gather gather_S160000x25x32_S2x1_S160000x2x32_02_1_n_n_1_1_160000132 x i) : (⟨S160000x25x32, .f32⟩ : BufTy).Contents (Elt F) → (⟨S2x1, .i32⟩ : BufTy).Contents (Elt F) → (⟨S160000x2x32, .f32⟩ : BufTy).Contents (Elt F)),
    reshape main_v86 main_v87 rfl shapeCasts_S160000x2x32_S160000x64,
    nullary main_c_41 (constantI S_ 32 25#32),
    unary main_c_41 main_v88 (broadcastInDim S2 ![] bcast_S_S2 : (⟨S_, .i32⟩ : BufTy).Contents (Elt F) → (⟨S2, .i32⟩ : BufTy).Contents (Elt F)),
    binary main_c_16 main_v88 main_v89 (addi : (⟨S2, .i32⟩ : BufTy).Contents (Elt F) → (⟨S2, .i32⟩ : BufTy).Contents (Elt F) → (⟨S2, .i32⟩ : BufTy).Contents (Elt F)),
    ternary main_c_17 main_v89 main_c_16 main_v90 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v90 main_v91 (broadcastInDim S2x1 ![0] bcast_S2_S2x1_0 : (⟨S2, .i32⟩ : BufTy).Contents (Elt F) → (⟨S2x1, .i32⟩ : BufTy).Contents (Elt F)),
    binary main_v7 main_v91 main_v92 ((fun x i => Host.gather gather_S160000x25x32_S2x1_S160000x2x32_02_1_n_n_1_1_160000132 x i) : (⟨S160000x25x32, .f32⟩ : BufTy).Contents (Elt F) → (⟨S2x1, .i32⟩ : BufTy).Contents (Elt F) → (⟨S160000x2x32, .f32⟩ : BufTy).Contents (Elt F)),
    reshape main_v92 main_v93 rfl shapeCasts_S160000x2x32_S160000x64,
    binary main_v87 main_arg10 main_v94 ((fun l r => Host.dotGeneral dot_S160000x64_S64x64_S160000x64_1_0_0_1_n_n none l r) : (⟨S160000x64, .f32⟩ : BufTy).Contents (Elt F) → (⟨S64x64, .f32⟩ : BufTy).Contents (Elt F) → (⟨S160000x64, .f32⟩ : BufTy).Contents (Elt F)),
    binary main_v93 main_arg11 main_v95 ((fun l r => Host.dotGeneral dot_S160000x64_S64x64_S160000x64_1_0_0_1_n_n none l r) : (⟨S160000x64, .f32⟩ : BufTy).Contents (Elt F) → (⟨S64x64, .f32⟩ : BufTy).Contents (Elt F) → (⟨S160000x64, .f32⟩ : BufTy).Contents (Elt F)),
    binary main_v94 main_v95 main_v96 (subf : (⟨S160000x64, .f32⟩ : BufTy).Contents (Elt F) → (⟨S160000x64, .f32⟩ : BufTy).Contents (Elt F) → (⟨S160000x64, .f32⟩ : BufTy).Contents (Elt F)),
    binary main_v87 main_arg11 main_v97 ((fun l r => Host.dotGeneral dot_S160000x64_S64x64_S160000x64_1_0_0_1_n_n none l r) : (⟨S160000x64, .f32⟩ : BufTy).Contents (Elt F) → (⟨S64x64, .f32⟩ : BufTy).Contents (Elt F) → (⟨S160000x64, .f32⟩ : BufTy).Contents (Elt F)),
    binary main_v93 main_arg10 main_v98 ((fun l r => Host.dotGeneral dot_S160000x64_S64x64_S160000x64_1_0_0_1_n_n none l r) : (⟨S160000x64, .f32⟩ : BufTy).Contents (Elt F) → (⟨S64x64, .f32⟩ : BufTy).Contents (Elt F) → (⟨S160000x64, .f32⟩ : BufTy).Contents (Elt F)),
    binary main_v97 main_v98 main_v99 (addf : (⟨S160000x64, .f32⟩ : BufTy).Contents (Elt F) → (⟨S160000x64, .f32⟩ : BufTy).Contents (Elt F) → (⟨S160000x64, .f32⟩ : BufTy).Contents (Elt F)),
    reshape main_v96 main_v100 rfl shapeCasts_S160000x64_S160000x2x32,
    nullary main_c_42 (constantI S_ 32 25#32),
    unary main_c_42 main_v101 (broadcastInDim S2 ![] bcast_S_S2 : (⟨S_, .i32⟩ : BufTy).Contents (Elt F) → (⟨S2, .i32⟩ : BufTy).Contents (Elt F)),
    binary main_c_14 main_v101 main_v102 (addi : (⟨S2, .i32⟩ : BufTy).Contents (Elt F) → (⟨S2, .i32⟩ : BufTy).Contents (Elt F) → (⟨S2, .i32⟩ : BufTy).Contents (Elt F)),
    ternary main_c_18 main_v102 main_c_14 main_v103 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v103 main_v104 (broadcastInDim S2x1 ![0] bcast_S2_S2x1_0 : (⟨S2, .i32⟩ : BufTy).Contents (Elt F) → (⟨S2x1, .i32⟩ : BufTy).Contents (Elt F)),
    ternary main_v81 main_v104 main_v100 main_v105 ((fun x i u => Host.scatter scatter_S160000x25x32_S2x1_S160000x2x32_02_1_1_1 (fun _ b => b) x i u) : (⟨S160000x25x32, .f32⟩ : BufTy).Contents (Elt F) → (⟨S2x1, .i32⟩ : BufTy).Contents (Elt F) → (⟨S160000x2x32, .f32⟩ : BufTy).Contents (Elt F) → (⟨S160000x25x32, .f32⟩ : BufTy).Contents (Elt F)),
    reshape main_v99 main_v106 rfl shapeCasts_S160000x64_S160000x2x32,
    nullary main_c_43 (constantI S_ 32 25#32),
    unary main_c_43 main_v107 (broadcastInDim S2 ![] bcast_S_S2 : (⟨S_, .i32⟩ : BufTy).Contents (Elt F) → (⟨S2, .i32⟩ : BufTy).Contents (Elt F)),
    binary main_c_16 main_v107 main_v108 (addi : (⟨S2, .i32⟩ : BufTy).Contents (Elt F) → (⟨S2, .i32⟩ : BufTy).Contents (Elt F) → (⟨S2, .i32⟩ : BufTy).Contents (Elt F)),
    ternary main_c_19 main_v108 main_c_16 main_v109 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v109 main_v110 (broadcastInDim S2x1 ![0] bcast_S2_S2x1_0 : (⟨S2, .i32⟩ : BufTy).Contents (Elt F) → (⟨S2x1, .i32⟩ : BufTy).Contents (Elt F)),
    ternary main_v105 main_v110 main_v106 main_v111 ((fun x i u => Host.scatter scatter_S160000x25x32_S2x1_S160000x2x32_02_1_1_1 (fun _ b => b) x i u) : (⟨S160000x25x32, .f32⟩ : BufTy).Contents (Elt F) → (⟨S2x1, .i32⟩ : BufTy).Contents (Elt F) → (⟨S160000x2x32, .f32⟩ : BufTy).Contents (Elt F) → (⟨S160000x25x32, .f32⟩ : BufTy).Contents (Elt F)),
    nullary main_c_44 (constantI S_ 32 25#32),
    unary main_c_44 main_v112 (broadcastInDim S1 ![] bcast_S_S1 : (⟨S_, .i32⟩ : BufTy).Contents (Elt F) → (⟨S1, .i32⟩ : BufTy).Contents (Elt F)),
    binary main_c_20 main_v112 main_v113 (addi : (⟨S1, .i32⟩ : BufTy).Contents (Elt F) → (⟨S1, .i32⟩ : BufTy).Contents (Elt F) → (⟨S1, .i32⟩ : BufTy).Contents (Elt F)),
    ternary main_c_21 main_v113 main_c_20 main_v114 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v114 main_v115 (broadcastInDim S1x1 ![0] bcast_S1_S1x1_0 : (⟨S1, .i32⟩ : BufTy).Contents (Elt F) → (⟨S1x1, .i32⟩ : BufTy).Contents (Elt F)),
    binary main_v7 main_v115 main_v116 ((fun x i => Host.gather gather_S160000x25x32_S1x1_S160000x1x32_02_1_n_n_1_1_160000132 x i) : (⟨S160000x25x32, .f32⟩ : BufTy).Contents (Elt F) → (⟨S1x1, .i32⟩ : BufTy).Contents (Elt F) → (⟨S160000x1x32, .f32⟩ : BufTy).Contents (Elt F)),
    reshape main_v116 main_v117 rfl shapeCasts_S160000x1x32_S160000x32,
    nullary main_c_45 (constantI S_ 32 25#32),
    unary main_c_45 main_v118 (broadcastInDim S1 ![] bcast_S_S1 : (⟨S_, .i32⟩ : BufTy).Contents (Elt F) → (⟨S1, .i32⟩ : BufTy).Contents (Elt F)),
    binary main_c_22 main_v118 main_v119 (addi : (⟨S1, .i32⟩ : BufTy).Contents (Elt F) → (⟨S1, .i32⟩ : BufTy).Contents (Elt F) → (⟨S1, .i32⟩ : BufTy).Contents (Elt F)),
    ternary main_c_23 main_v119 main_c_22 main_v120 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v120 main_v121 (broadcastInDim S1x1 ![0] bcast_S1_S1x1_0 : (⟨S1, .i32⟩ : BufTy).Contents (Elt F) → (⟨S1x1, .i32⟩ : BufTy).Contents (Elt F)),
    binary main_v7 main_v121 main_v122 ((fun x i => Host.gather gather_S160000x25x32_S1x1_S160000x1x32_02_1_n_n_1_1_160000132 x i) : (⟨S160000x25x32, .f32⟩ : BufTy).Contents (Elt F) → (⟨S1x1, .i32⟩ : BufTy).Contents (Elt F) → (⟨S160000x1x32, .f32⟩ : BufTy).Contents (Elt F)),
    reshape main_v122 main_v123 rfl shapeCasts_S160000x1x32_S160000x32,
    binary main_v117 main_arg12 main_v124 ((fun l r => Host.dotGeneral dot_S160000x32_S32x32_S160000x32_1_0_0_1_n_n none l r) : (⟨S160000x32, .f32⟩ : BufTy).Contents (Elt F) → (⟨S32x32, .f32⟩ : BufTy).Contents (Elt F) → (⟨S160000x32, .f32⟩ : BufTy).Contents (Elt F)),
    binary main_v123 main_arg13 main_v125 ((fun l r => Host.dotGeneral dot_S160000x32_S32x32_S160000x32_1_0_0_1_n_n none l r) : (⟨S160000x32, .f32⟩ : BufTy).Contents (Elt F) → (⟨S32x32, .f32⟩ : BufTy).Contents (Elt F) → (⟨S160000x32, .f32⟩ : BufTy).Contents (Elt F)),
    binary main_v124 main_v125 main_v126 (subf : (⟨S160000x32, .f32⟩ : BufTy).Contents (Elt F) → (⟨S160000x32, .f32⟩ : BufTy).Contents (Elt F) → (⟨S160000x32, .f32⟩ : BufTy).Contents (Elt F)),
    binary main_v117 main_arg13 main_v127 ((fun l r => Host.dotGeneral dot_S160000x32_S32x32_S160000x32_1_0_0_1_n_n none l r) : (⟨S160000x32, .f32⟩ : BufTy).Contents (Elt F) → (⟨S32x32, .f32⟩ : BufTy).Contents (Elt F) → (⟨S160000x32, .f32⟩ : BufTy).Contents (Elt F)),
    binary main_v123 main_arg12 main_v128 ((fun l r => Host.dotGeneral dot_S160000x32_S32x32_S160000x32_1_0_0_1_n_n none l r) : (⟨S160000x32, .f32⟩ : BufTy).Contents (Elt F) → (⟨S32x32, .f32⟩ : BufTy).Contents (Elt F) → (⟨S160000x32, .f32⟩ : BufTy).Contents (Elt F)),
    binary main_v127 main_v128 main_v129 (addf : (⟨S160000x32, .f32⟩ : BufTy).Contents (Elt F) → (⟨S160000x32, .f32⟩ : BufTy).Contents (Elt F) → (⟨S160000x32, .f32⟩ : BufTy).Contents (Elt F)),
    reshape main_v126 main_v130 rfl shapeCasts_S160000x32_S160000x1x32,
    nullary main_c_46 (constantI S_ 32 25#32) ]
/-- The references they write. -/
abbrev p2_W : List (Ref sig .tc) :=
  [
    main_v78, main_v79, main_v80, main_v81, main_c_40, main_v82, main_v83, main_v84,
    main_v85, main_v86, main_v87, main_c_41, main_v88, main_v89, main_v90, main_v91,
    main_v92, main_v93, main_v94, main_v95, main_v96, main_v97, main_v98, main_v99,
    main_v100, main_c_42, main_v101, main_v102, main_v103, main_v104, main_v105, main_v106,
    main_c_43, main_v107, main_v108, main_v109, main_v110, main_v111, main_c_44, main_v112,
    main_v113, main_v114, main_v115, main_v116, main_v117, main_c_45, main_v118, main_v119,
    main_v120, main_v121, main_v122, main_v123, main_v124, main_v125, main_v126, main_v127,
    main_v128, main_v129, main_v130, main_c_46 ]
set_option maxRecDepth 65536 in
set_option maxHeartbeats 4000000 in
theorem p2_writes : (p2 : List (HloOp τ sig (Elt F))).Forall fun op =>
    op.writes ⊆ (p2_W.map (Proc.devRef (τ := τ) .tc)).toFinset := by
  simp only [List.Forall]
  repeat' apply And.intro
  all_goals (simp only [nullary_writes, unary_writes, binary_writes, ternary_writes, reshape_writes,
    Finset.singleton_subset_iff, List.mem_toFinset]; exact List.mem_map_of_mem (by decide))

/-- Operations 181 … 218 of the line. -/
abbrev p3 : List (HloOp τ sig (Elt F)) :=
  [ unary main_c_46 main_v131 (broadcastInDim S1 ![] bcast_S_S1 : (⟨S_, .i32⟩ : BufTy).Contents (Elt F) → (⟨S1, .i32⟩ : BufTy).Contents (Elt F)),
    binary main_c_20 main_v131 main_v132 (addi : (⟨S1, .i32⟩ : BufTy).Contents (Elt F) → (⟨S1, .i32⟩ : BufTy).Contents (Elt F) → (⟨S1, .i32⟩ : BufTy).Contents (Elt F)),
    ternary main_c_24 main_v132 main_c_20 main_v133 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v133 main_v134 (broadcastInDim S1x1 ![0] bcast_S1_S1x1_0 : (⟨S1, .i32⟩ : BufTy).Contents (Elt F) → (⟨S1x1, .i32⟩ : BufTy).Contents (Elt F)),
    ternary main_v111 main_v134 main_v130 main_v135 ((fun x i u => Host.scatter scatter_S160000x25x32_S1x1_S160000x1x32_02_1_1_1 (fun _ b => b) x i u) : (⟨S160000x25x32, .f32⟩ : BufTy).Contents (Elt F) → (⟨S1x1, .i32⟩ : BufTy).Contents (Elt F) → (⟨S160000x1x32, .f32⟩ : BufTy).Contents (Elt F) → (⟨S160000x25x32, .f32⟩ : BufTy).Contents (Elt F)),
    reshape main_v129 main_v136 rfl shapeCasts_S160000x32_S160000x1x32,
    nullary main_c_47 (constantI S_ 32 25#32),
    unary main_c_47 main_v137 (broadcastInDim S1 ![] bcast_S_S1 : (⟨S_, .i32⟩ : BufTy).Contents (Elt F) → (⟨S1, .i32⟩ : BufTy).Contents (Elt F)),
    binary main_c_22 main_v137 main_v138 (addi : (⟨S1, .i32⟩ : BufTy).Contents (Elt F) → (⟨S1, .i32⟩ : BufTy).Contents (Elt F) → (⟨S1, .i32⟩ : BufTy).Contents (Elt F)),
    ternary main_c_25 main_v138 main_c_22 main_v139 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v139 main_v140 (broadcastInDim S1x1 ![0] bcast_S1_S1x1_0 : (⟨S1, .i32⟩ : BufTy).Contents (Elt F) → (⟨S1x1, .i32⟩ : BufTy).Contents (Elt F)),
    ternary main_v135 main_v140 main_v136 main_v141 ((fun x i u => Host.scatter scatter_S160000x25x32_S1x1_S160000x1x32_02_1_1_1 (fun _ b => b) x i u) : (⟨S160000x25x32, .f32⟩ : BufTy).Contents (Elt F) → (⟨S1x1, .i32⟩ : BufTy).Contents (Elt F) → (⟨S160000x1x32, .f32⟩ : BufTy).Contents (Elt F) → (⟨S160000x25x32, .f32⟩ : BufTy).Contents (Elt F)),
    binary main_arg2 main_arg14 main_v142 ((fun l r => Host.dotGeneral dot_S160000x64_S64x160_S160000x160_1_0_0_1_n_n none l r) : (⟨S160000x64, .f32⟩ : BufTy).Contents (Elt F) → (⟨S64x160, .f32⟩ : BufTy).Contents (Elt F) → (⟨S160000x160, .f32⟩ : BufTy).Contents (Elt F)),
    unary main_arg15 main_v143 (broadcastInDim S1x160 ![1] bcast_S160_S1x160_1 : (⟨S160, .f32⟩ : BufTy).Contents (Elt F) → (⟨S1x160, .f32⟩ : BufTy).Contents (Elt F)),
    unary main_v143 main_v144 (broadcastInDim S160000x160 ![0, 1] bcast_S1x160_S160000x160_0_1 : (⟨S1x160, .f32⟩ : BufTy).Contents (Elt F) → (⟨S160000x160, .f32⟩ : BufTy).Contents (Elt F)),
    binary main_v142 main_v144 main_v145 (addf : (⟨S160000x160, .f32⟩ : BufTy).Contents (Elt F) → (⟨S160000x160, .f32⟩ : BufTy).Contents (Elt F) → (⟨S160000x160, .f32⟩ : BufTy).Contents (Elt F)),
    TRef.unary (.of main_v145) main_call0.v0 Host.negf,
    TRef.unary main_call0.v0 main_call0.v1 Host.exp,
    TRef.nullary main_call0.cst (constant S_ .f32 0x3F800000#32),
    TRef.unary main_call0.cst main_call0.v2 (broadcastInDim S160000x160 ![] bcast_S_S160000x160),
    TRef.binary main_call0.v2 main_call0.v1 main_call0.v3 addf,
    TRef.nullary main_call0.cst_0 (constant S_ .f32 0x3F800000#32),
    TRef.unary main_call0.cst_0 main_call0.v4 (broadcastInDim S160000x160 ![] bcast_S_S160000x160),
    TRef.binary main_call0.v4 main_call0.v3 main_call0.v5 Host.divf,
    TRef.binary (.of main_v145) main_call0.v5 main_call0.v6 mulf,
    reshape main_v146 main_v147 rfl shapeCasts_S160000x160_S160000x5x32,
    nullary main_c_48 (constantI S_ 32 5#32),
    unary main_c_48 main_v148 (broadcastInDim S25 ![] bcast_S_S25 : (⟨S_, .i32⟩ : BufTy).Contents (Elt F) → (⟨S25, .i32⟩ : BufTy).Contents (Elt F)),
    binary main_c_26 main_v148 main_v149 (addi : (⟨S25, .i32⟩ : BufTy).Contents (Elt F) → (⟨S25, .i32⟩ : BufTy).Contents (Elt F) → (⟨S25, .i32⟩ : BufTy).Contents (Elt F)),
    ternary main_c_27 main_v149 main_c_26 main_v150 (select : (⟨S25, .i1⟩ : BufTy).Contents (Elt F) → (⟨S25, .i32⟩ : BufTy).Contents (Elt F) → (⟨S25, .i32⟩ : BufTy).Contents (Elt F) → (⟨S25, .i32⟩ : BufTy).Contents (Elt F)),
    unary main_v150 main_v151 (broadcastInDim S25x1 ![0] bcast_S25_S25x1_0 : (⟨S25, .i32⟩ : BufTy).Contents (Elt F) → (⟨S25x1, .i32⟩ : BufTy).Contents (Elt F)),
    binary main_v147 main_v151 main_v152 ((fun x i => Host.gather gather_S160000x5x32_S25x1_S160000x25x32_02_1_n_n_1_1_160000132 x i) : (⟨S160000x5x32, .f32⟩ : BufTy).Contents (Elt F) → (⟨S25x1, .i32⟩ : BufTy).Contents (Elt F) → (⟨S160000x25x32, .f32⟩ : BufTy).Contents (Elt F)),
    binary main_v141 main_v152 main_v153 (mulf : (⟨S160000x25x32, .f32⟩ : BufTy).Contents (Elt F) → (⟨S160000x25x32, .f32⟩ : BufTy).Contents (Elt F) → (⟨S160000x25x32, .f32⟩ : BufTy).Contents (Elt F)),
    binary main_arg1 main_v153 main_v154 ((fun l r => Host.dotGeneral dot_S160000x25x25_S160000x25x32_S160000x25x32_1_1_2_2_0_0 none l r) : (⟨S160000x25x25, .f32⟩ : BufTy).Contents (Elt F) → (⟨S160000x25x32, .f32⟩ : BufTy).Contents (Elt F) → (⟨S160000x25x32, .f32⟩ : BufTy).Contents (Elt F)),
    nullary main_cst_49 (constant S_ .f32 0x00000000#32),
    unary main_cst_49 main_v155 (broadcastInDim S10000x25x32 ![] bcast_S_S10000x25x32 : (⟨S_, .f32⟩ : BufTy).Contents (Elt F) → (⟨S10000x25x32, .f32⟩ : BufTy).Contents (Elt F)),
    unary main_arg4 main_v156 (broadcastInDim S160000x1 ![0] bcast_S160000_S160000x1_0 : (⟨S160000, .i32⟩ : BufTy).Contents (Elt F) → (⟨S160000x1, .i32⟩ : BufTy).Contents (Elt F)),
    ternary main_v155 main_v156 main_v154 main_v157 ((fun x i u => Host.scatterAdd scatter_S10000x25x32_S160000x1_S160000x25x32_12_0_0_1 x i u) : (⟨S10000x25x32, .f32⟩ : BufTy).Contents (Elt F) → (⟨S160000x1, .i32⟩ : BufTy).Contents (Elt F) → (⟨S160000x25x32, .f32⟩ : BufTy).Contents (Elt F) → (⟨S10000x25x32, .f32⟩ : BufTy).Contents (Elt F)) ]

set_option maxRecDepth 65536 in
theorem ops_parts : (ops (F := F)) = p0 ++ (p1 ++ (p2 ++ p3)) := rfl

/-- The contents before the first window. -/
def val0 (V : Valuation τ sig (Elt F)) : Valuation τ sig (Elt F) := V
theorem val0_main_arg0 (V : Valuation τ sig (Elt F)) : val0 V (no_index (Proc.devRef .tc main_arg0)) = V (main_arg0 : DevRef τ sig) := rfl
theorem val0_main_arg1 (V : Valuation τ sig (Elt F)) : val0 V (no_index (Proc.devRef .tc main_arg1)) = V (main_arg1 : DevRef τ sig) := rfl
theorem val0_main_arg2 (V : Valuation τ sig (Elt F)) : val0 V (no_index (Proc.devRef .tc main_arg2)) = V (main_arg2 : DevRef τ sig) := rfl
theorem val0_main_arg3 (V : Valuation τ sig (Elt F)) : val0 V (no_index (Proc.devRef .tc main_arg3)) = V (main_arg3 : DevRef τ sig) := rfl
theorem val0_main_arg4 (V : Valuation τ sig (Elt F)) : val0 V (no_index (Proc.devRef .tc main_arg4)) = V (main_arg4 : DevRef τ sig) := rfl
theorem val0_main_arg5 (V : Valuation τ sig (Elt F)) : val0 V (no_index (Proc.devRef .tc main_arg5)) = V (main_arg5 : DevRef τ sig) := rfl
theorem val0_main_arg6 (V : Valuation τ sig (Elt F)) : val0 V (no_index (Proc.devRef .tc main_arg6)) = V (main_arg6 : DevRef τ sig) := rfl
theorem val0_main_arg7 (V : Valuation τ sig (Elt F)) : val0 V (no_index (Proc.devRef .tc main_arg7)) = V (main_arg7 : DevRef τ sig) := rfl
theorem val0_main_arg8 (V : Valuation τ sig (Elt F)) : val0 V (no_index (Proc.devRef .tc main_arg8)) = V (main_arg8 : DevRef τ sig) := rfl
theorem val0_main_arg9 (V : Valuation τ sig (Elt F)) : val0 V (no_index (Proc.devRef .tc main_arg9)) = V (main_arg9 : DevRef τ sig) := rfl
theorem val0_main_arg10 (V : Valuation τ sig (Elt F)) : val0 V (no_index (Proc.devRef .tc main_arg10)) = V (main_arg10 : DevRef τ sig) := rfl
theorem val0_main_arg11 (V : Valuation τ sig (Elt F)) : val0 V (no_index (Proc.devRef .tc main_arg11)) = V (main_arg11 : DevRef τ sig) := rfl
theorem val0_main_arg12 (V : Valuation τ sig (Elt F)) : val0 V (no_index (Proc.devRef .tc main_arg12)) = V (main_arg12 : DevRef τ sig) := rfl
theorem val0_main_arg13 (V : Valuation τ sig (Elt F)) : val0 V (no_index (Proc.devRef .tc main_arg13)) = V (main_arg13 : DevRef τ sig) := rfl
theorem val0_main_arg14 (V : Valuation τ sig (Elt F)) : val0 V (no_index (Proc.devRef .tc main_arg14)) = V (main_arg14 : DevRef τ sig) := rfl
theorem val0_main_arg15 (V : Valuation τ sig (Elt F)) : val0 V (no_index (Proc.devRef .tc main_arg15)) = V (main_arg15 : DevRef τ sig) := rfl

/-- The contents after the first 1 windows. -/
def val1 (V : Valuation τ sig (Elt F)) : Valuation τ sig (Elt F) := after p0 (val0 V)
theorem val1_keep (V : Valuation τ sig (Elt F)) (r : Ref sig .tc) (h : r ∉ p0_W) :
    val1 V (Proc.devRef .tc r) = val0 V (Proc.devRef .tc r) :=
  after_of_writes_sub p0 _ p0_writes h
theorem val1_main_arg1 (V : Valuation τ sig (Elt F)) : val1 V (no_index (Proc.devRef .tc main_arg1)) = V (main_arg1 : DevRef τ sig) :=
  (val1_keep V main_arg1 (by decide)).trans (val0_main_arg1 V)
theorem val1_main_arg2 (V : Valuation τ sig (Elt F)) : val1 V (no_index (Proc.devRef .tc main_arg2)) = V (main_arg2 : DevRef τ sig) :=
  (val1_keep V main_arg2 (by decide)).trans (val0_main_arg2 V)
theorem val1_main_arg4 (V : Valuation τ sig (Elt F)) : val1 V (no_index (Proc.devRef .tc main_arg4)) = V (main_arg4 : DevRef τ sig) :=
  (val1_keep V main_arg4 (by decide)).trans (val0_main_arg4 V)
theorem val1_main_arg6 (V : Valuation τ sig (Elt F)) : val1 V (no_index (Proc.devRef .tc main_arg6)) = V (main_arg6 : DevRef τ sig) :=
  (val1_keep V main_arg6 (by decide)).trans (val0_main_arg6 V)
theorem val1_main_arg7 (V : Valuation τ sig (Elt F)) : val1 V (no_index (Proc.devRef .tc main_arg7)) = V (main_arg7 : DevRef τ sig) :=
  (val1_keep V main_arg7 (by decide)).trans (val0_main_arg7 V)
theorem val1_main_arg8 (V : Valuation τ sig (Elt F)) : val1 V (no_index (Proc.devRef .tc main_arg8)) = V (main_arg8 : DevRef τ sig) :=
  (val1_keep V main_arg8 (by decide)).trans (val0_main_arg8 V)
theorem val1_main_arg9 (V : Valuation τ sig (Elt F)) : val1 V (no_index (Proc.devRef .tc main_arg9)) = V (main_arg9 : DevRef τ sig) :=
  (val1_keep V main_arg9 (by decide)).trans (val0_main_arg9 V)
theorem val1_main_arg10 (V : Valuation τ sig (Elt F)) : val1 V (no_index (Proc.devRef .tc main_arg10)) = V (main_arg10 : DevRef τ sig) :=
  (val1_keep V main_arg10 (by decide)).trans (val0_main_arg10 V)
theorem val1_main_arg11 (V : Valuation τ sig (Elt F)) : val1 V (no_index (Proc.devRef .tc main_arg11)) = V (main_arg11 : DevRef τ sig) :=
  (val1_keep V main_arg11 (by decide)).trans (val0_main_arg11 V)
theorem val1_main_arg12 (V : Valuation τ sig (Elt F)) : val1 V (no_index (Proc.devRef .tc main_arg12)) = V (main_arg12 : DevRef τ sig) :=
  (val1_keep V main_arg12 (by decide)).trans (val0_main_arg12 V)
theorem val1_main_arg13 (V : Valuation τ sig (Elt F)) : val1 V (no_index (Proc.devRef .tc main_arg13)) = V (main_arg13 : DevRef τ sig) :=
  (val1_keep V main_arg13 (by decide)).trans (val0_main_arg13 V)
theorem val1_main_arg14 (V : Valuation τ sig (Elt F)) : val1 V (no_index (Proc.devRef .tc main_arg14)) = V (main_arg14 : DevRef τ sig) :=
  (val1_keep V main_arg14 (by decide)).trans (val0_main_arg14 V)
theorem val1_main_arg15 (V : Valuation τ sig (Elt F)) : val1 V (no_index (Proc.devRef .tc main_arg15)) = V (main_arg15 : DevRef τ sig) :=
  (val1_keep V main_arg15 (by decide)).trans (val0_main_arg15 V)
set_option maxRecDepth 65536 in
set_option maxHeartbeats 4000000 in
theorem val1_main_c_2 (V : Valuation τ sig (Elt F)) : val1 V (no_index (Proc.devRef .tc main_c_2)) = t_main_c_2 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_c_4 (V : Valuation τ sig (Elt F)) : val1 V (no_index (Proc.devRef .tc main_c_4)) = t_main_c_4 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_c_5 (V : Valuation τ sig (Elt F)) : val1 V (no_index (Proc.devRef .tc main_c_5)) = t_main_c_5 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_c_6 (V : Valuation τ sig (Elt F)) : val1 V (no_index (Proc.devRef .tc main_c_6)) = t_main_c_6 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_c_7 (V : Valuation τ sig (Elt F)) : val1 V (no_index (Proc.devRef .tc main_c_7)) = t_main_c_7 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_c_8 (V : Valuation τ sig (Elt F)) : val1 V (no_index (Proc.devRef .tc main_c_8)) = t_main_c_8 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_c_9 (V : Valuation τ sig (Elt F)) : val1 V (no_index (Proc.devRef .tc main_c_9)) = t_main_c_9 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_c_10 (V : Valuation τ sig (Elt F)) : val1 V (no_index (Proc.devRef .tc main_c_10)) = t_main_c_10 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_c_11 (V : Valuation τ sig (Elt F)) : val1 V (no_index (Proc.devRef .tc main_c_11)) = t_main_c_11 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_c_12 (V : Valuation τ sig (Elt F)) : val1 V (no_index (Proc.devRef .tc main_c_12)) = t_main_c_12 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_c_13 (V : Valuation τ sig (Elt F)) : val1 V (no_index (Proc.devRef .tc main_c_13)) = t_main_c_13 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_c_14 (V : Valuation τ sig (Elt F)) : val1 V (no_index (Proc.devRef .tc main_c_14)) = t_main_c_14 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_c_15 (V : Valuation τ sig (Elt F)) : val1 V (no_index (Proc.devRef .tc main_c_15)) = t_main_c_15 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_c_16 (V : Valuation τ sig (Elt F)) : val1 V (no_index (Proc.devRef .tc main_c_16)) = t_main_c_16 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_c_17 (V : Valuation τ sig (Elt F)) : val1 V (no_index (Proc.devRef .tc main_c_17)) = t_main_c_17 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_c_18 (V : Valuation τ sig (Elt F)) : val1 V (no_index (Proc.devRef .tc main_c_18)) = t_main_c_18 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_c_19 (V : Valuation τ sig (Elt F)) : val1 V (no_index (Proc.devRef .tc main_c_19)) = t_main_c_19 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_c_20 (V : Valuation τ sig (Elt F)) : val1 V (no_index (Proc.devRef .tc main_c_20)) = t_main_c_20 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_c_21 (V : Valuation τ sig (Elt F)) : val1 V (no_index (Proc.devRef .tc main_c_21)) = t_main_c_21 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_c_22 (V : Valuation τ sig (Elt F)) : val1 V (no_index (Proc.devRef .tc main_c_22)) = t_main_c_22 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_c_23 (V : Valuation τ sig (Elt F)) : val1 V (no_index (Proc.devRef .tc main_c_23)) = t_main_c_23 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_c_24 (V : Valuation τ sig (Elt F)) : val1 V (no_index (Proc.devRef .tc main_c_24)) = t_main_c_24 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_c_25 (V : Valuation τ sig (Elt F)) : val1 V (no_index (Proc.devRef .tc main_c_25)) = t_main_c_25 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_c_26 (V : Valuation τ sig (Elt F)) : val1 V (no_index (Proc.devRef .tc main_c_26)) = t_main_c_26 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_c_27 (V : Valuation τ sig (Elt F)) : val1 V (no_index (Proc.devRef .tc main_c_27)) = t_main_c_27 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_v7 (V : Valuation τ sig (Elt F)) : val1 V (no_index (Proc.devRef .tc main_v7)) = t_main_v7 (F := F) (V (main_arg0 : DevRef τ sig)) (V (main_arg1 : DevRef τ sig)) (V (main_arg3 : DevRef τ sig)) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_v21 (V : Valuation τ sig (Elt F)) : val1 V (no_index (Proc.devRef .tc main_v21)) = t_main_v21 (F := F) (V (main_arg0 : DevRef τ sig)) (V (main_arg1 : DevRef τ sig)) (V (main_arg3 : DevRef τ sig)) (V (main_arg5 : DevRef τ sig)) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl
set_option maxRecDepth 65536 in
set_option maxHeartbeats 4000000 in
theorem val1_main_v24 (V : Valuation τ sig (Elt F)) : val1 V (no_index (Proc.devRef .tc main_v24)) = t_main_v24 (F := F) := by
  unfold val1
  simp only [p0]
  after_results_simp
  try simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_arg13, val0_main_arg14, val0_main_arg15]
  rfl

/-- The contents after the first 2 windows. -/
def val2 (V : Valuation τ sig (Elt F)) : Valuation τ sig (Elt F) := after p1 (val1 V)
theorem val2_keep (V : Valuation τ sig (Elt F)) (r : Ref sig .tc) (h : r ∉ p1_W) :
    val2 V (Proc.devRef .tc r) = val1 V (Proc.devRef .tc r) :=
  after_of_writes_sub p1 _ p1_writes h
theorem val2_main_arg1 (V : Valuation τ sig (Elt F)) : val2 V (no_index (Proc.devRef .tc main_arg1)) = V (main_arg1 : DevRef τ sig) :=
  (val2_keep V main_arg1 (by decide)).trans (val1_main_arg1 V)
theorem val2_main_arg2 (V : Valuation τ sig (Elt F)) : val2 V (no_index (Proc.devRef .tc main_arg2)) = V (main_arg2 : DevRef τ sig) :=
  (val2_keep V main_arg2 (by decide)).trans (val1_main_arg2 V)
theorem val2_main_arg4 (V : Valuation τ sig (Elt F)) : val2 V (no_index (Proc.devRef .tc main_arg4)) = V (main_arg4 : DevRef τ sig) :=
  (val2_keep V main_arg4 (by decide)).trans (val1_main_arg4 V)
theorem val2_main_arg10 (V : Valuation τ sig (Elt F)) : val2 V (no_index (Proc.devRef .tc main_arg10)) = V (main_arg10 : DevRef τ sig) :=
  (val2_keep V main_arg10 (by decide)).trans (val1_main_arg10 V)
theorem val2_main_arg11 (V : Valuation τ sig (Elt F)) : val2 V (no_index (Proc.devRef .tc main_arg11)) = V (main_arg11 : DevRef τ sig) :=
  (val2_keep V main_arg11 (by decide)).trans (val1_main_arg11 V)
theorem val2_main_arg12 (V : Valuation τ sig (Elt F)) : val2 V (no_index (Proc.devRef .tc main_arg12)) = V (main_arg12 : DevRef τ sig) :=
  (val2_keep V main_arg12 (by decide)).trans (val1_main_arg12 V)
theorem val2_main_arg13 (V : Valuation τ sig (Elt F)) : val2 V (no_index (Proc.devRef .tc main_arg13)) = V (main_arg13 : DevRef τ sig) :=
  (val2_keep V main_arg13 (by decide)).trans (val1_main_arg13 V)
theorem val2_main_arg14 (V : Valuation τ sig (Elt F)) : val2 V (no_index (Proc.devRef .tc main_arg14)) = V (main_arg14 : DevRef τ sig) :=
  (val2_keep V main_arg14 (by decide)).trans (val1_main_arg14 V)
theorem val2_main_arg15 (V : Valuation τ sig (Elt F)) : val2 V (no_index (Proc.devRef .tc main_arg15)) = V (main_arg15 : DevRef τ sig) :=
  (val2_keep V main_arg15 (by decide)).trans (val1_main_arg15 V)
theorem val2_main_c_10 (V : Valuation τ sig (Elt F)) : val2 V (no_index (Proc.devRef .tc main_c_10)) = t_main_c_10 (F := F) :=
  (val2_keep V main_c_10 (by decide)).trans (val1_main_c_10 V)
theorem val2_main_c_13 (V : Valuation τ sig (Elt F)) : val2 V (no_index (Proc.devRef .tc main_c_13)) = t_main_c_13 (F := F) :=
  (val2_keep V main_c_13 (by decide)).trans (val1_main_c_13 V)
theorem val2_main_c_14 (V : Valuation τ sig (Elt F)) : val2 V (no_index (Proc.devRef .tc main_c_14)) = t_main_c_14 (F := F) :=
  (val2_keep V main_c_14 (by decide)).trans (val1_main_c_14 V)
theorem val2_main_c_15 (V : Valuation τ sig (Elt F)) : val2 V (no_index (Proc.devRef .tc main_c_15)) = t_main_c_15 (F := F) :=
  (val2_keep V main_c_15 (by decide)).trans (val1_main_c_15 V)
theorem val2_main_c_16 (V : Valuation τ sig (Elt F)) : val2 V (no_index (Proc.devRef .tc main_c_16)) = t_main_c_16 (F := F) :=
  (val2_keep V main_c_16 (by decide)).trans (val1_main_c_16 V)
theorem val2_main_c_17 (V : Valuation τ sig (Elt F)) : val2 V (no_index (Proc.devRef .tc main_c_17)) = t_main_c_17 (F := F) :=
  (val2_keep V main_c_17 (by decide)).trans (val1_main_c_17 V)
theorem val2_main_c_18 (V : Valuation τ sig (Elt F)) : val2 V (no_index (Proc.devRef .tc main_c_18)) = t_main_c_18 (F := F) :=
  (val2_keep V main_c_18 (by decide)).trans (val1_main_c_18 V)
theorem val2_main_c_19 (V : Valuation τ sig (Elt F)) : val2 V (no_index (Proc.devRef .tc main_c_19)) = t_main_c_19 (F := F) :=
  (val2_keep V main_c_19 (by decide)).trans (val1_main_c_19 V)
theorem val2_main_c_20 (V : Valuation τ sig (Elt F)) : val2 V (no_index (Proc.devRef .tc main_c_20)) = t_main_c_20 (F := F) :=
  (val2_keep V main_c_20 (by decide)).trans (val1_main_c_20 V)
theorem val2_main_c_21 (V : Valuation τ sig (Elt F)) : val2 V (no_index (Proc.devRef .tc main_c_21)) = t_main_c_21 (F := F) :=
  (val2_keep V main_c_21 (by decide)).trans (val1_main_c_21 V)
theorem val2_main_c_22 (V : Valuation τ sig (Elt F)) : val2 V (no_index (Proc.devRef .tc main_c_22)) = t_main_c_22 (F := F) :=
  (val2_keep V main_c_22 (by decide)).trans (val1_main_c_22 V)
theorem val2_main_c_23 (V : Valuation τ sig (Elt F)) : val2 V (no_index (Proc.devRef .tc main_c_23)) = t_main_c_23 (F := F) :=
  (val2_keep V main_c_23 (by decide)).trans (val1_main_c_23 V)
theorem val2_main_c_24 (V : Valuation τ sig (Elt F)) : val2 V (no_index (Proc.devRef .tc main_c_24)) = t_main_c_24 (F := F) :=
  (val2_keep V main_c_24 (by decide)).trans (val1_main_c_24 V)
theorem val2_main_c_25 (V : Valuation τ sig (Elt F)) : val2 V (no_index (Proc.devRef .tc main_c_25)) = t_main_c_25 (F := F) :=
  (val2_keep V main_c_25 (by decide)).trans (val1_main_c_25 V)
theorem val2_main_c_26 (V : Valuation τ sig (Elt F)) : val2 V (no_index (Proc.devRef .tc main_c_26)) = t_main_c_26 (F := F) :=
  (val2_keep V main_c_26 (by decide)).trans (val1_main_c_26 V)
theorem val2_main_c_27 (V : Valuation τ sig (Elt F)) : val2 V (no_index (Proc.devRef .tc main_c_27)) = t_main_c_27 (F := F) :=
  (val2_keep V main_c_27 (by decide)).trans (val1_main_c_27 V)
theorem val2_main_v7 (V : Valuation τ sig (Elt F)) : val2 V (no_index (Proc.devRef .tc main_v7)) = t_main_v7 (F := F) (V (main_arg0 : DevRef τ sig)) (V (main_arg1 : DevRef τ sig)) (V (main_arg3 : DevRef τ sig)) :=
  (val2_keep V main_v7 (by decide)).trans (val1_main_v7 V)
set_option maxRecDepth 65536 in
set_option maxHeartbeats 4000000 in
theorem val2_main_v75 (V : Valuation τ sig (Elt F)) : val2 V (no_index (Proc.devRef .tc main_v75)) = t_main_v75 (F := F) (V (main_arg0 : DevRef τ sig)) (V (main_arg1 : DevRef τ sig)) (V (main_arg3 : DevRef τ sig)) (V (main_arg5 : DevRef τ sig)) (V (main_arg6 : DevRef τ sig)) (V (main_arg7 : DevRef τ sig)) (V (main_arg8 : DevRef τ sig)) (V (main_arg9 : DevRef τ sig)) := by
  unfold val2
  simp only [p1]
  after_results_simp
  try simp only [val1_main_arg1, val1_main_arg2, val1_main_arg4, val1_main_arg6, val1_main_arg7, val1_main_arg8, val1_main_arg9, val1_main_arg10, val1_main_arg11, val1_main_arg12, val1_main_arg13, val1_main_arg14, val1_main_arg15, val1_main_c_2, val1_main_c_4, val1_main_c_5, val1_main_c_6, val1_main_c_7, val1_main_c_8, val1_main_c_9, val1_main_c_10, val1_main_c_11, val1_main_c_12, val1_main_c_13, val1_main_c_14, val1_main_c_15, val1_main_c_16, val1_main_c_17, val1_main_c_18, val1_main_c_19, val1_main_c_20, val1_main_c_21, val1_main_c_22, val1_main_c_23, val1_main_c_24, val1_main_c_25, val1_main_c_26, val1_main_c_27, val1_main_v7, val1_main_v21, val1_main_v24]
  rfl
set_option maxRecDepth 65536 in
set_option maxHeartbeats 4000000 in
theorem val2_main_v76 (V : Valuation τ sig (Elt F)) : val2 V (no_index (Proc.devRef .tc main_v76)) = t_main_v76 (F := F) (V (main_arg0 : DevRef τ sig)) (V (main_arg1 : DevRef τ sig)) (V (main_arg3 : DevRef τ sig)) (V (main_arg8 : DevRef τ sig)) (V (main_arg9 : DevRef τ sig)) := by
  unfold val2
  simp only [p1]
  after_results_simp
  try simp only [val1_main_arg1, val1_main_arg2, val1_main_arg4, val1_main_arg6, val1_main_arg7, val1_main_arg8, val1_main_arg9, val1_main_arg10, val1_main_arg11, val1_main_arg12, val1_main_arg13, val1_main_arg14, val1_main_arg15, val1_main_c_2, val1_main_c_4, val1_main_c_5, val1_main_c_6, val1_main_c_7, val1_main_c_8, val1_main_c_9, val1_main_c_10, val1_main_c_11, val1_main_c_12, val1_main_c_13, val1_main_c_14, val1_main_c_15, val1_main_c_16, val1_main_c_17, val1_main_c_18, val1_main_c_19, val1_main_c_20, val1_main_c_21, val1_main_c_22, val1_main_c_23, val1_main_c_24, val1_main_c_25, val1_main_c_26, val1_main_c_27, val1_main_v7, val1_main_v21, val1_main_v24]
  rfl
set_option maxRecDepth 65536 in
set_option maxHeartbeats 4000000 in
theorem val2_main_v77 (V : Valuation τ sig (Elt F)) : val2 V (no_index (Proc.devRef .tc main_v77)) = t_main_v77 (F := F) := by
  unfold val2
  simp only [p1]
  after_results_simp
  try simp only [val1_main_arg1, val1_main_arg2, val1_main_arg4, val1_main_arg6, val1_main_arg7, val1_main_arg8, val1_main_arg9, val1_main_arg10, val1_main_arg11, val1_main_arg12, val1_main_arg13, val1_main_arg14, val1_main_arg15, val1_main_c_2, val1_main_c_4, val1_main_c_5, val1_main_c_6, val1_main_c_7, val1_main_c_8, val1_main_c_9, val1_main_c_10, val1_main_c_11, val1_main_c_12, val1_main_c_13, val1_main_c_14, val1_main_c_15, val1_main_c_16, val1_main_c_17, val1_main_c_18, val1_main_c_19, val1_main_c_20, val1_main_c_21, val1_main_c_22, val1_main_c_23, val1_main_c_24, val1_main_c_25, val1_main_c_26, val1_main_c_27, val1_main_v7, val1_main_v21, val1_main_v24]
  rfl

/-- The contents after the first 3 windows. -/
def val3 (V : Valuation τ sig (Elt F)) : Valuation τ sig (Elt F) := after p2 (val2 V)
theorem val3_keep (V : Valuation τ sig (Elt F)) (r : Ref sig .tc) (h : r ∉ p2_W) :
    val3 V (Proc.devRef .tc r) = val2 V (Proc.devRef .tc r) :=
  after_of_writes_sub p2 _ p2_writes h
theorem val3_main_arg1 (V : Valuation τ sig (Elt F)) : val3 V (no_index (Proc.devRef .tc main_arg1)) = V (main_arg1 : DevRef τ sig) :=
  (val3_keep V main_arg1 (by decide)).trans (val2_main_arg1 V)
theorem val3_main_arg2 (V : Valuation τ sig (Elt F)) : val3 V (no_index (Proc.devRef .tc main_arg2)) = V (main_arg2 : DevRef τ sig) :=
  (val3_keep V main_arg2 (by decide)).trans (val2_main_arg2 V)
theorem val3_main_arg4 (V : Valuation τ sig (Elt F)) : val3 V (no_index (Proc.devRef .tc main_arg4)) = V (main_arg4 : DevRef τ sig) :=
  (val3_keep V main_arg4 (by decide)).trans (val2_main_arg4 V)
theorem val3_main_arg14 (V : Valuation τ sig (Elt F)) : val3 V (no_index (Proc.devRef .tc main_arg14)) = V (main_arg14 : DevRef τ sig) :=
  (val3_keep V main_arg14 (by decide)).trans (val2_main_arg14 V)
theorem val3_main_arg15 (V : Valuation τ sig (Elt F)) : val3 V (no_index (Proc.devRef .tc main_arg15)) = V (main_arg15 : DevRef τ sig) :=
  (val3_keep V main_arg15 (by decide)).trans (val2_main_arg15 V)
theorem val3_main_c_20 (V : Valuation τ sig (Elt F)) : val3 V (no_index (Proc.devRef .tc main_c_20)) = t_main_c_20 (F := F) :=
  (val3_keep V main_c_20 (by decide)).trans (val2_main_c_20 V)
theorem val3_main_c_22 (V : Valuation τ sig (Elt F)) : val3 V (no_index (Proc.devRef .tc main_c_22)) = t_main_c_22 (F := F) :=
  (val3_keep V main_c_22 (by decide)).trans (val2_main_c_22 V)
theorem val3_main_c_24 (V : Valuation τ sig (Elt F)) : val3 V (no_index (Proc.devRef .tc main_c_24)) = t_main_c_24 (F := F) :=
  (val3_keep V main_c_24 (by decide)).trans (val2_main_c_24 V)
theorem val3_main_c_25 (V : Valuation τ sig (Elt F)) : val3 V (no_index (Proc.devRef .tc main_c_25)) = t_main_c_25 (F := F) :=
  (val3_keep V main_c_25 (by decide)).trans (val2_main_c_25 V)
theorem val3_main_c_26 (V : Valuation τ sig (Elt F)) : val3 V (no_index (Proc.devRef .tc main_c_26)) = t_main_c_26 (F := F) :=
  (val3_keep V main_c_26 (by decide)).trans (val2_main_c_26 V)
theorem val3_main_c_27 (V : Valuation τ sig (Elt F)) : val3 V (no_index (Proc.devRef .tc main_c_27)) = t_main_c_27 (F := F) :=
  (val3_keep V main_c_27 (by decide)).trans (val2_main_c_27 V)
set_option maxRecDepth 65536 in
set_option maxHeartbeats 4000000 in
theorem val3_main_v111 (V : Valuation τ sig (Elt F)) : val3 V (no_index (Proc.devRef .tc main_v111)) = t_main_v111 (F := F) (V (main_arg0 : DevRef τ sig)) (V (main_arg1 : DevRef τ sig)) (V (main_arg3 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  unfold val3
  simp only [p2]
  after_results_simp
  try simp only [val2_main_arg1, val2_main_arg2, val2_main_arg4, val2_main_arg10, val2_main_arg11, val2_main_arg12, val2_main_arg13, val2_main_arg14, val2_main_arg15, val2_main_c_10, val2_main_c_13, val2_main_c_14, val2_main_c_15, val2_main_c_16, val2_main_c_17, val2_main_c_18, val2_main_c_19, val2_main_c_20, val2_main_c_21, val2_main_c_22, val2_main_c_23, val2_main_c_24, val2_main_c_25, val2_main_c_26, val2_main_c_27, val2_main_v7, val2_main_v75, val2_main_v76, val2_main_v77]
  rfl
set_option maxRecDepth 65536 in
set_option maxHeartbeats 4000000 in
theorem val3_main_v129 (V : Valuation τ sig (Elt F)) : val3 V (no_index (Proc.devRef .tc main_v129)) = t_main_v129 (F := F) (V (main_arg0 : DevRef τ sig)) (V (main_arg1 : DevRef τ sig)) (V (main_arg3 : DevRef τ sig)) (V (main_arg12 : DevRef τ sig)) (V (main_arg13 : DevRef τ sig)) := by
  unfold val3
  simp only [p2]
  after_results_simp
  try simp only [val2_main_arg1, val2_main_arg2, val2_main_arg4, val2_main_arg10, val2_main_arg11, val2_main_arg12, val2_main_arg13, val2_main_arg14, val2_main_arg15, val2_main_c_10, val2_main_c_13, val2_main_c_14, val2_main_c_15, val2_main_c_16, val2_main_c_17, val2_main_c_18, val2_main_c_19, val2_main_c_20, val2_main_c_21, val2_main_c_22, val2_main_c_23, val2_main_c_24, val2_main_c_25, val2_main_c_26, val2_main_c_27, val2_main_v7, val2_main_v75, val2_main_v76, val2_main_v77]
  rfl
set_option maxRecDepth 65536 in
set_option maxHeartbeats 4000000 in
theorem val3_main_v130 (V : Valuation τ sig (Elt F)) : val3 V (no_index (Proc.devRef .tc main_v130)) = t_main_v130 (F := F) (V (main_arg0 : DevRef τ sig)) (V (main_arg1 : DevRef τ sig)) (V (main_arg3 : DevRef τ sig)) (V (main_arg12 : DevRef τ sig)) (V (main_arg13 : DevRef τ sig)) := by
  unfold val3
  simp only [p2]
  after_results_simp
  try simp only [val2_main_arg1, val2_main_arg2, val2_main_arg4, val2_main_arg10, val2_main_arg11, val2_main_arg12, val2_main_arg13, val2_main_arg14, val2_main_arg15, val2_main_c_10, val2_main_c_13, val2_main_c_14, val2_main_c_15, val2_main_c_16, val2_main_c_17, val2_main_c_18, val2_main_c_19, val2_main_c_20, val2_main_c_21, val2_main_c_22, val2_main_c_23, val2_main_c_24, val2_main_c_25, val2_main_c_26, val2_main_c_27, val2_main_v7, val2_main_v75, val2_main_v76, val2_main_v77]
  rfl
set_option maxRecDepth 65536 in
set_option maxHeartbeats 4000000 in
theorem val3_main_c_46 (V : Valuation τ sig (Elt F)) : val3 V (no_index (Proc.devRef .tc main_c_46)) = t_main_c_46 (F := F) := by
  unfold val3
  simp only [p2]
  after_results_simp
  try simp only [val2_main_arg1, val2_main_arg2, val2_main_arg4, val2_main_arg10, val2_main_arg11, val2_main_arg12, val2_main_arg13, val2_main_arg14, val2_main_arg15, val2_main_c_10, val2_main_c_13, val2_main_c_14, val2_main_c_15, val2_main_c_16, val2_main_c_17, val2_main_c_18, val2_main_c_19, val2_main_c_20, val2_main_c_21, val2_main_c_22, val2_main_c_23, val2_main_c_24, val2_main_c_25, val2_main_c_26, val2_main_c_27, val2_main_v7, val2_main_v75, val2_main_v76, val2_main_v77]
  rfl

/-- The contents after the first 4 windows. -/
def val4 (V : Valuation τ sig (Elt F)) : Valuation τ sig (Elt F) := after p3 (val3 V)
set_option maxRecDepth 65536 in
set_option maxHeartbeats 4000000 in
theorem val4_main_v157 (V : Valuation τ sig (Elt F)) : val4 V (no_index (Proc.devRef .tc main_v157)) = t_main_v157 (F := F) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) := by
  unfold val4
  simp only [p3]
  after_results_simp
  try simp only [val3_main_arg1, val3_main_arg2, val3_main_arg4, val3_main_arg14, val3_main_arg15, val3_main_c_20, val3_main_c_22, val3_main_c_24, val3_main_c_25, val3_main_c_26, val3_main_c_27, val3_main_v111, val3_main_v129, val3_main_v130, val3_main_c_46]
  rfl

/-- The fold at the result buffer is the result's term of the arguments. -/
theorem out_eq (V : Valuation τ sig (Elt F)) :
    after ops V (main_v157 : DevRef τ sig) = t_main_v157 (F := F) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) := by
  have h := val4_main_v157 (F := F) V
  unfold val4 val3 val2 val1 val0 at h
  rw [ops_parts, after_append, after_append, after_append]
  exact h

/-- The references the operations write, in the operations' order. -/
abbrev opsW : List (Ref sig .tc) :=
  [
    main_c, main_c_0, main_c_1, main_c_2, main_c_3, main_c_4, main_c_5, main_c_6,
    main_c_7, main_c_8, main_c_9, main_c_10, main_c_11, main_c_12, main_c_13, main_c_14,
    main_c_15, main_c_16, main_c_17, main_c_18, main_c_19, main_c_20, main_c_21, main_c_22,
    main_c_23, main_c_24, main_c_25, main_c_26, main_c_27, main_c_28, main_v0, main_v1,
    main_c_29, main_v2, main_v3, main_v4, main_v5, main_v6, main_v7, main_cst,
    main_v8, main_c_30, main_v9, main_v10, main_v11, main_v12, main_v13, main_v14,
    main_v15, main_v16, main_c_31, main_v17, main_v18, main_v19, main_v20, main_v21,
    main_c_32, main_v22, main_v23, main_v24, main_v25, main_v26, main_v27, main_c_33,
    main_v28, main_v29, main_v30, main_v31, main_v32, main_v33, main_v34, main_v35,
    main_v36, main_v37, main_v38, main_v39, main_v40, main_c_34, main_v41, main_v42,
    main_v43, main_v44, main_v45, main_v46, main_c_35, main_v47, main_v48, main_v49,
    main_v50, main_v51, main_c_36, main_v52, main_v53, main_v54, main_v55, main_v56,
    main_v57, main_c_37, main_v58, main_v59, main_v60, main_v61, main_v62, main_v63,
    main_v64, main_v65, main_v66, main_v67, main_v68, main_v69, main_v70, main_c_38,
    main_v71, main_v72, main_v73, main_v74, main_v75, main_v76, main_c_39, main_v77,
    main_v78, main_v79, main_v80, main_v81, main_c_40, main_v82, main_v83, main_v84,
    main_v85, main_v86, main_v87, main_c_41, main_v88, main_v89, main_v90, main_v91,
    main_v92, main_v93, main_v94, main_v95, main_v96, main_v97, main_v98, main_v99,
    main_v100, main_c_42, main_v101, main_v102, main_v103, main_v104, main_v105, main_v106,
    main_c_43, main_v107, main_v108, main_v109, main_v110, main_v111, main_c_44, main_v112,
    main_v113, main_v114, main_v115, main_v116, main_v117, main_c_45, main_v118, main_v119,
    main_v120, main_v121, main_v122, main_v123, main_v124, main_v125, main_v126, main_v127,
    main_v128, main_v129, main_v130, main_c_46, main_v131, main_v132, main_v133, main_v134,
    main_v135, main_v136, main_c_47, main_v137, main_v138, main_v139, main_v140, main_v141,
    main_v142, main_v143, main_v144, main_v145, main_call0_v0, main_call0_v1, main_call0_cst, main_call0_v2,
    main_call0_v3, main_call0_cst_0, main_call0_v4, main_call0_v5, main_v146, main_v147, main_c_48, main_v148,
    main_v149, main_v150, main_v151, main_v152, main_v153, main_v154, main_cst_49, main_v155,
    main_v156, main_v157 ]

set_option maxRecDepth 65536 in
set_option maxHeartbeats 40000000 in
/-- Each operation writes only its own result reference. -/
theorem ops_writes : (ops : List (HloOp τ sig (Elt F))).Forall fun op =>
    op.writes ⊆ (opsW.map (Proc.devRef (τ := τ) .tc)).toFinset := by
  simp only [List.Forall]
  repeat' apply And.intro
  all_goals (simp only [nullary_writes, unary_writes, binary_writes, ternary_writes, reshape_writes,
    Finset.singleton_subset_iff, List.mem_toFinset]; exact List.mem_map_of_mem (by decide))

/-- No operation writes an argument. -/
theorem arg_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig)
    ∧ after ops V (main_arg8 : DevRef τ sig) = V (main_arg8 : DevRef τ sig)
    ∧ after ops V (main_arg9 : DevRef τ sig) = V (main_arg9 : DevRef τ sig)
    ∧ after ops V (main_arg10 : DevRef τ sig) = V (main_arg10 : DevRef τ sig)
    ∧ after ops V (main_arg11 : DevRef τ sig) = V (main_arg11 : DevRef τ sig)
    ∧ after ops V (main_arg12 : DevRef τ sig) = V (main_arg12 : DevRef τ sig)
    ∧ after ops V (main_arg13 : DevRef τ sig) = V (main_arg13 : DevRef τ sig)
    ∧ after ops V (main_arg14 : DevRef τ sig) = V (main_arg14 : DevRef τ sig)
    ∧ after ops V (main_arg15 : DevRef τ sig) = V (main_arg15 : DevRef τ sig) := by
  refine ⟨?_, ?_, ?_, ?_, ?_, ?_, ?_, ?_, ?_, ?_, ?_, ?_, ?_, ?_, ?_, ?_⟩ <;> exact after_of_writes_sub ops V ops_writes (by decide)

end Cert.ReferenceIdeal.RefRun

end
-- ==== Proof.LibGather.lean ====
import Idealize.ShloMosaic.PureOps
import Idealize.ShloMosaic.Lib.ValueIdx

noncomputable section

namespace Cert.SO2.LibIndex

open Idealize.ShloMosaic Idealize.ShloMosaic.ValueIdx

/-- The dimension numbers of a gather along the middle axis, as a literal record over the three shapes. -/
abbrev axis1Dims (E J C L : ℕ)
    (wf : GatherDims.WF ⟨3, ![E, J, C]⟩ ⟨2, ![L, 1]⟩ ⟨3, ![E, L, C]⟩ [0, 2] [1] [] [1] [] 1 ![E, 1, C]) :
    GatherDims ⟨3, ![E, J, C]⟩ ⟨2, ![L, 1]⟩ ⟨3, ![E, L, C]⟩ where
  offsetDims := [0, 2]
  collapsedSliceDims := [1]
  operandBatchingDims := []
  startIndicesBatchingDims := []
  startIndexMap := [1]
  indexVectorDim := 1
  sliceSizes := ![E, 1, C]
  wf := wf

/-- The gather with the literal record, read at `(e, l, c)`. -/
theorem axis1Dims_apply {α : Type} {E J C L : ℕ} (hJ : 0 < J)
    (wf : GatherDims.WF ⟨3, ![E, J, C]⟩ ⟨2, ![L, 1]⟩ ⟨3, ![E, L, C]⟩ [0, 2] [1] [] [1] [] 1 ![E, 1, C])
    (x : (⟨3, ![E, J, C]⟩ : Shape).Idx → α) (idx : IVec ⟨2, ![L, 1]⟩ 32) (e : Fin E) (l : Fin L) (c : Fin C) :
    Host.gather (axis1Dims E J C L wf) x idx (ix3 e l c)
      = x (ix3 e ⟨min (idx (ix2 l (0 : Fin 1))).toInt.toNat (J - 1), by omega⟩ c) := by
  unfold Host.gather
  congr 1
  funext a
  refine Fin.ext ?_
  show (axis1Dims E J C L wf).start (ix3 e l c) idx a + (axis1Dims E J C L wf).batchCoord (ix3 e l c) a
    + (axis1Dims E J C L wf).offCoord (ix3 e l c) a = _
  rw [GatherDims.batchCoord_eq_zero _ _ _ List.not_mem_nil, Nat.add_zero]
  match a with
  | ⟨0, h0⟩ =>
    have hs : (axis1Dims E J C L wf).start (ix3 e l c) idx ⟨0, h0⟩ = 0 := by
      unfold GatherDims.start
      exact dif_neg (show (0 : Fin 3) ∉ ([1] : List (Fin 3)) by decide)
    have hm : (⟨0, h0⟩ : Fin 3) ∈ (axis1Dims E J C L wf).sKept :=
      (GatherDims.mem_sKept _ _).2 ⟨show (0 : Fin 3) ∉ ([1] : List (Fin 3)) by decide, List.not_mem_nil⟩
    have ho : (axis1Dims E J C L wf).offCoord (ix3 e l c) ⟨0, h0⟩ = e.val := by
      unfold GatherDims.offCoord
      rw [dif_pos hm]
      rfl
    rw [hs, ho, Nat.zero_add]
  | ⟨1, h1⟩ =>
    have hm : (⟨1, h1⟩ : Fin 3) ∉ (axis1Dims E J C L wf).sKept :=
      fun h => ((GatherDims.mem_sKept _ _).1 h).1 (List.mem_singleton.mpr rfl)
    rw [GatherDims.offCoord_eq_zero _ _ _ hm, Nat.add_zero]
    unfold GatherDims.start
    rw [dif_pos (show (⟨1, h1⟩ : Fin 3) ∈ (axis1Dims E J C L wf).startIndexMap from List.mem_singleton.mpr rfl)]
    have hsi : (axis1Dims E J C L wf).siIdx (ix3 e l c)
        ⟨List.idxOf (⟨1, h1⟩ : Fin 3) (axis1Dims E J C L wf).startIndexMap,
          List.idxOf_lt_length_iff.2 (List.mem_singleton.mpr rfl)⟩ = ix2 l (0 : Fin 1) := by
      funext b; refine Fin.ext ?_
      match b with
      | ⟨0, _⟩ => rfl
      | ⟨1, _⟩ => rfl
    rw [hsi]
    rfl
  | ⟨2, h2⟩ =>
    have hs : (axis1Dims E J C L wf).start (ix3 e l c) idx ⟨2, h2⟩ = 0 := by
      unfold GatherDims.start
      exact dif_neg (show (2 : Fin 3) ∉ ([1] : List (Fin 3)) by decide)
    have hm : (⟨2, h2⟩ : Fin 3) ∈ (axis1Dims E J C L wf).sKept :=
      (GatherDims.mem_sKept _ _).2 ⟨show (2 : Fin 3) ∉ ([1] : List (Fin 3)) by decide, List.not_mem_nil⟩
    have ho : (axis1Dims E J C L wf).offCoord (ix3 e l c) ⟨2, h2⟩ = c.val := by
      unfold GatherDims.offCoord
      rw [dif_pos hm]
      rfl
    rw [hs, ho, Nat.zero_add]

/-- A `stablehlo.gather` that takes `L` rows along the MIDDLE axis of an `[E, J, C]` array, at start indices `[L, 1]`
    (offset_dims `[0, 2]`, collapsed_slice_dims `[1]`, start_index_map `[1]`, index_vector_dim `1`, slice sizes
    `[E, 1, C]`), read at `(e, l, c)`: the operand at `(e, idx[l, 0] read signed and clamped into [0, J - 1], c)`. -/
theorem gather_axis1_apply {α : Type} {E J C L : ℕ} (hJ : 0 < J)
    (d : GatherDims ⟨3, ![E, J, C]⟩ ⟨2, ![L, 1]⟩ ⟨3, ![E, L, C]⟩)
    (h1 : d.offsetDims = [0, 2]) (h2 : d.collapsedSliceDims = [1]) (h3 : d.operandBatchingDims = [])
    (h4 : d.startIndicesBatchingDims = []) (h5 : d.startIndexMap = [1]) (h6 : d.indexVectorDim = 1)
    (h7 : d.sliceSizes = ![E, 1, C])
    (x : (⟨3, ![E, J, C]⟩ : Shape).Idx → α) (idx : IVec ⟨2, ![L, 1]⟩ 32) (e : Fin E) (l : Fin L) (c : Fin C) :
    Host.gather d x idx (ix3 e l c)
      = x (ix3 e ⟨min (idx (ix2 l (0 : Fin 1))).toInt.toNat (J - 1), by omega⟩ c) := by
  obtain ⟨od, cd, ob, sb, sm, iv, ss, wf⟩ := d
  simp only at h1 h2 h3 h4 h5 h6 h7
  subst h1 h2 h3 h4 h5 h6 h7
  exact axis1Dims_apply hJ wf x idx e l c

end Cert.SO2.LibIndex

end
-- ==== Proof.LibScatter.lean ====
import Idealize.ShloMosaic.PureOps
import Idealize.ShloMosaic.Lib.ValueIdx

noncomputable section

namespace Cert.SO2.LibIndex

open Idealize.ShloMosaic Idealize.ShloMosaic.ValueIdx

/-! ## A left fold of keyed overwrites, read at one entry -/

/-- A left fold whose step either leaves the accumulator alone (no key) or overwrites the one entry its key names:
    at an entry no element of the list names, the fold leaves the initial value. -/
theorem foldl_keyed_miss {ι κ β : Type} (key : ι → Option κ) (step : (κ → β) → ι → κ → β)
    (hother : ∀ r n i k, key n = some i → k ≠ i → step r n k = r k)
    (hnone : ∀ r n, key n = none → step r n = r) (k : κ) :
    ∀ (l : List ι) (x : κ → β), (∀ n ∈ l, key n ≠ some k) → l.foldl step x k = x k := by
  intro l
  induction l with
  | nil => intro x _; rfl
  | cons n t ih =>
    intro x h
    rw [List.foldl_cons, ih _ (fun m hm => h m (List.mem_cons_of_mem _ hm))]
    cases hk : key n with
    | none => rw [hnone _ _ hk]
    | some i =>
      refine hother x n i k hk ?_
      intro hki
      exact h n List.mem_cons_self (by rw [hk, hki])

/-- … and at an entry exactly one element `n0` of the list names, the fold leaves that element's value. -/
theorem foldl_keyed_hit {ι κ β : Type} (key : ι → Option κ) (step : (κ → β) → ι → κ → β) (val : ι → β)
    (hself : ∀ r n i, key n = some i → step r n i = val n)
    (hother : ∀ r n i k, key n = some i → k ≠ i → step r n k = r k)
    (hnone : ∀ r n, key n = none → step r n = r) (k : κ) (n0 : ι) (hk0 : key n0 = some k) :
    ∀ (l : List ι) (x : κ → β), n0 ∈ l → (∀ n ∈ l, key n = some k → n = n0) → l.foldl step x k = val n0 := by
  intro l
  induction l with
  | nil => intro x h; exact absurd h List.not_mem_nil
  | cons n t ih =>
    intro x hmem huniq
    rw [List.foldl_cons]
    by_cases ht : n0 ∈ t
    · exact ih _ ht (fun m hm => huniq m (List.mem_cons_of_mem _ hm))
    · have hn : n0 = n := by
        rcases List.mem_cons.1 hmem with h | h
        · exact h
        · exact absurd h ht
      subst hn
      rw [foldl_keyed_miss key step hother hnone k t _ (fun m hm hkm => ht (huniq m (List.mem_cons_of_mem _ hm) hkm ▸ hm))]
      exact hself x n0 k hk0

/-! ## The result index of one update element -/

/-- For these dimension numbers the update's element `(e, l, c)` lands at `(e, tbl l, c)`: the start is the table's
    value on the middle axis and `0` elsewhere, the window coordinates are the update's own outer ones. -/
theorem resultIdx_axis1 {E J C L : ℕ}
    (d : ScatterDims ⟨3, ![E, J, C]⟩ ⟨2, ![L, 1]⟩ ⟨3, ![E, L, C]⟩)
    (h1 : d.updateWindowDims = [0, 2]) (h2 : d.insertedWindowDims = [1]) (h3 : d.scatterDimsToOperandDims = [1])
    (h4 : d.indexVectorDim = 1)
    (idx : IVec ⟨2, ![L, 1]⟩ 32)
    (tbl : Fin L → Fin J) (htbl : ∀ l, (idx (ix2 l (0 : Fin 1))).toInt = ((tbl l).val : ℤ))
    (e : Fin E) (l : Fin L) (c : Fin C) :
    d.resultIdx? (ix3 e l c) idx = some (ix3 e (tbl l) c) := by
  obtain ⟨uw, iw, sd, iv, wf⟩ := d
  dsimp only at h1 h2 h3 h4
  subst h1 h2 h3 h4
  have hsi : ScatterDims.siIdx ⟨[0, 2], [1], [1], 1, wf⟩ (ix3 e l c) ⟨0, Nat.zero_lt_one⟩ = ix2 l (0 : Fin 1) := by
    funext b
    refine Fin.ext ?_
    match b with
    | ⟨0, _⟩ => rfl
    | ⟨1, _⟩ => rfl
  have hsum : ∀ a, ScatterDims.start ⟨[0, 2], [1], [1], 1, wf⟩ (ix3 e l c) idx a
      + (ScatterDims.window ⟨[0, 2], [1], [1], 1, wf⟩ (ix3 e l c) a : ℤ) = (((ix3 e (tbl l) c) a).val : ℤ) := by
    intro a
    match a with
    | ⟨0, _⟩ =>
      have hs : ScatterDims.start ⟨[0, 2], [1], [1], 1, wf⟩ (ix3 e l c) idx ⟨0, ‹_›⟩ = 0 := rfl
      have hw : ScatterDims.window ⟨[0, 2], [1], [1], 1, wf⟩ (ix3 e l c) ⟨0, ‹_›⟩ = e.val := rfl
      rw [hs, hw, zero_add]
    | ⟨1, _⟩ =>
      have hs : ScatterDims.start ⟨[0, 2], [1], [1], 1, wf⟩ (ix3 e l c) idx ⟨1, ‹_›⟩
          = (idx (ScatterDims.siIdx ⟨[0, 2], [1], [1], 1, wf⟩ (ix3 e l c) ⟨0, Nat.zero_lt_one⟩)).toInt := rfl
      have hw : ScatterDims.window ⟨[0, 2], [1], [1], 1, wf⟩ (ix3 e l c) ⟨1, ‹_›⟩ = 0 := rfl
      rw [hs, hw, hsi, htbl, Nat.cast_zero, add_zero]
    | ⟨2, _⟩ =>
      have hs : ScatterDims.start ⟨[0, 2], [1], [1], 1, wf⟩ (ix3 e l c) idx ⟨2, ‹_›⟩ = 0 := rfl
      have hw : ScatterDims.window ⟨[0, 2], [1], [1], 1, wf⟩ (ix3 e l c) ⟨2, ‹_›⟩ = c.val := rfl
      rw [hs, hw, zero_add]
  have hcond : ∀ a, 0 ≤ ScatterDims.start ⟨[0, 2], [1], [1], 1, wf⟩ (ix3 e l c) idx a
        + (ScatterDims.window ⟨[0, 2], [1], [1], 1, wf⟩ (ix3 e l c) a : ℤ) ∧
      ScatterDims.start ⟨[0, 2], [1], [1], 1, wf⟩ (ix3 e l c) idx a
        + (ScatterDims.window ⟨[0, 2], [1], [1], 1, wf⟩ (ix3 e l c) a : ℤ)
        < ((⟨3, ![E, J, C]⟩ : Shape).size a : ℤ) := by
    intro a
    rw [hsum a]
    exact ⟨Int.natCast_nonneg _, Int.ofNat_lt.2 ((ix3 e (tbl l) c) a).isLt⟩
  unfold ScatterDims.resultIdx?
  rw [dif_pos hcond]
  congr 1
  funext a
  refine Fin.ext ?_
  show (ScatterDims.start ⟨[0, 2], [1], [1], 1, wf⟩ (ix3 e l c) idx a
      + (ScatterDims.window ⟨[0, 2], [1], [1], 1, wf⟩ (ix3 e l c) a : ℤ)).toNat = _
  rw [hsum a, Int.toNat_natCast]

/-- A `stablehlo.scatter` whose body returns the update (`x.at[:, tbl, :].set(u)`), writing `L` rows along the MIDDLE
    axis of an `[E, J, C]` array at scatter indices `[L, 1]` (update_window_dims `[0, 2]`, inserted_window_dims `[1]`,
    scatter_dims_to_operand_dims `[1]`, index_vector_dim `1`), the indices the values of an injective table
    `tbl : Fin L → Fin J`: at a row the table names, the update's row. -/
theorem scatter_axis1_set_hit {α : Type} {E J C L : ℕ}
    (d : ScatterDims ⟨3, ![E, J, C]⟩ ⟨2, ![L, 1]⟩ ⟨3, ![E, L, C]⟩)
    (h1 : d.updateWindowDims = [0, 2]) (h2 : d.insertedWindowDims = [1]) (h3 : d.scatterDimsToOperandDims = [1])
    (h4 : d.indexVectorDim = 1)
    (x : (⟨3, ![E, J, C]⟩ : Shape).Idx → α) (idx : IVec ⟨2, ![L, 1]⟩ 32) (upd : (⟨3, ![E, L, C]⟩ : Shape).Idx → α)
    (tbl : Fin L → Fin J) (htbl : ∀ l, (idx (ix2 l (0 : Fin 1))).toInt = ((tbl l).val : ℤ)) (hinj : Function.Injective tbl)
    (e : Fin E) (l : Fin L) (c : Fin C) :
    Host.scatter d (fun _ b => b) x idx upd (ix3 e (tbl l) c) = upd (ix3 e l c) := by
  unfold Host.scatter
  -- the one update element that lands at `(e, tbl l, c)` is `(e, l, c)`: the table is injective
  have huniq : ∀ n ∈ List.finRange (⟨3, ![E, L, C]⟩ : Shape).numel,
      d.resultIdx? ((⟨3, ![E, L, C]⟩ : Shape).rowMajor.symm n) idx = some (ix3 e (tbl l) c) →
      n = (⟨3, ![E, L, C]⟩ : Shape).rowMajor (ix3 e l c) := by
    intro n _ hn
    obtain ⟨a, b, c', hj⟩ : ∃ (a : Fin E) (b : Fin L) (c' : Fin C),
        (⟨3, ![E, L, C]⟩ : Shape).rowMajor.symm n = ix3 a b c' := ⟨_, _, _, eq_ix3 _⟩
    rw [hj, resultIdx_axis1 d h1 h2 h3 h4 idx tbl htbl a b c'] at hn
    have hn' : ix3 a (tbl b) c' = ix3 e (tbl l) c := Option.some.inj hn
    have h0 : a = e := congrFun hn' 0
    have hb : tbl b = tbl l := congrFun hn' 1
    have h2' : c' = c := congrFun hn' 2
    rw [h0, hinj hb, h2'] at hj
    rw [← hj, Equiv.apply_symm_apply]
  refine (foldl_keyed_hit
    (key := fun n => d.resultIdx? ((⟨3, ![E, L, C]⟩ : Shape).rowMajor.symm n) idx) (step := _)
    (val := fun n => upd ((⟨3, ![E, L, C]⟩ : Shape).rowMajor.symm n))
    ?hself ?hother ?hnone (ix3 e (tbl l) c) ((⟨3, ![E, L, C]⟩ : Shape).rowMajor (ix3 e l c)) ?hk0
    (List.finRange (⟨3, ![E, L, C]⟩ : Shape).numel) x (List.mem_finRange _) huniq).trans ?hlast
  case hself =>
    intro r n i h
    have h' : d.resultIdx? ((⟨3, ![E, L, C]⟩ : Shape).rowMajor.symm n) idx = some i := h
    simp only [h', ↓reduceIte]
  case hother =>
    intro r n i k h hk
    have h' : d.resultIdx? ((⟨3, ![E, L, C]⟩ : Shape).rowMajor.symm n) idx = some i := h
    simp only [h', if_neg hk]
  case hnone =>
    intro r n h
    have h' : d.resultIdx? ((⟨3, ![E, L, C]⟩ : Shape).rowMajor.symm n) idx = none := h
    simp only [h']
  case hk0 =>
    show d.resultIdx? ((⟨3, ![E, L, C]⟩ : Shape).rowMajor.symm ((⟨3, ![E, L, C]⟩ : Shape).rowMajor (ix3 e l c))) idx = _
    rw [Equiv.symm_apply_apply]
    exact resultIdx_axis1 d h1 h2 h3 h4 idx tbl htbl e l c
  case hlast =>
    show upd ((⟨3, ![E, L, C]⟩ : Shape).rowMajor.symm ((⟨3, ![E, L, C]⟩ : Shape).rowMajor (ix3 e l c))) = _
    rw [Equiv.symm_apply_apply]

/-- … and at a row the table does not name, the operand's. -/
theorem scatter_axis1_set_miss {α : Type} {E J C L : ℕ}
    (d : ScatterDims ⟨3, ![E, J, C]⟩ ⟨2, ![L, 1]⟩ ⟨3, ![E, L, C]⟩)
    (h1 : d.updateWindowDims = [0, 2]) (h2 : d.insertedWindowDims = [1]) (h3 : d.scatterDimsToOperandDims = [1])
    (h4 : d.indexVectorDim = 1)
    (x : (⟨3, ![E, J, C]⟩ : Shape).Idx → α) (idx : IVec ⟨2, ![L, 1]⟩ 32) (upd : (⟨3, ![E, L, C]⟩ : Shape).Idx → α)
    (tbl : Fin L → Fin J) (htbl : ∀ l, (idx (ix2 l (0 : Fin 1))).toInt = ((tbl l).val : ℤ))
    (e : Fin E) (j : Fin J) (c : Fin C) (hj : ∀ l, tbl l ≠ j) :
    Host.scatter d (fun _ b => b) x idx upd (ix3 e j c) = x (ix3 e j c) := by
  unfold Host.scatter
  refine foldl_keyed_miss
    (key := fun n => d.resultIdx? ((⟨3, ![E, L, C]⟩ : Shape).rowMajor.symm n) idx) (step := _)
    ?hother ?hnone (ix3 e j c) (List.finRange (⟨3, ![E, L, C]⟩ : Shape).numel) x ?hmiss
  case hother =>
    intro r n i k h hk
    have h' : d.resultIdx? ((⟨3, ![E, L, C]⟩ : Shape).rowMajor.symm n) idx = some i := h
    simp only [h', if_neg hk]
  case hnone =>
    intro r n h
    have h' : d.resultIdx? ((⟨3, ![E, L, C]⟩ : Shape).rowMajor.symm n) idx = none := h
    simp only [h']
  case hmiss =>
    -- an update element `(a, b, c')` lands in row `tbl b`, which is not `j`
    intro n _ hn
    obtain ⟨a, b, c', hn0⟩ : ∃ (a : Fin E) (b : Fin L) (c' : Fin C),
        (⟨3, ![E, L, C]⟩ : Shape).rowMajor.symm n = ix3 a b c' := ⟨_, _, _, eq_ix3 _⟩
    have hn1 : d.resultIdx? (ix3 a b c') idx = some (ix3 e j c) := hn0 ▸ hn
    rw [resultIdx_axis1 d h1 h2 h3 h4 idx tbl htbl a b c'] at hn1
    have hn' : ix3 a (tbl b) c' = ix3 e j c := Option.some.inj hn1
    exact hj b (congrFun hn' 1)

end Cert.SO2.LibIndex

end
-- ==== Proof.RefReadMix.lean ====
import proofs.«415867_j71554155151872_2_alg».proof.Proof.Spec
import proofs.«415867_j71554155151872_2_alg».proof.Proof.RefTerm
import proofs.«415867_j71554155151872_2_alg».proof.Proof.LibGather
import proofs.«415867_j71554155151872_2_alg».proof.Proof.LibScatter
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

namespace Cert.ReferenceIdeal.RefRead

open Cert.ReferenceIdeal Cert.ReferenceIdeal.Gen Cert.ReferenceIdeal.RefTerm Idealize.ShloMosaic Idealize.ShloMosaic.ValueIdx Cert.SO2

/-! ## Reading the pieces of one order's step at an entry -/

/-- A row found in a table is a position of the table holding it. -/
theorem findRow_some {L : ℕ} (tbl : Fin L → Fin 25) (j : Fin 25) (l : Fin L) (h : findRow tbl j = some l) : tbl l = j := by
  have := List.find?_some h
  simpa using this

/-- No row found: the table does not hold it. -/
theorem findRow_none {L : ℕ} (tbl : Fin L → Fin 25) (j : Fin 25) (h : findRow tbl j = none) : ∀ l, tbl l ≠ j := by
  intro l
  have := List.find?_eq_none.1 h l (List.mem_finRange l)
  simpa using this

/-- An index column made from a table by a select on the all-false mask: entry `(l, 0)` is the table's entry `l`. -/
theorem idx_read {L : ℕ} (hb : (⟨1, ![L]⟩ : Shape).BroadcastsInDim ⟨2, ![L, 1]⟩ (![0] : Fin 1 → Fin 2))
    (x y : IVec ⟨1, ![L]⟩ 32) (l : Fin L) :
    broadcastInDim ⟨2, ![L, 1]⟩ ![0] hb (select (constantI ⟨1, ![L]⟩ 1 0#1) x y) (ix2 l (0 : Fin 1)) = y (ix1 l) := by
  rw [broadcastInDim_apply ![0] hb _ (ix2 l (0 : Fin 1)) (ix1 l) (fun a => by
    have ha : a = 0 := Subsingleton.elim _ _
    subst ha
    show l.val = if L = 1 then 0 else l.val
    split
    · have := l.isLt; omega
    · rfl)]
  rw [select_apply, constantI_apply, select_zero]

/-- The rows a table names, taken out of the `[E, 25, 32]` array. -/
theorem gather_rows {L : ℕ} (gd : GatherDims ⟨3, ![160000, 25, 32]⟩ ⟨2, ![L, 1]⟩ ⟨3, ![160000, L, 32]⟩)
    (g1 : gd.offsetDims = [0, 2]) (g2 : gd.collapsedSliceDims = [1]) (g3 : gd.operandBatchingDims = [])
    (g4 : gd.startIndicesBatchingDims = []) (g5 : gd.startIndexMap = [1]) (g6 : gd.indexVectorDim = 1)
    (g7 : gd.sliceSizes = ![160000, 1, 32])
    (x : (⟨3, ![160000, 25, 32]⟩ : Shape).Idx → EReal) (idx : IVec ⟨2, ![L, 1]⟩ 32) (tbl : Fin L → Fin 25)
    (htbl : ∀ l, (idx (ix2 l (0 : Fin 1))).toInt = ((tbl l).val : ℤ)) (e : Fin 160000) (l : Fin L) (c : Fin 32) :
    Host.gather gd x idx (ix3 e l c) = x (ix3 e (tbl l) c) := by
  rw [LibIndex.gather_axis1_apply (by decide) gd g1 g2 g3 g4 g5 g6 g7 x idx e l c]
  refine congrArg x (congrArg (fun q => ix3 e q c) (Fin.ext ?_))
  show min (idx (ix2 l (0 : Fin 1))).toInt.toNat (25 - 1) = (tbl l).val
  rw [htbl l]
  have := (tbl l).isLt
  omega

/-- `[E, L, 32]` laid flat as `[E, L * 32]`, read at `(e, k)`. -/
theorem flat_apply {α : Type} {L N : ℕ} (hLN : N = L * 32) (X : (⟨3, ![160000, L, 32]⟩ : Shape).Idx → α)
    (h : (⟨3, ![160000, L, 32]⟩ : Shape).ShapeCasts ⟨2, ![160000, N]⟩) (e : Fin 160000) (k : Fin N) :
    shapeCast ⟨2, ![160000, N]⟩ X h (ix2 e k)
      = X (ix3 e (fdiv 32 L (le_of_eq hLN) (by decide) k) (fmod 32 (by decide) k)) := by
  refine shapeCast_apply X h _ _ ?_
  rw [Shape.rowMajor_val_three, Shape.rowMajor_val_two]
  show (e.val * L + k.val / 32) * 32 + k.val % 32 = e.val * N + k.val
  subst hLN
  rw [Nat.add_mul, Nat.mul_assoc, Nat.add_assoc, Nat.mul_comm (k.val / 32) 32, Nat.div_add_mod]

/-- `[E, L * 32]` cut back into `[E, L, 32]`, read at `(e, l, c)`. -/
theorem unflat_apply {α : Type} {L N : ℕ} (hLN : N = L * 32) (Y : (⟨2, ![160000, N]⟩ : Shape).Idx → α)
    (h : (⟨2, ![160000, N]⟩ : Shape).ShapeCasts ⟨3, ![160000, L, 32]⟩) (e : Fin 160000) (l : Fin L) (c : Fin 32) :
    shapeCast ⟨3, ![160000, L, 32]⟩ Y h (ix3 e l c) = Y (ix2 e (fcat N (le_of_eq hLN.symm) l c)) := by
  refine shapeCast_apply Y h _ _ ?_
  rw [Shape.rowMajor_val_three, Shape.rowMajor_val_two]
  show e.val * N + (l.val * 32 + c.val) = (e.val * L + l.val) * 32 + c.val
  subst hLN
  ring

/-- Rows written through an injective table: the reference's `setRows`. -/
theorem scatter_setRows {L : ℕ} (sd : ScatterDims ⟨3, ![160000, 25, 32]⟩ ⟨2, ![L, 1]⟩ ⟨3, ![160000, L, 32]⟩)
    (s1 : sd.updateWindowDims = [0, 2]) (s2 : sd.insertedWindowDims = [1]) (s3 : sd.scatterDimsToOperandDims = [1])
    (s4 : sd.indexVectorDim = 1)
    (x : (⟨3, ![160000, 25, 32]⟩ : Shape).Idx → EReal) (idx : IVec ⟨2, ![L, 1]⟩ 32)
    (upd : (⟨3, ![160000, L, 32]⟩ : Shape).Idx → EReal)
    (tbl : Fin L → Fin 25) (htbl : ∀ l, (idx (ix2 l (0 : Fin 1))).toInt = ((tbl l).val : ℤ)) (hinj : Function.Injective tbl)
    (N : ℕ) (hN : L * 32 ≤ N) (u : Fin N → EReal) (e : Fin 160000)
    (hu : ∀ l c, upd (ix3 e l c) = u (fcat N hN l c)) (j : Fin 25) (c : Fin 32) :
    Host.scatter sd (fun _ b => b) x idx upd (ix3 e j c) = setRows N hN tbl u (fun a b => x (ix3 e a b)) j c := by
  unfold setRows
  split
  next l hf =>
    have hl := findRow_some tbl j l hf
    subst hl
    rw [LibIndex.scatter_axis1_set_hit sd s1 s2 s3 s4 x idx upd tbl htbl hinj e l c, hu]
  next hf =>
    rw [LibIndex.scatter_axis1_set_miss sd s1 s2 s3 s4 x idx upd tbl htbl e j c (findRow_none tbl j hf)]

/-- One product `[E, N] · [N, N]` read at `(e, n)`: row `e` times the matrix. -/
theorem dot_row {N : ℕ} (x : FVec Ideal ⟨2, ![160000, N]⟩ .f32) (w : FVec Ideal ⟨2, ![N, N]⟩ .f32) (e : Fin 160000) (n : Fin N) :
    Host.dotGeneral (DotDims.plain 160000 N N) none x w (ix2 e n) = vecMat (fun k => x (ix2 e k)) (mat2 w) n :=
  StackMember.dotGeneral_plain_apply none x w e n

/-- One order `m ≥ 1` of the reference: the rows `+m` and `-m` taken out, the four products, their difference and sum,
    put back at the same rows. -/
theorem order_step {L N : ℕ} (hLN : N = L * 32)
    (gd : GatherDims ⟨3, ![160000, 25, 32]⟩ ⟨2, ![L, 1]⟩ ⟨3, ![160000, L, 32]⟩)
    (g1 : gd.offsetDims = [0, 2]) (g2 : gd.collapsedSliceDims = [1]) (g3 : gd.operandBatchingDims = [])
    (g4 : gd.startIndicesBatchingDims = []) (g5 : gd.startIndexMap = [1]) (g6 : gd.indexVectorDim = 1)
    (g7 : gd.sliceSizes = ![160000, 1, 32])
    (sd : ScatterDims ⟨3, ![160000, 25, 32]⟩ ⟨2, ![L, 1]⟩ ⟨3, ![160000, L, 32]⟩)
    (s1 : sd.updateWindowDims = [0, 2]) (s2 : sd.insertedWindowDims = [1]) (s3 : sd.scatterDimsToOperandDims = [1])
    (s4 : sd.indexVectorDim = 1)
    (dd : DotDims ⟨2, ![160000, N]⟩ ⟨2, ![N, N]⟩ ⟨2, ![160000, N]⟩) (hdd : dd = DotDims.plain 160000 N N)
    (c32 : (⟨3, ![160000, L, 32]⟩ : Shape).ShapeCasts ⟨2, ![160000, N]⟩)
    (c23 : (⟨2, ![160000, N]⟩ : Shape).ShapeCasts ⟨3, ![160000, L, 32]⟩)
    (tp tn : Fin L → Fin 25) (ip im ip' im' : IVec ⟨2, ![L, 1]⟩ 32)
    (hip : ∀ l, (ip (ix2 l (0 : Fin 1))).toInt = ((tp l).val : ℤ)) (him : ∀ l, (im (ix2 l (0 : Fin 1))).toInt = ((tn l).val : ℤ))
    (hip' : ∀ l, (ip' (ix2 l (0 : Fin 1))).toInt = ((tp l).val : ℤ)) (him' : ∀ l, (im' (ix2 l (0 : Fin 1))).toInt = ((tn l).val : ℤ))
    (injp : Function.Injective tp) (injn : Function.Injective tn)
    (v7 base : FVec Ideal ⟨3, ![160000, 25, 32]⟩ .f32) (wr wi : FVec Ideal ⟨2, ![N, N]⟩ .f32)
    (e : Fin 160000) (j : Fin 25) (c : Fin 32) :
    Host.scatter sd (fun _ b => b)
      (Host.scatter sd (fun _ b => b) base ip'
        (shapeCast ⟨3, ![160000, L, 32]⟩
          (subf (Host.dotGeneral dd none (shapeCast ⟨2, ![160000, N]⟩ (Host.gather gd v7 ip) c32) wr)
                (Host.dotGeneral dd none (shapeCast ⟨2, ![160000, N]⟩ (Host.gather gd v7 im) c32) wi)) c23))
      im'
      (shapeCast ⟨3, ![160000, L, 32]⟩
          (addf (Host.dotGeneral dd none (shapeCast ⟨2, ![160000, N]⟩ (Host.gather gd v7 ip) c32) wi)
                (Host.dotGeneral dd none (shapeCast ⟨2, ![160000, N]⟩ (Host.gather gd v7 im) c32) wr)) c23)
      (ix3 e j c)
    = setRows N (le_of_eq hLN.symm) tn
        (fun n => vecMat (takeRows N (le_of_eq hLN) tp (fun a b => v7 (ix3 e a b))) (mat2 wi) n
                + vecMat (takeRows N (le_of_eq hLN) tn (fun a b => v7 (ix3 e a b))) (mat2 wr) n)
        (setRows N (le_of_eq hLN.symm) tp
          (fun n => vecMat (takeRows N (le_of_eq hLN) tp (fun a b => v7 (ix3 e a b))) (mat2 wr) n
                  - vecMat (takeRows N (le_of_eq hLN) tn (fun a b => v7 (ix3 e a b))) (mat2 wi) n)
          (fun a b => base (ix3 e a b))) j c := by
  subst hdd
  have hxp : (fun k => shapeCast ⟨2, ![160000, N]⟩ (Host.gather gd v7 ip) c32 (ix2 e k))
      = takeRows N (le_of_eq hLN) tp (fun a b => v7 (ix3 e a b)) := by
    funext k
    rw [flat_apply hLN _ c32 e k, gather_rows gd g1 g2 g3 g4 g5 g6 g7 v7 ip tp hip]
    rfl
  have hxn : (fun k => shapeCast ⟨2, ![160000, N]⟩ (Host.gather gd v7 im) c32 (ix2 e k))
      = takeRows N (le_of_eq hLN) tn (fun a b => v7 (ix3 e a b)) := by
    funext k
    rw [flat_apply hLN _ c32 e k, gather_rows gd g1 g2 g3 g4 g5 g6 g7 v7 im tn him]
    rfl
  rw [scatter_setRows sd s1 s2 s3 s4 _ im' _ tn him' injn N (le_of_eq hLN.symm)
    (fun n => vecMat (takeRows N (le_of_eq hLN) tp (fun a b => v7 (ix3 e a b))) (mat2 wi) n
                + vecMat (takeRows N (le_of_eq hLN) tn (fun a b => v7 (ix3 e a b))) (mat2 wr) n) e (fun l c' => by
    rw [unflat_apply hLN _ c23 e l c', addf_apply, dot_row, dot_row, hxp, hxn])]
  refine congrFun (congrFun (congrArg (setRows N (le_of_eq hLN.symm) tn _) ?_) j) c
  funext a b
  rw [scatter_setRows sd s1 s2 s3 s4 base ip' _ tp hip' injp N (le_of_eq hLN.symm)
    (fun n => vecMat (takeRows N (le_of_eq hLN) tp (fun a b => v7 (ix3 e a b))) (mat2 wr) n
                - vecMat (takeRows N (le_of_eq hLN) tn (fun a b => v7 (ix3 e a b))) (mat2 wi) n) e (fun l c' => by
    rw [unflat_apply hLN _ c23 e l c', subf_apply, dot_row, dot_row, hxp, hxn])]

/-- Order 0 of the reference: its rows taken out, one product, put back over zeros. -/
theorem order0_step {L N : ℕ} (hLN : N = L * 32)
    (gd : GatherDims ⟨3, ![160000, 25, 32]⟩ ⟨2, ![L, 1]⟩ ⟨3, ![160000, L, 32]⟩)
    (g1 : gd.offsetDims = [0, 2]) (g2 : gd.collapsedSliceDims = [1]) (g3 : gd.operandBatchingDims = [])
    (g4 : gd.startIndicesBatchingDims = []) (g5 : gd.startIndexMap = [1]) (g6 : gd.indexVectorDim = 1)
    (g7 : gd.sliceSizes = ![160000, 1, 32])
    (sd : ScatterDims ⟨3, ![160000, 25, 32]⟩ ⟨2, ![L, 1]⟩ ⟨3, ![160000, L, 32]⟩)
    (s1 : sd.updateWindowDims = [0, 2]) (s2 : sd.insertedWindowDims = [1]) (s3 : sd.scatterDimsToOperandDims = [1])
    (s4 : sd.indexVectorDim = 1)
    (dd : DotDims ⟨2, ![160000, N]⟩ ⟨2, ![N, N]⟩ ⟨2, ![160000, N]⟩) (hdd : dd = DotDims.plain 160000 N N)
    (c32 : (⟨3, ![160000, L, 32]⟩ : Shape).ShapeCasts ⟨2, ![160000, N]⟩)
    (c23 : (⟨2, ![160000, N]⟩ : Shape).ShapeCasts ⟨3, ![160000, L, 32]⟩)
    (t0 : Fin L → Fin 25) (i0 i0' : IVec ⟨2, ![L, 1]⟩ 32)
    (hi0 : ∀ l, (i0 (ix2 l (0 : Fin 1))).toInt = ((t0 l).val : ℤ)) (hi0' : ∀ l, (i0' (ix2 l (0 : Fin 1))).toInt = ((t0 l).val : ℤ))
    (inj0 : Function.Injective t0)
    (v7 base : FVec Ideal ⟨3, ![160000, 25, 32]⟩ .f32) (w : FVec Ideal ⟨2, ![N, N]⟩ .f32)
    (e : Fin 160000) (j : Fin 25) (c : Fin 32) :
    Host.scatter sd (fun _ b => b) base i0'
      (shapeCast ⟨3, ![160000, L, 32]⟩
        (Host.dotGeneral dd none (shapeCast ⟨2, ![160000, N]⟩ (Host.gather gd v7 i0) c32) w) c23)
      (ix3 e j c)
    = setRows N (le_of_eq hLN.symm) t0 (vecMat (takeRows N (le_of_eq hLN) t0 (fun a b => v7 (ix3 e a b))) (mat2 w))
        (fun a b => base (ix3 e a b)) j c := by
  subst hdd
  have hx0 : (fun k => shapeCast ⟨2, ![160000, N]⟩ (Host.gather gd v7 i0) c32 (ix2 e k))
      = takeRows N (le_of_eq hLN) t0 (fun a b => v7 (ix3 e a b)) := by
    funext k
    rw [flat_apply hLN _ c32 e k, gather_rows gd g1 g2 g3 g4 g5 g6 g7 v7 i0 t0 hi0]
    rfl
  rw [scatter_setRows sd s1 s2 s3 s4 base i0' _ t0 hi0' inj0 N (le_of_eq hLN.symm) _ e (fun l c' => by
    rw [unflat_apply hLN _ c23 e l c', dot_row, hx0])]

/-! ## The index columns are the tables -/

theorem h_v12 (l : Fin 5) : ((t_main_v12 (F := Ideal)) (ix2 l (0 : Fin 1))).toInt = ((idx0 l).val : ℤ) := by
  unfold t_main_v12 t_main_v11 t_main_c_0
  rw [idx_read]
  unfold t_main_c
  revert l
  decide

theorem h_v20 (l : Fin 5) : ((t_main_v20 (F := Ideal)) (ix2 l (0 : Fin 1))).toInt = ((idx0 l).val : ℤ) := by
  unfold t_main_v20 t_main_v19 t_main_c_1
  rw [idx_read]
  unfold t_main_c
  revert l
  decide

theorem h_v25 (l : Fin 4) : ((t_main_v25 (F := Ideal)) (ix2 l (0 : Fin 1))).toInt = ((pos1 l).val : ℤ) := by
  unfold t_main_v25 t_main_v24 t_main_c_3
  rw [idx_read]
  unfold t_main_c_2
  revert l
  decide

theorem h_v31 (l : Fin 4) : ((t_main_v31 (F := Ideal)) (ix2 l (0 : Fin 1))).toInt = ((neg1 l).val : ℤ) := by
  unfold t_main_v31 t_main_v30 t_main_c_5
  rw [idx_read]
  unfold t_main_c_4
  revert l
  decide

theorem h_v44 (l : Fin 4) : ((t_main_v44 (F := Ideal)) (ix2 l (0 : Fin 1))).toInt = ((pos1 l).val : ℤ) := by
  unfold t_main_v44 t_main_v43 t_main_c_6
  rw [idx_read]
  unfold t_main_c_2
  revert l
  decide

theorem h_v50 (l : Fin 4) : ((t_main_v50 (F := Ideal)) (ix2 l (0 : Fin 1))).toInt = ((neg1 l).val : ℤ) := by
  unfold t_main_v50 t_main_v49 t_main_c_7
  rw [idx_read]
  unfold t_main_c_4
  revert l
  decide

theorem h_v55 (l : Fin 3) : ((t_main_v55 (F := Ideal)) (ix2 l (0 : Fin 1))).toInt = ((pos2 l).val : ℤ) := by
  unfold t_main_v55 t_main_v54 t_main_c_9
  rw [idx_read]
  unfold t_main_c_8
  revert l
  decide

theorem h_v61 (l : Fin 3) : ((t_main_v61 (F := Ideal)) (ix2 l (0 : Fin 1))).toInt = ((neg2 l).val : ℤ) := by
  unfold t_main_v61 t_main_v60 t_main_c_11
  rw [idx_read]
  unfold t_main_c_10
  revert l
  decide

theorem h_v74 (l : Fin 3) : ((t_main_v74 (F := Ideal)) (ix2 l (0 : Fin 1))).toInt = ((pos2 l).val : ℤ) := by
  unfold t_main_v74 t_main_v73 t_main_c_12
  rw [idx_read]
  unfold t_main_c_8
  revert l
  decide

theorem h_v80 (l : Fin 3) : ((t_main_v80 (F := Ideal)) (ix2 l (0 : Fin 1))).toInt = ((neg2 l).val : ℤ) := by
  unfold t_main_v80 t_main_v79 t_main_c_13
  rw [idx_read]
  unfold t_main_c_10
  revert l
  decide

theorem h_v85 (l : Fin 2) : ((t_main_v85 (F := Ideal)) (ix2 l (0 : Fin 1))).toInt = ((pos3 l).val : ℤ) := by
  unfold t_main_v85 t_main_v84 t_main_c_15
  rw [idx_read]
  unfold t_main_c_14
  revert l
  decide

theorem h_v91 (l : Fin 2) : ((t_main_v91 (F := Ideal)) (ix2 l (0 : Fin 1))).toInt = ((neg3 l).val : ℤ) := by
  unfold t_main_v91 t_main_v90 t_main_c_17
  rw [idx_read]
  unfold t_main_c_16
  revert l
  decide

theorem h_v104 (l : Fin 2) : ((t_main_v104 (F := Ideal)) (ix2 l (0 : Fin 1))).toInt = ((pos3 l).val : ℤ) := by
  unfold t_main_v104 t_main_v103 t_main_c_18
  rw [idx_read]
  unfold t_main_c_14
  revert l
  decide

theorem h_v110 (l : Fin 2) : ((t_main_v110 (F := Ideal)) (ix2 l (0 : Fin 1))).toInt = ((neg3 l).val : ℤ) := by
  unfold t_main_v110 t_main_v109 t_main_c_19
  rw [idx_read]
  unfold t_main_c_16
  revert l
  decide

theorem h_v115 (l : Fin 1) : ((t_main_v115 (F := Ideal)) (ix2 l (0 : Fin 1))).toInt = ((pos4 l).val : ℤ) := by
  unfold t_main_v115 t_main_v114 t_main_c_21
  rw [idx_read]
  unfold t_main_c_20
  revert l
  decide

theorem h_v121 (l : Fin 1) : ((t_main_v121 (F := Ideal)) (ix2 l (0 : Fin 1))).toInt = ((neg4 l).val : ℤ) := by
  unfold t_main_v121 t_main_v120 t_main_c_23
  rw [idx_read]
  unfold t_main_c_22
  revert l
  decide

theorem h_v134 (l : Fin 1) : ((t_main_v134 (F := Ideal)) (ix2 l (0 : Fin 1))).toInt = ((pos4 l).val : ℤ) := by
  unfold t_main_v134 t_main_v133 t_main_c_24
  rw [idx_read]
  unfold t_main_c_20
  revert l
  decide

theorem h_v140 (l : Fin 1) : ((t_main_v140 (F := Ideal)) (ix2 l (0 : Fin 1))).toInt = ((neg4 l).val : ℤ) := by
  unfold t_main_v140 t_main_v139 t_main_c_25
  rw [idx_read]
  unfold t_main_c_22
  revert l
  decide

theorem inj_idx0 : Function.Injective idx0 := by unfold Function.Injective; decide
theorem inj_pos1 : Function.Injective pos1 := by unfold Function.Injective; decide
theorem inj_neg1 : Function.Injective neg1 := by unfold Function.Injective; decide
theorem inj_pos2 : Function.Injective pos2 := by unfold Function.Injective; decide
theorem inj_neg2 : Function.Injective neg2 := by unfold Function.Injective; decide
theorem inj_pos3 : Function.Injective pos3 := by unfold Function.Injective; decide
theorem inj_neg3 : Function.Injective neg3 := by unfold Function.Injective; decide
theorem inj_pos4 : Function.Injective pos4 := by unfold Function.Injective; decide
theorem inj_neg4 : Function.Injective neg4 := by unfold Function.Injective; decide

/-! ## The reference's orders, one after the other -/

/-- The array the first rows are written over is zero everywhere. -/
theorem v8_apply (j : S160000x25x32.Idx) : t_main_v8 (F := Ideal) j = 0 := by
  unfold t_main_v8 t_main_cst
  rw [broadcastInDim_apply ![] bcast_S_S160000x25x32 _ j ix0 (fun a => a.elim0), constant_apply, Ideal.ofBits_zero_f32]

/-- Order 0. -/
theorem v21_eq (a0 : (⟨S10000x25x32, .f32⟩ : BufTy).Contents (Elt Ideal)) (a1 : (⟨S160000x25x25, .f32⟩ : BufTy).Contents (Elt Ideal)) (a3 : (⟨S160000, .i32⟩ : BufTy).Contents (Elt Ideal)) (a5 : (⟨S160x160, .f32⟩ : BufTy).Contents (Elt Ideal)) (e : Fin 160000) :
    (fun a b => t_main_v21 (F := Ideal) a0 a1 a3 a5 (ix3 e a b))
      = setRows 160 (by decide) idx0 (vecMat (takeRows 160 (by decide) idx0 (fun a b => t_main_v7 (F := Ideal) a0 a1 a3 (ix3 e a b))) (mat2 a5)) (fun _ _ => 0) := by
  funext a b
  refine (order0_step (L := 5) (N := 160) rfl gather_S160000x25x32_S5x1_S160000x5x32_02_1_n_n_1_1_160000132 rfl rfl rfl rfl rfl rfl rfl
    scatter_S160000x25x32_S5x1_S160000x5x32_02_1_1_1 rfl rfl rfl rfl dot_S160000x160_S160x160_S160000x160_1_0_0_1_n_n rfl
    shapeCasts_S160000x5x32_S160000x160 shapeCasts_S160000x160_S160000x5x32 idx0 (t_main_v12 (F := Ideal)) (t_main_v20 (F := Ideal)) h_v12 h_v20 inj_idx0
    (t_main_v7 (F := Ideal) a0 a1 a3) (t_main_v8 (F := Ideal)) a5 e a b).trans ?_
  have h8 : (fun a b => t_main_v8 (F := Ideal) (ix3 e a b)) = fun _ _ => 0 := by
    funext a b; exact v8_apply _
  rw [h8]

/-- Order 1. -/
theorem v51_eq (a0 : (⟨S10000x25x32, .f32⟩ : BufTy).Contents (Elt Ideal)) (a1 : (⟨S160000x25x25, .f32⟩ : BufTy).Contents (Elt Ideal)) (a3 : (⟨S160000, .i32⟩ : BufTy).Contents (Elt Ideal)) (a5 : (⟨S160x160, .f32⟩ : BufTy).Contents (Elt Ideal)) (a6 : (⟨S128x128, .f32⟩ : BufTy).Contents (Elt Ideal)) (a7 : (⟨S128x128, .f32⟩ : BufTy).Contents (Elt Ideal)) (e : Fin 160000) :
    (fun a b => t_main_v51 (F := Ideal) a0 a1 a3 a5 a6 a7 (ix3 e a b))
      = setRows 128 (by decide) neg1 (fun n => vecMat (takeRows 128 (by decide) pos1 (fun a b => t_main_v7 (F := Ideal) a0 a1 a3 (ix3 e a b))) (mat2 a7) n + vecMat (takeRows 128 (by decide) neg1 (fun a b => t_main_v7 (F := Ideal) a0 a1 a3 (ix3 e a b))) (mat2 a6) n)
        (setRows 128 (by decide) pos1 (fun n => vecMat (takeRows 128 (by decide) pos1 (fun a b => t_main_v7 (F := Ideal) a0 a1 a3 (ix3 e a b))) (mat2 a6) n - vecMat (takeRows 128 (by decide) neg1 (fun a b => t_main_v7 (F := Ideal) a0 a1 a3 (ix3 e a b))) (mat2 a7) n)
          (fun a b => t_main_v21 (F := Ideal) a0 a1 a3 a5 (ix3 e a b))) := by
  funext a b
  exact order_step (L := 4) (N := 128) rfl gather_S160000x25x32_S4x1_S160000x4x32_02_1_n_n_1_1_160000132 rfl rfl rfl rfl rfl rfl rfl
    scatter_S160000x25x32_S4x1_S160000x4x32_02_1_1_1 rfl rfl rfl rfl dot_S160000x128_S128x128_S160000x128_1_0_0_1_n_n rfl
    shapeCasts_S160000x4x32_S160000x128 shapeCasts_S160000x128_S160000x4x32 pos1 neg1
    (t_main_v25 (F := Ideal)) (t_main_v31 (F := Ideal)) (t_main_v44 (F := Ideal)) (t_main_v50 (F := Ideal)) h_v25 h_v31 h_v44 h_v50 inj_pos1 inj_neg1
    (t_main_v7 (F := Ideal) a0 a1 a3) (t_main_v21 (F := Ideal) a0 a1 a3 a5) a6 a7 e a b

/-- Order 2. -/
theorem v81_eq (a0 : (⟨S10000x25x32, .f32⟩ : BufTy).Contents (Elt Ideal)) (a1 : (⟨S160000x25x25, .f32⟩ : BufTy).Contents (Elt Ideal)) (a3 : (⟨S160000, .i32⟩ : BufTy).Contents (Elt Ideal)) (a5 : (⟨S160x160, .f32⟩ : BufTy).Contents (Elt Ideal)) (a6 : (⟨S128x128, .f32⟩ : BufTy).Contents (Elt Ideal)) (a7 : (⟨S128x128, .f32⟩ : BufTy).Contents (Elt Ideal)) (a8 : (⟨S96x96, .f32⟩ : BufTy).Contents (Elt Ideal)) (a9 : (⟨S96x96, .f32⟩ : BufTy).Contents (Elt Ideal)) (e : Fin 160000) :
    (fun a b => t_main_v81 (F := Ideal) a0 a1 a3 a5 a6 a7 a8 a9 (ix3 e a b))
      = setRows 96 (by decide) neg2 (fun n => vecMat (takeRows 96 (by decide) pos2 (fun a b => t_main_v7 (F := Ideal) a0 a1 a3 (ix3 e a b))) (mat2 a9) n + vecMat (takeRows 96 (by decide) neg2 (fun a b => t_main_v7 (F := Ideal) a0 a1 a3 (ix3 e a b))) (mat2 a8) n)
        (setRows 96 (by decide) pos2 (fun n => vecMat (takeRows 96 (by decide) pos2 (fun a b => t_main_v7 (F := Ideal) a0 a1 a3 (ix3 e a b))) (mat2 a8) n - vecMat (takeRows 96 (by decide) neg2 (fun a b => t_main_v7 (F := Ideal) a0 a1 a3 (ix3 e a b))) (mat2 a9) n)
          (fun a b => t_main_v51 (F := Ideal) a0 a1 a3 a5 a6 a7 (ix3 e a b))) := by
  funext a b
  exact order_step (L := 3) (N := 96) rfl gather_S160000x25x32_S3x1_S160000x3x32_02_1_n_n_1_1_160000132 rfl rfl rfl rfl rfl rfl rfl
    scatter_S160000x25x32_S3x1_S160000x3x32_02_1_1_1 rfl rfl rfl rfl dot_S160000x96_S96x96_S160000x96_1_0_0_1_n_n rfl
    shapeCasts_S160000x3x32_S160000x96 shapeCasts_S160000x96_S160000x3x32 pos2 neg2
    (t_main_v55 (F := Ideal)) (t_main_v61 (F := Ideal)) (t_main_v74 (F := Ideal)) (t_main_v80 (F := Ideal)) h_v55 h_v61 h_v74 h_v80 inj_pos2 inj_neg2
    (t_main_v7 (F := Ideal) a0 a1 a3) (t_main_v51 (F := Ideal) a0 a1 a3 a5 a6 a7) a8 a9 e a b

/-- Order 3. -/
theorem v111_eq (a0 : (⟨S10000x25x32, .f32⟩ : BufTy).Contents (Elt Ideal)) (a1 : (⟨S160000x25x25, .f32⟩ : BufTy).Contents (Elt Ideal)) (a3 : (⟨S160000, .i32⟩ : BufTy).Contents (Elt Ideal)) (a5 : (⟨S160x160, .f32⟩ : BufTy).Contents (Elt Ideal)) (a6 : (⟨S128x128, .f32⟩ : BufTy).Contents (Elt Ideal)) (a7 : (⟨S128x128, .f32⟩ : BufTy).Contents (Elt Ideal)) (a8 : (⟨S96x96, .f32⟩ : BufTy).Contents (Elt Ideal)) (a9 : (⟨S96x96, .f32⟩ : BufTy).Contents (Elt Ideal)) (a10 : (⟨S64x64, .f32⟩ : BufTy).Contents (Elt Ideal)) (a11 : (⟨S64x64, .f32⟩ : BufTy).Contents (Elt Ideal)) (e : Fin 160000) :
    (fun a b => t_main_v111 (F := Ideal) a0 a1 a3 a5 a6 a7 a8 a9 a10 a11 (ix3 e a b))
      = setRows 64 (by decide) neg3 (fun n => vecMat (takeRows 64 (by decide) pos3 (fun a b => t_main_v7 (F := Ideal) a0 a1 a3 (ix3 e a b))) (mat2 a11) n + vecMat (takeRows 64 (by decide) neg3 (fun a b => t_main_v7 (F := Ideal) a0 a1 a3 (ix3 e a b))) (mat2 a10) n)
        (setRows 64 (by decide) pos3 (fun n => vecMat (takeRows 64 (by decide) pos3 (fun a b => t_main_v7 (F := Ideal) a0 a1 a3 (ix3 e a b))) (mat2 a10) n - vecMat (takeRows 64 (by decide) neg3 (fun a b => t_main_v7 (F := Ideal) a0 a1 a3 (ix3 e a b))) (mat2 a11) n)
          (fun a b => t_main_v81 (F := Ideal) a0 a1 a3 a5 a6 a7 a8 a9 (ix3 e a b))) := by
  funext a b
  exact order_step (L := 2) (N := 64) rfl gather_S160000x25x32_S2x1_S160000x2x32_02_1_n_n_1_1_160000132 rfl rfl rfl rfl rfl rfl rfl
    scatter_S160000x25x32_S2x1_S160000x2x32_02_1_1_1 rfl rfl rfl rfl dot_S160000x64_S64x64_S160000x64_1_0_0_1_n_n rfl
    shapeCasts_S160000x2x32_S160000x64 shapeCasts_S160000x64_S160000x2x32 pos3 neg3
    (t_main_v85 (F := Ideal)) (t_main_v91 (F := Ideal)) (t_main_v104 (F := Ideal)) (t_main_v110 (F := Ideal)) h_v85 h_v91 h_v104 h_v110 inj_pos3 inj_neg3
    (t_main_v7 (F := Ideal) a0 a1 a3) (t_main_v81 (F := Ideal) a0 a1 a3 a5 a6 a7 a8 a9) a10 a11 e a b

/-- Order 4. -/
theorem v141_eq (a0 : (⟨S10000x25x32, .f32⟩ : BufTy).Contents (Elt Ideal)) (a1 : (⟨S160000x25x25, .f32⟩ : BufTy).Contents (Elt Ideal)) (a3 : (⟨S160000, .i32⟩ : BufTy).Contents (Elt Ideal)) (a5 : (⟨S160x160, .f32⟩ : BufTy).Contents (Elt Ideal)) (a6 : (⟨S128x128, .f32⟩ : BufTy).Contents (Elt Ideal)) (a7 : (⟨S128x128, .f32⟩ : BufTy).Contents (Elt Ideal)) (a8 : (⟨S96x96, .f32⟩ : BufTy).Contents (Elt Ideal)) (a9 : (⟨S96x96, .f32⟩ : BufTy).Contents (Elt Ideal)) (a10 : (⟨S64x64, .f32⟩ : BufTy).Contents (Elt Ideal)) (a11 : (⟨S64x64, .f32⟩ : BufTy).Contents (Elt Ideal)) (a12 : (⟨S32x32, .f32⟩ : BufTy).Contents (Elt Ideal)) (a13 : (⟨S32x32, .f32⟩ : BufTy).Contents (Elt Ideal)) (e : Fin 160000) :
    (fun a b => t_main_v141 (F := Ideal) a0 a1 a3 a5 a6 a7 a8 a9 a10 a11 a12 a13 (ix3 e a b))
      = setRows 32 (by decide) neg4 (fun n => vecMat (takeRows 32 (by decide) pos4 (fun a b => t_main_v7 (F := Ideal) a0 a1 a3 (ix3 e a b))) (mat2 a13) n + vecMat (takeRows 32 (by decide) neg4 (fun a b => t_main_v7 (F := Ideal) a0 a1 a3 (ix3 e a b))) (mat2 a12) n)
        (setRows 32 (by decide) pos4 (fun n => vecMat (takeRows 32 (by decide) pos4 (fun a b => t_main_v7 (F := Ideal) a0 a1 a3 (ix3 e a b))) (mat2 a12) n - vecMat (takeRows 32 (by decide) neg4 (fun a b => t_main_v7 (F := Ideal) a0 a1 a3 (ix3 e a b))) (mat2 a13) n)
          (fun a b => t_main_v111 (F := Ideal) a0 a1 a3 a5 a6 a7 a8 a9 a10 a11 (ix3 e a b))) := by
  funext a b
  exact order_step (L := 1) (N := 32) rfl gather_S160000x25x32_S1x1_S160000x1x32_02_1_n_n_1_1_160000132 rfl rfl rfl rfl rfl rfl rfl
    scatter_S160000x25x32_S1x1_S160000x1x32_02_1_1_1 rfl rfl rfl rfl dot_S160000x32_S32x32_S160000x32_1_0_0_1_n_n rfl
    shapeCasts_S160000x1x32_S160000x32 shapeCasts_S160000x32_S160000x1x32 pos4 neg4
    (t_main_v115 (F := Ideal)) (t_main_v121 (F := Ideal)) (t_main_v134 (F := Ideal)) (t_main_v140 (F := Ideal)) h_v115 h_v121 h_v134 h_v140 inj_pos4 inj_neg4
    (t_main_v7 (F := Ideal) a0 a1 a3) (t_main_v111 (F := Ideal) a0 a1 a3 a5 a6 a7 a8 a9 a10 a11) a12 a13 e a b

/-! ## The three readings -/

/-- The reference's gathered node features are the shared gather. -/
theorem t_v6_eq (a0 : (⟨S10000x25x32, .f32⟩ : BufTy).Contents (Elt Ideal)) (a3 : (⟨S160000, .i32⟩ : BufTy).Contents (Elt Ideal)) : t_main_v6 (F := Ideal) a0 a3 = (xeOf gather_S10000x25x32_S160000x1_S160000x25x32_12_0_n_n_0_1_12532 bcast_S_S160000 bcast_S160000_S160000x1_0 a0 a3) := by
  rfl

/-- The rotation into the edge frame, read at an entry. -/
theorem t_v7_apply (a0 : (⟨S10000x25x32, .f32⟩ : BufTy).Contents (Elt Ideal)) (a1 : (⟨S160000x25x25, .f32⟩ : BufTy).Contents (Elt Ideal)) (a3 : (⟨S160000, .i32⟩ : BufTy).Contents (Elt Ideal))
    (e : Fin 160000) (i : Fin 25) (c : Fin 32) :
    t_main_v7 (F := Ideal) a0 a1 a3 (ix3 e i c)
      = rot (fun a b => a1 (ix3 e a b)) (fun a b => (xeOf gather_S10000x25x32_S160000x1_S160000x25x32_12_0_n_n_0_1_12532 bcast_S_S160000 bcast_S160000_S160000x1_0 a0 a3) (ix3 e a b)) i c := by
  unfold t_main_v7
  rw [t_v6_eq]
  exact StackMember.dotGeneral_stack_apply (G := 160000) (m := 25) (n := 32) (k := 25) dot_S160000x25x25_S160000x25x32_S160000x25x32_2_1_1_2_0_0_wf none a1 _ e i c

/-- The mixed coefficients (the nine gathers, seventeen products and nine scatters of @main's %8 … %141), read at an entry. -/
theorem t_v141_apply (a0 : (⟨S10000x25x32, .f32⟩ : BufTy).Contents (Elt Ideal)) (a1 : (⟨S160000x25x25, .f32⟩ : BufTy).Contents (Elt Ideal)) (a3 : (⟨S160000, .i32⟩ : BufTy).Contents (Elt Ideal))
    (a5 : (⟨S160x160, .f32⟩ : BufTy).Contents (Elt Ideal)) (a6 : (⟨S128x128, .f32⟩ : BufTy).Contents (Elt Ideal)) (a7 : (⟨S128x128, .f32⟩ : BufTy).Contents (Elt Ideal)) (a8 : (⟨S96x96, .f32⟩ : BufTy).Contents (Elt Ideal)) (a9 : (⟨S96x96, .f32⟩ : BufTy).Contents (Elt Ideal))
    (a10 : (⟨S64x64, .f32⟩ : BufTy).Contents (Elt Ideal)) (a11 : (⟨S64x64, .f32⟩ : BufTy).Contents (Elt Ideal)) (a12 : (⟨S32x32, .f32⟩ : BufTy).Contents (Elt Ideal)) (a13 : (⟨S32x32, .f32⟩ : BufTy).Contents (Elt Ideal))
    (e : Fin 160000) (j : Fin 25) (c : Fin 32) :
    t_main_v141 (F := Ideal) a0 a1 a3 a5 a6 a7 a8 a9 a10 a11 a12 a13 (ix3 e j c)
      = mixR (fun a b => t_main_v7 (F := Ideal) a0 a1 a3 (ix3 e a b)) (mat2 a5) (mat2 a6) (mat2 a7) (mat2 a8) (mat2 a9) (mat2 a10) (mat2 a11) (mat2 a12) (mat2 a13) j c := by
  refine (show t_main_v141 (F := Ideal) a0 a1 a3 a5 a6 a7 a8 a9 a10 a11 a12 a13 (ix3 e j c) = _ from
    congrFun (congrFun (v141_eq a0 a1 a3 a5 a6 a7 a8 a9 a10 a11 a12 a13 e) j) c).trans ?_
  rw [v111_eq, v81_eq, v51_eq, v21_eq]
  rfl

end Cert.ReferenceIdeal.RefRead

end
-- ==== Proof.RefReadTail.lean ====
import proofs.«415867_j71554155151872_2_alg».proof.Proof.Spec
import proofs.«415867_j71554155151872_2_alg».proof.Proof.RefTerm
import proofs.«415867_j71554155151872_2_alg».proof.Proof.LibGather
import proofs.«415867_j71554155151872_2_alg».proof.Proof.LibScatter
import proofs.«415867_j71554155151872_2_alg».proof.Proof.RefReadMix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.ReferenceIdeal.RefRead

open Cert.ReferenceIdeal Cert.ReferenceIdeal.Gen Cert.ReferenceIdeal.RefTerm Idealize.ShloMosaic Idealize.ShloMosaic.ValueIdx Cert.SO2

/-! ## The radial product `edge_fc · fc_w` read at an entry -/

/-- The left operand's row coordinate is the result's row. -/
theorem lhs_v142_0 (i : S160000x160.Idx) (q : dot_S160000x64_S64x160_S160000x160_1_0_0_1_n_n.contr.Idx) :
    (dot_S160000x64_S64x160_S160000x160_1_0_0_1_n_n.lhsIdx i q 0).val = (i 0).val := by
  unfold DotDims.lhsIdx
  rw [dif_neg (show ¬(0 : Fin S160000x64.rank) ∈ dot_S160000x64_S64x160_S160000x160_1_0_0_1_n_n.lhsBatch by decide),
    dif_pos (show (0 : Fin S160000x64.rank) ∈ dot_S160000x64_S64x160_S160000x160_1_0_0_1_n_n.lhsNonContracting by decide)]
  rfl
/-- The left operand's column coordinate is the summation index. -/
theorem lhs_v142_1 (i : S160000x160.Idx) (q : dot_S160000x64_S64x160_S160000x160_1_0_0_1_n_n.contr.Idx) :
    (dot_S160000x64_S64x160_S160000x160_1_0_0_1_n_n.lhsIdx i q 1).val = (q ⟨0, by decide⟩).val :=
  dot_S160000x64_S64x160_S160000x160_1_0_0_1_n_n.lhsIdx_val_of_single rfl i q
/-- The right operand's row coordinate is the summation index. -/
theorem rhs_v142_0 (i : S160000x160.Idx) (q : dot_S160000x64_S64x160_S160000x160_1_0_0_1_n_n.contr.Idx) :
    (dot_S160000x64_S64x160_S160000x160_1_0_0_1_n_n.rhsIdx i q 0).val = (q ⟨0, by decide⟩).val :=
  dot_S160000x64_S64x160_S160000x160_1_0_0_1_n_n.rhsIdx_val_of_single rfl i q
/-- The right operand's column coordinate is the result's column. -/
theorem rhs_v142_1 (i : S160000x160.Idx) (q : dot_S160000x64_S64x160_S160000x160_1_0_0_1_n_n.contr.Idx) :
    (dot_S160000x64_S64x160_S160000x160_1_0_0_1_n_n.rhsIdx i q 1).val = (i 1).val := by
  unfold DotDims.rhsIdx
  rw [dif_neg (show ¬(1 : Fin S64x160.rank) ∈ dot_S160000x64_S64x160_S160000x160_1_0_0_1_n_n.rhsBatch by decide),
    dif_pos (show (1 : Fin S64x160.rank) ∈ dot_S160000x64_S64x160_S160000x160_1_0_0_1_n_n.rhsNonContracting by decide)]
  rfl

/-- `(edge_fc · fc_w) (e, n) = ∑ k, edge_fc (e, k) * fc_w (k, n)`. -/
theorem t_v142_apply (a2 : (⟨S160000x64, .f32⟩ : BufTy).Contents (Elt Ideal)) (a14 : (⟨S64x160, .f32⟩ : BufTy).Contents (Elt Ideal))
    (e : Fin 160000) (n : Fin 160) :
    t_main_v142 (F := Ideal) a2 a14 (ix2 e n) = ∑ k : Fin 64, a2 (ix2 e k) * a14 (ix2 k n) := by
  unfold t_main_v142
  simp only [Host.dotGeneral]
  rw [Ideal.dotGeneral_apply, ← Equiv.sum_comp (contrEquiv1 dot_S160000x64_S64x160_S160000x160_1_0_0_1_n_n 64 rfl rfl).symm]
  refine Finset.sum_congr rfl fun k _ => ?_
  have hk := contrEquiv1_symm_val dot_S160000x64_S64x160_S160000x160_1_0_0_1_n_n 64 rfl rfl k
  have el : dot_S160000x64_S64x160_S160000x160_1_0_0_1_n_n.lhsIdx (ix2 e n)
      ((contrEquiv1 dot_S160000x64_S64x160_S160000x160_1_0_0_1_n_n 64 rfl rfl).symm k) = ix2 e k := funext fun a => Fin.ext (by
    match a with
    | ⟨0, _⟩ => exact lhs_v142_0 _ _
    | ⟨1, _⟩ => exact (lhs_v142_1 _ _).trans hk)
  have er : dot_S160000x64_S64x160_S160000x160_1_0_0_1_n_n.rhsIdx (ix2 e n)
      ((contrEquiv1 dot_S160000x64_S64x160_S160000x160_1_0_0_1_n_n 64 rfl rfl).symm k) = ix2 k n := funext fun a => Fin.ext (by
    match a with
    | ⟨0, _⟩ => exact (rhs_v142_0 _ _).trans hk
    | ⟨1, _⟩ => exact rhs_v142_1 _ _)
  rw [el, er]

/-! ## The bias, the sum, and the SiLU -/

/-- The bias broadcast over the edges reads the bias at the column. -/
theorem t_v144_apply (a15 : (⟨S160, .f32⟩ : BufTy).Contents (Elt Ideal)) (e : Fin 160000) (n : Fin 160) :
    t_main_v144 (F := Ideal) a15 (ix2 e n) = a15 (ix1 n) := by
  unfold t_main_v144 t_main_v143
  refine (broadcastInDim_apply _ _ _ (ix2 e n) (ix2 (0 : Fin 1) n) (fun a => ?_)).trans ?_
  · match a with
    | ⟨0, _⟩ => rfl
    | ⟨1, _⟩ => rfl
  · refine broadcastInDim_apply _ _ _ (ix2 (0 : Fin 1) n) (ix1 n) (fun a => ?_)
    match a with
    | ⟨0, _⟩ => rfl

/-- The radial network before its activation, at `(e, n)`. -/
theorem t_v145_apply (a2 : (⟨S160000x64, .f32⟩ : BufTy).Contents (Elt Ideal)) (a14 : (⟨S64x160, .f32⟩ : BufTy).Contents (Elt Ideal)) (a15 : (⟨S160, .f32⟩ : BufTy).Contents (Elt Ideal))
    (e : Fin 160000) (n : Fin 160) :
    t_main_v145 (F := Ideal) a2 a14 a15 (ix2 e n) = radial (fun k => a2 (ix2 e k)) (mat2 a14) (vec1 a15) n := by
  unfold t_main_v145
  rw [addf_apply, t_v142_apply, t_v144_apply]
  rfl

/-- The activation: `z * (1 / (1 + exp (-z)))` at every entry. -/
theorem t_v146_apply (a2 : (⟨S160000x64, .f32⟩ : BufTy).Contents (Elt Ideal)) (a14 : (⟨S64x160, .f32⟩ : BufTy).Contents (Elt Ideal)) (a15 : (⟨S160, .f32⟩ : BufTy).Contents (Elt Ideal))
    (i : S160000x160.Idx) :
    t_main_v146 (F := Ideal) a2 a14 a15 i = siluR (t_main_v145 (F := Ideal) a2 a14 a15 i) := by
  unfold t_main_v146 t_main_call0_v5 t_main_call0_v4 t_main_call0_v3 t_main_call0_v2 t_main_call0_v1 t_main_call0_v0
    t_main_call0_cst t_main_call0_cst_0 siluR
  show t_main_v145 (F := Ideal) a2 a14 a15 i * Ideal.div (Ideal.ofBits .f32 0x3F800000#32)
      (Ideal.ofBits .f32 0x3F800000#32 + Ideal.exp (-(t_main_v145 (F := Ideal) a2 a14 a15 i))) = _
  rw [Ideal.ofBits_one_f32]

/-- The reshape `[E, 160] → [E, 5, 32]`: entry `(e, l, c)` is entry `(e, l * 32 + c)`. -/
theorem t_v147_apply (a2 : (⟨S160000x64, .f32⟩ : BufTy).Contents (Elt Ideal)) (a14 : (⟨S64x160, .f32⟩ : BufTy).Contents (Elt Ideal)) (a15 : (⟨S160, .f32⟩ : BufTy).Contents (Elt Ideal))
    (e : Fin 160000) (l : Fin 5) (c : Fin 32) :
    t_main_v147 (F := Ideal) a2 a14 a15 (ix3 e l c)
      = t_main_v146 (F := Ideal) a2 a14 a15 (ix2 e (fcat 160 (by decide) l c)) := by
  unfold t_main_v147
  refine shapeCast_apply _ _ (ix3 e l c) (ix2 e (fcat 160 (by decide) l c)) ?_
  rw [Shape.rowMajor_val_two, Shape.rowMajor_val_three]
  show e.val * 160 + (l.val * 32 + c.val) = (e.val * 5 + l.val) * 32 + c.val
  ring

/-! ## The gather by degree -/

/-- The index array of the gather at `(j, 0)` is the literal table's entry `j`. -/
theorem t_v151_apply (j : Fin 25) : t_main_v151 (F := Ideal) (ix2 j (0 : Fin 1)) = lit7 j := by
  unfold t_main_v151
  refine (broadcastInDim_apply _ _ _ (ix2 j (0 : Fin 1)) (ix1 j) (fun a => ?_)).trans ?_
  · match a with
    | ⟨0, _⟩ => rfl
  · unfold t_main_v150 t_main_c_27 t_main_c_26
    rw [select_apply]
    show Scalar.select 0#1 _ (lit7 (S25.rowMajor (ix1 j))) = lit7 j
    rw [select_zero]
    exact congrArg lit7 (Fin.ext (Shape.rowMajor_val_one _))

/-- Each entry of the literal table, read signed and clamped into `[0, 4]`, is the degree of the coefficient. -/
theorem lit7_clamp : ∀ j : Fin 25, min (lit7 j).toInt.toNat (5 - 1) = (degR j).val := by
  decide

/-- The scale (the radial network, its SiLU, and the gather by degree of @main's %142 … %152), read at an entry. -/
theorem t_v152_apply (a2 : (⟨S160000x64, .f32⟩ : BufTy).Contents (Elt Ideal)) (a14 : (⟨S64x160, .f32⟩ : BufTy).Contents (Elt Ideal)) (a15 : (⟨S160, .f32⟩ : BufTy).Contents (Elt Ideal))
    (e : Fin 160000) (j : Fin 25) (c : Fin 32) :
    t_main_v152 (F := Ideal) a2 a14 a15 (ix3 e j c)
      = siluR (radial (fun k => a2 (ix2 e k)) (mat2 a14) (vec1 a15) (fcat 160 (by decide) (degR j) c)) := by
  unfold t_main_v152
  refine (Cert.SO2.LibIndex.gather_axis1_apply (by decide) gather_S160000x5x32_S25x1_S160000x25x32_02_1_n_n_1_1_160000132
    rfl rfl rfl rfl rfl rfl rfl (t_main_v147 (F := Ideal) a2 a14 a15) (t_main_v151 (F := Ideal)) e j c).trans ?_
  have hd : (⟨min (t_main_v151 (F := Ideal) (ix2 j (0 : Fin 1))).toInt.toNat (5 - 1), by omega⟩ : Fin 5) = degR j :=
    Fin.ext ((congrArg (fun w : BitVec 32 => min w.toInt.toNat (5 - 1)) (t_v151_apply j)).trans (lit7_clamp j))
  rw [hd, t_v147_apply, t_v146_apply, t_v145_apply]

/-! ## The rotation back: the batched product `'eji,ejc->eic'` read at an entry -/

/-- The left operand's edge coordinate is the result's. -/
theorem lhs_v154_0 (i : S160000x25x32.Idx) (q : dot_S160000x25x25_S160000x25x32_S160000x25x32_1_1_2_2_0_0.contr.Idx) :
    (dot_S160000x25x25_S160000x25x32_S160000x25x32_1_1_2_2_0_0.lhsIdx i q 0).val = (i 0).val := by
  unfold DotDims.lhsIdx
  rw [dif_pos (show (0 : Fin S160000x25x25.rank) ∈ dot_S160000x25x25_S160000x25x32_S160000x25x32_1_1_2_2_0_0.lhsBatch by decide)]
  rfl
/-- The left operand's middle coordinate is the summation index. -/
theorem lhs_v154_1 (i : S160000x25x32.Idx) (q : dot_S160000x25x25_S160000x25x32_S160000x25x32_1_1_2_2_0_0.contr.Idx) :
    (dot_S160000x25x25_S160000x25x32_S160000x25x32_1_1_2_2_0_0.lhsIdx i q 1).val = (q ⟨0, by decide⟩).val :=
  dot_S160000x25x25_S160000x25x32_S160000x25x32_1_1_2_2_0_0.lhsIdx_val_of_single rfl i q
/-- The left operand's last coordinate is the result's middle one. -/
theorem lhs_v154_2 (i : S160000x25x32.Idx) (q : dot_S160000x25x25_S160000x25x32_S160000x25x32_1_1_2_2_0_0.contr.Idx) :
    (dot_S160000x25x25_S160000x25x32_S160000x25x32_1_1_2_2_0_0.lhsIdx i q 2).val = (i 1).val := by
  unfold DotDims.lhsIdx
  rw [dif_neg (show ¬(2 : Fin S160000x25x25.rank) ∈ dot_S160000x25x25_S160000x25x32_S160000x25x32_1_1_2_2_0_0.lhsBatch by decide),
    dif_pos (show (2 : Fin S160000x25x25.rank) ∈ dot_S160000x25x25_S160000x25x32_S160000x25x32_1_1_2_2_0_0.lhsNonContracting by decide)]
  rfl
/-- The right operand's edge coordinate is the result's. -/
theorem rhs_v154_0 (i : S160000x25x32.Idx) (q : dot_S160000x25x25_S160000x25x32_S160000x25x32_1_1_2_2_0_0.contr.Idx) :
    (dot_S160000x25x25_S160000x25x32_S160000x25x32_1_1_2_2_0_0.rhsIdx i q 0).val = (i 0).val := by
  unfold DotDims.rhsIdx
  rw [dif_pos (show (0 : Fin S160000x25x32.rank) ∈ dot_S160000x25x25_S160000x25x32_S160000x25x32_1_1_2_2_0_0.rhsBatch by decide)]
  rfl
/-- The right operand's middle coordinate is the summation index. -/
theorem rhs_v154_1 (i : S160000x25x32.Idx) (q : dot_S160000x25x25_S160000x25x32_S160000x25x32_1_1_2_2_0_0.contr.Idx) :
    (dot_S160000x25x25_S160000x25x32_S160000x25x32_1_1_2_2_0_0.rhsIdx i q 1).val = (q ⟨0, by decide⟩).val :=
  dot_S160000x25x25_S160000x25x32_S160000x25x32_1_1_2_2_0_0.rhsIdx_val_of_single rfl i q
/-- The right operand's last coordinate is the result's last one. -/
theorem rhs_v154_2 (i : S160000x25x32.Idx) (q : dot_S160000x25x25_S160000x25x32_S160000x25x32_1_1_2_2_0_0.contr.Idx) :
    (dot_S160000x25x25_S160000x25x32_S160000x25x32_1_1_2_2_0_0.rhsIdx i q 2).val = (i 2).val := by
  unfold DotDims.rhsIdx
  rw [dif_neg (show ¬(2 : Fin S160000x25x32.rank) ∈ dot_S160000x25x25_S160000x25x32_S160000x25x32_1_1_2_2_0_0.rhsBatch by decide),
    dif_pos (show (2 : Fin S160000x25x32.rank) ∈ dot_S160000x25x25_S160000x25x32_S160000x25x32_1_1_2_2_0_0.rhsNonContracting by decide)]
  rfl

/-- `out (e, i, c) = ∑ k, wigner (e, k, i) * y (e, k, c)`: the rotation back by the transpose. -/
theorem dot_v154_apply (l : FVec Ideal S160000x25x25 .f32) (r : FVec Ideal S160000x25x32 .f32)
    (e : Fin 160000) (i : Fin 25) (c : Fin 32) :
    Host.dotGeneral (F := Ideal) (φ₁ := .f32) (φ₂ := .f32) dot_S160000x25x25_S160000x25x32_S160000x25x32_1_1_2_2_0_0 none l r (ix3 e i c) = ∑ k : Fin 25, l (ix3 e k i) * r (ix3 e k c) := by
  simp only [Host.dotGeneral]
  rw [Ideal.dotGeneral_apply, ← Equiv.sum_comp (contrEquiv1 dot_S160000x25x25_S160000x25x32_S160000x25x32_1_1_2_2_0_0 25 rfl rfl).symm]
  refine Finset.sum_congr rfl fun k _ => ?_
  have hk := contrEquiv1_symm_val dot_S160000x25x25_S160000x25x32_S160000x25x32_1_1_2_2_0_0 25 rfl rfl k
  have el : dot_S160000x25x25_S160000x25x32_S160000x25x32_1_1_2_2_0_0.lhsIdx (ix3 e i c) ((contrEquiv1 dot_S160000x25x25_S160000x25x32_S160000x25x32_1_1_2_2_0_0 25 rfl rfl).symm k) = ix3 e k i := funext fun a => Fin.ext (by
    match a with
    | ⟨0, _⟩ => exact lhs_v154_0 _ _
    | ⟨1, _⟩ => exact (lhs_v154_1 _ _).trans hk
    | ⟨2, _⟩ => exact lhs_v154_2 _ _)
  have er : dot_S160000x25x25_S160000x25x32_S160000x25x32_1_1_2_2_0_0.rhsIdx (ix3 e i c) ((contrEquiv1 dot_S160000x25x25_S160000x25x32_S160000x25x32_1_1_2_2_0_0 25 rfl rfl).symm k) = ix3 e k c := funext fun a => Fin.ext (by
    match a with
    | ⟨0, _⟩ => exact rhs_v154_0 _ _
    | ⟨1, _⟩ => exact (rhs_v154_1 _ _).trans hk
    | ⟨2, _⟩ => exact rhs_v154_2 _ _)
  rw [el, er]

/-- Every edge's message, as the reference computes it, is `msgR`. -/
theorem t_v154_eq (a0 : (⟨S10000x25x32, .f32⟩ : BufTy).Contents (Elt Ideal)) (a1 : (⟨S160000x25x25, .f32⟩ : BufTy).Contents (Elt Ideal)) (a2 : (⟨S160000x64, .f32⟩ : BufTy).Contents (Elt Ideal)) (a3 : (⟨S160000, .i32⟩ : BufTy).Contents (Elt Ideal))
    (a5 : (⟨S160x160, .f32⟩ : BufTy).Contents (Elt Ideal)) (a6 : (⟨S128x128, .f32⟩ : BufTy).Contents (Elt Ideal)) (a7 : (⟨S128x128, .f32⟩ : BufTy).Contents (Elt Ideal)) (a8 : (⟨S96x96, .f32⟩ : BufTy).Contents (Elt Ideal)) (a9 : (⟨S96x96, .f32⟩ : BufTy).Contents (Elt Ideal))
    (a10 : (⟨S64x64, .f32⟩ : BufTy).Contents (Elt Ideal)) (a11 : (⟨S64x64, .f32⟩ : BufTy).Contents (Elt Ideal)) (a12 : (⟨S32x32, .f32⟩ : BufTy).Contents (Elt Ideal)) (a13 : (⟨S32x32, .f32⟩ : BufTy).Contents (Elt Ideal))
    (a14 : (⟨S64x160, .f32⟩ : BufTy).Contents (Elt Ideal)) (a15 : (⟨S160, .f32⟩ : BufTy).Contents (Elt Ideal)) :
    t_main_v154 (F := Ideal) a0 a1 a2 a3 a5 a6 a7 a8 a9 a10 a11 a12 a13 a14 a15
      = msgR (xeOf gather_S10000x25x32_S160000x1_S160000x25x32_12_0_n_n_0_1_12532 bcast_S_S160000 bcast_S160000_S160000x1_0 a0 a3) a1 a2 (mat2 a5) (mat2 a6) (mat2 a7) (mat2 a8) (mat2 a9) (mat2 a10) (mat2 a11) (mat2 a12) (mat2 a13) (mat2 a14) (vec1 a15) := by
  funext j
  obtain ⟨e, i, c, rfl⟩ : ∃ (e : Fin 160000) (i : Fin 25) (c : Fin 32), j = ix3 e i c := ⟨j 0, j 1, j 2, eq_ix3 j⟩
  unfold t_main_v154
  refine (dot_v154_apply a1 (t_main_v153 (F := Ideal) a0 a1 a2 a3 a5 a6 a7 a8 a9 a10 a11 a12 a13 a14 a15) e i c).trans ?_
  unfold msgR edgeR
  refine Finset.sum_congr rfl fun k _ => ?_
  refine congrArg (fun y : EReal => a1 (ix3 e k i) * y) ?_
  unfold t_main_v153
  rw [mulf_apply, t_v141_apply, t_v152_apply]
  have hrot : (fun a b => t_main_v7 (F := Ideal) a0 a1 a3 (ix3 e a b))
      = rot (fun a b => a1 (ix3 e a b)) (fun a b => (xeOf gather_S10000x25x32_S160000x1_S160000x25x32_12_0_n_n_0_1_12532 bcast_S_S160000 bcast_S160000_S160000x1_0 a0 a3) (ix3 e a b)) :=
    funext fun a => funext fun b => t_v7_apply a0 a1 a3 e a b
  rw [hrot]

/-- The reference's result: the messages as the reference spells them, summed at their destination nodes. -/
theorem t_v157_eq (a0 : (⟨S10000x25x32, .f32⟩ : BufTy).Contents (Elt Ideal)) (a1 : (⟨S160000x25x25, .f32⟩ : BufTy).Contents (Elt Ideal)) (a2 : (⟨S160000x64, .f32⟩ : BufTy).Contents (Elt Ideal)) (a3 : (⟨S160000, .i32⟩ : BufTy).Contents (Elt Ideal)) (a4 : (⟨S160000, .i32⟩ : BufTy).Contents (Elt Ideal))
    (a5 : (⟨S160x160, .f32⟩ : BufTy).Contents (Elt Ideal)) (a6 : (⟨S128x128, .f32⟩ : BufTy).Contents (Elt Ideal)) (a7 : (⟨S128x128, .f32⟩ : BufTy).Contents (Elt Ideal)) (a8 : (⟨S96x96, .f32⟩ : BufTy).Contents (Elt Ideal)) (a9 : (⟨S96x96, .f32⟩ : BufTy).Contents (Elt Ideal))
    (a10 : (⟨S64x64, .f32⟩ : BufTy).Contents (Elt Ideal)) (a11 : (⟨S64x64, .f32⟩ : BufTy).Contents (Elt Ideal)) (a12 : (⟨S32x32, .f32⟩ : BufTy).Contents (Elt Ideal)) (a13 : (⟨S32x32, .f32⟩ : BufTy).Contents (Elt Ideal))
    (a14 : (⟨S64x160, .f32⟩ : BufTy).Contents (Elt Ideal)) (a15 : (⟨S160, .f32⟩ : BufTy).Contents (Elt Ideal)) :
    t_main_v157 (F := Ideal) a0 a1 a2 a3 a4 a5 a6 a7 a8 a9 a10 a11 a12 a13 a14 a15
      = finalOf scatter_S10000x25x32_S160000x1_S160000x25x32_12_0_0_1 bcast_S_S10000x25x32 bcast_S160000_S160000x1_0 a4
          (msgR (xeOf gather_S10000x25x32_S160000x1_S160000x25x32_12_0_n_n_0_1_12532 bcast_S_S160000 bcast_S160000_S160000x1_0 a0 a3) a1 a2 (mat2 a5) (mat2 a6) (mat2 a7) (mat2 a8) (mat2 a9) (mat2 a10) (mat2 a11) (mat2 a12) (mat2 a13) (mat2 a14) (vec1 a15)) := by
  rw [← t_v154_eq]
  rfl

end Cert.ReferenceIdeal.RefRead

end
-- ==== Proof.lean ====
/-
  The kernel rotates each edge's gathered node features into the edge's frame by the edge's Wigner matrix, mixes the
  coefficients of each order by the SO(2) weights, scales each coefficient by a radial network of the edge's features,
  rotates back by the transpose, and the messages are summed at their destination nodes. Kernel and reference share the
  gather at the start and the sum at the end; between them they compute every edge's message by two spellings of one
  function (Proof/Spec.lean: `edgeK`, `edgeR`), equal when every input entry is a real number (Proof/Edge.lean).

  * The kernel's side: the generated frame run's output array is `msgK` of the arguments (Proof/KValue.lean, over the
    body's block read entry by entry, Proof/KBody.lean, and the arrays the host operations before the region leave,
    Proof/KPrefix.lean), and the host operations after the region sum it at the destinations.
  * The reference's side: @main is the list of its host operations (Proof/RefOps.lean), its run leaves every buffer at
    the operations' fold (Proof/RefRun.lean), and the result's term read entry by entry is `msgR` of the arguments summed
    at the destinations (Proof/RefReadMix.lean, Proof/RefReadTail.lean, over the gathers and scatters along the
    coefficient axis read at an index: Proof/LibGather.lean, Proof/LibScatter.lean).
  * The precondition gives that every float entry is real (Proof/Finite.lean): the kernel's rotation back is a sum of
    three products, two of them with a factor `a - a`, which is zero only for a real `a`; and the reference's
    `xp · Wr - xn · Wi` is the kernel's product with the block `[[Wr, Wi], [-Wi, Wr]]` only where a sum's negation is the
    sum of the negations.
  * `preserves`: the two ledger entries are the identity of `extf ∘ truncf` at the ideal instance.
-/
import proofs.«415867_j71554155151872_2_alg».proof.Defs
import proofs.«415867_j71554155151872_2_alg».proof.Proof.Gen.Kernel
import proofs.«415867_j71554155151872_2_alg».proof.Proof.Gen.Kernel.Skeleton
import proofs.«415867_j71554155151872_2_alg».proof.Proof.Gen.Kernel.Launch
import proofs.«415867_j71554155151872_2_alg».proof.Proof.Gen.Kernel.Points
import proofs.«415867_j71554155151872_2_alg».proof.Proof.Gen.Kernel.Frame
import proofs.«415867_j71554155151872_2_alg».proof.Proof.Gen.KernelIdeal
import proofs.«415867_j71554155151872_2_alg».proof.Proof.Gen.KernelIdeal.Skeleton
import proofs.«415867_j71554155151872_2_alg».proof.Proof.Gen.KernelIdeal.Launch
import proofs.«415867_j71554155151872_2_alg».proof.Proof.Gen.KernelIdeal.Points
import proofs.«415867_j71554155151872_2_alg».proof.Proof.Gen.KernelIdeal.Frame
import proofs.«415867_j71554155151872_2_alg».proof.Proof.Gen.ReferenceIdeal
import proofs.«415867_j71554155151872_2_alg».proof.Proof.Gen.Pre_finite_inputs
import proofs.«415867_j71554155151872_2_alg».proof.Proof.Spec
import proofs.«415867_j71554155151872_2_alg».proof.Proof.Edge
import proofs.«415867_j71554155151872_2_alg».proof.Proof.Finite
import proofs.«415867_j71554155151872_2_alg».proof.Proof.KValue
import proofs.«415867_j71554155151872_2_alg».proof.Proof.RefRun
import proofs.«415867_j71554155151872_2_alg».proof.Proof.RefReadTail
import Idealize.ShloMosaic.Adequacy
import Idealize.ShloMosaic.Init

noncomputable section

namespace Cert.Proof

open Idealize.ShloMosaic Idealize.SL.Sem Idealize.ShloMosaic.ValueIdx Cert.SO2

/-- The two spellings of the whole result agree on real inputs: the gathers and the final sums are one operation (their
    dimension numbers equal), and between them every edge's message is `edgeK` on one side and `edgeR` on the other. -/
theorem bridge (gdK gdR : GatherDims SN SEx1 SEX) (hgd : gdR = gdK) (sdK sdR : ScatterDims SN SEx1 SEX) (hsd : sdR = sdK)
    (hb hb' : S0.BroadcastsInDim SE (![] : Fin 0 → Fin SE.rank)) (hb1 hb1' hb2 hb2' : SE.BroadcastsInDim SEx1 (![0] : Fin 1 → Fin SEx1.rank))
    (hb0 hb0' : S0.BroadcastsInDim SN (![] : Fin 0 → Fin SN.rank))
    (a0 : (SN : Shape).Idx → EReal) (a1 : (SEW : Shape).Idx → EReal) (a2 : (SEF : Shape).Idx → EReal) (a3 : (SE : Shape).Idx → BitVec 32) (a4 : (SE : Shape).Idx → BitVec 32) (a5 : (⟨2, ![160, 160]⟩ : Shape).Idx → EReal) (a6 : (⟨2, ![128, 128]⟩ : Shape).Idx → EReal) (a7 : (⟨2, ![128, 128]⟩ : Shape).Idx → EReal) (a8 : (⟨2, ![96, 96]⟩ : Shape).Idx → EReal) (a9 : (⟨2, ![96, 96]⟩ : Shape).Idx → EReal) (a10 : (⟨2, ![64, 64]⟩ : Shape).Idx → EReal) (a11 : (⟨2, ![64, 64]⟩ : Shape).Idx → EReal) (a12 : (⟨2, ![32, 32]⟩ : Shape).Idx → EReal) (a13 : (⟨2, ![32, 32]⟩ : Shape).Idx → EReal) (a14 : (⟨2, ![64, 160]⟩ : Shape).Idx → EReal) (a15 : (⟨1, ![160]⟩ : Shape).Idx → EReal)
    (r0 : ∀ i, IsReal (a0 i)) (r1 : ∀ i, IsReal (a1 i)) (r2 : ∀ i, IsReal (a2 i)) (r5 : ∀ i, IsReal (a5 i)) (r6 : ∀ i, IsReal (a6 i)) (r7 : ∀ i, IsReal (a7 i)) (r8 : ∀ i, IsReal (a8 i)) (r9 : ∀ i, IsReal (a9 i)) (r10 : ∀ i, IsReal (a10 i)) (r11 : ∀ i, IsReal (a11 i)) (r12 : ∀ i, IsReal (a12 i)) (r13 : ∀ i, IsReal (a13 i)) (r14 : ∀ i, IsReal (a14 i)) (r15 : ∀ i, IsReal (a15 i)) :
    finalOf sdR hb0 hb2 a4 (msgR (xeOf gdR hb hb1 a0 a3) a1 a2 (mat2 a5) (mat2 a6) (mat2 a7) (mat2 a8) (mat2 a9) (mat2 a10) (mat2 a11)
        (mat2 a12) (mat2 a13) (mat2 a14) (vec1 a15))
      = finalOf sdK hb0' hb2' a4 (msgK (xeOf gdK hb' hb1' a0 a3) a1 a2
          (wbigOf (mat2 a5) (mat2 a6) (mat2 a7) (mat2 a8) (mat2 a9) (mat2 a10) (mat2 a11) (mat2 a12) (mat2 a13)) (mat2 a14) (vec1 a15)) := by
  subst hgd hsd
  have hx : ∀ j, IsReal (xeOf gdR hb hb1 a0 a3 j) := fun j => by unfold xeOf Host.gather; exact r0 _
  have hmsg : msgR (xeOf gdR hb hb1 a0 a3) a1 a2 (mat2 a5) (mat2 a6) (mat2 a7) (mat2 a8) (mat2 a9) (mat2 a10) (mat2 a11)
        (mat2 a12) (mat2 a13) (mat2 a14) (vec1 a15)
      = msgK (xeOf gdR hb' hb1' a0 a3) a1 a2
          (wbigOf (mat2 a5) (mat2 a6) (mat2 a7) (mat2 a8) (mat2 a9) (mat2 a10) (mat2 a11) (mat2 a12) (mat2 a13)) (mat2 a14) (vec1 a15) := by
    funext j
    unfold msgR msgK
    exact (edge_eq _ _ _ _ _ _ _ _ _ _ _ _ _ _ (fun a b => r1 _) (fun a b => hx _) (fun k => r2 _)
      (fun a b => r5 _) (fun a b => r6 _) (fun a b => r7 _) (fun a b => r8 _) (fun a b => r9 _) (fun a b => r10 _)
      (fun a b => r11 _) (fun a b => r12 _) (fun a b => r13 _) (fun a b => r14 _) (fun n => r15 _) _ _).symm
  rw [hmsg]

theorem frame_k : Cert.frame_Kernel := fun m ρ _ => Cert.Kernel.Gen.frame m ρ

theorem frame_ki : Cert.frame_KernelIdeal := fun m ρ _ => Cert.KernelIdeal.Gen.frame m ρ

/-- The reference writes none of its arguments: its run leaves each at the launch contents. -/
theorem frame_ri : Cert.frame_ReferenceIdeal := fun m' ρ' _ =>
  (θ_run Cert.ReferenceIdeal.defs _ _).mono (fun r h c => by
    obtain ⟨h0, h1, h2, h3, h4, h5, h6, h7, h8, h9, h10, h11, h12, h13, h14, h15⟩ := Cert.ReferenceIdeal.RefRun.arg_eq (F := Ideal) (StableHlo.launchContents m' c)
    exact ⟨(h c Cert.ReferenceIdeal.main_arg0).trans h0, (h c Cert.ReferenceIdeal.main_arg1).trans h1, (h c Cert.ReferenceIdeal.main_arg2).trans h2, (h c Cert.ReferenceIdeal.main_arg3).trans h3, (h c Cert.ReferenceIdeal.main_arg4).trans h4, (h c Cert.ReferenceIdeal.main_arg5).trans h5, (h c Cert.ReferenceIdeal.main_arg6).trans h6, (h c Cert.ReferenceIdeal.main_arg7).trans h7, (h c Cert.ReferenceIdeal.main_arg8).trans h8, (h c Cert.ReferenceIdeal.main_arg9).trans h9, (h c Cert.ReferenceIdeal.main_arg10).trans h10, (h c Cert.ReferenceIdeal.main_arg11).trans h11, (h c Cert.ReferenceIdeal.main_arg12).trans h12, (h c Cert.ReferenceIdeal.main_arg13).trans h13, (h c Cert.ReferenceIdeal.main_arg14).trans h14, (h c Cert.ReferenceIdeal.main_arg15).trans h15⟩)
    (Cert.ReferenceIdeal.RefRun.run_main (F := Ideal) m' ρ')

/-- The ledger's two entries: widening back what was narrowed is the identity at the ideal instance. -/
theorem preserves : Cert.preserves_Kernel_KernelIdeal :=
  ⟨IdealRules.truncf_extf.statement _ .f32 .bf16, IdealRules.truncf_extf.statement _ .f32 .bf16⟩

/-- From memories that agree on the arguments, under the precondition, both programs end with the messages summed at the
    destination nodes: the kernel's by its frame run read back, the reference's by its operations' fold read back, the two
    equal by `bridge`. -/
theorem algebraic : Cert.algebraic_KernelIdeal_ReferenceIdeal := by
  intro m ρ m' ρ' hpre hagree
  refine ⟨_, Cert.KernelIdeal.KValue.kernel_run m ρ, ?_⟩
  refine (θ_run Cert.ReferenceIdeal.defs _ _).mono (fun r h c => ?_) (Cert.ReferenceIdeal.RefRun.run_main (F := Ideal) m' ρ')
  obtain ⟨h0, h1, h2, h3, h4, h5, h6, h7, h8, h9, h10, h11, h12, h13, h14, h15⟩ := Cert.ReferenceIdeal.RefRun.arg_eq (F := Ideal) (StableHlo.launchContents m' c)
  obtain ⟨e0, e1, e2, e3, e4, e5, e6, e7, e8, e9, e10, e11, e12, e13, e14, e15⟩ := hagree c
  obtain ⟨r0, r1, r2, r5, r6, r7, r8, r9, r10, r11, r12, r13, r14, r15⟩ := Cert.Finite.isReal_of_pre m hpre c
  refine ⟨?_, (h c Cert.ReferenceIdeal.main_arg0).trans h0, (h c Cert.ReferenceIdeal.main_arg1).trans h1, (h c Cert.ReferenceIdeal.main_arg2).trans h2, (h c Cert.ReferenceIdeal.main_arg3).trans h3, (h c Cert.ReferenceIdeal.main_arg4).trans h4, (h c Cert.ReferenceIdeal.main_arg5).trans h5, (h c Cert.ReferenceIdeal.main_arg6).trans h6, (h c Cert.ReferenceIdeal.main_arg7).trans h7, (h c Cert.ReferenceIdeal.main_arg8).trans h8, (h c Cert.ReferenceIdeal.main_arg9).trans h9, (h c Cert.ReferenceIdeal.main_arg10).trans h10, (h c Cert.ReferenceIdeal.main_arg11).trans h11, (h c Cert.ReferenceIdeal.main_arg12).trans h12, (h c Cert.ReferenceIdeal.main_arg13).trans h13, (h c Cert.ReferenceIdeal.main_arg14).trans h14, (h c Cert.ReferenceIdeal.main_arg15).trans h15⟩
  rw [h c Cert.ReferenceIdeal.main_v157, Cert.ReferenceIdeal.RefRun.out_eq, Cert.ReferenceIdeal.RefRead.t_v157_eq]
  show finalOf _ _ _ (m' ((c.tc : Thread Cert.ReferenceIdeal.nD Cert.ReferenceIdeal.τ).loc Cert.ReferenceIdeal.main_arg4)) (msgR (xeOf _ _ _ (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
    (mat2 (m' ((c.tc : Thread Cert.ReferenceIdeal.nD Cert.ReferenceIdeal.τ).loc Cert.ReferenceIdeal.main_arg5))) (mat2 (m' ((c.tc : Thread Cert.ReferenceIdeal.nD Cert.ReferenceIdeal.τ).loc Cert.ReferenceIdeal.main_arg6))) (mat2 (m' ((c.tc : Thread Cert.ReferenceIdeal.nD Cert.ReferenceIdeal.τ).loc Cert.ReferenceIdeal.main_arg7))) (mat2 (m' ((c.tc : Thread Cert.ReferenceIdeal.nD Cert.ReferenceIdeal.τ).loc Cert.ReferenceIdeal.main_arg8))) (mat2 (m' ((c.tc : Thread Cert.ReferenceIdeal.nD Cert.ReferenceIdeal.τ).loc Cert.ReferenceIdeal.main_arg9))) (mat2 (m' ((c.tc : Thread Cert.ReferenceIdeal.nD Cert.ReferenceIdeal.τ).loc Cert.ReferenceIdeal.main_arg10))) (mat2 (m' ((c.tc : Thread Cert.ReferenceIdeal.nD Cert.ReferenceIdeal.τ).loc Cert.ReferenceIdeal.main_arg11))) (mat2 (m' ((c.tc : Thread Cert.ReferenceIdeal.nD Cert.ReferenceIdeal.τ).loc Cert.ReferenceIdeal.main_arg12))) (mat2 (m' ((c.tc : Thread Cert.ReferenceIdeal.nD Cert.ReferenceIdeal.τ).loc Cert.ReferenceIdeal.main_arg13))) (mat2 (m' ((c.tc : Thread Cert.ReferenceIdeal.nD Cert.ReferenceIdeal.τ).loc Cert.ReferenceIdeal.main_arg14))) (vec1 (m' ((c.tc : Thread Cert.ReferenceIdeal.nD Cert.ReferenceIdeal.τ).loc Cert.ReferenceIdeal.main_arg15)))) = _
  rw [e0, e1, e2, e3, e4, e5, e6, e7, e8, e9, e10, e11, e12, e13, e14, e15]
  exact bridge _ _ rfl _ _ rfl _ _ _ _ _ _ _ _ _ _ _ _ _ _ _ _ _ _ _ _ _ _ _ _ r0 r1 r2 r5 r6 r7 r8 r9 r10 r11 r12 r13 r14 r15

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
